-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S4x512x64 : Shape := ⟨3, ![4, 512, 64]⟩
abbrev S4x128x1 : Shape := ⟨3, ![4, 128, 1]⟩
abbrev S4 : Shape := ⟨1, ![4]⟩
abbrev S256x16 : Shape := ⟨2, ![256, 16]⟩
abbrev S32x1 : Shape := ⟨2, ![32, 1]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4x512x64 : S_.BroadcastsInDim S4x512x64 (![] : Fin 0 → Fin S4x512x64.rank)
  reducesTo_S4x512x64_S_d0_1_2 : S4x512x64.ReducesTo [0, 1, 2] S_
  bcast_S_S4x128x1 : S_.BroadcastsInDim S4x128x1 (![] : Fin 0 → Fin S4x128x1.rank)
  reducesTo_S4x128x1_S_d0_1_2 : S4x128x1.ReducesTo [0, 1, 2] S_
  bcast_S_S4 : S_.BroadcastsInDim S4 (![] : Fin 0 → Fin S4.rank)
  reducesTo_S4_S_d0 : S4.ReducesTo [0] S_
  bcast_S_S256x16 : S_.BroadcastsInDim S256x16 (![] : Fin 0 → Fin S256x16.rank)
  reducesTo_S256x16_S_d0_1 : S256x16.ReducesTo [0, 1] S_
  bcast_S_S32x1 : S_.BroadcastsInDim S32x1 (![] : Fin 0 → Fin S32x1.rank)
  reducesTo_S32x1_S_d0_1 : S32x1.ReducesTo [0, 1] S_
  reducesTo_S_S_d : S_.ReducesTo [] S_

variable [Facts]

def fn_part2 {F : FTy → Type} [FloatOps F] (main_arg8 : FVec F S32x1 .f32) (main_arg9 : FVec F S_ .f32) (main_arg10 : FVec F S_ .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S_ .f32 := Host.absf main_arg9
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  let main_v43 : FVec F S_ .f32 := Host.absf main_arg10
  let main_cst_16 : FVec F S_ .f32 := constant S_ .f32 0x7F800000#32
  let main_v44 : IVec S_ 1 := cmpf .olt main_v43 main_cst_16
  let main_c_17 : IVec S_ 1 := constantI S_ 1 1#1
  let main_v45 : IVec S_ 1 := (fun x v => Host.reduce IntOp.andi x v reducesTo_S_S_d h_S_) main_v44 main_c_17
  let main_v46 : IVec S_ 1 := andi main_v42 main_v45
  main_v46

def fn_part1 {F : FTy → Type} [FloatOps F] (main_arg5 : FVec F S4 .f32) (main_arg6 : FVec F S4 .f32) (main_arg7 : FVec F S256x16 .f32) (main_arg8 : FVec F S32x1 .f32) (main_arg9 : FVec F S_ .f32) (main_arg10 : FVec F S_ .f32) (main_v13 : IVec S_ 1) (main_v16 : IVec S4x128x1 1) : IVec S_ 1 :=
  let main_c_5 : IVec S_ 1 := constantI S_ 1 1#1
  let main_v17 : IVec S_ 1 := (fun x v => Host.reduce IntOp.andi x v reducesTo_S4x128x1_S_d0_1_2 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S256x16 .f32 := Host.absf main_arg7
  let main_cst_10 : FVec F S_ .f32 := constant S_ .f32 0x7F800000#32
  let main_v30 : FVec F S256x16 .f32 := broadcastInDim S256x16 ![] bcast_S_S256x16 main_cst_10
  let main_v31 : IVec S256x16 1 := cmpf .olt main_v29 main_v30
  let main_c_11 : IVec S_ 1 := constantI S_ 1 1#1
  let main_v32 : IVec S_ 1 := (fun x v => Host.reduce IntOp.andi x v reducesTo_S256x16_S_d0_1 h_S_) main_v31 main_c_11
  let main_v33 : IVec S_ 1 := andi main_v28 main_v32
  fn_part2 (F := F) main_arg8 main_arg9 main_arg10 main_v33

def fn {F : FTy → Type} [FloatOps F] (main_arg0 : FVec F S4096x512 .f32) (main_arg1 : IVec S4096x4096 32) (main_arg2 : FVec F S4096x4096 .f32) (main_arg3 : FVec F S4x512x64 .f32) (main_arg4 : FVec F S4x128x1 .f32) (main_arg5 : FVec F S4 .f32) (main_arg6 : FVec F S4 .f32) (main_arg7 : FVec F S256x16 .f32) (main_arg8 : FVec F S32x1 .f32) (main_arg9 : FVec F S_ .f32) (main_arg10 : FVec F S_ .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4x512x64 .f32 := Host.absf main_arg3
  let main_cst_2 : FVec F S_ .f32 := constant S_ .f32 0x7F800000#32
  let main_v10 : FVec F S4x512x64 .f32 := broadcastInDim S4x512x64 ![] bcast_S_S4x512x64 main_cst_2
  let main_v11 : IVec S4x512x64 1 := cmpf .olt main_v9 main_v10
  let main_c_3 : IVec S_ 1 := constantI S_ 1 1#1
  let main_v12 : IVec S_ 1 := (fun x v => Host.reduce IntOp.andi x v reducesTo_S4x512x64_S_d0_1_2 h_S_) main_v11 main_c_3
  let main_v13 : IVec S_ 1 := andi main_v8 main_v12
  let main_v14 : FVec F S4x128x1 .f32 := Host.absf main_arg4
  let main_cst_4 : FVec F S_ .f32 := constant S_ .f32 0x7F800000#32
  let main_v15 : FVec F S4x128x1 .f32 := broadcastInDim S4x128x1 ![] bcast_S_S4x128x1 main_cst_4
  let main_v16 : IVec S4x128x1 1 := cmpf .olt main_v14 main_v15
  fn_part1 (F := F) main_arg5 main_arg6 main_arg7 main_arg8 main_arg9 main_arg10 main_v13 main_v16
-- ==== Kernel.lean ====
abbrev S4096x512 : Shape := ⟨2, ![4096, 512]⟩
abbrev S4096x4096 : Shape := ⟨2, ![4096, 4096]⟩
abbrev S4x512x64 : Shape := ⟨3, ![4, 512, 64]⟩
abbrev S4x128x1 : Shape := ⟨3, ![4, 128, 1]⟩
abbrev S4 : Shape := ⟨1, ![4]⟩
abbrev S256x16 : Shape := ⟨2, ![256, 16]⟩
abbrev S32x1 : Shape := ⟨2, ![32, 1]⟩
abbrev S_ : Shape := ⟨0, ![]⟩
abbrev S512x4x64 : Shape := ⟨3, ![512, 4, 64]⟩
abbrev S512x256 : Shape := ⟨2, ![512, 256]⟩
abbrev S1x4 : Shape := ⟨2, ![1, 4]⟩
abbrev S4x64x1 : Shape := ⟨3, ![4, 64, 1]⟩
abbrev S4x64 : Shape := ⟨2, ![4, 64]⟩
abbrev S4x1 : Shape := ⟨2, ![4, 1]⟩
abbrev S4x4 : Shape := ⟨2, ![4, 4]⟩
abbrev S4x1x4 : Shape := ⟨3, ![4, 1, 4]⟩
abbrev S4x64x4 : Shape := ⟨3, ![4, 64, 4]⟩
abbrev S256x4 : Shape := ⟨2, ![256, 4]⟩
abbrev S16x1 : Shape := ⟨2, ![16, 1]⟩
abbrev S1x1 : Shape := ⟨2, ![1, 1]⟩
abbrev S4096x256 : Shape := ⟨2, ![4096, 256]⟩
abbrev S4096x4 : Shape := ⟨2, ![4096, 4]⟩
abbrev S4x4096 : Shape := ⟨2, ![4, 4096]⟩
abbrev S512x512 : Shape := ⟨2, ![512, 512]⟩
abbrev S512x4 : Shape := ⟨2, ![512, 4]⟩
abbrev S4x512 : Shape := ⟨2, ![4, 512]⟩
abbrev S256x4096 : Shape := ⟨2, ![256, 4096]⟩
abbrev S256x256 : Shape := ⟨2, ![256, 256]⟩
abbrev S256x1 : Shape := ⟨2, ![256, 1]⟩
abbrev S1x4096 : Shape := ⟨2, ![1, 4096]⟩
abbrev S256 : Shape := ⟨1, ![256]⟩
abbrev S4096x64 : Shape := ⟨2, ![4096, 64]⟩
abbrev S256x64 : Shape := ⟨2, ![256, 64]⟩
abbrev S4096x16 : Shape := ⟨2, ![4096, 16]⟩
abbrev S4096x1 : Shape := ⟨2, ![4096, 1]⟩
abbrev S512x16 : Shape := ⟨2, ![512, 16]⟩
abbrev S512x1 : Shape := ⟨2, ![512, 1]⟩
abbrev S1x512 : Shape := ⟨2, ![1, 512]⟩

abbrev nBuf : Space → Nat
  | .hbm => 62
  | .vmem => 44
  | .smem => 0
  | _ => 0

abbrev bufTy : (tb : Table) → Fin (tcTables nBuf tb) → BufTy
  | .hbm, ⟨0, _⟩ => ⟨S4096x512, .f32⟩
  | .hbm, ⟨1, _⟩ => ⟨S4096x4096, .i32⟩
  | .hbm, ⟨2, _⟩ => ⟨S4096x4096, .f32⟩
  | .hbm, ⟨3, _⟩ => ⟨S4x512x64, .f32⟩
  | .hbm, ⟨4, _⟩ => ⟨S4x128x1, .f32⟩
  | .hbm, ⟨5, _⟩ => ⟨S4, .f32⟩
  | .hbm, ⟨6, _⟩ => ⟨S4, .f32⟩
  | .hbm, ⟨7, _⟩ => ⟨S256x16, .f32⟩
  | .hbm, ⟨8, _⟩ => ⟨S32x1, .f32⟩
  | .hbm, ⟨9, _⟩ => ⟨S_, .f32⟩
  | .hbm, ⟨10, _⟩ => ⟨S_, .f32⟩
  | .hbm, ⟨11, _⟩ => ⟨S512x4x64, .f32⟩
  | .hbm, ⟨12, _⟩ => ⟨S512x256, .f32⟩
  | .hbm, ⟨13, _⟩ => ⟨S4, .f32⟩
  | .hbm, ⟨14, _⟩ => ⟨S4, .f32⟩
  | .hbm, ⟨15, _⟩ => ⟨S1x4, .f32⟩
  | .hbm, ⟨16, _⟩ => ⟨S4x64x1, .f32⟩
  | .hbm, ⟨17, _⟩ => ⟨S4x64, .f32⟩
  | .hbm, ⟨18, _⟩ => ⟨S4x1, .f32⟩
  | .hbm, ⟨19, _⟩ => ⟨S4x64, .f32⟩
  | .hbm, ⟨20, _⟩ => ⟨S4x64, .f32⟩
  | .hbm, ⟨21, _⟩ => ⟨S4x64x1, .f32⟩
  | .hbm, ⟨22, _⟩ => ⟨S4x64, .f32⟩
  | .hbm, ⟨23, _⟩ => ⟨S4x1, .f32⟩
  | .hbm, ⟨24, _⟩ => ⟨S4x64, .f32⟩
  | .hbm, ⟨25, _⟩ => ⟨S4x64, .f32⟩
  | .hbm, ⟨26, _⟩ => ⟨S4x4, .i32⟩
  | .hbm, ⟨27, _⟩ => ⟨S4x4, .i32⟩
  | .hbm, ⟨28, _⟩ => ⟨S_, .i32⟩
  | .hbm, ⟨29, _⟩ => ⟨S4x4, .i32⟩
  | .hbm, ⟨30, _⟩ => ⟨S4x4, .i32⟩
  | .hbm, ⟨31, _⟩ => ⟨S4x4, .i1⟩
  | .hbm, ⟨32, _⟩ => ⟨S4x4, .f32⟩
  | .hbm, ⟨33, _⟩ => ⟨S4x1x4, .f32⟩
  | .hbm, ⟨34, _⟩ => ⟨S4x64x1, .f32⟩
  | .hbm, ⟨35, _⟩ => ⟨S4x64x4, .f32⟩
  | .hbm, ⟨36, _⟩ => ⟨S4x64x4, .f32⟩
  | .hbm, ⟨37, _⟩ => ⟨S4x64x4, .f32⟩
  | .hbm, ⟨38, _⟩ => ⟨S256x4, .f32⟩
  | .hbm, ⟨39, _⟩ => ⟨S4x1x4, .f32⟩
  | .hbm, ⟨40, _⟩ => ⟨S4x64x1, .f32⟩
  | .hbm, ⟨41, _⟩ => ⟨S4x64x4, .f32⟩
  | .hbm, ⟨42, _⟩ => ⟨S4x64x4, .f32⟩
  | .hbm, ⟨43, _⟩ => ⟨S4x64x4, .f32⟩
  | .hbm, ⟨44, _⟩ => ⟨S256x4, .f32⟩
  | .hbm, ⟨45, _⟩ => ⟨S_, .f32⟩
  | .hbm, ⟨46, _⟩ => ⟨S16x1, .f32⟩
  | .hbm, ⟨47, _⟩ => ⟨S16x1, .f32⟩
  | .hbm, ⟨48, _⟩ => ⟨S16x1, .f32⟩
  | .hbm, ⟨49, _⟩ => ⟨S16x1, .f32⟩
  | .hbm, ⟨50, _⟩ => ⟨S16x1, .f32⟩
  | .hbm, ⟨51, _⟩ => ⟨S16x1, .f32⟩
  | .hbm, ⟨52, _⟩ => ⟨S_, .f32⟩
  | .hbm, ⟨53, _⟩ => ⟨S1x1, .f32⟩
  | .hbm, ⟨54, _⟩ => ⟨S4096x256, .f32⟩
  | .hbm, ⟨55, _⟩ => ⟨S4096x4, .f32⟩
  | .hbm, ⟨56, _⟩ => ⟨S4x4096, .f32⟩
  | .hbm, ⟨57, _⟩ => ⟨S4096x256, .f32⟩
  | .hbm, ⟨58, _⟩ => ⟨S4096x16, .f32⟩
  | .hbm, ⟨59, _⟩ => ⟨S4096x1, .f32⟩
  | .hbm, ⟨60, _⟩ => ⟨S1x4096, .f32⟩
  | .hbm, ⟨61, _⟩ => ⟨S4096x16, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S256x4, .f32⟩
  | .local _ .vmem, ⟨4, _⟩ => ⟨S256x4, .f32⟩
  | .local _ .vmem, ⟨5, _⟩ => ⟨S512x256, .f32⟩
  | .local _ .vmem, ⟨6, _⟩ => ⟨S512x256, .f32⟩
  | .local _ .vmem, ⟨7, _⟩ => ⟨S512x4, .f32⟩
  | .local _ .vmem, ⟨8, _⟩ => ⟨S512x4, .f32⟩
  | .local _ .vmem, ⟨9, _⟩ => ⟨S4x512, .f32⟩
  | .local _ .vmem, ⟨10, _⟩ => ⟨S4x512, .f32⟩
  | .local _ .vmem, ⟨11, _⟩ => ⟨S256x4096, .i32⟩
  | .local _ .vmem, ⟨12, _⟩ => ⟨S256x4096, .i32⟩
  | .local _ .vmem, ⟨13, _⟩ => ⟨S256x4096, .f32⟩
  | .local _ .vmem, ⟨14, _⟩ => ⟨S256x4096, .f32⟩
  | .local _ .vmem, ⟨15, _⟩ => ⟨S256x4, .f32⟩
  | .local _ .vmem, ⟨16, _⟩ => ⟨S256x4, .f32⟩
  | .local _ .vmem, ⟨17, _⟩ => ⟨S4x4096, .f32⟩
  | .local _ .vmem, ⟨18, _⟩ => ⟨S4096x256, .f32⟩
  | .local _ .vmem, ⟨19, _⟩ => ⟨S1x4, .f32⟩
  | .local _ .vmem, ⟨20, _⟩ => ⟨S256x256, .f32⟩
  | .local _ .vmem, ⟨21, _⟩ => ⟨S256x256, .f32⟩
  | .local _ .vmem, ⟨22, _⟩ => ⟨S512x256, .f32⟩
  | .local _ .vmem, ⟨23, _⟩ => ⟨S512x256, .f32⟩
  | .local _ .vmem, ⟨24, _⟩ => ⟨S256x16, .f32⟩
  | .local _ .vmem, ⟨25, _⟩ => ⟨S16x1, .f32⟩
  | .local _ .vmem, ⟨26, _⟩ => ⟨S16x1, .f32⟩
  | .local _ .vmem, ⟨27, _⟩ => ⟨S512x16, .f32⟩
  | .local _ .vmem, ⟨28, _⟩ => ⟨S512x16, .f32⟩
  | .local _ .vmem, ⟨29, _⟩ => ⟨S512x1, .f32⟩
  | .local _ .vmem, ⟨30, _⟩ => ⟨S512x1, .f32⟩
  | .local _ .vmem, ⟨31, _⟩ => ⟨S1x512, .f32⟩
  | .local _ .vmem, ⟨32, _⟩ => ⟨S1x512, .f32⟩
  | .local _ .vmem, ⟨33, _⟩ => ⟨S256x4096, .i32⟩
  | .local _ .vmem, ⟨34, _⟩ => ⟨S256x4096, .i32⟩
  | .local _ .vmem, ⟨35, _⟩ => ⟨S256x4096, .f32⟩
  | .local _ .vmem, ⟨36, _⟩ => ⟨S256x4096, .f32⟩
  | .local _ .vmem, ⟨37, _⟩ => ⟨S256x1, .f32⟩
  | .local _ .vmem, ⟨38, _⟩ => ⟨S256x1, .f32⟩
  | .local _ .vmem, ⟨39, _⟩ => ⟨S1x4096, .f32⟩
  | .local _ .vmem, ⟨40, _⟩ => ⟨S4096x16, .f32⟩
  | .local _ .vmem, ⟨41, _⟩ => ⟨S1x1, .f32⟩
  | .local _ .vmem, ⟨42, _⟩ => ⟨S256x16, .f32⟩
  | .local _ .vmem, ⟨43, _⟩ => ⟨S256x16, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev main_v44_2 : Ref sig .tc := ⟨.hbm, 60, rfl⟩
abbrev main_v45 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x4096 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4096x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x16 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  transposes_S4x512x64_S512x4x64_1_0_2 : S4x512x64.Transposes [1, 0, 2] S512x4x64
  shapeCasts_S512x4x64_S512x256 : S512x4x64.ShapeCasts S512x256
  shapeCasts_S4_S1x4 : S4.ShapeCasts S1x4
  slices_S4x128x1_S4x64x1_0_0_0 : S4x128x1.Slices ![0, 0, 0] S4x64x1
  shapeCasts_S4x64x1_S4x64 : S4x64x1.ShapeCasts S4x64
  bcast_S4_S4x1_0 : S4.BroadcastsInDim S4x1 (![0] : Fin 1 → Fin S4x1.rank)
  bcast_S4x1_S4x64_0_1 : S4x1.BroadcastsInDim S4x64 (![0, 1] : Fin 2 → Fin S4x64.rank)
  slices_S4x128x1_S4x64x1_0_64_0 : S4x128x1.Slices ![0, 64, 0] S4x64x1
  bcast_S_S4x4 : S_.BroadcastsInDim S4x4 (![] : Fin 0 → Fin S4x4.rank)
  bcast_S4x4_S4x1x4_0_2 : S4x4.BroadcastsInDim S4x1x4 (![0, 2] : Fin 2 → Fin S4x1x4.rank)
  bcast_S4x64_S4x64x1_0_1 : S4x64.BroadcastsInDim S4x64x1 (![0, 1] : Fin 2 → Fin S4x64x1.rank)
  bcast_S4x1x4_S4x64x4_0_1_2 : S4x1x4.BroadcastsInDim S4x64x4 (![0, 1, 2] : Fin 3 → Fin S4x64x4.rank)
  bcast_S4x64x1_S4x64x4_0_1_2 : S4x64x1.BroadcastsInDim S4x64x4 (![0, 1, 2] : Fin 3 → Fin S4x64x4.rank)
  shapeCasts_S4x64x4_S256x4 : S4x64x4.ShapeCasts S256x4
  slices_S32x1_S16x1_0_0 : S32x1.Slices ![0, 0] S16x1
  bcast_S_S16x1 : S_.BroadcastsInDim S16x1 (![] : Fin 0 → Fin S16x1.rank)
  slices_S32x1_S16x1_16_0 : S32x1.Slices ![16, 0] S16x1
  shapeCasts_S_S1x1 : S_.ShapeCasts S1x1
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S512x4_S512x4_0_0 : ∀ a, (![0, 0] : Fin 2 → Nat) a + S512x4.size a ≤ S512x4.size a
  h_S512x4 : 0 < S512x4.numel
  transposes_S512x4_p1_0_S4x512 : S512x4.Transposes [1, 0] S4x512
  inb_S4x512_S4x512_0_0 : ∀ a, (![0, 0] : Fin 2 → Nat) a + S4x512.size a ≤ S4x512.size a
  h_S4x512 : 0 < S4x512.numel
  inb_S256x4096_S256x4096_0_0 : ∀ a, (![0, 0] : Fin 2 → Nat) a + S256x4096.size a ≤ S256x4096.size a
  h_S256x4096 : 0 < S256x4096.numel
  inb_S256x4_S256x1_0_0 : ∀ a, (![0, 0] : Fin 2 → Nat) a + S256x1.size a ≤ S256x4.size a
  h_S256x1 : 0 < S256x1.numel
  shapeCasts_S256x1_S256x1 : S256x1.ShapeCasts S256x1
  inb_S4x4096_S1x4096_0_0 : ∀ a, (![0, 0] : Fin 2 → Nat) a + S1x4096.size a ≤ S4x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  inb_S1x4_S1x1_0_0 : ∀ a, (![0, 0] : Fin 2 → Nat) a + S1x1.size a ≤ S1x4.size a
  h_S1x1 : 0 < S1x1.numel
  inpos_S1x1_p0_0 : ∀ a, (![0, 0] : Fin 2 → Nat) a < S1x1.size a
  reduces_S256x4096_S256 : S256x4096.Reduces [1] S256
  shapeCasts_S256_S256x1 : S256.ShapeCasts S256x1
  inb_S4096x256_S4096x64_0_0 : ∀ a, (![0, 0] : Fin 2 → Nat) a + S4096x64.size a ≤ S4096x256.size a
  h_S4096x64 : 0 < S4096x64.numel
  shapeCasts_S4096x64_S4096x64 : S4096x64.ShapeCasts S4096x64
  broadcasts_S256x1_S256x64 : S256x1.Broadcasts S256x64
  inb_S256x256_S256x64_0_0 : ∀ a, (![0, 0] : Fin 2 → Nat) a + S256x64.size a ≤ S256x256.size a
  h_S256x64 : 0 < S256x64.numel
  inb_S256x4_S256x1_0_1 : ∀ a, (![0, 1] : Fin 2 → Nat) a + S256x1.size a ≤ S256x4.size a
  inb_S4x4096_S1x4096_1_0 : ∀ a, (![1, 0] : Fin 2 → Nat) a + S1x4096.size a ≤ S4x4096.size a
  inb_S1x4_S1x1_0_1 : ∀ a, (![0, 1] : Fin 2 → Nat) a + S1x1.size a ≤ S1x4.size a
  inb_S4096x256_S4096x64_0_64 : ∀ a, (![0, 64] : Fin 2 → Nat) a + S4096x64.size a ≤ S4096x256.size a
  inb_S256x256_S256x64_0_64 : ∀ a, (![0, 64] : Fin 2 → Nat) a + S256x64.size a ≤ S256x256.size a
  inb_S256x4_S256x1_0_2 : ∀ a, (![0, 2] : Fin 2 → Nat) a + S256x1.size a ≤ S256x4.size a
  inb_S4x4096_S1x4096_2_0 : ∀ a, (![2, 0] : Fin 2 → Nat) a + S1x4096.size a ≤ S4x4096.size a
  inb_S1x4_S1x1_0_2 : ∀ a, (![0, 2] : Fin 2 → Nat) a + S1x1.size a ≤ S1x4.size a
  inb_S4096x256_S4096x64_0_128 : ∀ a, (![0, 128] : Fin 2 → Nat) a + S4096x64.size a ≤ S4096x256.size a
  inb_S256x256_S256x64_0_128 : ∀ a, (![0, 128] : Fin 2 → Nat) a + S256x64.size a ≤ S256x256.size a
  inb_S256x4_S256x1_0_3 : ∀ a, (![0, 3] : Fin 2 → Nat) a + S256x1.size a ≤ S256x4.size a
  inb_S4x4096_S1x4096_3_0 : ∀ a, (![3, 0] : Fin 2 → Nat) a + S1x4096.size a ≤ S4x4096.size a
  inb_S1x4_S1x1_0_3 : ∀ a, (![0, 3] : Fin 2 → Nat) a + S1x1.size a ≤ S1x4.size a
  inb_S4096x256_S4096x64_0_192 : ∀ a, (![0, 192] : Fin 2 → Nat) a + S4096x64.size a ≤ S4096x256.size a
  inb_S256x256_S256x64_0_192 : ∀ a, (![0, 192] : Fin 2 → Nat) a + S256x64.size a ≤ S256x256.size a
  inb_S256x16_S256x16_0_0 : ∀ a, (![0, 0] : Fin 2 → Nat) a + S256x16.size a ≤ S256x16.size a
  h_S256x16 : 0 < S256x16.numel
  inb_S512x16_S512x16_0_0 : ∀ a, (![0, 0] : Fin 2 → Nat) a + S512x16.size a ≤ S512x16.size a
  h_S512x16 : 0 < S512x16.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S512x1_S512x1_0_0 : ∀ a, (![0, 0] : Fin 2 → Nat) a + S512x1.size a ≤ S512x1.size a
  h_S512x1 : 0 < S512x1.numel
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  inb_S256x1_S256x1_0_0 : ∀ a, (![0, 0] : Fin 2 → Nat) a + S256x1.size a ≤ S256x1.size a
  inb_S1x4096_S1x4096_0_0 : ∀ a, (![0, 0] : Fin 2 → Nat) a + S1x4096.size a ≤ S1x4096.size a
  inb_S1x1_S1x1_0_0 : ∀ a, (![0, 0] : Fin 2 → Nat) a + S1x1.size a ≤ S1x1.size a
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  broadcasts_S256x1_S256x16 : S256x1.Broadcasts S256x16
  reduces_S256x16_S256 : S256x16.Reduces [1] S256
  dot_S512x512_S512x256_S512x256_1_0_0_1_n_n_wf : DotDims.WF S512x512 S512x256 S512x256 [1] [0] [0] [1] [] []
  dot_S512x256_S256x4_S512x4_1_0_0_1_n_n_wf : DotDims.WF S512x256 S256x4 S512x4 [1] [0] [0] [1] [] []
  dot_S256x4096_S4096x64_S256x64_1_0_0_1_n_n_wf : DotDims.WF S256x4096 S4096x64 S256x64 [1] [0] [0] [1] [] []
  dot_S512x256_S256x16_S512x16_1_0_0_1_n_n_wf : DotDims.WF S512x256 S256x16 S512x16 [1] [0] [0] [1] [] []
  dot_S512x16_S16x1_S512x1_1_0_0_1_n_n_wf : DotDims.WF S512x16 S16x1 S512x1 [1] [0] [0] [1] [] []
  dot_S256x4096_S4096x16_S256x16_1_0_0_1_n_n_wf : DotDims.WF S256x4096 S4096x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x4.size a ≤ S256x4.size a
  hwx0_2 : ∀ i : grid0.Coords, EltTy.bits .f32 = 32 ∨ (Rect.block (s := S256x4) S256x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x4.size a ≤ S256x4.size a
  hwx0_3 : ∀ i : grid0.Coords, EltTy.bits .f32 = 32 ∨ (Rect.block (s := S256x4) S256x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x256.size a
  hwx0_4 : ∀ i : grid0.Coords, EltTy.bits .f32 = 32 ∨ (Rect.block (s := S4096x256) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4.size a ≤ S4096x4.size a
  hwx0_5 : ∀ i : grid0.Coords, EltTy.bits .f32 = 32 ∨ (Rect.block (s := S4096x4) S512x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x512.size a ≤ S4x4096.size a
  hwx0_6 : ∀ i : grid0.Coords, EltTy.bits .f32 = 32 ∨ (Rect.block (s := S4x4096) S4x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .i32 = 32 ∨ (Rect.block (s := S4096x4096) S256x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4.size a ≤ S4096x4.size a
  hwx1_2 : ∀ i : grid1.Coords, EltTy.bits .f32 = 32 ∨ (Rect.block (s := S4096x4) S256x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x4096.size a ≤ S4x4096.size a
  hwx1_3 : ∀ i : grid1.Coords, EltTy.bits .f32 = 32 ∨ (Rect.block (s := S4x4096) S4x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x256.size a ≤ S4096x256.size a
  hwx1_4 : ∀ i : grid1.Coords, EltTy.bits .f32 = 32 ∨ (Rect.block (s := S4096x256) S4096x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4.size a ≤ S1x4.size a
  hwx1_5 : ∀ i : grid1.Coords, EltTy.bits .f32 = 32 ∨ (Rect.block (s := S1x4) S1x4.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S4096x256.size a
  hwx1_6 : ∀ i : grid1.Coords, EltTy.bits .f32 = 32 ∨ (Rect.block (s := S4096x256) S256x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .f32 = 32 ∨ (Rect.block (s := S4096x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x16.size a ≤ S256x16.size a
  hwx2_1 : ∀ i : grid2.Coords, EltTy.bits .f32 = 32 ∨ (Rect.block (s := S256x16) S256x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1.size a ≤ S16x1.size a
  hwx2_2 : ∀ i : grid2.Coords, EltTy.bits .f32 = 32 ∨ (Rect.block (s := S16x1) S16x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x1.size a ≤ S16x1.size a
  hwx2_3 : ∀ i : grid2.Coords, EltTy.bits .f32 = 32 ∨ (Rect.block (s := S16x1) S16x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x16.size a ≤ S4096x16.size a
  hwx2_4 : ∀ i : grid2.Coords, EltTy.bits .f32 = 32 ∨ (Rect.block (s := S4096x16) S512x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S4096x1.size a
  hwx2_5 : ∀ i : grid2.Coords, EltTy.bits .f32 = 32 ∨ (Rect.block (s := S4096x1) S512x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x4096.size a
  hwx2_6 : ∀ i : grid2.Coords, EltTy.bits .f32 = 32 ∨ (Rect.block (s := S1x4096) S1x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S4096x4096.size a
  hwx3_0 : ∀ i : grid3.Coords, EltTy.bits .i32 = 32 ∨ (Rect.block (s := S4096x4096) S256x4096.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x4096.size a ≤ S4096x4096.size a
  hwx3_1 : ∀ i : grid3.Coords, EltTy.bits .f32 = 32 ∨ (Rect.block (s := S4096x4096) S256x4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1.size a ≤ S4096x1.size a
  hwx3_2 : ∀ i : grid3.Coords, EltTy.bits .f32 = 32 ∨ (Rect.block (s := S4096x1) S256x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x4096.size a ≤ S1x4096.size a
  hwx3_3 : ∀ i : grid3.Coords, EltTy.bits .f32 = 32 ∨ (Rect.block (s := S1x4096) S1x4096.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S4096x16.size a ≤ S4096x16.size a
  hwx3_4 : ∀ i : grid3.Coords, EltTy.bits .f32 = 32 ∨ (Rect.block (s := S4096x16) S4096x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S256x16.size a ≤ S4096x16.size a
  hwx3_6 : ∀ i : grid3.Coords, EltTy.bits .f32 = 32 ∨ (Rect.block (s := S4096x16) S256x16.size (cc3_transform_6 i) (hinb3_6 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x4_S512x4_1_0_0_1_n_n : DotDims S512x256 S256x4 S512x4 where
  lhsContracting := [1]
  rhsContracting := [0]
  lhsNonContracting := [0]
  rhsNonContracting := [1]
  lhsBatch := []
  rhsBatch := []
  wf := dot_S512x256_S256x4_S512x4_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def dot_S512x16_S16x1_S512x1_1_0_0_1_n_n : DotDims S512x16 S16x1 S512x1 where
  lhsContracting := [1]
  rhsContracting := [0]
  lhsNonContracting := [0]
  rhsNonContracting := [1]
  lhsBatch := []
  rhsBatch := []
  wf := dot_S512x16_S16x1_S512x1_1_0_0_1_n_n_wf
def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S256x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S256x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42_0) S512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42_1) S512x4.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v42_2) S4x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42_1) S256x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42_2) S4x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42_0) S4096x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x4.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S256x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S16x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S16x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44_0) S512x16.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v44_1) S512x1.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v44_2) S1x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg1) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S256x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44_1) S256x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v44_2) S1x4096.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44_0) S4096x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S256x16.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S4x512x64 : Shape := ⟨3, ![4, 512, 64]⟩
abbrev S4x128x1 : Shape := ⟨3, ![4, 128, 1]⟩
abbrev S4 : Shape := ⟨1, ![4]⟩
abbrev S256x16 : Shape := ⟨2, ![256, 16]⟩
abbrev S32x1 : Shape := ⟨2, ![32, 1]⟩
abbrev S_ : Shape := ⟨0, ![]⟩
abbrev S1x512x64 : Shape := ⟨3, ![1, 512, 64]⟩
abbrev S512x64 : Shape := ⟨2, ![512, 64]⟩
abbrev S1x128x1 : Shape := ⟨3, ![1, 128, 1]⟩
abbrev S128x1 : Shape := ⟨2, ![128, 1]⟩
abbrev S1 : Shape := ⟨1, ![1]⟩
abbrev S4096x64 : Shape := ⟨2, ![4096, 64]⟩
abbrev S64x1 : Shape := ⟨2, ![64, 1]⟩
abbrev S4096x1 : Shape := ⟨2, ![4096, 1]⟩
abbrev S1x4096 : Shape := ⟨2, ![1, 4096]⟩
abbrev S4096 : Shape := ⟨1, ![4096]⟩
abbrev S4096x256 : Shape := ⟨2, ![4096, 256]⟩
abbrev S4096x16 : Shape := ⟨2, ![4096, 16]⟩
abbrev S16x1 : Shape := ⟨2, ![16, 1]⟩

abbrev nBuf : Space → Nat
  | .hbm => 354
  | .vmem => 0
  | .smem => 0
  | _ => 0

abbrev hbmTy0_0 (i : Nat) : BufTy := match i % 128 with
  | 0 => ⟨S4096x512, .f32⟩
  | 1 => ⟨S4096x4096, .i32⟩
  | 2 => ⟨S4096x4096, .f32⟩
  | 3 => ⟨S4x512x64, .f32⟩
  | 4 => ⟨S4x128x1, .f32⟩
  | 5 => ⟨S4, .f32⟩
  | 6 => ⟨S4, .f32⟩
  | 7 => ⟨S256x16, .f32⟩
  | 8 => ⟨S32x1, .f32⟩
  | 9 => ⟨S_, .f32⟩
  | 10 => ⟨S_, .f32⟩
  | 11 => ⟨S1x512x64, .f32⟩
  | 12 => ⟨S512x64, .f32⟩
  | 13 => ⟨S1x128x1, .f32⟩
  | 14 => ⟨S128x1, .f32⟩
  | 15 => ⟨S1, .f32⟩
  | 16 => ⟨S_, .f32⟩
  | 17 => ⟨S1, .f32⟩
  | 18 => ⟨S_, .f32⟩
  | 19 => ⟨S4096x64, .f32⟩
  | 20 => ⟨S64x1, .f32⟩
  | 21 => ⟨S4096x1, .f32⟩
  | 22 => ⟨S64x1, .f32⟩
  | 23 => ⟨S4096x1, .f32⟩
  | 24 => ⟨S1x4096, .f32⟩
  | 25 => ⟨S4096x4096, .f32⟩
  | 26 => ⟨S4096x4096, .f32⟩
  | 27 => ⟨S4096x4096, .f32⟩
  | 28 => ⟨S_, .f32⟩
  | 29 => ⟨S4096x4096, .f32⟩
  | 30 => ⟨S4096x4096, .i1⟩
  | 31 => ⟨S_, .f32⟩
  | 32 => ⟨S4096x4096, .f32⟩
  | 33 => ⟨S4096x4096, .f32⟩
  | 34 => ⟨S4096x4096, .f32⟩
  | 35 => ⟨S_, .f32⟩
  | 36 => ⟨S4096x4096, .f32⟩
  | 37 => ⟨S4096x4096, .f32⟩
  | 38 => ⟨S_, .f32⟩
  | 39 => ⟨S4096x4096, .f32⟩
  | 40 => ⟨S4096x4096, .f32⟩
  | 41 => ⟨S4096x4096, .f32⟩
  | 42 => ⟨S_, .i32⟩
  | 43 => ⟨S4096x4096, .i32⟩
  | 44 => ⟨S4096x4096, .i1⟩
  | 45 => ⟨S_, .f32⟩
  | 46 => ⟨S4096x4096, .f32⟩
  | 47 => ⟨S4096x4096, .f32⟩
  | 48 => ⟨S_, .f32⟩
  | 49 => ⟨S4096, .f32⟩
  | 50 => ⟨S_, .f32⟩
  | 51 => ⟨S4096, .f32⟩
  | 52 => ⟨S4096, .f32⟩
  | 53 => ⟨S4096x1, .f32⟩
  | 54 => ⟨S4096x4096, .f32⟩
  | 55 => ⟨S4096x4096, .f32⟩
  | 56 => ⟨S4096x4096, .f32⟩
  | 57 => ⟨S_, .f32⟩
  | 58 => ⟨S4096, .f32⟩
  | 59 => ⟨S4096x1, .f32⟩
  | 60 => ⟨S4096x4096, .f32⟩
  | 61 => ⟨S4096x4096, .f32⟩
  | 62 => ⟨S4096x64, .f32⟩
  | 63 => ⟨S_, .f32⟩
  | 64 => ⟨S4096x64, .f32⟩
  | 65 => ⟨S4096x64, .i1⟩
  | 66 => ⟨S_, .f32⟩
  | 67 => ⟨S4096x64, .f32⟩
  | 68 => ⟨S4096x64, .i1⟩
  | 69 => ⟨S_, .f32⟩
  | 70 => ⟨S_, .f32⟩
  | 71 => ⟨S4096x64, .f32⟩
  | 72 => ⟨S4096x64, .f32⟩
  | 73 => ⟨S4096x64, .f32⟩
  | 74 => ⟨S_, .f32⟩
  | 75 => ⟨S4096x64, .f32⟩
  | 76 => ⟨S4096x64, .f32⟩
  | 77 => ⟨S4096x64, .f32⟩
  | 78 => ⟨S1x512x64, .f32⟩
  | 79 => ⟨S512x64, .f32⟩
  | 80 => ⟨S1x128x1, .f32⟩
  | 81 => ⟨S128x1, .f32⟩
  | 82 => ⟨S1, .f32⟩
  | 83 => ⟨S_, .f32⟩
  | 84 => ⟨S1, .f32⟩
  | 85 => ⟨S_, .f32⟩
  | 86 => ⟨S4096x64, .f32⟩
  | 87 => ⟨S64x1, .f32⟩
  | 88 => ⟨S4096x1, .f32⟩
  | 89 => ⟨S64x1, .f32⟩
  | 90 => ⟨S4096x1, .f32⟩
  | 91 => ⟨S1x4096, .f32⟩
  | 92 => ⟨S4096x4096, .f32⟩
  | 93 => ⟨S4096x4096, .f32⟩
  | 94 => ⟨S4096x4096, .f32⟩
  | 95 => ⟨S_, .f32⟩
  | 96 => ⟨S4096x4096, .f32⟩
  | 97 => ⟨S4096x4096, .i1⟩
  | 98 => ⟨S_, .f32⟩
  | 99 => ⟨S4096x4096, .f32⟩
  | 100 => ⟨S4096x4096, .f32⟩
  | 101 => ⟨S4096x4096, .f32⟩
  | 102 => ⟨S_, .f32⟩
  | 103 => ⟨S4096x4096, .f32⟩
  | 104 => ⟨S4096x4096, .f32⟩
  | 105 => ⟨S_, .f32⟩
  | 106 => ⟨S4096x4096, .f32⟩
  | 107 => ⟨S4096x4096, .f32⟩
  | 108 => ⟨S4096x4096, .f32⟩
  | 109 => ⟨S_, .i32⟩
  | 110 => ⟨S4096x4096, .i32⟩
  | 111 => ⟨S4096x4096, .i1⟩
  | 112 => ⟨S_, .f32⟩
  | 113 => ⟨S4096x4096, .f32⟩
  | 114 => ⟨S4096x4096, .f32⟩
  | 115 => ⟨S_, .f32⟩
  | 116 => ⟨S4096, .f32⟩
  | 117 => ⟨S_, .f32⟩
  | 118 => ⟨S4096, .f32⟩
  | 119 => ⟨S4096, .f32⟩
  | 120 => ⟨S4096x1, .f32⟩
  | 121 => ⟨S4096x4096, .f32⟩
  | 122 => ⟨S4096x4096, .f32⟩
  | 123 => ⟨S4096x4096, .f32⟩
  | 124 => ⟨S_, .f32⟩
  | 125 => ⟨S4096, .f32⟩
  | 126 => ⟨S4096x1, .f32⟩
  | 127 => ⟨S4096x4096, .f32⟩
  | _ => ⟨S4096x512, .f32⟩

abbrev hbmTy0_1 (i : Nat) : BufTy := match i % 128 with
  | 0 => ⟨S4096x4096, .f32⟩
  | 1 => ⟨S4096x64, .f32⟩
  | 2 => ⟨S_, .f32⟩
  | 3 => ⟨S4096x64, .f32⟩
  | 4 => ⟨S4096x64, .i1⟩
  | 5 => ⟨S_, .f32⟩
  | 6 => ⟨S4096x64, .f32⟩
  | 7 => ⟨S4096x64, .i1⟩
  | 8 => ⟨S_, .f32⟩
  | 9 => ⟨S_, .f32⟩
  | 10 => ⟨S4096x64, .f32⟩
  | 11 => ⟨S4096x64, .f32⟩
  | 12 => ⟨S4096x64, .f32⟩
  | 13 => ⟨S_, .f32⟩
  | 14 => ⟨S4096x64, .f32⟩
  | 15 => ⟨S4096x64, .f32⟩
  | 16 => ⟨S4096x64, .f32⟩
  | 17 => ⟨S1x512x64, .f32⟩
  | 18 => ⟨S512x64, .f32⟩
  | 19 => ⟨S1x128x1, .f32⟩
  | 20 => ⟨S128x1, .f32⟩
  | 21 => ⟨S1, .f32⟩
  | 22 => ⟨S_, .f32⟩
  | 23 => ⟨S1, .f32⟩
  | 24 => ⟨S_, .f32⟩
  | 25 => ⟨S4096x64, .f32⟩
  | 26 => ⟨S64x1, .f32⟩
  | 27 => ⟨S4096x1, .f32⟩
  | 28 => ⟨S64x1, .f32⟩
  | 29 => ⟨S4096x1, .f32⟩
  | 30 => ⟨S1x4096, .f32⟩
  | 31 => ⟨S4096x4096, .f32⟩
  | 32 => ⟨S4096x4096, .f32⟩
  | 33 => ⟨S4096x4096, .f32⟩
  | 34 => ⟨S_, .f32⟩
  | 35 => ⟨S4096x4096, .f32⟩
  | 36 => ⟨S4096x4096, .i1⟩
  | 37 => ⟨S_, .f32⟩
  | 38 => ⟨S4096x4096, .f32⟩
  | 39 => ⟨S4096x4096, .f32⟩
  | 40 => ⟨S4096x4096, .f32⟩
  | 41 => ⟨S_, .f32⟩
  | 42 => ⟨S4096x4096, .f32⟩
  | 43 => ⟨S4096x4096, .f32⟩
  | 44 => ⟨S_, .f32⟩
  | 45 => ⟨S4096x4096, .f32⟩
  | 46 => ⟨S4096x4096, .f32⟩
  | 47 => ⟨S4096x4096, .f32⟩
  | 48 => ⟨S_, .i32⟩
  | 49 => ⟨S4096x4096, .i32⟩
  | 50 => ⟨S4096x4096, .i1⟩
  | 51 => ⟨S_, .f32⟩
  | 52 => ⟨S4096x4096, .f32⟩
  | 53 => ⟨S4096x4096, .f32⟩
  | 54 => ⟨S_, .f32⟩
  | 55 => ⟨S4096, .f32⟩
  | 56 => ⟨S_, .f32⟩
  | 57 => ⟨S4096, .f32⟩
  | 58 => ⟨S4096, .f32⟩
  | 59 => ⟨S4096x1, .f32⟩
  | 60 => ⟨S4096x4096, .f32⟩
  | 61 => ⟨S4096x4096, .f32⟩
  | 62 => ⟨S4096x4096, .f32⟩
  | 63 => ⟨S_, .f32⟩
  | 64 => ⟨S4096, .f32⟩
  | 65 => ⟨S4096x1, .f32⟩
  | 66 => ⟨S4096x4096, .f32⟩
  | 67 => ⟨S4096x4096, .f32⟩
  | 68 => ⟨S4096x64, .f32⟩
  | 69 => ⟨S_, .f32⟩
  | 70 => ⟨S4096x64, .f32⟩
  | 71 => ⟨S4096x64, .i1⟩
  | 72 => ⟨S_, .f32⟩
  | 73 => ⟨S4096x64, .f32⟩
  | 74 => ⟨S4096x64, .i1⟩
  | 75 => ⟨S_, .f32⟩
  | 76 => ⟨S_, .f32⟩
  | 77 => ⟨S4096x64, .f32⟩
  | 78 => ⟨S4096x64, .f32⟩
  | 79 => ⟨S4096x64, .f32⟩
  | 80 => ⟨S_, .f32⟩
  | 81 => ⟨S4096x64, .f32⟩
  | 82 => ⟨S4096x64, .f32⟩
  | 83 => ⟨S4096x64, .f32⟩
  | 84 => ⟨S1x512x64, .f32⟩
  | 85 => ⟨S512x64, .f32⟩
  | 86 => ⟨S1x128x1, .f32⟩
  | 87 => ⟨S128x1, .f32⟩
  | 88 => ⟨S1, .f32⟩
  | 89 => ⟨S_, .f32⟩
  | 90 => ⟨S1, .f32⟩
  | 91 => ⟨S_, .f32⟩
  | 92 => ⟨S4096x64, .f32⟩
  | 93 => ⟨S64x1, .f32⟩
  | 94 => ⟨S4096x1, .f32⟩
  | 95 => ⟨S64x1, .f32⟩
  | 96 => ⟨S4096x1, .f32⟩
  | 97 => ⟨S1x4096, .f32⟩
  | 98 => ⟨S4096x4096, .f32⟩
  | 99 => ⟨S4096x4096, .f32⟩
  | 100 => ⟨S4096x4096, .f32⟩
  | 101 => ⟨S_, .f32⟩
  | 102 => ⟨S4096x4096, .f32⟩
  | 103 => ⟨S4096x4096, .i1⟩
  | 104 => ⟨S_, .f32⟩
  | 105 => ⟨S4096x4096, .f32⟩
  | 106 => ⟨S4096x4096, .f32⟩
  | 107 => ⟨S4096x4096, .f32⟩
  | 108 => ⟨S_, .f32⟩
  | 109 => ⟨S4096x4096, .f32⟩
  | 110 => ⟨S4096x4096, .f32⟩
  | 111 => ⟨S_, .f32⟩
  | 112 => ⟨S4096x4096, .f32⟩
  | 113 => ⟨S4096x4096, .f32⟩
  | 114 => ⟨S4096x4096, .f32⟩
  | 115 => ⟨S_, .i32⟩
  | 116 => ⟨S4096x4096, .i32⟩
  | 117 => ⟨S4096x4096, .i1⟩
  | 118 => ⟨S_, .f32⟩
  | 119 => ⟨S4096x4096, .f32⟩
  | 120 => ⟨S4096x4096, .f32⟩
  | 121 => ⟨S_, .f32⟩
  | 122 => ⟨S4096, .f32⟩
  | 123 => ⟨S_, .f32⟩
  | 124 => ⟨S4096, .f32⟩
  | 125 => ⟨S4096, .f32⟩
  | 126 => ⟨S4096x1, .f32⟩
  | 127 => ⟨S4096x4096, .f32⟩
  | _ => ⟨S4096x512, .f32⟩

abbrev hbmTy0_2 (i : Nat) : BufTy := match i % 128 with
  | 0 => ⟨S4096x4096, .f32⟩
  | 1 => ⟨S4096x4096, .f32⟩
  | 2 => ⟨S_, .f32⟩
  | 3 => ⟨S4096, .f32⟩
  | 4 => ⟨S4096x1, .f32⟩
  | 5 => ⟨S4096x4096, .f32⟩
  | 6 => ⟨S4096x4096, .f32⟩
  | 7 => ⟨S4096x64, .f32⟩
  | 8 => ⟨S_, .f32⟩
  | 9 => ⟨S4096x64, .f32⟩
  | 10 => ⟨S4096x64, .i1⟩
  | 11 => ⟨S_, .f32⟩
  | 12 => ⟨S4096x64, .f32⟩
  | 13 => ⟨S4096x64, .i1⟩
  | 14 => ⟨S_, .f32⟩
  | 15 => ⟨S_, .f32⟩
  | 16 => ⟨S4096x64, .f32⟩
  | 17 => ⟨S4096x64, .f32⟩
  | 18 => ⟨S4096x64, .f32⟩
  | 19 => ⟨S_, .f32⟩
  | 20 => ⟨S4096x64, .f32⟩
  | 21 => ⟨S4096x64, .f32⟩
  | 22 => ⟨S4096x64, .f32⟩
  | 23 => ⟨S4096x256, .f32⟩
  | 24 => ⟨S4096x16, .f32⟩
  | 25 => ⟨S16x1, .f32⟩
  | 26 => ⟨S4096x1, .f32⟩
  | 27 => ⟨S16x1, .f32⟩
  | 28 => ⟨S4096x1, .f32⟩
  | 29 => ⟨S1x4096, .f32⟩
  | 30 => ⟨S4096x4096, .f32⟩
  | 31 => ⟨S4096x4096, .f32⟩
  | 32 => ⟨S4096x4096, .f32⟩
  | 33 => ⟨S_, .f32⟩
  | 34 => ⟨S4096x4096, .f32⟩
  | 35 => ⟨S4096x4096, .i1⟩
  | 36 => ⟨S_, .f32⟩
  | 37 => ⟨S4096x4096, .f32⟩
  | 38 => ⟨S4096x4096, .f32⟩
  | 39 => ⟨S4096x4096, .f32⟩
  | 40 => ⟨S_, .f32⟩
  | 41 => ⟨S4096x4096, .f32⟩
  | 42 => ⟨S4096x4096, .f32⟩
  | 43 => ⟨S_, .f32⟩
  | 44 => ⟨S4096x4096, .f32⟩
  | 45 => ⟨S4096x4096, .f32⟩
  | 46 => ⟨S4096x4096, .f32⟩
  | 47 => ⟨S_, .i32⟩
  | 48 => ⟨S4096x4096, .i32⟩
  | 49 => ⟨S4096x4096, .i1⟩
  | 50 => ⟨S_, .f32⟩
  | 51 => ⟨S4096x4096, .f32⟩
  | 52 => ⟨S4096x4096, .f32⟩
  | 53 => ⟨S_, .f32⟩
  | 54 => ⟨S4096, .f32⟩
  | 55 => ⟨S_, .f32⟩
  | 56 => ⟨S4096, .f32⟩
  | 57 => ⟨S4096, .f32⟩
  | 58 => ⟨S4096x1, .f32⟩
  | 59 => ⟨S4096x4096, .f32⟩
  | 60 => ⟨S4096x4096, .f32⟩
  | 61 => ⟨S4096x4096, .f32⟩
  | 62 => ⟨S_, .f32⟩
  | 63 => ⟨S4096, .f32⟩
  | 64 => ⟨S4096x1, .f32⟩
  | 65 => ⟨S4096x4096, .f32⟩
  | 66 => ⟨S4096x4096, .f32⟩
  | 67 => ⟨S4096x16, .f32⟩
  | 68 => ⟨S_, .f32⟩
  | 69 => ⟨S4096x16, .f32⟩
  | 70 => ⟨S4096x16, .i1⟩
  | 71 => ⟨S_, .f32⟩
  | 72 => ⟨S4096x16, .f32⟩
  | 73 => ⟨S4096x16, .i1⟩
  | 74 => ⟨S_, .f32⟩
  | 75 => ⟨S_, .f32⟩
  | 76 => ⟨S4096x16, .f32⟩
  | 77 => ⟨S4096x16, .f32⟩
  | 78 => ⟨S4096x16, .f32⟩
  | 79 => ⟨S_, .f32⟩
  | 80 => ⟨S4096x16, .f32⟩
  | 81 => ⟨S4096x16, .f32⟩
  | 82 => ⟨S4096x16, .f32⟩
  | 83 => ⟨S_, .f32⟩
  | 84 => ⟨S4096, .f32⟩
  | 85 => ⟨S_, .f32⟩
  | 86 => ⟨S4096, .f32⟩
  | 87 => ⟨S4096, .f32⟩
  | 88 => ⟨S4096x1, .f32⟩
  | 89 => ⟨S4096x16, .f32⟩
  | 90 => ⟨S4096x16, .f32⟩
  | 91 => ⟨S4096x16, .f32⟩
  | 92 => ⟨S_, .f32⟩
  | 93 => ⟨S4096, .f32⟩
  | 94 => ⟨S4096x1, .f32⟩
  | 95 => ⟨S4096x1, .f32⟩
  | 96 => ⟨S4096x16, .f32⟩
  | 97 => ⟨S4096x16, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_call1_v0 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_cst_0 : Ref sig .tc := ⟨.hbm, 66, rfl⟩
abbrev main_call2_v2 : Ref sig .tc := ⟨.hbm, 67, rfl⟩
abbrev main_call2_v3 : Ref sig .tc := ⟨.hbm, 68, rfl⟩
abbrev main_call2_cst_1 : Ref sig .tc := ⟨.hbm, 69, rfl⟩
abbrev main_call2_call0_v0 : Ref sig .tc := ⟨.hbm, 70, rfl⟩
abbrev main_call2_call0_v1 : Ref sig .tc := ⟨.hbm, 71, rfl⟩
abbrev main_call2_v4 : Ref sig .tc := ⟨.hbm, 72, rfl⟩
abbrev main_call2_v5 : Ref sig .tc := ⟨.hbm, 73, rfl⟩
abbrev main_call2_cst_2 : Ref sig .tc := ⟨.hbm, 74, rfl⟩
abbrev main_call2_v6 : Ref sig .tc := ⟨.hbm, 75, rfl⟩
abbrev main_call2_v7 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_5 : Ref sig .tc := ⟨.hbm, 95, rfl⟩
abbrev main_v62 : Ref sig .tc := ⟨.hbm, 96, rfl⟩
abbrev main_v63 : Ref sig .tc := ⟨.hbm, 97, rfl⟩
abbrev main_cst_6 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_7 : Ref sig .tc := ⟨.hbm, 109, rfl⟩
abbrev main_v74 : Ref sig .tc := ⟨.hbm, 110, rfl⟩
abbrev main_v75 : Ref sig .tc := ⟨.hbm, 111, rfl⟩
abbrev main_cst_8 : Ref sig .tc := ⟨.hbm, 112, rfl⟩
abbrev main_call4_v0 : Ref sig .tc := ⟨.hbm, 113, rfl⟩
abbrev main_v76 : Ref sig .tc := ⟨.hbm, 114, rfl⟩
abbrev main_cst_9 : Ref sig .tc := ⟨.hbm, 115, rfl⟩
abbrev main_v77 : Ref sig .tc := ⟨.hbm, 116, rfl⟩
abbrev main_cst_10 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_11 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_call5_cst : Ref sig .tc := ⟨.hbm, 130, rfl⟩
abbrev main_call5_v0 : Ref sig .tc := ⟨.hbm, 131, rfl⟩
abbrev main_call5_v1 : Ref sig .tc := ⟨.hbm, 132, rfl⟩
abbrev main_call5_cst_0 : Ref sig .tc := ⟨.hbm, 133, rfl⟩
abbrev main_call5_v2 : Ref sig .tc := ⟨.hbm, 134, rfl⟩
abbrev main_call5_v3 : Ref sig .tc := ⟨.hbm, 135, rfl⟩
abbrev main_call5_cst_1 : Ref sig .tc := ⟨.hbm, 136, rfl⟩
abbrev main_call5_call0_v0 : Ref sig .tc := ⟨.hbm, 137, rfl⟩
abbrev main_call5_call0_v1 : Ref sig .tc := ⟨.hbm, 138, rfl⟩
abbrev main_call5_v4 : Ref sig .tc := ⟨.hbm, 139, rfl⟩
abbrev main_call5_v5 : Ref sig .tc := ⟨.hbm, 140, rfl⟩
abbrev main_call5_cst_2 : Ref sig .tc := ⟨.hbm, 141, rfl⟩
abbrev main_call5_v6 : Ref sig .tc := ⟨.hbm, 142, rfl⟩
abbrev main_call5_v7 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_cst_12 : Ref sig .tc := ⟨.hbm, 162, rfl⟩
abbrev main_v107 : Ref sig .tc := ⟨.hbm, 163, rfl⟩
abbrev main_v108 : Ref sig .tc := ⟨.hbm, 164, rfl⟩
abbrev main_cst_13 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_c_14 : Ref sig .tc := ⟨.hbm, 176, rfl⟩
abbrev main_v119 : Ref sig .tc := ⟨.hbm, 177, rfl⟩
abbrev main_v120 : Ref sig .tc := ⟨.hbm, 178, rfl⟩
abbrev main_cst_15 : Ref sig .tc := ⟨.hbm, 179, rfl⟩
abbrev main_call7_v0 : Ref sig .tc := ⟨.hbm, 180, rfl⟩
abbrev main_v121 : Ref sig .tc := ⟨.hbm, 181, rfl⟩
abbrev main_cst_16 : Ref sig .tc := ⟨.hbm, 182, rfl⟩
abbrev main_v122 : Ref sig .tc := ⟨.hbm, 183, rfl⟩
abbrev main_cst_17 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_18 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_call8_cst : Ref sig .tc := ⟨.hbm, 197, rfl⟩
abbrev main_call8_v0 : Ref sig .tc := ⟨.hbm, 198, rfl⟩
abbrev main_call8_v1 : Ref sig .tc := ⟨.hbm, 199, rfl⟩
abbrev main_call8_cst_0 : Ref sig .tc := ⟨.hbm, 200, rfl⟩
abbrev main_call8_v2 : Ref sig .tc := ⟨.hbm, 201, rfl⟩
abbrev main_call8_v3 : Ref sig .tc := ⟨.hbm, 202, rfl⟩
abbrev main_call8_cst_1 : Ref sig .tc := ⟨.hbm, 203, rfl⟩
abbrev main_call8_call0_v0 : Ref sig .tc := ⟨.hbm, 204, rfl⟩
abbrev main_call8_call0_v1 : Ref sig .tc := ⟨.hbm, 205, rfl⟩
abbrev main_call8_v4 : Ref sig .tc := ⟨.hbm, 206, rfl⟩
abbrev main_call8_v5 : Ref sig .tc := ⟨.hbm, 207, rfl⟩
abbrev main_call8_cst_2 : Ref sig .tc := ⟨.hbm, 208, rfl⟩
abbrev main_call8_v6 : Ref sig .tc := ⟨.hbm, 209, rfl⟩
abbrev main_call8_v7 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_cst_19 : Ref sig .tc := ⟨.hbm, 229, rfl⟩
abbrev main_v152 : Ref sig .tc := ⟨.hbm, 230, rfl⟩
abbrev main_v153 : Ref sig .tc := ⟨.hbm, 231, rfl⟩
abbrev main_cst_20 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_c_21 : Ref sig .tc := ⟨.hbm, 243, rfl⟩
abbrev main_v164 : Ref sig .tc := ⟨.hbm, 244, rfl⟩
abbrev main_v165 : Ref sig .tc := ⟨.hbm, 245, rfl⟩
abbrev main_cst_22 : Ref sig .tc := ⟨.hbm, 246, rfl⟩
abbrev main_call10_v0 : Ref sig .tc := ⟨.hbm, 247, rfl⟩
abbrev main_v166 : Ref sig .tc := ⟨.hbm, 248, rfl⟩
abbrev main_cst_23 : Ref sig .tc := ⟨.hbm, 249, rfl⟩
abbrev main_v167 : Ref sig .tc := ⟨.hbm, 250, rfl⟩
abbrev main_cst_24 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_cst_25 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_call11_cst : Ref sig .tc := ⟨.hbm, 264, rfl⟩
abbrev main_call11_v0 : Ref sig .tc := ⟨.hbm, 265, rfl⟩
abbrev main_call11_v1 : Ref sig .tc := ⟨.hbm, 266, rfl⟩
abbrev main_call11_cst_0 : Ref sig .tc := ⟨.hbm, 267, rfl⟩
abbrev main_call11_v2 : Ref sig .tc := ⟨.hbm, 268, rfl⟩
abbrev main_call11_v3 : Ref sig .tc := ⟨.hbm, 269, rfl⟩
abbrev main_call11_cst_1 : Ref sig .tc := ⟨.hbm, 270, rfl⟩
abbrev main_call11_call0_v0 : Ref sig .tc := ⟨.hbm, 271, rfl⟩
abbrev main_call11_call0_v1 : Ref sig .tc := ⟨.hbm, 272, rfl⟩
abbrev main_call11_v4 : Ref sig .tc := ⟨.hbm, 273, rfl⟩
abbrev main_call11_v5 : Ref sig .tc := ⟨.hbm, 274, rfl⟩
abbrev main_call11_cst_2 : Ref sig .tc := ⟨.hbm, 275, rfl⟩
abbrev main_call11_v6 : Ref sig .tc := ⟨.hbm, 276, rfl⟩
abbrev main_call11_v7 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_cst_26 : Ref sig .tc := ⟨.hbm, 289, rfl⟩
abbrev main_v190 : Ref sig .tc := ⟨.hbm, 290, rfl⟩
abbrev main_v191 : Ref sig .tc := ⟨.hbm, 291, rfl⟩
abbrev main_cst_27 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_c_28 : Ref sig .tc := ⟨.hbm, 303, rfl⟩
abbrev main_v202 : Ref sig .tc := ⟨.hbm, 304, rfl⟩
abbrev main_v203 : Ref sig .tc := ⟨.hbm, 305, rfl⟩
abbrev main_cst_29 : Ref sig .tc := ⟨.hbm, 306, rfl⟩
abbrev main_call13_v0 : Ref sig .tc := ⟨.hbm, 307, rfl⟩
abbrev main_v204 : Ref sig .tc := ⟨.hbm, 308, rfl⟩
abbrev main_cst_30 : Ref sig .tc := ⟨.hbm, 309, rfl⟩
abbrev main_v205 : Ref sig .tc := ⟨.hbm, 310, rfl⟩
abbrev main_cst_31 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_cst_32 : Ref sig .tc := ⟨.hbm, 318, rfl⟩
abbrev main_v212 : Ref sig .tc := ⟨.hbm, 319, rfl⟩
abbrev main_v213 : Ref sig .tc := ⟨.hbm, 320, rfl⟩
abbrev main_v214 : Ref sig .tc := ⟨.hbm, 321, rfl⟩
abbrev main_v215 : Ref sig .tc := ⟨.hbm, 322, rfl⟩
abbrev main_v216 : Ref sig .tc := ⟨.hbm, 323, rfl⟩
abbrev main_call14_cst : Ref sig .tc := ⟨.hbm, 324, rfl⟩
abbrev main_call14_v0 : Ref sig .tc := ⟨.hbm, 325, rfl⟩
abbrev main_call14_v1 : Ref sig .tc := ⟨.hbm, 326, rfl⟩
abbrev main_call14_cst_0 : Ref sig .tc := ⟨.hbm, 327, rfl⟩
abbrev main_call14_v2 : Ref sig .tc := ⟨.hbm, 328, rfl⟩
abbrev main_call14_v3 : Ref sig .tc := ⟨.hbm, 329, rfl⟩
abbrev main_call14_cst_1 : Ref sig .tc := ⟨.hbm, 330, rfl⟩
abbrev main_call14_call0_v0 : Ref sig .tc := ⟨.hbm, 331, rfl⟩
abbrev main_call14_call0_v1 : Ref sig .tc := ⟨.hbm, 332, rfl⟩
abbrev main_call14_v4 : Ref sig .tc := ⟨.hbm, 333, rfl⟩
abbrev main_call14_v5 : Ref sig .tc := ⟨.hbm, 334, rfl⟩
abbrev main_call14_cst_2 : Ref sig .tc := ⟨.hbm, 335, rfl⟩
abbrev main_call14_v6 : Ref sig .tc := ⟨.hbm, 336, rfl⟩
abbrev main_call14_v7 : Ref sig .tc := ⟨.hbm, 337, rfl⟩
abbrev main_v217 : Ref sig .tc := ⟨.hbm, 338, rfl⟩
abbrev main_call15_cst : Ref sig .tc := ⟨.hbm, 339, rfl⟩
abbrev main_call15_v0 : Ref sig .tc := ⟨.hbm, 340, rfl⟩
abbrev main_call15_cst_0 : Ref sig .tc := ⟨.hbm, 341, rfl⟩
abbrev main_call15_v1 : Ref sig .tc := ⟨.hbm, 342, rfl⟩
abbrev main_call15_v2 : Ref sig .tc := ⟨.hbm, 343, rfl⟩
abbrev main_call15_v3 : Ref sig .tc := ⟨.hbm, 344, rfl⟩
abbrev main_call15_v4 : Ref sig .tc := ⟨.hbm, 345, rfl⟩
abbrev main_call15_v5 : Ref sig .tc := ⟨.hbm, 346, rfl⟩
abbrev main_call15_v6 : Ref sig .tc := ⟨.hbm, 347, rfl⟩
abbrev main_call15_cst_1 : Ref sig .tc := ⟨.hbm, 348, rfl⟩
abbrev main_call15_v7 : Ref sig .tc := ⟨.hbm, 349, rfl⟩
abbrev main_call15_v8 : Ref sig .tc := ⟨.hbm, 350, rfl⟩
abbrev main_call15_v9 : Ref sig .tc := ⟨.hbm, 351, rfl⟩
abbrev main_call15_v10 : Ref sig .tc := ⟨.hbm, 352, rfl⟩
abbrev main_v218 : Ref sig .tc := ⟨.hbm, 353, rfl⟩

abbrev nD : Nat := 1
abbrev τ : Topo := Topo.v7x

variable {F : FTy → Type} [FloatOps F]

class Facts₀ : Prop where
  slices_S4x512x64_S1x512x64_0_0_0 : S4x512x64.Slices ![0, 0, 0] S1x512x64
  shapeCasts_S1x512x64_S512x64 : S1x512x64.ShapeCasts S512x64
  slices_S4x128x1_S1x128x1_0_0_0 : S4x128x1.Slices ![0, 0, 0] S1x128x1
  shapeCasts_S1x128x1_S128x1 : S1x128x1.ShapeCasts S128x1
  slices_S4_S1_0 : S4.Slices ![0] S1
  shapeCasts_S1_S_ : S1.ShapeCasts S_
  slices_S128x1_S64x1_0_0 : S128x1.Slices ![0, 0] S64x1
  slices_S128x1_S64x1_64_0 : S128x1.Slices ![64, 0] S64x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S_S4096x64 : S_.BroadcastsInDim S4096x64 (![] : Fin 0 → Fin S4096x64.rank)
  slices_S4x512x64_S1x512x64_1_0_0 : S4x512x64.Slices ![1, 0, 0] S1x512x64
  slices_S4x128x1_S1x128x1_1_0_0 : S4x128x1.Slices ![1, 0, 0] S1x128x1
  slices_S4_S1_1 : S4.Slices ![1] S1
  slices_S4x512x64_S1x512x64_2_0_0 : S4x512x64.Slices ![2, 0, 0] S1x512x64
  slices_S4x128x1_S1x128x1_2_0_0 : S4x128x1.Slices ![2, 0, 0] S1x128x1
  slices_S4_S1_2 : S4.Slices ![2] S1
  slices_S4x512x64_S1x512x64_3_0_0 : S4x512x64.Slices ![3, 0, 0] S1x512x64
  slices_S4x128x1_S1x128x1_3_0_0 : S4x128x1.Slices ![3, 0, 0] S1x128x1
  slices_S4_S1_3 : S4.Slices ![3] S1
  concatenates_S4096x64_S4096x64_S4096x64_S4096x64_S4096x256_d1 : Shape.Concatenates [S4096x64, S4096x64, S4096x64, S4096x64] S4096x256 1
  slices_S32x1_S16x1_0_0 : S32x1.Slices ![0, 0] S16x1
  slices_S32x1_S16x1_16_0 : S32x1.Slices ![16, 0] S16x1
  bcast_S_S4096x16 : S_.BroadcastsInDim S4096x16 (![] : Fin 0 → Fin S4096x16.rank)
  reducesTo_S4096x16_S4096_d1 : S4096x16.ReducesTo [1] S4096
  bcast_S4096x1_S4096x16_0_1 : S4096x1.BroadcastsInDim S4096x16 (![0, 1] : Fin 2 → Fin S4096x16.rank)
  dot_S4096x512_S512x64_S4096x64_1_0_0_1_n_n_wf : DotDims.WF S4096x512 S512x64 S4096x64 [1] [0] [0] [1] [] []
  dot_S4096x64_S64x1_S4096x1_1_0_0_1_n_n_wf : DotDims.WF S4096x64 S64x1 S4096x1 [1] [0] [0] [1] [] []
  dot_S4096x4096_S4096x64_S4096x64_1_0_0_1_n_n_wf : DotDims.WF S4096x4096 S4096x64 S4096x64 [1] [0] [0] [1] [] []
  dot_S4096x256_S256x16_S4096x16_1_0_0_1_n_n_wf : DotDims.WF S4096x256 S256x16 S4096x16 [1] [0] [0] [1] [] []
  dot_S4096x16_S16x1_S4096x1_1_0_0_1_n_n_wf : DotDims.WF S4096x16 S16x1 S4096x1 [1] [0] [0] [1] [] []
  dot_S4096x4096_S4096x16_S4096x16_1_0_0_1_n_n_wf : DotDims.WF S4096x4096 S4096x16 S4096x16 [1] [0] [0] [1] [] []

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x256_S256x16_S4096x16_1_0_0_1_n_n : DotDims S4096x256 S256x16 S4096x16 where
  lhsContracting := [1]
  rhsContracting := [0]
  lhsNonContracting := [0]
  rhsNonContracting := [1]
  lhsBatch := []
  rhsBatch := []
  wf := dot_S4096x256_S256x16_S4096x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf

class Facts : Prop extends Facts₀ where

variable [Facts]
-- ==== Proof.RefDefs.lean ====
/- The named terms of the reference run's intermediate arrays: each array that later operations read more than once, as
   the composition of @main's host operations over the argument arrays and the earlier names. Definitions only. -/
import proofs.«118500_g28080496181627_cont_9to1_1526_5_alg».proof.Proof.Gen.ReferenceIdeal
import Idealize.ShloMosaic.Lib.StableHlo.Run

set_option Elab.async false

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v3`'s composed term of the arguments (named: it is used 2 times). -/
def res_main_v3 (V0 : Valuation τ sig (Elt F)) : (Proc.devRef .tc main_v3 : DevRef τ sig).ty.Contents (Elt F) :=
  shapeCast _ (extractStridedSlice S1x128x1 ![0, 0, 0] (V0 (Proc.devRef .tc main_arg4)) slices_S4x128x1_S1x128x1_0_0_0) shapeCasts_S1x128x1_S128x1

set_option maxRecDepth 8192 in
/-- `main_v8`'s composed term of the arguments (named: it is used 3 times). -/
def res_main_v8 (V0 : Valuation τ sig (Elt F)) : (Proc.devRef .tc main_v8 : DevRef τ sig).ty.Contents (Elt F) :=
  Host.dotGeneral dot_S4096x512_S512x64_S4096x64_1_0_0_1_n_n none (V0 (Proc.devRef .tc main_arg0)) (shapeCast _ (extractStridedSlice S1x512x64 ![0, 0, 0] (V0 (Proc.devRef .tc main_arg3)) slices_S4x512x64_S1x512x64_0_0_0) shapeCasts_S1x512x64_S512x64)

set_option maxRecDepth 8192 in
/-- `main_v16`'s composed term of the arguments (named: it is used 3 times). -/
def res_main_v16 (V0 : Valuation τ sig (Elt F)) : (Proc.devRef .tc main_v16 : DevRef τ sig).ty.Contents (Elt F) :=
  addf (broadcastInDim S4096x4096 ![0, 1] bcast_S4096x1_S4096x4096_0_1 (Host.dotGeneral dot_S4096x64_S64x1_S4096x1_1_0_0_1_n_n none (res_main_v8 V0) (extractStridedSlice S64x1 ![0, 0] (res_main_v3 V0) slices_S128x1_S64x1_0_0))) (broadcastInDim S4096x4096 ![0, 1] bcast_S1x4096_S4096x4096_0_1 (transpose S1x4096 [1, 0] (Host.dotGeneral dot_S4096x64_S64x1_S4096x1_1_0_0_1_n_n none (res_main_v8 V0) (extractStridedSlice S64x1 ![64, 0] (res_main_v3 V0) slices_S128x1_S64x1_64_0)) transposes_S4096x1_S1x4096_1_0))

set_option maxRecDepth 8192 in
/-- `main_v31`'s composed term of the arguments (named: it is used 2 times). -/
def res_main_v31 (V0 : Valuation τ sig (Elt F)) : (Proc.devRef .tc main_v31 : DevRef τ sig).ty.Contents (Elt F) :=
  select (cmpi .sgt (V0 (Proc.devRef .tc main_arg1)) (broadcastInDim S4096x4096 ![] bcast_S_S4096x4096 (constantI S_ 32 0#32))) (addf (mulf (broadcastInDim S4096x4096 ![] bcast_S_S4096x4096 (Host.absf (shapeCast _ (extractStridedSlice S1 ![0] (V0 (Proc.devRef .tc main_arg5)) slices_S4_S1_0) shapeCasts_S1_S_))) (select (cmpf .ogt (res_main_v16 V0) (broadcastInDim S4096x4096 ![] bcast_S_S4096x4096 (constant S_ .f32 0x00000000#32))) (res_main_v16 V0) (mulf (broadcastInDim S4096x4096 ![] bcast_S_S4096x4096 (constant S_ .f32 0x3E4CCCCD#32)) (res_main_v16 V0)))) (mulf (broadcastInDim S4096x4096 ![] bcast_S_S4096x4096 (Host.absf (shapeCast _ (extractStridedSlice S1 ![0] (V0 (Proc.devRef .tc main_arg6)) slices_S4_S1_0) shapeCasts_S1_S_))) (V0 (Proc.devRef .tc main_arg2)))) (broadcastInDim S4096x4096 ![] bcast_S_S4096x4096 (constant S_ .f32 0xD9FFCB9E#32))

set_option maxRecDepth 8192 in
/-- `main_v38`'s composed term of the arguments (named: it is used 2 times). -/
def res_main_v38 (V0 : Valuation τ sig (Elt F)) : (Proc.devRef .tc main_v38 : DevRef τ sig).ty.Contents (Elt F) :=
  Host.exp (subf (res_main_v31 V0) (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf (res_main_v31 V0) (constant S_ .f32 0xFF800000#32) reducesTo_S4096x4096_S4096_d1 h_S_)))))

set_option maxRecDepth 8192 in
/-- `main_v43`'s composed term of the arguments (named: it is used 4 times). -/
def res_main_v43 (V0 : Valuation τ sig (Elt F)) : (Proc.devRef .tc main_v43 : DevRef τ sig).ty.Contents (Elt F) :=
  Host.dotGeneral dot_S4096x4096_S4096x64_S4096x64_1_0_0_1_n_n none (Host.divf (res_main_v38 V0) (broadcastInDim S4096x4096 ![0, 1] bcast_S4096x1_S4096x4096_0_1 (broadcastInDim S4096x1 ![0] bcast_S4096_S4096x1_0 (Host.reduceAdd (res_main_v38 V0) (constant S_ .f32 0x00000000#32) reducesTo_S4096x4096_S4096_d1 h_S_)))) (res_main_v8 V0)

set_option maxRecDepth 8192 in
/-- `main_v48`'s composed term of the arguments (named: it is used 2 times). -/
def res_main_v48 (V0 : Valuation τ sig (Elt F)) : (Proc.devRef .tc main_v48 : DevRef τ sig).ty.Contents (Elt F) :=
  shapeCast _ (extractStridedSlice S1x128x1 ![1, 0, 0] (V0 (Proc.devRef .tc main_arg4)) slices_S4x128x1_S1x128x1_1_0_0) shapeCasts_S1x128x1_S128x1

set_option maxRecDepth 8192 in
/-- `main_v53`'s composed term of the arguments (named: it is used 3 times). -/
def res_main_v53 (V0 : Valuation τ sig (Elt F)) : (Proc.devRef .tc main_v53 : DevRef τ sig).ty.Contents (Elt F) :=
  Host.dotGeneral dot_S4096x512_S512x64_S4096x64_1_0_0_1_n_n none (V0 (Proc.devRef .tc main_arg0)) (shapeCast _ (extractStridedSlice S1x512x64 ![1, 0, 0] (V0 (Proc.devRef .tc main_arg3)) slices_S4x512x64_S1x512x64_1_0_0) shapeCasts_S1x512x64_S512x64)

set_option maxRecDepth 8192 in
/-- `main_v61`'s composed term of the arguments (named: it is used 3 times). -/
def res_main_v61 (V0 : Valuation τ sig (Elt F)) : (Proc.devRef .tc main_v61 : DevRef τ sig).ty.Contents (Elt F) :=
  addf (broadcastInDim S4096x4096 ![0, 1] bcast_S4096x1_S4096x4096_0_1 (Host.dotGeneral dot_S4096x64_S64x1_S4096x1_1_0_0_1_n_n none (res_main_v53 V0) (extractStridedSlice S64x1 ![0, 0] (res_main_v48 V0) slices_S128x1_S64x1_0_0))) (broadcastInDim S4096x4096 ![0, 1] bcast_S1x4096_S4096x4096_0_1 (transpose S1x4096 [1, 0] (Host.dotGeneral dot_S4096x64_S64x1_S4096x1_1_0_0_1_n_n none (res_main_v53 V0) (extractStridedSlice S64x1 ![64, 0] (res_main_v48 V0) slices_S128x1_S64x1_64_0)) transposes_S4096x1_S1x4096_1_0))

set_option maxRecDepth 8192 in
/-- `main_v76`'s composed term of the arguments (named: it is used 2 times). -/
def res_main_v76 (V0 : Valuation τ sig (Elt F)) : (Proc.devRef .tc main_v76 : DevRef τ sig).ty.Contents (Elt F) :=
  select (cmpi .sgt (V0 (Proc.devRef .tc main_arg1)) (broadcastInDim S4096x4096 ![] bcast_S_S4096x4096 (constantI S_ 32 0#32))) (addf (mulf (broadcastInDim S4096x4096 ![] bcast_S_S4096x4096 (Host.absf (shapeCast _ (extractStridedSlice S1 ![1] (V0 (Proc.devRef .tc main_arg5)) slices_S4_S1_1) shapeCasts_S1_S_))) (select (cmpf .ogt (res_main_v61 V0) (broadcastInDim S4096x4096 ![] bcast_S_S4096x4096 (constant S_ .f32 0x00000000#32))) (res_main_v61 V0) (mulf (broadcastInDim S4096x4096 ![] bcast_S_S4096x4096 (constant S_ .f32 0x3E4CCCCD#32)) (res_main_v61 V0)))) (mulf (broadcastInDim S4096x4096 ![] bcast_S_S4096x4096 (Host.absf (shapeCast _ (extractStridedSlice S1 ![1] (V0 (Proc.devRef .tc main_arg6)) slices_S4_S1_1) shapeCasts_S1_S_))) (V0 (Proc.devRef .tc main_arg2)))) (broadcastInDim S4096x4096 ![] bcast_S_S4096x4096 (constant S_ .f32 0xD9FFCB9E#32))

set_option maxRecDepth 8192 in
/-- `main_v83`'s composed term of the arguments (named: it is used 2 times). -/
def res_main_v83 (V0 : Valuation τ sig (Elt F)) : (Proc.devRef .tc main_v83 : DevRef τ sig).ty.Contents (Elt F) :=
  Host.exp (subf (res_main_v76 V0) (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf (res_main_v76 V0) (constant S_ .f32 0xFF800000#32) reducesTo_S4096x4096_S4096_d1 h_S_)))))

set_option maxRecDepth 8192 in
/-- `main_v88`'s composed term of the arguments (named: it is used 4 times). -/
def res_main_v88 (V0 : Valuation τ sig (Elt F)) : (Proc.devRef .tc main_v88 : DevRef τ sig).ty.Contents (Elt F) :=
  Host.dotGeneral dot_S4096x4096_S4096x64_S4096x64_1_0_0_1_n_n none (Host.divf (res_main_v83 V0) (broadcastInDim S4096x4096 ![0, 1] bcast_S4096x1_S4096x4096_0_1 (broadcastInDim S4096x1 ![0] bcast_S4096_S4096x1_0 (Host.reduceAdd (res_main_v83 V0) (constant S_ .f32 0x00000000#32) reducesTo_S4096x4096_S4096_d1 h_S_)))) (res_main_v53 V0)

set_option maxRecDepth 8192 in
/-- `main_v93`'s composed term of the arguments (named: it is used 2 times). -/
def res_main_v93 (V0 : Valuation τ sig (Elt F)) : (Proc.devRef .tc main_v93 : DevRef τ sig).ty.Contents (Elt F) :=
  shapeCast _ (extractStridedSlice S1x128x1 ![2, 0, 0] (V0 (Proc.devRef .tc main_arg4)) slices_S4x128x1_S1x128x1_2_0_0) shapeCasts_S1x128x1_S128x1

set_option maxRecDepth 8192 in
/-- `main_v98`'s composed term of the arguments (named: it is used 3 times). -/
def res_main_v98 (V0 : Valuation τ sig (Elt F)) : (Proc.devRef .tc main_v98 : DevRef τ sig).ty.Contents (Elt F) :=
  Host.dotGeneral dot_S4096x512_S512x64_S4096x64_1_0_0_1_n_n none (V0 (Proc.devRef .tc main_arg0)) (shapeCast _ (extractStridedSlice S1x512x64 ![2, 0, 0] (V0 (Proc.devRef .tc main_arg3)) slices_S4x512x64_S1x512x64_2_0_0) shapeCasts_S1x512x64_S512x64)

set_option maxRecDepth 8192 in
/-- `main_v106`'s composed term of the arguments (named: it is used 3 times). -/
def res_main_v106 (V0 : Valuation τ sig (Elt F)) : (Proc.devRef .tc main_v106 : DevRef τ sig).ty.Contents (Elt F) :=
  addf (broadcastInDim S4096x4096 ![0, 1] bcast_S4096x1_S4096x4096_0_1 (Host.dotGeneral dot_S4096x64_S64x1_S4096x1_1_0_0_1_n_n none (res_main_v98 V0) (extractStridedSlice S64x1 ![0, 0] (res_main_v93 V0) slices_S128x1_S64x1_0_0))) (broadcastInDim S4096x4096 ![0, 1] bcast_S1x4096_S4096x4096_0_1 (transpose S1x4096 [1, 0] (Host.dotGeneral dot_S4096x64_S64x1_S4096x1_1_0_0_1_n_n none (res_main_v98 V0) (extractStridedSlice S64x1 ![64, 0] (res_main_v93 V0) slices_S128x1_S64x1_64_0)) transposes_S4096x1_S1x4096_1_0))

set_option maxRecDepth 8192 in
/-- `main_v121`'s composed term of the arguments (named: it is used 2 times). -/
def res_main_v121 (V0 : Valuation τ sig (Elt F)) : (Proc.devRef .tc main_v121 : DevRef τ sig).ty.Contents (Elt F) :=
  select (cmpi .sgt (V0 (Proc.devRef .tc main_arg1)) (broadcastInDim S4096x4096 ![] bcast_S_S4096x4096 (constantI S_ 32 0#32))) (addf (mulf (broadcastInDim S4096x4096 ![] bcast_S_S4096x4096 (Host.absf (shapeCast _ (extractStridedSlice S1 ![2] (V0 (Proc.devRef .tc main_arg5)) slices_S4_S1_2) shapeCasts_S1_S_))) (select (cmpf .ogt (res_main_v106 V0) (broadcastInDim S4096x4096 ![] bcast_S_S4096x4096 (constant S_ .f32 0x00000000#32))) (res_main_v106 V0) (mulf (broadcastInDim S4096x4096 ![] bcast_S_S4096x4096 (constant S_ .f32 0x3E4CCCCD#32)) (res_main_v106 V0)))) (mulf (broadcastInDim S4096x4096 ![] bcast_S_S4096x4096 (Host.absf (shapeCast _ (extractStridedSlice S1 ![2] (V0 (Proc.devRef .tc main_arg6)) slices_S4_S1_2) shapeCasts_S1_S_))) (V0 (Proc.devRef .tc main_arg2)))) (broadcastInDim S4096x4096 ![] bcast_S_S4096x4096 (constant S_ .f32 0xD9FFCB9E#32))

set_option maxRecDepth 8192 in
/-- `main_v128`'s composed term of the arguments (named: it is used 2 times). -/
def res_main_v128 (V0 : Valuation τ sig (Elt F)) : (Proc.devRef .tc main_v128 : DevRef τ sig).ty.Contents (Elt F) :=
  Host.exp (subf (res_main_v121 V0) (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf (res_main_v121 V0) (constant S_ .f32 0xFF800000#32) reducesTo_S4096x4096_S4096_d1 h_S_)))))

set_option maxRecDepth 8192 in
/-- `main_v133`'s composed term of the arguments (named: it is used 4 times). -/
def res_main_v133 (V0 : Valuation τ sig (Elt F)) : (Proc.devRef .tc main_v133 : DevRef τ sig).ty.Contents (Elt F) :=
  Host.dotGeneral dot_S4096x4096_S4096x64_S4096x64_1_0_0_1_n_n none (Host.divf (res_main_v128 V0) (broadcastInDim S4096x4096 ![0, 1] bcast_S4096x1_S4096x4096_0_1 (broadcastInDim S4096x1 ![0] bcast_S4096_S4096x1_0 (Host.reduceAdd (res_main_v128 V0) (constant S_ .f32 0x00000000#32) reducesTo_S4096x4096_S4096_d1 h_S_)))) (res_main_v98 V0)

set_option maxRecDepth 8192 in
/-- `main_v138`'s composed term of the arguments (named: it is used 2 times). -/
def res_main_v138 (V0 : Valuation τ sig (Elt F)) : (Proc.devRef .tc main_v138 : DevRef τ sig).ty.Contents (Elt F) :=
  shapeCast _ (extractStridedSlice S1x128x1 ![3, 0, 0] (V0 (Proc.devRef .tc main_arg4)) slices_S4x128x1_S1x128x1_3_0_0) shapeCasts_S1x128x1_S128x1

set_option maxRecDepth 8192 in
/-- `main_v143`'s composed term of the arguments (named: it is used 3 times). -/
def res_main_v143 (V0 : Valuation τ sig (Elt F)) : (Proc.devRef .tc main_v143 : DevRef τ sig).ty.Contents (Elt F) :=
  Host.dotGeneral dot_S4096x512_S512x64_S4096x64_1_0_0_1_n_n none (V0 (Proc.devRef .tc main_arg0)) (shapeCast _ (extractStridedSlice S1x512x64 ![3, 0, 0] (V0 (Proc.devRef .tc main_arg3)) slices_S4x512x64_S1x512x64_3_0_0) shapeCasts_S1x512x64_S512x64)

set_option maxRecDepth 8192 in
/-- `main_v151`'s composed term of the arguments (named: it is used 3 times). -/
def res_main_v151 (V0 : Valuation τ sig (Elt F)) : (Proc.devRef .tc main_v151 : DevRef τ sig).ty.Contents (Elt F) :=
  addf (broadcastInDim S4096x4096 ![0, 1] bcast_S4096x1_S4096x4096_0_1 (Host.dotGeneral dot_S4096x64_S64x1_S4096x1_1_0_0_1_n_n none (res_main_v143 V0) (extractStridedSlice S64x1 ![0, 0] (res_main_v138 V0) slices_S128x1_S64x1_0_0))) (broadcastInDim S4096x4096 ![0, 1] bcast_S1x4096_S4096x4096_0_1 (transpose S1x4096 [1, 0] (Host.dotGeneral dot_S4096x64_S64x1_S4096x1_1_0_0_1_n_n none (res_main_v143 V0) (extractStridedSlice S64x1 ![64, 0] (res_main_v138 V0) slices_S128x1_S64x1_64_0)) transposes_S4096x1_S1x4096_1_0))

set_option maxRecDepth 8192 in
/-- `main_v166`'s composed term of the arguments (named: it is used 2 times). -/
def res_main_v166 (V0 : Valuation τ sig (Elt F)) : (Proc.devRef .tc main_v166 : DevRef τ sig).ty.Contents (Elt F) :=
  select (cmpi .sgt (V0 (Proc.devRef .tc main_arg1)) (broadcastInDim S4096x4096 ![] bcast_S_S4096x4096 (constantI S_ 32 0#32))) (addf (mulf (broadcastInDim S4096x4096 ![] bcast_S_S4096x4096 (Host.absf (shapeCast _ (extractStridedSlice S1 ![3] (V0 (Proc.devRef .tc main_arg5)) slices_S4_S1_3) shapeCasts_S1_S_))) (select (cmpf .ogt (res_main_v151 V0) (broadcastInDim S4096x4096 ![] bcast_S_S4096x4096 (constant S_ .f32 0x00000000#32))) (res_main_v151 V0) (mulf (broadcastInDim S4096x4096 ![] bcast_S_S4096x4096 (constant S_ .f32 0x3E4CCCCD#32)) (res_main_v151 V0)))) (mulf (broadcastInDim S4096x4096 ![] bcast_S_S4096x4096 (Host.absf (shapeCast _ (extractStridedSlice S1 ![3] (V0 (Proc.devRef .tc main_arg6)) slices_S4_S1_3) shapeCasts_S1_S_))) (V0 (Proc.devRef .tc main_arg2)))) (broadcastInDim S4096x4096 ![] bcast_S_S4096x4096 (constant S_ .f32 0xD9FFCB9E#32))

set_option maxRecDepth 8192 in
/-- `main_v173`'s composed term of the arguments (named: it is used 2 times). -/
def res_main_v173 (V0 : Valuation τ sig (Elt F)) : (Proc.devRef .tc main_v173 : DevRef τ sig).ty.Contents (Elt F) :=
  Host.exp (subf (res_main_v166 V0) (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf (res_main_v166 V0) (constant S_ .f32 0xFF800000#32) reducesTo_S4096x4096_S4096_d1 h_S_)))))

set_option maxRecDepth 8192 in
/-- `main_v178`'s composed term of the arguments (named: it is used 4 times). -/
def res_main_v178 (V0 : Valuation τ sig (Elt F)) : (Proc.devRef .tc main_v178 : DevRef τ sig).ty.Contents (Elt F) :=
  Host.dotGeneral dot_S4096x4096_S4096x64_S4096x64_1_0_0_1_n_n none (Host.divf (res_main_v173 V0) (broadcastInDim S4096x4096 ![0, 1] bcast_S4096x1_S4096x4096_0_1 (broadcastInDim S4096x1 ![0] bcast_S4096_S4096x1_0 (Host.reduceAdd (res_main_v173 V0) (constant S_ .f32 0x00000000#32) reducesTo_S4096x4096_S4096_d1 h_S_)))) (res_main_v143 V0)

set_option maxRecDepth 8192 in
/-- `main_v181`'s composed term of the arguments (named: it is used 3 times). -/
def res_main_v181 (V0 : Valuation τ sig (Elt F)) : (Proc.devRef .tc main_v181 : DevRef τ sig).ty.Contents (Elt F) :=
  Host.dotGeneral dot_S4096x256_S256x16_S4096x16_1_0_0_1_n_n none (concatenate S4096x256 1 [⟨S4096x64, (select (cmpf .ogt (res_main_v43 V0) (broadcastInDim S4096x64 ![] bcast_S_S4096x64 (constant S_ .f32 0x00000000#32))) (res_main_v43 V0) (mulf (broadcastInDim S4096x64 ![] bcast_S_S4096x64 (constant S_ .f32 0x3F800000#32)) (Host.expm1 (select (cmpf .ogt (res_main_v43 V0) (broadcastInDim S4096x64 ![] bcast_S_S4096x64 (constant S_ .f32 0x00000000#32))) (broadcastInDim S4096x64 ![] bcast_S_S4096x64 (id (constant S_ .f32 0x00000000#32))) (res_main_v43 V0)))))⟩, ⟨S4096x64, (select (cmpf .ogt (res_main_v88 V0) (broadcastInDim S4096x64 ![] bcast_S_S4096x64 (constant S_ .f32 0x00000000#32))) (res_main_v88 V0) (mulf (broadcastInDim S4096x64 ![] bcast_S_S4096x64 (constant S_ .f32 0x3F800000#32)) (Host.expm1 (select (cmpf .ogt (res_main_v88 V0) (broadcastInDim S4096x64 ![] bcast_S_S4096x64 (constant S_ .f32 0x00000000#32))) (broadcastInDim S4096x64 ![] bcast_S_S4096x64 (id (constant S_ .f32 0x00000000#32))) (res_main_v88 V0)))))⟩, ⟨S4096x64, (select (cmpf .ogt (res_main_v133 V0) (broadcastInDim S4096x64 ![] bcast_S_S4096x64 (constant S_ .f32 0x00000000#32))) (res_main_v133 V0) (mulf (broadcastInDim S4096x64 ![] bcast_S_S4096x64 (constant S_ .f32 0x3F800000#32)) (Host.expm1 (select (cmpf .ogt (res_main_v133 V0) (broadcastInDim S4096x64 ![] bcast_S_S4096x64 (constant S_ .f32 0x00000000#32))) (broadcastInDim S4096x64 ![] bcast_S_S4096x64 (id (constant S_ .f32 0x00000000#32))) (res_main_v133 V0)))))⟩, ⟨S4096x64, (select (cmpf .ogt (res_main_v178 V0) (broadcastInDim S4096x64 ![] bcast_S_S4096x64 (constant S_ .f32 0x00000000#32))) (res_main_v178 V0) (mulf (broadcastInDim S4096x64 ![] bcast_S_S4096x64 (constant S_ .f32 0x3F800000#32)) (Host.expm1 (select (cmpf .ogt (res_main_v178 V0) (broadcastInDim S4096x64 ![] bcast_S_S4096x64 (constant S_ .f32 0x00000000#32))) (broadcastInDim S4096x64 ![] bcast_S_S4096x64 (id (constant S_ .f32 0x00000000#32))) (res_main_v178 V0)))))⟩] concatenates_S4096x64_S4096x64_S4096x64_S4096x64_S4096x256_d1) (V0 (Proc.devRef .tc main_arg7))

set_option maxRecDepth 8192 in
/-- `main_v189`'s composed term of the arguments (named: it is used 3 times). -/
def res_main_v189 (V0 : Valuation τ sig (Elt F)) : (Proc.devRef .tc main_v189 : DevRef τ sig).ty.Contents (Elt F) :=
  addf (broadcastInDim S4096x4096 ![0, 1] bcast_S4096x1_S4096x4096_0_1 (Host.dotGeneral dot_S4096x16_S16x1_S4096x1_1_0_0_1_n_n none (res_main_v181 V0) (extractStridedSlice S16x1 ![0, 0] (V0 (Proc.devRef .tc main_arg8)) slices_S32x1_S16x1_0_0))) (broadcastInDim S4096x4096 ![0, 1] bcast_S1x4096_S4096x4096_0_1 (transpose S1x4096 [1, 0] (Host.dotGeneral dot_S4096x16_S16x1_S4096x1_1_0_0_1_n_n none (res_main_v181 V0) (extractStridedSlice S16x1 ![16, 0] (V0 (Proc.devRef .tc main_arg8)) slices_S32x1_S16x1_16_0)) transposes_S4096x1_S1x4096_1_0))

set_option maxRecDepth 8192 in
/-- `main_v204`'s composed term of the arguments (named: it is used 2 times). -/
def res_main_v204 (V0 : Valuation τ sig (Elt F)) : (Proc.devRef .tc main_v204 : DevRef τ sig).ty.Contents (Elt F) :=
  select (cmpi .sgt (V0 (Proc.devRef .tc main_arg1)) (broadcastInDim S4096x4096 ![] bcast_S_S4096x4096 (constantI S_ 32 0#32))) (addf (mulf (broadcastInDim S4096x4096 ![] bcast_S_S4096x4096 (Host.absf (V0 (Proc.devRef .tc main_arg9)))) (select (cmpf .ogt (res_main_v189 V0) (broadcastInDim S4096x4096 ![] bcast_S_S4096x4096 (constant S_ .f32 0x00000000#32))) (res_main_v189 V0) (mulf (broadcastInDim S4096x4096 ![] bcast_S_S4096x4096 (constant S_ .f32 0x3E4CCCCD#32)) (res_main_v189 V0)))) (mulf (broadcastInDim S4096x4096 ![] bcast_S_S4096x4096 (Host.absf (V0 (Proc.devRef .tc main_arg10)))) (V0 (Proc.devRef .tc main_arg2)))) (broadcastInDim S4096x4096 ![] bcast_S_S4096x4096 (constant S_ .f32 0xD9FFCB9E#32))

set_option maxRecDepth 8192 in
/-- `main_v211`'s composed term of the arguments (named: it is used 2 times). -/
def res_main_v211 (V0 : Valuation τ sig (Elt F)) : (Proc.devRef .tc main_v211 : DevRef τ sig).ty.Contents (Elt F) :=
  Host.exp (subf (res_main_v204 V0) (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf (res_main_v204 V0) (constant S_ .f32 0xFF800000#32) reducesTo_S4096x4096_S4096_d1 h_S_)))))

set_option maxRecDepth 8192 in
/-- `main_v216`'s composed term of the arguments (named: it is used 4 times). -/
def res_main_v216 (V0 : Valuation τ sig (Elt F)) : (Proc.devRef .tc main_v216 : DevRef τ sig).ty.Contents (Elt F) :=
  Host.dotGeneral dot_S4096x4096_S4096x16_S4096x16_1_0_0_1_n_n none (Host.divf (res_main_v211 V0) (broadcastInDim S4096x4096 ![0, 1] bcast_S4096x1_S4096x4096_0_1 (broadcastInDim S4096x1 ![0] bcast_S4096_S4096x1_0 (Host.reduceAdd (res_main_v211 V0) (constant S_ .f32 0x00000000#32) reducesTo_S4096x4096_S4096_d1 h_S_)))) (res_main_v181 V0)

set_option maxRecDepth 8192 in
/-- `main_v217`'s composed term of the arguments (named: it is used 2 times). -/
def res_main_v217 (V0 : Valuation τ sig (Elt F)) : (Proc.devRef .tc main_v217 : DevRef τ sig).ty.Contents (Elt F) :=
  select (cmpf .ogt (res_main_v216 V0) (broadcastInDim S4096x16 ![] bcast_S_S4096x16 (constant S_ .f32 0x00000000#32))) (res_main_v216 V0) (mulf (broadcastInDim S4096x16 ![] bcast_S_S4096x16 (constant S_ .f32 0x3F800000#32)) (Host.expm1 (select (cmpf .ogt (res_main_v216 V0) (broadcastInDim S4096x16 ![] bcast_S_S4096x16 (constant S_ .f32 0x00000000#32))) (broadcastInDim S4096x16 ![] bcast_S_S4096x16 (id (constant S_ .f32 0x00000000#32))) (res_main_v216 V0))))

set_option maxRecDepth 8192 in
/-- `main_call15_v5`'s composed term of the arguments (named: it is used 2 times). -/
def res_main_call15_v5 (V0 : Valuation τ sig (Elt F)) : (Proc.devRef .tc main_call15_v5 : DevRef τ sig).ty.Contents (Elt F) :=
  subf (res_main_v217 V0) (broadcastInDim S4096x16 ![0, 1] bcast_S4096x1_S4096x16_0_1 (broadcastInDim S4096x1 ![0] bcast_S4096_S4096x1_0 (maximumf (broadcastInDim S4096 ![] bcast_S_S4096 (constant S_ .f32 0xFF800000#32)) (Host.reduce FloatOps.maximumf (res_main_v217 V0) (constant S_ .f32 0xFF800000#32) reducesTo_S4096x16_S4096_d1 h_S_))))

end Cert.ReferenceIdeal.RunH

end
-- ==== Proof.RefRun.lean ====
/- The reference's @main as a list of host operations, each called function's operations standing in its call's place over
   the call's own buffers, and its run read back window by window: every weakly fair execution ends with the result at
   a named term (Proof/RefDefs.lean) of the arguments' launch contents and the arguments unchanged. -/
import proofs.«118500_g28080496181627_cont_9to1_1526_5_alg».proof.Proof.Gen.ReferenceIdeal
import proofs.«118500_g28080496181627_cont_9to1_1526_5_alg».proof.Proof.RefDefs
import Idealize.ShloMosaic.Lib.StableHlo.Run
import Idealize.ShloMosaic.Lib.Pipeline.Frame

set_option Elab.async false

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v180`, named. It packs its operands into a list of dependent pairs
    whose shapes a later argument's type mentions, so `simp` cannot rewrite an operand where it stands; applied by
    name, the operands are plain arguments, which the window lemmas below rewrite before the name unfolds. -/
def fn_main_v180 : (main_v44 : Ref sig .tc).ty.Contents (Elt F) → (main_v89 : Ref sig .tc).ty.Contents (Elt F) → (main_v134 : Ref sig .tc).ty.Contents (Elt F) → (main_v179 : Ref sig .tc).ty.Contents (Elt F) → (main_v180 : Ref sig .tc).ty.Contents (Elt F) :=
  (fun u0 u1 u2 u3 => concatenate S4096x256 1 [⟨S4096x64, u0⟩, ⟨S4096x64, u1⟩, ⟨S4096x64, u2⟩, ⟨S4096x64, u3⟩] concatenates_S4096x64_S4096x64_S4096x64_S4096x64_S4096x256_d1)

/-- @main's operations 1 … 75 of 343 (window `main_part0`). -/
abbrev ops_part0 : List (HloOp τ sig (Elt F)) :=
  [ unary main_arg3 main_v0 ((extractStridedSlice S1x512x64 ![0, 0, 0] · slices_S4x512x64_S1x512x64_0_0_0) : (⟨S4x512x64, .f32⟩ : BufTy).Contents (Elt F) → (⟨S1x512x64, .f32⟩ : BufTy).Contents (Elt F)),
    reshape main_v0 main_v1 rfl shapeCasts_S1x512x64_S512x64,
    unary main_arg4 main_v2 ((extractStridedSlice S1x128x1 ![0, 0, 0] · slices_S4x128x1_S1x128x1_0_0_0) : (⟨S4x128x1, .f32⟩ : BufTy).Contents (Elt F) → (⟨S1x128x1, .f32⟩ : BufTy).Contents (Elt F)),
    reshape main_v2 main_v3 rfl shapeCasts_S1x128x1_S128x1,
    unary main_arg5 main_v4 ((extractStridedSlice S1 ![0] · slices_S4_S1_0) : (⟨S4, .f32⟩ : BufTy).Contents (Elt F) → (⟨S1, .f32⟩ : BufTy).Contents (Elt F)),
    reshape main_v4 main_v5 rfl shapeCasts_S1_S_,
    unary main_arg6 main_v6 ((extractStridedSlice S1 ![0] · slices_S4_S1_0) : (⟨S4, .f32⟩ : BufTy).Contents (Elt F) → (⟨S1, .f32⟩ : BufTy).Contents (Elt F)),
    reshape main_v6 main_v7 rfl shapeCasts_S1_S_,
    binary main_arg0 main_v1 main_v8 ((fun l r => Host.dotGeneral dot_S4096x512_S512x64_S4096x64_1_0_0_1_n_n none l r) : (⟨S4096x512, .f32⟩ : BufTy).Contents (Elt F) → (⟨S512x64, .f32⟩ : BufTy).Contents (Elt F) → (⟨S4096x64, .f32⟩ : BufTy).Contents (Elt F)),
    unary main_v3 main_v9 ((extractStridedSlice S64x1 ![0, 0] · slices_S128x1_S64x1_0_0) : (⟨S128x1, .f32⟩ : BufTy).Contents (Elt F) → (⟨S64x1, .f32⟩ : BufTy).Contents (Elt F)),
    binary main_v8 main_v9 main_v10 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_v3 main_v11 ((extractStridedSlice S64x1 ![64, 0] · slices_S128x1_S64x1_64_0) : (⟨S128x1, .f32⟩ : BufTy).Contents (Elt F) → (⟨S64x1, .f32⟩ : BufTy).Contents (Elt F)),
    binary main_v8 main_v11 main_v12 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_v12 main_v13 ((transpose S1x4096 [1, 0] · transposes_S4096x1_S1x4096_1_0) : (⟨S4096x1, .f32⟩ : BufTy).Contents (Elt F) → (⟨S1x4096, .f32⟩ : BufTy).Contents (Elt F)),
    unary main_v10 main_v14 (broadcastInDim S4096x4096 ![0, 1] bcast_S4096x1_S4096x4096_0_1 : (⟨S4096x1, .f32⟩ : BufTy).Contents (Elt F) → (⟨S4096x4096, .f32⟩ : BufTy).Contents (Elt F)),
    unary main_v13 main_v15 (broadcastInDim S4096x4096 ![0, 1] bcast_S1x4096_S4096x4096_0_1 : (⟨S1x4096, .f32⟩ : BufTy).Contents (Elt F) → (⟨S4096x4096, .f32⟩ : BufTy).Contents (Elt F)),
    binary main_v14 main_v15 main_v16 (addf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x00000000#32),
    unary main_cst main_v17 (broadcastInDim S4096x4096 ![] bcast_S_S4096x4096 : (⟨S_, .f32⟩ : BufTy).Contents (Elt F) → (⟨S4096x4096, .f32⟩ : BufTy).Contents (Elt F)),
    binary main_v16 main_v17 main_v18 (cmpf .ogt : (⟨S4096x4096, .f32⟩ : BufTy).Contents (Elt F) → (⟨S4096x4096, .f32⟩ : BufTy).Contents (Elt F) → (⟨S4096x4096, .i1⟩ : BufTy).Contents (Elt F)),
    nullary main_cst_0 (constant S_ .f32 0x3E4CCCCD#32),
    unary main_cst_0 main_v19 (broadcastInDim S4096x4096 ![] bcast_S_S4096x4096 : (⟨S_, .f32⟩ : BufTy).Contents (Elt F) → (⟨S4096x4096, .f32⟩ : BufTy).Contents (Elt F)),
    binary main_v19 main_v16 main_v20 (mulf : (⟨S4096x4096, .f32⟩ : BufTy).Contents (Elt F) → (⟨S4096x4096, .f32⟩ : BufTy).Contents (Elt F) → (⟨S4096x4096, .f32⟩ : BufTy).Contents (Elt F)),
    ternary main_v18 main_v16 main_v20 main_v21 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    unary main_v5 main_v22 (Host.absf : (⟨S_, .f32⟩ : BufTy).Contents (Elt F) → (⟨S_, .f32⟩ : BufTy).Contents (Elt F)),
    unary main_v22 main_v23 (broadcastInDim S4096x4096 ![] bcast_S_S4096x4096 : (⟨S_, .f32⟩ : BufTy).Contents (Elt F) → (⟨S4096x4096, .f32⟩ : BufTy).Contents (Elt F)),
    binary main_v23 main_v21 main_v24 (mulf : (⟨S4096x4096, .f32⟩ : BufTy).Contents (Elt F) → (⟨S4096x4096, .f32⟩ : BufTy).Contents (Elt F) → (⟨S4096x4096, .f32⟩ : BufTy).Contents (Elt F)),
    unary main_v7 main_v25 (Host.absf : (⟨S_, .f32⟩ : BufTy).Contents (Elt F) → (⟨S_, .f32⟩ : BufTy).Contents (Elt F)),
    unary main_v25 main_v26 (broadcastInDim S4096x4096 ![] bcast_S_S4096x4096 : (⟨S_, .f32⟩ : BufTy).Contents (Elt F) → (⟨S4096x4096, .f32⟩ : BufTy).Contents (Elt F)),
    binary main_v26 main_arg2 main_v27 (mulf : (⟨S4096x4096, .f32⟩ : BufTy).Contents (Elt F) → (⟨S4096x4096, .f32⟩ : BufTy).Contents (Elt F) → (⟨S4096x4096, .f32⟩ : BufTy).Contents (Elt F)),
    binary main_v24 main_v27 main_v28 (addf : (⟨S4096x4096, .f32⟩ : BufTy).Contents (Elt F) → (⟨S4096x4096, .f32⟩ : BufTy).Contents (Elt F) → (⟨S4096x4096, .f32⟩ : BufTy).Contents (Elt F)),
    nullary main_c (constantI S_ 32 0#32),
    unary main_c main_v29 (broadcastInDim S4096x4096 ![] bcast_S_S4096x4096 : (⟨S_, .i32⟩ : BufTy).Contents (Elt F) → (⟨S4096x4096, .i32⟩ : BufTy).Contents (Elt F)),
    binary main_arg1 main_v29 main_v30 (cmpi .sgt : (⟨S4096x4096, .i32⟩ : BufTy).Contents (Elt F) → (⟨S4096x4096, .i32⟩ : BufTy).Contents (Elt F) → (⟨S4096x4096, .i1⟩ : BufTy).Contents (Elt F)),
    nullary main_cst_1 (constant S_ .f32 0xD9FFCB9E#32),
    unary main_cst_1 main_call1_v0 ((broadcastInDim S4096x4096 ![] bcast_S_S4096x4096) : (⟨S_, .f32⟩ : BufTy).Contents (Elt F) → (⟨S4096x4096, .f32⟩ : BufTy).Contents (Elt F)),
    ternary main_v30 main_v28 main_call1_v0 main_v31 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_2 (constant S_ .f32 0xFF800000#32),
    binary main_v31 main_cst_2 main_v32 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v33 (broadcastInDim S4096 ![] bcast_S_S4096 : (⟨S_, .f32⟩ : BufTy).Contents (Elt F) → (⟨S4096, .f32⟩ : BufTy).Contents (Elt F)),
    binary main_v33 main_v32 main_v34 (maximumf : (⟨S4096, .f32⟩ : BufTy).Contents (Elt F) → (⟨S4096, .f32⟩ : BufTy).Contents (Elt F) → (⟨S4096, .f32⟩ : BufTy).Contents (Elt F)),
    unary main_v34 main_v35 (broadcastInDim S4096x1 ![0] bcast_S4096_S4096x1_0 : (⟨S4096, .f32⟩ : BufTy).Contents (Elt F) → (⟨S4096x1, .f32⟩ : BufTy).Contents (Elt F)),
    unary main_v35 main_v36 (broadcastInDim S4096x4096 ![0, 1] bcast_S4096x1_S4096x4096_0_1 : (⟨S4096x1, .f32⟩ : BufTy).Contents (Elt F) → (⟨S4096x4096, .f32⟩ : BufTy).Contents (Elt F)),
    binary main_v31 main_v36 main_v37 (subf : (⟨S4096x4096, .f32⟩ : BufTy).Contents (Elt F) → (⟨S4096x4096, .f32⟩ : BufTy).Contents (Elt F) → (⟨S4096x4096, .f32⟩ : BufTy).Contents (Elt F)),
    unary main_v37 main_v38 (Host.exp : (⟨S4096x4096, .f32⟩ : BufTy).Contents (Elt F) → (⟨S4096x4096, .f32⟩ : BufTy).Contents (Elt F)),
    nullary main_cst_4 (constant S_ .f32 0x00000000#32),
    binary main_v38 main_cst_4 main_v39 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v39 main_v40 (broadcastInDim S4096x1 ![0] bcast_S4096_S4096x1_0 : (⟨S4096, .f32⟩ : BufTy).Contents (Elt F) → (⟨S4096x1, .f32⟩ : BufTy).Contents (Elt F)),
    unary main_v40 main_v41 (broadcastInDim S4096x4096 ![0, 1] bcast_S4096x1_S4096x4096_0_1 : (⟨S4096x1, .f32⟩ : BufTy).Contents (Elt F) → (⟨S4096x4096, .f32⟩ : BufTy).Contents (Elt F)),
    binary main_v38 main_v41 main_v42 (Host.divf : (⟨S4096x4096, .f32⟩ : BufTy).Contents (Elt F) → (⟨S4096x4096, .f32⟩ : BufTy).Contents (Elt F) → (⟨S4096x4096, .f32⟩ : BufTy).Contents (Elt F)),
    binary main_v42 main_v8 main_v43 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    nullary main_call2_cst (constant S_ .f32 0x00000000#32),
    unary main_call2_cst main_call2_v0 ((broadcastInDim S4096x64 ![] bcast_S_S4096x64) : (⟨S_, .f32⟩ : BufTy).Contents (Elt F) → (⟨S4096x64, .f32⟩ : BufTy).Contents (Elt F)),
    binary main_v43 main_call2_v0 main_call2_v1 ((cmpf .ogt) : (⟨S4096x64, .f32⟩ : BufTy).Contents (Elt F) → (⟨S4096x64, .f32⟩ : BufTy).Contents (Elt F) → (⟨S4096x64, .i1⟩ : BufTy).Contents (Elt F)),
    nullary main_call2_cst_0 (constant S_ .f32 0x00000000#32),
    unary main_call2_cst_0 main_call2_v2 ((broadcastInDim S4096x64 ![] bcast_S_S4096x64) : (⟨S_, .f32⟩ : BufTy).Contents (Elt F) → (⟨S4096x64, .f32⟩ : BufTy).Contents (Elt F)),
    binary main_v43 main_call2_v2 main_call2_v3 ((cmpf .ogt) : (⟨S4096x64, .f32⟩ : BufTy).Contents (Elt F) → (⟨S4096x64, .f32⟩ : BufTy).Contents (Elt F) → (⟨S4096x64, .i1⟩ : BufTy).Contents (Elt F)),
    nullary main_call2_cst_1 (constant S_ .f32 0x00000000#32),
    unary main_call2_cst_1 main_call2_call0_v0 (id : (⟨S_, .f32⟩ : BufTy).Contents (Elt F) → (⟨S_, .f32⟩ : BufTy).Contents (Elt F)),
    unary main_call2_call0_v0 main_call2_call0_v1 ((broadcastInDim S4096x64 ![] bcast_S_S4096x64) : (⟨S_, .f32⟩ : BufTy).Contents (Elt F) → (⟨S4096x64, .f32⟩ : BufTy).Contents (Elt F)),
    ternary main_call2_v3 main_call2_call0_v1 main_v43 main_call2_v4 (select : (⟨S4096x64, .i1⟩ : BufTy).Contents (Elt F) → (⟨S4096x64, .f32⟩ : BufTy).Contents (Elt F) → (⟨S4096x64, .f32⟩ : BufTy).Contents (Elt F) → (⟨S4096x64, .f32⟩ : BufTy).Contents (Elt F)),
    unary main_call2_v4 main_call2_v5 (Host.expm1 : (⟨S4096x64, .f32⟩ : BufTy).Contents (Elt F) → (⟨S4096x64, .f32⟩ : BufTy).Contents (Elt F)),
    nullary main_call2_cst_2 (constant S_ .f32 0x3F800000#32),
    unary main_call2_cst_2 main_call2_v6 ((broadcastInDim S4096x64 ![] bcast_S_S4096x64) : (⟨S_, .f32⟩ : BufTy).Contents (Elt F) → (⟨S4096x64, .f32⟩ : BufTy).Contents (Elt F)),
    binary main_call2_v6 main_call2_v5 main_call2_v7 (mulf : (⟨S4096x64, .f32⟩ : BufTy).Contents (Elt F) → (⟨S4096x64, .f32⟩ : BufTy).Contents (Elt F) → (⟨S4096x64, .f32⟩ : BufTy).Contents (Elt F)),
    ternary main_call2_v1 main_v43 main_call2_v7 main_v44 (select : (⟨S4096x64, .i1⟩ : BufTy).Contents (Elt F) → (⟨S4096x64, .f32⟩ : BufTy).Contents (Elt F) → (⟨S4096x64, .f32⟩ : BufTy).Contents (Elt F) → (⟨S4096x64, .f32⟩ : BufTy).Contents (Elt F)),
    unary main_arg3 main_v45 ((extractStridedSlice S1x512x64 ![1, 0, 0] · slices_S4x512x64_S1x512x64_1_0_0) : (⟨S4x512x64, .f32⟩ : BufTy).Contents (Elt F) → (⟨S1x512x64, .f32⟩ : BufTy).Contents (Elt F)),
    reshape main_v45 main_v46 rfl shapeCasts_S1x512x64_S512x64,
    unary main_arg4 main_v47 ((extractStridedSlice S1x128x1 ![1, 0, 0] · slices_S4x128x1_S1x128x1_1_0_0) : (⟨S4x128x1, .f32⟩ : BufTy).Contents (Elt F) → (⟨S1x128x1, .f32⟩ : BufTy).Contents (Elt F)),
    reshape main_v47 main_v48 rfl shapeCasts_S1x128x1_S128x1,
    unary main_arg5 main_v49 ((extractStridedSlice S1 ![1] · slices_S4_S1_1) : (⟨S4, .f32⟩ : BufTy).Contents (Elt F) → (⟨S1, .f32⟩ : BufTy).Contents (Elt F)),
    reshape main_v49 main_v50 rfl shapeCasts_S1_S_,
    unary main_arg6 main_v51 ((extractStridedSlice S1 ![1] · slices_S4_S1_1) : (⟨S4, .f32⟩ : BufTy).Contents (Elt F) → (⟨S1, .f32⟩ : BufTy).Contents (Elt F)),
    reshape main_v51 main_v52 rfl shapeCasts_S1_S_ ]

/-- @main's operations 76 … 150 of 343 (window `main_part1`). -/
abbrev ops_part1 : List (HloOp τ sig (Elt F)) :=
  [ binary main_arg0 main_v46 main_v53 ((fun l r => Host.dotGeneral dot_S4096x512_S512x64_S4096x64_1_0_0_1_n_n none l r) : (⟨S4096x512, .f32⟩ : BufTy).Contents (Elt F) → (⟨S512x64, .f32⟩ : BufTy).Contents (Elt F) → (⟨S4096x64, .f32⟩ : BufTy).Contents (Elt F)),
    unary main_v48 main_v54 ((extractStridedSlice S64x1 ![0, 0] · slices_S128x1_S64x1_0_0) : (⟨S128x1, .f32⟩ : BufTy).Contents (Elt F) → (⟨S64x1, .f32⟩ : BufTy).Contents (Elt F)),
    binary main_v53 main_v54 main_v55 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_v48 main_v56 ((extractStridedSlice S64x1 ![64, 0] · slices_S128x1_S64x1_64_0) : (⟨S128x1, .f32⟩ : BufTy).Contents (Elt F) → (⟨S64x1, .f32⟩ : BufTy).Contents (Elt F)),
    binary main_v53 main_v56 main_v57 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_v57 main_v58 ((transpose S1x4096 [1, 0] · transposes_S4096x1_S1x4096_1_0) : (⟨S4096x1, .f32⟩ : BufTy).Contents (Elt F) → (⟨S1x4096, .f32⟩ : BufTy).Contents (Elt F)),
    unary main_v55 main_v59 (broadcastInDim S4096x4096 ![0, 1] bcast_S4096x1_S4096x4096_0_1 : (⟨S4096x1, .f32⟩ : BufTy).Contents (Elt F) → (⟨S4096x4096, .f32⟩ : BufTy).Contents (Elt F)),
    unary main_v58 main_v60 (broadcastInDim S4096x4096 ![0, 1] bcast_S1x4096_S4096x4096_0_1 : (⟨S1x4096, .f32⟩ : BufTy).Contents (Elt F) → (⟨S4096x4096, .f32⟩ : BufTy).Contents (Elt F)),
    binary main_v59 main_v60 main_v61 (addf : (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x00000000#32),
    unary main_cst_5 main_v62 (broadcastInDim S4096x4096 ![] bcast_S_S4096x4096 : (⟨S_, .f32⟩ : BufTy).Contents (Elt F) → (⟨S4096x4096, .f32⟩ : BufTy).Contents (Elt F)),
    binary main_v61 main_v62 main_v63 (cmpf .ogt : (⟨S4096x4096, .f32⟩ : BufTy).Contents (Elt F) → (⟨S4096x4096, .f32⟩ : BufTy).Contents (Elt F) → (⟨S4096x4096, .i1⟩ : BufTy).Contents (Elt F)),
    nullary main_cst_6 (constant S_ .f32 0x3E4CCCCD#32),
    unary main_cst_6 main_v64 (broadcastInDim S4096x4096 ![] bcast_S_S4096x4096 : (⟨S_, .f32⟩ : BufTy).Contents (Elt F) → (⟨S4096x4096, .f32⟩ : BufTy).Contents (Elt F)),
    binary main_v64 main_v61 main_v65 (mulf : (⟨S4096x4096, .f32⟩ : BufTy).Contents (Elt F) → (⟨S4096x4096, .f32⟩ : BufTy).Contents (Elt F) → (⟨S4096x4096, .f32⟩ : BufTy).Contents (Elt F)),
    ternary main_v63 main_v61 main_v65 main_v66 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    unary main_v50 main_v67 (Host.absf : (⟨S_, .f32⟩ : BufTy).Contents (Elt F) → (⟨S_, .f32⟩ : BufTy).Contents (Elt F)),
    unary main_v67 main_v68 (broadcastInDim S4096x4096 ![] bcast_S_S4096x4096 : (⟨S_, .f32⟩ : BufTy).Contents (Elt F) → (⟨S4096x4096, .f32⟩ : BufTy).Contents (Elt F)),
    binary main_v68 main_v66 main_v69 (mulf : (⟨S4096x4096, .f32⟩ : BufTy).Contents (Elt F) → (⟨S4096x4096, .f32⟩ : BufTy).Contents (Elt F) → (⟨S4096x4096, .f32⟩ : BufTy).Contents (Elt F)),
    unary main_v52 main_v70 (Host.absf : (⟨S_, .f32⟩ : BufTy).Contents (Elt F) → (⟨S_, .f32⟩ : BufTy).Contents (Elt F)),
    unary main_v70 main_v71 (broadcastInDim S4096x4096 ![] bcast_S_S4096x4096 : (⟨S_, .f32⟩ : BufTy).Contents (Elt F) → (⟨S4096x4096, .f32⟩ : BufTy).Contents (Elt F)),
    binary main_v71 main_arg2 main_v72 (mulf : (⟨S4096x4096, .f32⟩ : BufTy).Contents (Elt F) → (⟨S4096x4096, .f32⟩ : BufTy).Contents (Elt F) → (⟨S4096x4096, .f32⟩ : BufTy).Contents (Elt F)),
    binary main_v69 main_v72 main_v73 (addf : (⟨S4096x4096, .f32⟩ : BufTy).Contents (Elt F) → (⟨S4096x4096, .f32⟩ : BufTy).Contents (Elt F) → (⟨S4096x4096, .f32⟩ : BufTy).Contents (Elt F)),
    nullary main_c_7 (constantI S_ 32 0#32),
    unary main_c_7 main_v74 (broadcastInDim S4096x4096 ![] bcast_S_S4096x4096 : (⟨S_, .i32⟩ : BufTy).Contents (Elt F) → (⟨S4096x4096, .i32⟩ : BufTy).Contents (Elt F)),
    binary main_arg1 main_v74 main_v75 (cmpi .sgt : (⟨S4096x4096, .i32⟩ : BufTy).Contents (Elt F) → (⟨S4096x4096, .i32⟩ : BufTy).Contents (Elt F) → (⟨S4096x4096, .i1⟩ : BufTy).Contents (Elt F)),
    nullary main_cst_8 (constant S_ .f32 0xD9FFCB9E#32),
    unary main_cst_8 main_call4_v0 ((broadcastInDim S4096x4096 ![] bcast_S_S4096x4096) : (⟨S_, .f32⟩ : BufTy).Contents (Elt F) → (⟨S4096x4096, .f32⟩ : BufTy).Contents (Elt F)),
    ternary main_v75 main_v73 main_call4_v0 main_v76 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_9 (constant S_ .f32 0xFF800000#32),
    binary main_v76 main_cst_9 main_v77 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_10 (constant S_ .f32 0xFF800000#32),
    unary main_cst_10 main_v78 (broadcastInDim S4096 ![] bcast_S_S4096 : (⟨S_, .f32⟩ : BufTy).Contents (Elt F) → (⟨S4096, .f32⟩ : BufTy).Contents (Elt F)),
    binary main_v78 main_v77 main_v79 (maximumf : (⟨S4096, .f32⟩ : BufTy).Contents (Elt F) → (⟨S4096, .f32⟩ : BufTy).Contents (Elt F) → (⟨S4096, .f32⟩ : BufTy).Contents (Elt F)),
    unary main_v79 main_v80 (broadcastInDim S4096x1 ![0] bcast_S4096_S4096x1_0 : (⟨S4096, .f32⟩ : BufTy).Contents (Elt F) → (⟨S4096x1, .f32⟩ : BufTy).Contents (Elt F)),
    unary main_v80 main_v81 (broadcastInDim S4096x4096 ![0, 1] bcast_S4096x1_S4096x4096_0_1 : (⟨S4096x1, .f32⟩ : BufTy).Contents (Elt F) → (⟨S4096x4096, .f32⟩ : BufTy).Contents (Elt F)),
    binary main_v76 main_v81 main_v82 (subf : (⟨S4096x4096, .f32⟩ : BufTy).Contents (Elt F) → (⟨S4096x4096, .f32⟩ : BufTy).Contents (Elt F) → (⟨S4096x4096, .f32⟩ : BufTy).Contents (Elt F)),
    unary main_v82 main_v83 (Host.exp : (⟨S4096x4096, .f32⟩ : BufTy).Contents (Elt F) → (⟨S4096x4096, .f32⟩ : BufTy).Contents (Elt F)),
    nullary main_cst_11 (constant S_ .f32 0x00000000#32),
    binary main_v83 main_cst_11 main_v84 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v84 main_v85 (broadcastInDim S4096x1 ![0] bcast_S4096_S4096x1_0 : (⟨S4096, .f32⟩ : BufTy).Contents (Elt F) → (⟨S4096x1, .f32⟩ : BufTy).Contents (Elt F)),
    unary main_v85 main_v86 (broadcastInDim S4096x4096 ![0, 1] bcast_S4096x1_S4096x4096_0_1 : (⟨S4096x1, .f32⟩ : BufTy).Contents (Elt F) → (⟨S4096x4096, .f32⟩ : BufTy).Contents (Elt F)),
    binary main_v83 main_v86 main_v87 (Host.divf : (⟨S4096x4096, .f32⟩ : BufTy).Contents (Elt F) → (⟨S4096x4096, .f32⟩ : BufTy).Contents (Elt F) → (⟨S4096x4096, .f32⟩ : BufTy).Contents (Elt F)),
    binary main_v87 main_v53 main_v88 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    nullary main_call5_cst (constant S_ .f32 0x00000000#32),
    unary main_call5_cst main_call5_v0 ((broadcastInDim S4096x64 ![] bcast_S_S4096x64) : (⟨S_, .f32⟩ : BufTy).Contents (Elt F) → (⟨S4096x64, .f32⟩ : BufTy).Contents (Elt F)),
    binary main_v88 main_call5_v0 main_call5_v1 ((cmpf .ogt) : (⟨S4096x64, .f32⟩ : BufTy).Contents (Elt F) → (⟨S4096x64, .f32⟩ : BufTy).Contents (Elt F) → (⟨S4096x64, .i1⟩ : BufTy).Contents (Elt F)),
    nullary main_call5_cst_0 (constant S_ .f32 0x00000000#32),
    unary main_call5_cst_0 main_call5_v2 ((broadcastInDim S4096x64 ![] bcast_S_S4096x64) : (⟨S_, .f32⟩ : BufTy).Contents (Elt F) → (⟨S4096x64, .f32⟩ : BufTy).Contents (Elt F)),
    binary main_v88 main_call5_v2 main_call5_v3 ((cmpf .ogt) : (⟨S4096x64, .f32⟩ : BufTy).Contents (Elt F) → (⟨S4096x64, .f32⟩ : BufTy).Contents (Elt F) → (⟨S4096x64, .i1⟩ : BufTy).Contents (Elt F)),
    nullary main_call5_cst_1 (constant S_ .f32 0x00000000#32),
    unary main_call5_cst_1 main_call5_call0_v0 (id : (⟨S_, .f32⟩ : BufTy).Contents (Elt F) → (⟨S_, .f32⟩ : BufTy).Contents (Elt F)),
    unary main_call5_call0_v0 main_call5_call0_v1 ((broadcastInDim S4096x64 ![] bcast_S_S4096x64) : (⟨S_, .f32⟩ : BufTy).Contents (Elt F) → (⟨S4096x64, .f32⟩ : BufTy).Contents (Elt F)),
    ternary main_call5_v3 main_call5_call0_v1 main_v88 main_call5_v4 (select : (⟨S4096x64, .i1⟩ : BufTy).Contents (Elt F) → (⟨S4096x64, .f32⟩ : BufTy).Contents (Elt F) → (⟨S4096x64, .f32⟩ : BufTy).Contents (Elt F) → (⟨S4096x64, .f32⟩ : BufTy).Contents (Elt F)),
    unary main_call5_v4 main_call5_v5 (Host.expm1 : (⟨S4096x64, .f32⟩ : BufTy).Contents (Elt F) → (⟨S4096x64, .f32⟩ : BufTy).Contents (Elt F)),
    nullary main_call5_cst_2 (constant S_ .f32 0x3F800000#32),
    unary main_call5_cst_2 main_call5_v6 ((broadcastInDim S4096x64 ![] bcast_S_S4096x64) : (⟨S_, .f32⟩ : BufTy).Contents (Elt F) → (⟨S4096x64, .f32⟩ : BufTy).Contents (Elt F)),
    binary main_call5_v6 main_call5_v5 main_call5_v7 (mulf : (⟨S4096x64, .f32⟩ : BufTy).Contents (Elt F) → (⟨S4096x64, .f32⟩ : BufTy).Contents (Elt F) → (⟨S4096x64, .f32⟩ : BufTy).Contents (Elt F)),
    ternary main_call5_v1 main_v88 main_call5_v7 main_v89 (select : (⟨S4096x64, .i1⟩ : BufTy).Contents (Elt F) → (⟨S4096x64, .f32⟩ : BufTy).Contents (Elt F) → (⟨S4096x64, .f32⟩ : BufTy).Contents (Elt F) → (⟨S4096x64, .f32⟩ : BufTy).Contents (Elt F)),
    unary main_arg3 main_v90 ((extractStridedSlice S1x512x64 ![2, 0, 0] · slices_S4x512x64_S1x512x64_2_0_0) : (⟨S4x512x64, .f32⟩ : BufTy).Contents (Elt F) → (⟨S1x512x64, .f32⟩ : BufTy).Contents (Elt F)),
    reshape main_v90 main_v91 rfl shapeCasts_S1x512x64_S512x64,
    unary main_arg4 main_v92 ((extractStridedSlice S1x128x1 ![2, 0, 0] · slices_S4x128x1_S1x128x1_2_0_0) : (⟨S4x128x1, .f32⟩ : BufTy).Contents (Elt F) → (⟨S1x128x1, .f32⟩ : BufTy).Contents (Elt F)),
    reshape main_v92 main_v93 rfl shapeCasts_S1x128x1_S128x1,
    unary main_arg5 main_v94 ((extractStridedSlice S1 ![2] · slices_S4_S1_2) : (⟨S4, .f32⟩ : BufTy).Contents (Elt F) → (⟨S1, .f32⟩ : BufTy).Contents (Elt F)),
    reshape main_v94 main_v95 rfl shapeCasts_S1_S_,
    unary main_arg6 main_v96 ((extractStridedSlice S1 ![2] · slices_S4_S1_2) : (⟨S4, .f32⟩ : BufTy).Contents (Elt F) → (⟨S1, .f32⟩ : BufTy).Contents (Elt F)),
    reshape main_v96 main_v97 rfl shapeCasts_S1_S_,
    binary main_arg0 main_v91 main_v98 ((fun l r => Host.dotGeneral dot_S4096x512_S512x64_S4096x64_1_0_0_1_n_n none l r) : (⟨S4096x512, .f32⟩ : BufTy).Contents (Elt F) → (⟨S512x64, .f32⟩ : BufTy).Contents (Elt F) → (⟨S4096x64, .f32⟩ : BufTy).Contents (Elt F)),
    unary main_v93 main_v99 ((extractStridedSlice S64x1 ![0, 0] · slices_S128x1_S64x1_0_0) : (⟨S128x1, .f32⟩ : BufTy).Contents (Elt F) → (⟨S64x1, .f32⟩ : BufTy).Contents (Elt F)),
    binary main_v98 main_v99 main_v100 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_v93 main_v101 ((extractStridedSlice S64x1 ![64, 0] · slices_S128x1_S64x1_64_0) : (⟨S128x1, .f32⟩ : BufTy).Contents (Elt F) → (⟨S64x1, .f32⟩ : BufTy).Contents (Elt F)),
    binary main_v98 main_v101 main_v102 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_v102 main_v103 ((transpose S1x4096 [1, 0] · transposes_S4096x1_S1x4096_1_0) : (⟨S4096x1, .f32⟩ : BufTy).Contents (Elt F) → (⟨S1x4096, .f32⟩ : BufTy).Contents (Elt F)),
    unary main_v100 main_v104 (broadcastInDim S4096x4096 ![0, 1] bcast_S4096x1_S4096x4096_0_1 : (⟨S4096x1, .f32⟩ : BufTy).Contents (Elt F) → (⟨S4096x4096, .f32⟩ : BufTy).Contents (Elt F)),
    unary main_v103 main_v105 (broadcastInDim S4096x4096 ![0, 1] bcast_S1x4096_S4096x4096_0_1 : (⟨S1x4096, .f32⟩ : BufTy).Contents (Elt F) → (⟨S4096x4096, .f32⟩ : BufTy).Contents (Elt F)) ]

/-- @main's operations 151 … 225 of 343 (window `main_part2`). -/
abbrev ops_part2 : List (HloOp τ sig (Elt F)) :=
  [ binary main_v104 main_v105 main_v106 (addf : (⟨S4096x4096, .f32⟩ : BufTy).Contents (Elt F) → (⟨S4096x4096, .f32⟩ : BufTy).Contents (Elt F) → (⟨S4096x4096, .f32⟩ : BufTy).Contents (Elt F)),
    nullary main_cst_12 (constant S_ .f32 0x00000000#32),
    unary main_cst_12 main_v107 (broadcastInDim S4096x4096 ![] bcast_S_S4096x4096 : (⟨S_, .f32⟩ : BufTy).Contents (Elt F) → (⟨S4096x4096, .f32⟩ : BufTy).Contents (Elt F)),
    binary main_v106 main_v107 main_v108 (cmpf .ogt : (⟨S4096x4096, .f32⟩ : BufTy).Contents (Elt F) → (⟨S4096x4096, .f32⟩ : BufTy).Contents (Elt F) → (⟨S4096x4096, .i1⟩ : BufTy).Contents (Elt F)),
    nullary main_cst_13 (constant S_ .f32 0x3E4CCCCD#32),
    unary main_cst_13 main_v109 (broadcastInDim S4096x4096 ![] bcast_S_S4096x4096 : (⟨S_, .f32⟩ : BufTy).Contents (Elt F) → (⟨S4096x4096, .f32⟩ : BufTy).Contents (Elt F)),
    binary main_v109 main_v106 main_v110 (mulf : (⟨S4096x4096, .f32⟩ : BufTy).Contents (Elt F) → (⟨S4096x4096, .f32⟩ : BufTy).Contents (Elt F) → (⟨S4096x4096, .f32⟩ : BufTy).Contents (Elt F)),
    ternary main_v108 main_v106 main_v110 main_v111 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    unary main_v95 main_v112 (Host.absf : (⟨S_, .f32⟩ : BufTy).Contents (Elt F) → (⟨S_, .f32⟩ : BufTy).Contents (Elt F)),
    unary main_v112 main_v113 (broadcastInDim S4096x4096 ![] bcast_S_S4096x4096 : (⟨S_, .f32⟩ : BufTy).Contents (Elt F) → (⟨S4096x4096, .f32⟩ : BufTy).Contents (Elt F)),
    binary main_v113 main_v111 main_v114 (mulf : (⟨S4096x4096, .f32⟩ : BufTy).Contents (Elt F) → (⟨S4096x4096, .f32⟩ : BufTy).Contents (Elt F) → (⟨S4096x4096, .f32⟩ : BufTy).Contents (Elt F)),
    unary main_v97 main_v115 (Host.absf : (⟨S_, .f32⟩ : BufTy).Contents (Elt F) → (⟨S_, .f32⟩ : BufTy).Contents (Elt F)),
    unary main_v115 main_v116 (broadcastInDim S4096x4096 ![] bcast_S_S4096x4096 : (⟨S_, .f32⟩ : BufTy).Contents (Elt F) → (⟨S4096x4096, .f32⟩ : BufTy).Contents (Elt F)),
    binary main_v116 main_arg2 main_v117 (mulf : (⟨S4096x4096, .f32⟩ : BufTy).Contents (Elt F) → (⟨S4096x4096, .f32⟩ : BufTy).Contents (Elt F) → (⟨S4096x4096, .f32⟩ : BufTy).Contents (Elt F)),
    binary main_v114 main_v117 main_v118 (addf : (⟨S4096x4096, .f32⟩ : BufTy).Contents (Elt F) → (⟨S4096x4096, .f32⟩ : BufTy).Contents (Elt F) → (⟨S4096x4096, .f32⟩ : BufTy).Contents (Elt F)),
    nullary main_c_14 (constantI S_ 32 0#32),
    unary main_c_14 main_v119 (broadcastInDim S4096x4096 ![] bcast_S_S4096x4096 : (⟨S_, .i32⟩ : BufTy).Contents (Elt F) → (⟨S4096x4096, .i32⟩ : BufTy).Contents (Elt F)),
    binary main_arg1 main_v119 main_v120 (cmpi .sgt : (⟨S4096x4096, .i32⟩ : BufTy).Contents (Elt F) → (⟨S4096x4096, .i32⟩ : BufTy).Contents (Elt F) → (⟨S4096x4096, .i1⟩ : BufTy).Contents (Elt F)),
    nullary main_cst_15 (constant S_ .f32 0xD9FFCB9E#32),
    unary main_cst_15 main_call7_v0 ((broadcastInDim S4096x4096 ![] bcast_S_S4096x4096) : (⟨S_, .f32⟩ : BufTy).Contents (Elt F) → (⟨S4096x4096, .f32⟩ : BufTy).Contents (Elt F)),
    ternary main_v120 main_v118 main_call7_v0 main_v121 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_16 (constant S_ .f32 0xFF800000#32),
    binary main_v121 main_cst_16 main_v122 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_17 (constant S_ .f32 0xFF800000#32),
    unary main_cst_17 main_v123 (broadcastInDim S4096 ![] bcast_S_S4096 : (⟨S_, .f32⟩ : BufTy).Contents (Elt F) → (⟨S4096, .f32⟩ : BufTy).Contents (Elt F)),
    binary main_v123 main_v122 main_v124 (maximumf : (⟨S4096, .f32⟩ : BufTy).Contents (Elt F) → (⟨S4096, .f32⟩ : BufTy).Contents (Elt F) → (⟨S4096, .f32⟩ : BufTy).Contents (Elt F)),
    unary main_v124 main_v125 (broadcastInDim S4096x1 ![0] bcast_S4096_S4096x1_0 : (⟨S4096, .f32⟩ : BufTy).Contents (Elt F) → (⟨S4096x1, .f32⟩ : BufTy).Contents (Elt F)),
    unary main_v125 main_v126 (broadcastInDim S4096x4096 ![0, 1] bcast_S4096x1_S4096x4096_0_1 : (⟨S4096x1, .f32⟩ : BufTy).Contents (Elt F) → (⟨S4096x4096, .f32⟩ : BufTy).Contents (Elt F)),
    binary main_v121 main_v126 main_v127 (subf : (⟨S4096x4096, .f32⟩ : BufTy).Contents (Elt F) → (⟨S4096x4096, .f32⟩ : BufTy).Contents (Elt F) → (⟨S4096x4096, .f32⟩ : BufTy).Contents (Elt F)),
    unary main_v127 main_v128 (Host.exp : (⟨S4096x4096, .f32⟩ : BufTy).Contents (Elt F) → (⟨S4096x4096, .f32⟩ : BufTy).Contents (Elt F)),
    nullary main_cst_18 (constant S_ .f32 0x00000000#32),
    binary main_v128 main_cst_18 main_v129 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v129 main_v130 (broadcastInDim S4096x1 ![0] bcast_S4096_S4096x1_0 : (⟨S4096, .f32⟩ : BufTy).Contents (Elt F) → (⟨S4096x1, .f32⟩ : BufTy).Contents (Elt F)),
    unary main_v130 main_v131 (broadcastInDim S4096x4096 ![0, 1] bcast_S4096x1_S4096x4096_0_1 : (⟨S4096x1, .f32⟩ : BufTy).Contents (Elt F) → (⟨S4096x4096, .f32⟩ : BufTy).Contents (Elt F)),
    binary main_v128 main_v131 main_v132 (Host.divf : (⟨S4096x4096, .f32⟩ : BufTy).Contents (Elt F) → (⟨S4096x4096, .f32⟩ : BufTy).Contents (Elt F) → (⟨S4096x4096, .f32⟩ : BufTy).Contents (Elt F)),
    binary main_v132 main_v98 main_v133 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    nullary main_call8_cst (constant S_ .f32 0x00000000#32),
    unary main_call8_cst main_call8_v0 ((broadcastInDim S4096x64 ![] bcast_S_S4096x64) : (⟨S_, .f32⟩ : BufTy).Contents (Elt F) → (⟨S4096x64, .f32⟩ : BufTy).Contents (Elt F)),
    binary main_v133 main_call8_v0 main_call8_v1 ((cmpf .ogt) : (⟨S4096x64, .f32⟩ : BufTy).Contents (Elt F) → (⟨S4096x64, .f32⟩ : BufTy).Contents (Elt F) → (⟨S4096x64, .i1⟩ : BufTy).Contents (Elt F)),
    nullary main_call8_cst_0 (constant S_ .f32 0x00000000#32),
    unary main_call8_cst_0 main_call8_v2 ((broadcastInDim S4096x64 ![] bcast_S_S4096x64) : (⟨S_, .f32⟩ : BufTy).Contents (Elt F) → (⟨S4096x64, .f32⟩ : BufTy).Contents (Elt F)),
    binary main_v133 main_call8_v2 main_call8_v3 ((cmpf .ogt) : (⟨S4096x64, .f32⟩ : BufTy).Contents (Elt F) → (⟨S4096x64, .f32⟩ : BufTy).Contents (Elt F) → (⟨S4096x64, .i1⟩ : BufTy).Contents (Elt F)),
    nullary main_call8_cst_1 (constant S_ .f32 0x00000000#32),
    unary main_call8_cst_1 main_call8_call0_v0 (id : (⟨S_, .f32⟩ : BufTy).Contents (Elt F) → (⟨S_, .f32⟩ : BufTy).Contents (Elt F)),
    unary main_call8_call0_v0 main_call8_call0_v1 ((broadcastInDim S4096x64 ![] bcast_S_S4096x64) : (⟨S_, .f32⟩ : BufTy).Contents (Elt F) → (⟨S4096x64, .f32⟩ : BufTy).Contents (Elt F)),
    ternary main_call8_v3 main_call8_call0_v1 main_v133 main_call8_v4 (select : (⟨S4096x64, .i1⟩ : BufTy).Contents (Elt F) → (⟨S4096x64, .f32⟩ : BufTy).Contents (Elt F) → (⟨S4096x64, .f32⟩ : BufTy).Contents (Elt F) → (⟨S4096x64, .f32⟩ : BufTy).Contents (Elt F)),
    unary main_call8_v4 main_call8_v5 (Host.expm1 : (⟨S4096x64, .f32⟩ : BufTy).Contents (Elt F) → (⟨S4096x64, .f32⟩ : BufTy).Contents (Elt F)),
    nullary main_call8_cst_2 (constant S_ .f32 0x3F800000#32),
    unary main_call8_cst_2 main_call8_v6 ((broadcastInDim S4096x64 ![] bcast_S_S4096x64) : (⟨S_, .f32⟩ : BufTy).Contents (Elt F) → (⟨S4096x64, .f32⟩ : BufTy).Contents (Elt F)),
    binary main_call8_v6 main_call8_v5 main_call8_v7 (mulf : (⟨S4096x64, .f32⟩ : BufTy).Contents (Elt F) → (⟨S4096x64, .f32⟩ : BufTy).Contents (Elt F) → (⟨S4096x64, .f32⟩ : BufTy).Contents (Elt F)),
    ternary main_call8_v1 main_v133 main_call8_v7 main_v134 (select : (⟨S4096x64, .i1⟩ : BufTy).Contents (Elt F) → (⟨S4096x64, .f32⟩ : BufTy).Contents (Elt F) → (⟨S4096x64, .f32⟩ : BufTy).Contents (Elt F) → (⟨S4096x64, .f32⟩ : BufTy).Contents (Elt F)),
    unary main_arg3 main_v135 ((extractStridedSlice S1x512x64 ![3, 0, 0] · slices_S4x512x64_S1x512x64_3_0_0) : (⟨S4x512x64, .f32⟩ : BufTy).Contents (Elt F) → (⟨S1x512x64, .f32⟩ : BufTy).Contents (Elt F)),
    reshape main_v135 main_v136 rfl shapeCasts_S1x512x64_S512x64,
    unary main_arg4 main_v137 ((extractStridedSlice S1x128x1 ![3, 0, 0] · slices_S4x128x1_S1x128x1_3_0_0) : (⟨S4x128x1, .f32⟩ : BufTy).Contents (Elt F) → (⟨S1x128x1, .f32⟩ : BufTy).Contents (Elt F)),
    reshape main_v137 main_v138 rfl shapeCasts_S1x128x1_S128x1,
    unary main_arg5 main_v139 ((extractStridedSlice S1 ![3] · slices_S4_S1_3) : (⟨S4, .f32⟩ : BufTy).Contents (Elt F) → (⟨S1, .f32⟩ : BufTy).Contents (Elt F)),
    reshape main_v139 main_v140 rfl shapeCasts_S1_S_,
    unary main_arg6 main_v141 ((extractStridedSlice S1 ![3] · slices_S4_S1_3) : (⟨S4, .f32⟩ : BufTy).Contents (Elt F) → (⟨S1, .f32⟩ : BufTy).Contents (Elt F)),
    reshape main_v141 main_v142 rfl shapeCasts_S1_S_,
    binary main_arg0 main_v136 main_v143 ((fun l r => Host.dotGeneral dot_S4096x512_S512x64_S4096x64_1_0_0_1_n_n none l r) : (⟨S4096x512, .f32⟩ : BufTy).Contents (Elt F) → (⟨S512x64, .f32⟩ : BufTy).Contents (Elt F) → (⟨S4096x64, .f32⟩ : BufTy).Contents (Elt F)),
    unary main_v138 main_v144 ((extractStridedSlice S64x1 ![0, 0] · slices_S128x1_S64x1_0_0) : (⟨S128x1, .f32⟩ : BufTy).Contents (Elt F) → (⟨S64x1, .f32⟩ : BufTy).Contents (Elt F)),
    binary main_v143 main_v144 main_v145 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_v138 main_v146 ((extractStridedSlice S64x1 ![64, 0] · slices_S128x1_S64x1_64_0) : (⟨S128x1, .f32⟩ : BufTy).Contents (Elt F) → (⟨S64x1, .f32⟩ : BufTy).Contents (Elt F)),
    binary main_v143 main_v146 main_v147 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_v147 main_v148 ((transpose S1x4096 [1, 0] · transposes_S4096x1_S1x4096_1_0) : (⟨S4096x1, .f32⟩ : BufTy).Contents (Elt F) → (⟨S1x4096, .f32⟩ : BufTy).Contents (Elt F)),
    unary main_v145 main_v149 (broadcastInDim S4096x4096 ![0, 1] bcast_S4096x1_S4096x4096_0_1 : (⟨S4096x1, .f32⟩ : BufTy).Contents (Elt F) → (⟨S4096x4096, .f32⟩ : BufTy).Contents (Elt F)),
    unary main_v148 main_v150 (broadcastInDim S4096x4096 ![0, 1] bcast_S1x4096_S4096x4096_0_1 : (⟨S1x4096, .f32⟩ : BufTy).Contents (Elt F) → (⟨S4096x4096, .f32⟩ : BufTy).Contents (Elt F)),
    binary main_v149 main_v150 main_v151 (addf : (⟨S4096x4096, .f32⟩ : BufTy).Contents (Elt F) → (⟨S4096x4096, .f32⟩ : BufTy).Contents (Elt F) → (⟨S4096x4096, .f32⟩ : BufTy).Contents (Elt F)),
    nullary main_cst_19 (constant S_ .f32 0x00000000#32),
    unary main_cst_19 main_v152 (broadcastInDim S4096x4096 ![] bcast_S_S4096x4096 : (⟨S_, .f32⟩ : BufTy).Contents (Elt F) → (⟨S4096x4096, .f32⟩ : BufTy).Contents (Elt F)),
    binary main_v151 main_v152 main_v153 (cmpf .ogt : (⟨S4096x4096, .f32⟩ : BufTy).Contents (Elt F) → (⟨S4096x4096, .f32⟩ : BufTy).Contents (Elt F) → (⟨S4096x4096, .i1⟩ : BufTy).Contents (Elt F)),
    nullary main_cst_20 (constant S_ .f32 0x3E4CCCCD#32),
    unary main_cst_20 main_v154 (broadcastInDim S4096x4096 ![] bcast_S_S4096x4096 : (⟨S_, .f32⟩ : BufTy).Contents (Elt F) → (⟨S4096x4096, .f32⟩ : BufTy).Contents (Elt F)),
    binary main_v154 main_v151 main_v155 (mulf : (⟨S4096x4096, .f32⟩ : BufTy).Contents (Elt F) → (⟨S4096x4096, .f32⟩ : BufTy).Contents (Elt F) → (⟨S4096x4096, .f32⟩ : BufTy).Contents (Elt F)),
    ternary main_v153 main_v151 main_v155 main_v156 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]

/-- @main's operations 226 … 301 of 343 (window `main_part3`). -/
abbrev ops_part3 : List (HloOp τ sig (Elt F)) :=
  [ unary main_v140 main_v157 (Host.absf : (⟨S_, .f32⟩ : BufTy).Contents (Elt F) → (⟨S_, .f32⟩ : BufTy).Contents (Elt F)),
    unary main_v157 main_v158 (broadcastInDim S4096x4096 ![] bcast_S_S4096x4096 : (⟨S_, .f32⟩ : BufTy).Contents (Elt F) → (⟨S4096x4096, .f32⟩ : BufTy).Contents (Elt F)),
    binary main_v158 main_v156 main_v159 (mulf : (⟨S4096x4096, .f32⟩ : BufTy).Contents (Elt F) → (⟨S4096x4096, .f32⟩ : BufTy).Contents (Elt F) → (⟨S4096x4096, .f32⟩ : BufTy).Contents (Elt F)),
    unary main_v142 main_v160 (Host.absf : (⟨S_, .f32⟩ : BufTy).Contents (Elt F) → (⟨S_, .f32⟩ : BufTy).Contents (Elt F)),
    unary main_v160 main_v161 (broadcastInDim S4096x4096 ![] bcast_S_S4096x4096 : (⟨S_, .f32⟩ : BufTy).Contents (Elt F) → (⟨S4096x4096, .f32⟩ : BufTy).Contents (Elt F)),
    binary main_v161 main_arg2 main_v162 (mulf : (⟨S4096x4096, .f32⟩ : BufTy).Contents (Elt F) → (⟨S4096x4096, .f32⟩ : BufTy).Contents (Elt F) → (⟨S4096x4096, .f32⟩ : BufTy).Contents (Elt F)),
    binary main_v159 main_v162 main_v163 (addf : (⟨S4096x4096, .f32⟩ : BufTy).Contents (Elt F) → (⟨S4096x4096, .f32⟩ : BufTy).Contents (Elt F) → (⟨S4096x4096, .f32⟩ : BufTy).Contents (Elt F)),
    nullary main_c_21 (constantI S_ 32 0#32),
    unary main_c_21 main_v164 (broadcastInDim S4096x4096 ![] bcast_S_S4096x4096 : (⟨S_, .i32⟩ : BufTy).Contents (Elt F) → (⟨S4096x4096, .i32⟩ : BufTy).Contents (Elt F)),
    binary main_arg1 main_v164 main_v165 (cmpi .sgt : (⟨S4096x4096, .i32⟩ : BufTy).Contents (Elt F) → (⟨S4096x4096, .i32⟩ : BufTy).Contents (Elt F) → (⟨S4096x4096, .i1⟩ : BufTy).Contents (Elt F)),
    nullary main_cst_22 (constant S_ .f32 0xD9FFCB9E#32),
    unary main_cst_22 main_call10_v0 ((broadcastInDim S4096x4096 ![] bcast_S_S4096x4096) : (⟨S_, .f32⟩ : BufTy).Contents (Elt F) → (⟨S4096x4096, .f32⟩ : BufTy).Contents (Elt F)),
    ternary main_v165 main_v163 main_call10_v0 main_v166 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_23 (constant S_ .f32 0xFF800000#32),
    binary main_v166 main_cst_23 main_v167 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_24 (constant S_ .f32 0xFF800000#32),
    unary main_cst_24 main_v168 (broadcastInDim S4096 ![] bcast_S_S4096 : (⟨S_, .f32⟩ : BufTy).Contents (Elt F) → (⟨S4096, .f32⟩ : BufTy).Contents (Elt F)),
    binary main_v168 main_v167 main_v169 (maximumf : (⟨S4096, .f32⟩ : BufTy).Contents (Elt F) → (⟨S4096, .f32⟩ : BufTy).Contents (Elt F) → (⟨S4096, .f32⟩ : BufTy).Contents (Elt F)),
    unary main_v169 main_v170 (broadcastInDim S4096x1 ![0] bcast_S4096_S4096x1_0 : (⟨S4096, .f32⟩ : BufTy).Contents (Elt F) → (⟨S4096x1, .f32⟩ : BufTy).Contents (Elt F)),
    unary main_v170 main_v171 (broadcastInDim S4096x4096 ![0, 1] bcast_S4096x1_S4096x4096_0_1 : (⟨S4096x1, .f32⟩ : BufTy).Contents (Elt F) → (⟨S4096x4096, .f32⟩ : BufTy).Contents (Elt F)),
    binary main_v166 main_v171 main_v172 (subf : (⟨S4096x4096, .f32⟩ : BufTy).Contents (Elt F) → (⟨S4096x4096, .f32⟩ : BufTy).Contents (Elt F) → (⟨S4096x4096, .f32⟩ : BufTy).Contents (Elt F)),
    unary main_v172 main_v173 (Host.exp : (⟨S4096x4096, .f32⟩ : BufTy).Contents (Elt F) → (⟨S4096x4096, .f32⟩ : BufTy).Contents (Elt F)),
    nullary main_cst_25 (constant S_ .f32 0x00000000#32),
    binary main_v173 main_cst_25 main_v174 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v174 main_v175 (broadcastInDim S4096x1 ![0] bcast_S4096_S4096x1_0 : (⟨S4096, .f32⟩ : BufTy).Contents (Elt F) → (⟨S4096x1, .f32⟩ : BufTy).Contents (Elt F)),
    unary main_v175 main_v176 (broadcastInDim S4096x4096 ![0, 1] bcast_S4096x1_S4096x4096_0_1 : (⟨S4096x1, .f32⟩ : BufTy).Contents (Elt F) → (⟨S4096x4096, .f32⟩ : BufTy).Contents (Elt F)),
    binary main_v173 main_v176 main_v177 (Host.divf : (⟨S4096x4096, .f32⟩ : BufTy).Contents (Elt F) → (⟨S4096x4096, .f32⟩ : BufTy).Contents (Elt F) → (⟨S4096x4096, .f32⟩ : BufTy).Contents (Elt F)),
    binary main_v177 main_v143 main_v178 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    nullary main_call11_cst (constant S_ .f32 0x00000000#32),
    unary main_call11_cst main_call11_v0 ((broadcastInDim S4096x64 ![] bcast_S_S4096x64) : (⟨S_, .f32⟩ : BufTy).Contents (Elt F) → (⟨S4096x64, .f32⟩ : BufTy).Contents (Elt F)),
    binary main_v178 main_call11_v0 main_call11_v1 ((cmpf .ogt) : (⟨S4096x64, .f32⟩ : BufTy).Contents (Elt F) → (⟨S4096x64, .f32⟩ : BufTy).Contents (Elt F) → (⟨S4096x64, .i1⟩ : BufTy).Contents (Elt F)),
    nullary main_call11_cst_0 (constant S_ .f32 0x00000000#32),
    unary main_call11_cst_0 main_call11_v2 ((broadcastInDim S4096x64 ![] bcast_S_S4096x64) : (⟨S_, .f32⟩ : BufTy).Contents (Elt F) → (⟨S4096x64, .f32⟩ : BufTy).Contents (Elt F)),
    binary main_v178 main_call11_v2 main_call11_v3 ((cmpf .ogt) : (⟨S4096x64, .f32⟩ : BufTy).Contents (Elt F) → (⟨S4096x64, .f32⟩ : BufTy).Contents (Elt F) → (⟨S4096x64, .i1⟩ : BufTy).Contents (Elt F)),
    nullary main_call11_cst_1 (constant S_ .f32 0x00000000#32),
    unary main_call11_cst_1 main_call11_call0_v0 (id : (⟨S_, .f32⟩ : BufTy).Contents (Elt F) → (⟨S_, .f32⟩ : BufTy).Contents (Elt F)),
    unary main_call11_call0_v0 main_call11_call0_v1 ((broadcastInDim S4096x64 ![] bcast_S_S4096x64) : (⟨S_, .f32⟩ : BufTy).Contents (Elt F) → (⟨S4096x64, .f32⟩ : BufTy).Contents (Elt F)),
    ternary main_call11_v3 main_call11_call0_v1 main_v178 main_call11_v4 (select : (⟨S4096x64, .i1⟩ : BufTy).Contents (Elt F) → (⟨S4096x64, .f32⟩ : BufTy).Contents (Elt F) → (⟨S4096x64, .f32⟩ : BufTy).Contents (Elt F) → (⟨S4096x64, .f32⟩ : BufTy).Contents (Elt F)),
    unary main_call11_v4 main_call11_v5 (Host.expm1 : (⟨S4096x64, .f32⟩ : BufTy).Contents (Elt F) → (⟨S4096x64, .f32⟩ : BufTy).Contents (Elt F)),
    nullary main_call11_cst_2 (constant S_ .f32 0x3F800000#32),
    unary main_call11_cst_2 main_call11_v6 ((broadcastInDim S4096x64 ![] bcast_S_S4096x64) : (⟨S_, .f32⟩ : BufTy).Contents (Elt F) → (⟨S4096x64, .f32⟩ : BufTy).Contents (Elt F)),
    binary main_call11_v6 main_call11_v5 main_call11_v7 (mulf : (⟨S4096x64, .f32⟩ : BufTy).Contents (Elt F) → (⟨S4096x64, .f32⟩ : BufTy).Contents (Elt F) → (⟨S4096x64, .f32⟩ : BufTy).Contents (Elt F)),
    ternary main_call11_v1 main_v178 main_call11_v7 main_v179 (select : (⟨S4096x64, .i1⟩ : BufTy).Contents (Elt F) → (⟨S4096x64, .f32⟩ : BufTy).Contents (Elt F) → (⟨S4096x64, .f32⟩ : BufTy).Contents (Elt F) → (⟨S4096x64, .f32⟩ : BufTy).Contents (Elt F)),
    nary ![main_v44, main_v89, main_v134, main_v179] main_v180 (fun u => fn_main_v180 (F := F) (u 0) (u 1) (u 2) (u 3)),
    binary main_v180 main_arg7 main_v181 ((fun l r => Host.dotGeneral dot_S4096x256_S256x16_S4096x16_1_0_0_1_n_n none l r) : (⟨S4096x256, .f32⟩ : BufTy).Contents (Elt F) → (⟨S256x16, .f32⟩ : BufTy).Contents (Elt F) → (⟨S4096x16, .f32⟩ : BufTy).Contents (Elt F)),
    unary main_arg8 main_v182 ((extractStridedSlice S16x1 ![0, 0] · slices_S32x1_S16x1_0_0) : (⟨S32x1, .f32⟩ : BufTy).Contents (Elt F) → (⟨S16x1, .f32⟩ : BufTy).Contents (Elt F)),
    binary main_v181 main_v182 main_v183 ((fun l r => Host.dotGeneral dot_S4096x16_S16x1_S4096x1_1_0_0_1_n_n none l r) : (⟨S4096x16, .f32⟩ : BufTy).Contents (Elt F) → (⟨S16x1, .f32⟩ : BufTy).Contents (Elt F) → (⟨S4096x1, .f32⟩ : BufTy).Contents (Elt F)),
    unary main_arg8 main_v184 ((extractStridedSlice S16x1 ![16, 0] · slices_S32x1_S16x1_16_0) : (⟨S32x1, .f32⟩ : BufTy).Contents (Elt F) → (⟨S16x1, .f32⟩ : BufTy).Contents (Elt F)),
    binary main_v181 main_v184 main_v185 ((fun l r => Host.dotGeneral dot_S4096x16_S16x1_S4096x1_1_0_0_1_n_n none l r) : (⟨S4096x16, .f32⟩ : BufTy).Contents (Elt F) → (⟨S16x1, .f32⟩ : BufTy).Contents (Elt F) → (⟨S4096x1, .f32⟩ : BufTy).Contents (Elt F)),
    unary main_v185 main_v186 ((transpose S1x4096 [1, 0] · transposes_S4096x1_S1x4096_1_0) : (⟨S4096x1, .f32⟩ : BufTy).Contents (Elt F) → (⟨S1x4096, .f32⟩ : BufTy).Contents (Elt F)),
    unary main_v183 main_v187 (broadcastInDim S4096x4096 ![0, 1] bcast_S4096x1_S4096x4096_0_1 : (⟨S4096x1, .f32⟩ : BufTy).Contents (Elt F) → (⟨S4096x4096, .f32⟩ : BufTy).Contents (Elt F)),
    unary main_v186 main_v188 (broadcastInDim S4096x4096 ![0, 1] bcast_S1x4096_S4096x4096_0_1 : (⟨S1x4096, .f32⟩ : BufTy).Contents (Elt F) → (⟨S4096x4096, .f32⟩ : BufTy).Contents (Elt F)),
    binary main_v187 main_v188 main_v189 (addf : (⟨S4096x4096, .f32⟩ : BufTy).Contents (Elt F) → (⟨S4096x4096, .f32⟩ : BufTy).Contents (Elt F) → (⟨S4096x4096, .f32⟩ : BufTy).Contents (Elt F)),
    nullary main_cst_26 (constant S_ .f32 0x00000000#32),
    unary main_cst_26 main_v190 (broadcastInDim S4096x4096 ![] bcast_S_S4096x4096 : (⟨S_, .f32⟩ : BufTy).Contents (Elt F) → (⟨S4096x4096, .f32⟩ : BufTy).Contents (Elt F)),
    binary main_v189 main_v190 main_v191 (cmpf .ogt : (⟨S4096x4096, .f32⟩ : BufTy).Contents (Elt F) → (⟨S4096x4096, .f32⟩ : BufTy).Contents (Elt F) → (⟨S4096x4096, .i1⟩ : BufTy).Contents (Elt F)),
    nullary main_cst_27 (constant S_ .f32 0x3E4CCCCD#32),
    unary main_cst_27 main_v192 (broadcastInDim S4096x4096 ![] bcast_S_S4096x4096 : (⟨S_, .f32⟩ : BufTy).Contents (Elt F) → (⟨S4096x4096, .f32⟩ : BufTy).Contents (Elt F)),
    binary main_v192 main_v189 main_v193 (mulf : (⟨S4096x4096, .f32⟩ : BufTy).Contents (Elt F) → (⟨S4096x4096, .f32⟩ : BufTy).Contents (Elt F) → (⟨S4096x4096, .f32⟩ : BufTy).Contents (Elt F)),
    ternary main_v191 main_v189 main_v193 main_v194 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    unary main_arg9 main_v195 (Host.absf : (⟨S_, .f32⟩ : BufTy).Contents (Elt F) → (⟨S_, .f32⟩ : BufTy).Contents (Elt F)),
    unary main_v195 main_v196 (broadcastInDim S4096x4096 ![] bcast_S_S4096x4096 : (⟨S_, .f32⟩ : BufTy).Contents (Elt F) → (⟨S4096x4096, .f32⟩ : BufTy).Contents (Elt F)),
    binary main_v196 main_v194 main_v197 (mulf : (⟨S4096x4096, .f32⟩ : BufTy).Contents (Elt F) → (⟨S4096x4096, .f32⟩ : BufTy).Contents (Elt F) → (⟨S4096x4096, .f32⟩ : BufTy).Contents (Elt F)),
    unary main_arg10 main_v198 (Host.absf : (⟨S_, .f32⟩ : BufTy).Contents (Elt F) → (⟨S_, .f32⟩ : BufTy).Contents (Elt F)),
    unary main_v198 main_v199 (broadcastInDim S4096x4096 ![] bcast_S_S4096x4096 : (⟨S_, .f32⟩ : BufTy).Contents (Elt F) → (⟨S4096x4096, .f32⟩ : BufTy).Contents (Elt F)),
    binary main_v199 main_arg2 main_v200 (mulf : (⟨S4096x4096, .f32⟩ : BufTy).Contents (Elt F) → (⟨S4096x4096, .f32⟩ : BufTy).Contents (Elt F) → (⟨S4096x4096, .f32⟩ : BufTy).Contents (Elt F)),
    binary main_v197 main_v200 main_v201 (addf : (⟨S4096x4096, .f32⟩ : BufTy).Contents (Elt F) → (⟨S4096x4096, .f32⟩ : BufTy).Contents (Elt F) → (⟨S4096x4096, .f32⟩ : BufTy).Contents (Elt F)),
    nullary main_c_28 (constantI S_ 32 0#32),
    unary main_c_28 main_v202 (broadcastInDim S4096x4096 ![] bcast_S_S4096x4096 : (⟨S_, .i32⟩ : BufTy).Contents (Elt F) → (⟨S4096x4096, .i32⟩ : BufTy).Contents (Elt F)),
    binary main_arg1 main_v202 main_v203 (cmpi .sgt : (⟨S4096x4096, .i32⟩ : BufTy).Contents (Elt F) → (⟨S4096x4096, .i32⟩ : BufTy).Contents (Elt F) → (⟨S4096x4096, .i1⟩ : BufTy).Contents (Elt F)),
    nullary main_cst_29 (constant S_ .f32 0xD9FFCB9E#32),
    unary main_cst_29 main_call13_v0 ((broadcastInDim S4096x4096 ![] bcast_S_S4096x4096) : (⟨S_, .f32⟩ : BufTy).Contents (Elt F) → (⟨S4096x4096, .f32⟩ : BufTy).Contents (Elt F)),
    ternary main_v203 main_v201 main_call13_v0 main_v204 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_30 (constant S_ .f32 0xFF800000#32),
    binary main_v204 main_cst_30 main_v205 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_31 (constant S_ .f32 0xFF800000#32) ]

/-- @main's operations 302 … 343 of 343 (window `main_part4`). -/
abbrev ops_part4 : List (HloOp τ sig (Elt F)) :=
  [ unary main_cst_31 main_v206 (broadcastInDim S4096 ![] bcast_S_S4096 : (⟨S_, .f32⟩ : BufTy).Contents (Elt F) → (⟨S4096, .f32⟩ : BufTy).Contents (Elt F)),
    binary main_v206 main_v205 main_v207 (maximumf : (⟨S4096, .f32⟩ : BufTy).Contents (Elt F) → (⟨S4096, .f32⟩ : BufTy).Contents (Elt F) → (⟨S4096, .f32⟩ : BufTy).Contents (Elt F)),
    unary main_v207 main_v208 (broadcastInDim S4096x1 ![0] bcast_S4096_S4096x1_0 : (⟨S4096, .f32⟩ : BufTy).Contents (Elt F) → (⟨S4096x1, .f32⟩ : BufTy).Contents (Elt F)),
    unary main_v208 main_v209 (broadcastInDim S4096x4096 ![0, 1] bcast_S4096x1_S4096x4096_0_1 : (⟨S4096x1, .f32⟩ : BufTy).Contents (Elt F) → (⟨S4096x4096, .f32⟩ : BufTy).Contents (Elt F)),
    binary main_v204 main_v209 main_v210 (subf : (⟨S4096x4096, .f32⟩ : BufTy).Contents (Elt F) → (⟨S4096x4096, .f32⟩ : BufTy).Contents (Elt F) → (⟨S4096x4096, .f32⟩ : BufTy).Contents (Elt F)),
    unary main_v210 main_v211 (Host.exp : (⟨S4096x4096, .f32⟩ : BufTy).Contents (Elt F) → (⟨S4096x4096, .f32⟩ : BufTy).Contents (Elt F)),
    nullary main_cst_32 (constant S_ .f32 0x00000000#32),
    binary main_v211 main_cst_32 main_v212 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v212 main_v213 (broadcastInDim S4096x1 ![0] bcast_S4096_S4096x1_0 : (⟨S4096, .f32⟩ : BufTy).Contents (Elt F) → (⟨S4096x1, .f32⟩ : BufTy).Contents (Elt F)),
    unary main_v213 main_v214 (broadcastInDim S4096x4096 ![0, 1] bcast_S4096x1_S4096x4096_0_1 : (⟨S4096x1, .f32⟩ : BufTy).Contents (Elt F) → (⟨S4096x4096, .f32⟩ : BufTy).Contents (Elt F)),
    binary main_v211 main_v214 main_v215 (Host.divf : (⟨S4096x4096, .f32⟩ : BufTy).Contents (Elt F) → (⟨S4096x4096, .f32⟩ : BufTy).Contents (Elt F) → (⟨S4096x4096, .f32⟩ : BufTy).Contents (Elt F)),
    binary main_v215 main_v181 main_v216 ((fun l r => Host.dotGeneral dot_S4096x4096_S4096x16_S4096x16_1_0_0_1_n_n none l r) : (⟨S4096x4096, .f32⟩ : BufTy).Contents (Elt F) → (⟨S4096x16, .f32⟩ : BufTy).Contents (Elt F) → (⟨S4096x16, .f32⟩ : BufTy).Contents (Elt F)),
    nullary main_call14_cst (constant S_ .f32 0x00000000#32),
    unary main_call14_cst main_call14_v0 ((broadcastInDim S4096x16 ![] bcast_S_S4096x16) : (⟨S_, .f32⟩ : BufTy).Contents (Elt F) → (⟨S4096x16, .f32⟩ : BufTy).Contents (Elt F)),
    binary main_v216 main_call14_v0 main_call14_v1 ((cmpf .ogt) : (⟨S4096x16, .f32⟩ : BufTy).Contents (Elt F) → (⟨S4096x16, .f32⟩ : BufTy).Contents (Elt F) → (⟨S4096x16, .i1⟩ : BufTy).Contents (Elt F)),
    nullary main_call14_cst_0 (constant S_ .f32 0x00000000#32),
    unary main_call14_cst_0 main_call14_v2 ((broadcastInDim S4096x16 ![] bcast_S_S4096x16) : (⟨S_, .f32⟩ : BufTy).Contents (Elt F) → (⟨S4096x16, .f32⟩ : BufTy).Contents (Elt F)),
    binary main_v216 main_call14_v2 main_call14_v3 ((cmpf .ogt) : (⟨S4096x16, .f32⟩ : BufTy).Contents (Elt F) → (⟨S4096x16, .f32⟩ : BufTy).Contents (Elt F) → (⟨S4096x16, .i1⟩ : BufTy).Contents (Elt F)),
    nullary main_call14_cst_1 (constant S_ .f32 0x00000000#32),
    unary main_call14_cst_1 main_call14_call0_v0 (id : (⟨S_, .f32⟩ : BufTy).Contents (Elt F) → (⟨S_, .f32⟩ : BufTy).Contents (Elt F)),
    unary main_call14_call0_v0 main_call14_call0_v1 ((broadcastInDim S4096x16 ![] bcast_S_S4096x16) : (⟨S_, .f32⟩ : BufTy).Contents (Elt F) → (⟨S4096x16, .f32⟩ : BufTy).Contents (Elt F)),
    ternary main_call14_v3 main_call14_call0_v1 main_v216 main_call14_v4 (select : (⟨S4096x16, .i1⟩ : BufTy).Contents (Elt F) → (⟨S4096x16, .f32⟩ : BufTy).Contents (Elt F) → (⟨S4096x16, .f32⟩ : BufTy).Contents (Elt F) → (⟨S4096x16, .f32⟩ : BufTy).Contents (Elt F)),
    unary main_call14_v4 main_call14_v5 (Host.expm1 : (⟨S4096x16, .f32⟩ : BufTy).Contents (Elt F) → (⟨S4096x16, .f32⟩ : BufTy).Contents (Elt F)),
    nullary main_call14_cst_2 (constant S_ .f32 0x3F800000#32),
    unary main_call14_cst_2 main_call14_v6 ((broadcastInDim S4096x16 ![] bcast_S_S4096x16) : (⟨S_, .f32⟩ : BufTy).Contents (Elt F) → (⟨S4096x16, .f32⟩ : BufTy).Contents (Elt F)),
    binary main_call14_v6 main_call14_v5 main_call14_v7 (mulf : (⟨S4096x16, .f32⟩ : BufTy).Contents (Elt F) → (⟨S4096x16, .f32⟩ : BufTy).Contents (Elt F) → (⟨S4096x16, .f32⟩ : BufTy).Contents (Elt F)),
    ternary main_call14_v1 main_v216 main_call14_v7 main_v217 (select : (⟨S4096x16, .i1⟩ : BufTy).Contents (Elt F) → (⟨S4096x16, .f32⟩ : BufTy).Contents (Elt F) → (⟨S4096x16, .f32⟩ : BufTy).Contents (Elt F) → (⟨S4096x16, .f32⟩ : BufTy).Contents (Elt F)),
    nullary main_call15_cst (constant S_ .f32 0xFF800000#32),
    binary main_v217 main_call15_cst main_call15_v0 ((fun x v => Host.reduce FloatOps.maximumf x v reducesTo_S4096x16_S4096_d1 h_S_) : (⟨S4096x16, .f32⟩ : BufTy).Contents (Elt F) → (⟨S_, .f32⟩ : BufTy).Contents (Elt F) → (⟨S4096, .f32⟩ : BufTy).Contents (Elt F)),
    nullary main_call15_cst_0 (constant S_ .f32 0xFF800000#32),
    unary main_call15_cst_0 main_call15_v1 ((broadcastInDim S4096 ![] bcast_S_S4096) : (⟨S_, .f32⟩ : BufTy).Contents (Elt F) → (⟨S4096, .f32⟩ : BufTy).Contents (Elt F)),
    binary main_call15_v1 main_call15_v0 main_call15_v2 (maximumf : (⟨S4096, .f32⟩ : BufTy).Contents (Elt F) → (⟨S4096, .f32⟩ : BufTy).Contents (Elt F) → (⟨S4096, .f32⟩ : BufTy).Contents (Elt F)),
    unary main_call15_v2 main_call15_v3 ((broadcastInDim S4096x1 ![0] bcast_S4096_S4096x1_0) : (⟨S4096, .f32⟩ : BufTy).Contents (Elt F) → (⟨S4096x1, .f32⟩ : BufTy).Contents (Elt F)),
    unary main_call15_v3 main_call15_v4 ((broadcastInDim S4096x16 ![0, 1] bcast_S4096x1_S4096x16_0_1) : (⟨S4096x1, .f32⟩ : BufTy).Contents (Elt F) → (⟨S4096x16, .f32⟩ : BufTy).Contents (Elt F)),
    binary main_v217 main_call15_v4 main_call15_v5 (subf : (⟨S4096x16, .f32⟩ : BufTy).Contents (Elt F) → (⟨S4096x16, .f32⟩ : BufTy).Contents (Elt F) → (⟨S4096x16, .f32⟩ : BufTy).Contents (Elt F)),
    unary main_call15_v5 main_call15_v6 (Host.exp : (⟨S4096x16, .f32⟩ : BufTy).Contents (Elt F) → (⟨S4096x16, .f32⟩ : BufTy).Contents (Elt F)),
    nullary main_call15_cst_1 (constant S_ .f32 0x00000000#32),
    binary main_call15_v6 main_call15_cst_1 main_call15_v7 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    unary main_call15_v7 main_call15_v8 ((broadcastInDim S4096x1 ![0] bcast_S4096_S4096x1_0) : (⟨S4096, .f32⟩ : BufTy).Contents (Elt F) → (⟨S4096x1, .f32⟩ : BufTy).Contents (Elt F)),
    unary main_call15_v8 main_call15_v9 (Host.log : (⟨S4096x1, .f32⟩ : BufTy).Contents (Elt F) → (⟨S4096x1, .f32⟩ : BufTy).Contents (Elt F)),
    unary main_call15_v9 main_call15_v10 ((broadcastInDim S4096x16 ![0, 1] bcast_S4096x1_S4096x16_0_1) : (⟨S4096x1, .f32⟩ : BufTy).Contents (Elt F) → (⟨S4096x16, .f32⟩ : BufTy).Contents (Elt F)),
    binary main_call15_v5 main_call15_v10 main_v218 (subf : (⟨S4096x16, .f32⟩ : BufTy).Contents (Elt F) → (⟨S4096x16, .f32⟩ : BufTy).Contents (Elt F) → (⟨S4096x16, .f32⟩ : BufTy).Contents (Elt F)) ]

/-- @main's 343 operations, in order. -/
abbrev ops : List (HloOp τ sig (Elt F)) :=
  ops_part0 ++ (ops_part1 ++ (ops_part2 ++ (ops_part3 ++ (ops_part4))))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
attribute [local irreducible] Host.reduce Host.reduceAdd in
set_option maxRecDepth 8192 in
theorem main_part4_eq (c : Dev nD) : main_part4 (F := F) c = seq ops_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., unary_bufs_sub .., binary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., unary_bufs_sub .., reshape_bufs_sub .., unary_bufs_sub .., reshape_bufs_sub .., unary_bufs_sub .., reshape_bufs_sub ..⟩
set_option maxRecDepth 8192 in
theorem ops_part1_sub : (ops_part1 : List (HloOp τ sig (Elt F))).Forall fun op => op.bufs ⊆ tcRefs τ sig :=
  ⟨binary_bufs_sub .., unary_bufs_sub .., binary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., unary_bufs_sub .., reshape_bufs_sub .., unary_bufs_sub .., reshape_bufs_sub .., unary_bufs_sub .., reshape_bufs_sub .., binary_bufs_sub .., unary_bufs_sub .., binary_bufs_sub .., unary_bufs_sub .., binary_bufs_sub .., unary_bufs_sub .., unary_bufs_sub .., unary_bufs_sub ..⟩
set_option maxRecDepth 8192 in
theorem ops_part2_sub : (ops_part2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., unary_bufs_sub .., reshape_bufs_sub .., unary_bufs_sub .., reshape_bufs_sub .., unary_bufs_sub .., reshape_bufs_sub .., binary_bufs_sub .., unary_bufs_sub .., binary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem ops_part3_sub : (ops_part3 : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nary_bufs_sub .., binary_bufs_sub .., unary_bufs_sub .., binary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., ternary_bufs_sub .., nullary_bufs_sub .., binary_bufs_sub .., nullary_bufs_sub ..⟩
set_option maxRecDepth 8192 in
theorem ops_part4_sub : (ops_part4 : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_v2, main_v3, main_v4, main_v5, main_v6, main_v7, main_v8, main_v9, main_v10, main_v11, main_v12, main_v13, main_v14, main_v15, main_v16, main_cst, main_v17, main_v18, main_cst_0, main_v19, main_v20, main_v21, main_v22, main_v23, main_v24, main_v25, main_v26, main_v27, main_v28, main_c, main_v29, main_v30, main_cst_1, main_call1_v0, main_v31, main_cst_2, main_v32, main_cst_3, main_v33, main_v34, main_v35, main_v36, main_v37, main_v38, main_cst_4, main_v39, main_v40, main_v41, main_v42, main_v43, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v44, main_v45, main_v46, main_v47, main_v48, main_v49, main_v50, main_v51, main_v52]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
set_option maxRecDepth 8192 in
set_option maxHeartbeats 2000000 in
theorem val1_main_v44 (V0 : Valuation τ sig (Elt F)) : val1 V0 (no_index (Proc.devRef .tc main_v44)) = select (cmpf .ogt (res_main_v43 V0) (broadcastInDim S4096x64 ![] bcast_S_S4096x64 (constant S_ .f32 0x00000000#32))) (res_main_v43 V0) (mulf (broadcastInDim S4096x64 ![] bcast_S_S4096x64 (constant S_ .f32 0x3F800000#32)) (Host.expm1 (select (cmpf .ogt (res_main_v43 V0) (broadcastInDim S4096x64 ![] bcast_S_S4096x64 (constant S_ .f32 0x00000000#32))) (broadcastInDim S4096x64 ![] bcast_S_S4096x64 (id (constant S_ .f32 0x00000000#32))) (res_main_v43 V0)))) := by
  unfold val1
  simp only [ops_part0]
  after_results_simp
  simp only [val0_main_arg3, val0_main_arg0, val0_main_arg2, val0_main_arg6, val0_main_arg4, val0_main_arg5, val0_main_arg1] <;> rfl
set_option maxRecDepth 8192 in
set_option maxHeartbeats 2000000 in
theorem val1_main_v46 (V0 : Valuation τ sig (Elt F)) : val1 V0 (no_index (Proc.devRef .tc main_v46)) = shapeCast _ (extractStridedSlice S1x512x64 ![1, 0, 0] (V0 (Proc.devRef .tc main_arg3)) slices_S4x512x64_S1x512x64_1_0_0) shapeCasts_S1x512x64_S512x64 := by
  unfold val1
  simp only [ops_part0]
  after_results_simp
  simp only [val0_main_arg3] <;> rfl
set_option maxRecDepth 8192 in
set_option maxHeartbeats 2000000 in
theorem val1_main_v48 (V0 : Valuation τ sig (Elt F)) : val1 V0 (no_index (Proc.devRef .tc main_v48)) = res_main_v48 V0 := by
  unfold val1
  simp only [ops_part0]
  after_results_simp
  simp only [val0_main_arg4] <;> rfl
set_option maxRecDepth 8192 in
set_option maxHeartbeats 2000000 in
theorem val1_main_v50 (V0 : Valuation τ sig (Elt F)) : val1 V0 (no_index (Proc.devRef .tc main_v50)) = shapeCast _ (extractStridedSlice S1 ![1] (V0 (Proc.devRef .tc main_arg5)) slices_S4_S1_1) shapeCasts_S1_S_ := by
  unfold val1
  simp only [ops_part0]
  after_results_simp
  simp only [val0_main_arg5] <;> rfl
set_option maxRecDepth 8192 in
set_option maxHeartbeats 2000000 in
theorem val1_main_v52 (V0 : Valuation τ sig (Elt F)) : val1 V0 (no_index (Proc.devRef .tc main_v52)) = shapeCast _ (extractStridedSlice S1 ![1] (V0 (Proc.devRef .tc main_arg6)) slices_S4_S1_1) shapeCasts_S1_S_ := by
  unfold val1
  simp only [ops_part0]
  after_results_simp
  simp only [val0_main_arg6] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v53, main_v54, main_v55, main_v56, main_v57, main_v58, main_v59, main_v60, main_v61, main_cst_5, main_v62, main_v63, main_cst_6, main_v64, main_v65, main_v66, main_v67, main_v68, main_v69, main_v70, main_v71, main_v72, main_v73, main_c_7, main_v74, main_v75, main_cst_8, main_call4_v0, main_v76, main_cst_9, main_v77, main_cst_10, main_v78, main_v79, main_v80, main_v81, main_v82, main_v83, main_cst_11, main_v84, main_v85, main_v86, main_v87, main_v88, main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v89, main_v90, main_v91, main_v92, main_v93, main_v94, main_v95, main_v96, main_v97, main_v98, main_v99, main_v100, main_v101, main_v102, main_v103, main_v104, main_v105]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_v44 (V0 : Valuation τ sig (Elt F)) : val2 V0 (no_index (Proc.devRef .tc main_v44)) = select (cmpf .ogt (res_main_v43 V0) (broadcastInDim S4096x64 ![] bcast_S_S4096x64 (constant S_ .f32 0x00000000#32))) (res_main_v43 V0) (mulf (broadcastInDim S4096x64 ![] bcast_S_S4096x64 (constant S_ .f32 0x3F800000#32)) (Host.expm1 (select (cmpf .ogt (res_main_v43 V0) (broadcastInDim S4096x64 ![] bcast_S_S4096x64 (constant S_ .f32 0x00000000#32))) (broadcastInDim S4096x64 ![] bcast_S_S4096x64 (id (constant S_ .f32 0x00000000#32))) (res_main_v43 V0)))) :=
  (val2_keep V0 main_v44 (by decide)).trans (val1_main_v44 V0)
set_option maxRecDepth 8192 in
set_option maxHeartbeats 2000000 in
theorem val2_main_v89 (V0 : Valuation τ sig (Elt F)) : val2 V0 (no_index (Proc.devRef .tc main_v89)) = select (cmpf .ogt (res_main_v88 V0) (broadcastInDim S4096x64 ![] bcast_S_S4096x64 (constant S_ .f32 0x00000000#32))) (res_main_v88 V0) (mulf (broadcastInDim S4096x64 ![] bcast_S_S4096x64 (constant S_ .f32 0x3F800000#32)) (Host.expm1 (select (cmpf .ogt (res_main_v88 V0) (broadcastInDim S4096x64 ![] bcast_S_S4096x64 (constant S_ .f32 0x00000000#32))) (broadcastInDim S4096x64 ![] bcast_S_S4096x64 (id (constant S_ .f32 0x00000000#32))) (res_main_v88 V0)))) := by
  unfold val2
  simp only [ops_part1]
  after_results_simp
  simp only [val1_main_v46, val1_main_arg0, val1_main_arg2, val1_main_v52, val1_main_v48, val1_main_v50, val1_main_arg1] <;> rfl
set_option maxRecDepth 8192 in
set_option maxHeartbeats 2000000 in
theorem val2_main_v95 (V0 : Valuation τ sig (Elt F)) : val2 V0 (no_index (Proc.devRef .tc main_v95)) = shapeCast _ (extractStridedSlice S1 ![2] (V0 (Proc.devRef .tc main_arg5)) slices_S4_S1_2) shapeCasts_S1_S_ := by
  unfold val2
  simp only [ops_part1]
  after_results_simp
  simp only [val1_main_arg5] <;> rfl
set_option maxRecDepth 8192 in
set_option maxHeartbeats 2000000 in
theorem val2_main_v97 (V0 : Valuation τ sig (Elt F)) : val2 V0 (no_index (Proc.devRef .tc main_v97)) = shapeCast _ (extractStridedSlice S1 ![2] (V0 (Proc.devRef .tc main_arg6)) slices_S4_S1_2) shapeCasts_S1_S_ := by
  unfold val2
  simp only [ops_part1]
  after_results_simp
  simp only [val1_main_arg6] <;> rfl
set_option maxRecDepth 8192 in
set_option maxHeartbeats 2000000 in
theorem val2_main_v98 (V0 : Valuation τ sig (Elt F)) : val2 V0 (no_index (Proc.devRef .tc main_v98)) = res_main_v98 V0 := by
  unfold val2
  simp only [ops_part1]
  after_results_simp
  simp only [val1_main_arg3, val1_main_arg0] <;> rfl
set_option maxRecDepth 8192 in
set_option maxHeartbeats 2000000 in
theorem val2_main_v104 (V0 : Valuation τ sig (Elt F)) : val2 V0 (no_index (Proc.devRef .tc main_v104)) = broadcastInDim S4096x4096 ![0, 1] bcast_S4096x1_S4096x4096_0_1 (Host.dotGeneral dot_S4096x64_S64x1_S4096x1_1_0_0_1_n_n none (res_main_v98 V0) (extractStridedSlice S64x1 ![0, 0] (res_main_v93 V0) slices_S128x1_S64x1_0_0)) := by
  unfold val2
  simp only [ops_part1]
  after_results_simp
  simp only [val1_main_arg4, val1_main_arg3, val1_main_arg0] <;> rfl
set_option maxRecDepth 8192 in
set_option maxHeartbeats 2000000 in
theorem val2_main_v105 (V0 : Valuation τ sig (Elt F)) : val2 V0 (no_index (Proc.devRef .tc main_v105)) = broadcastInDim S4096x4096 ![0, 1] bcast_S1x4096_S4096x4096_0_1 (transpose S1x4096 [1, 0] (Host.dotGeneral dot_S4096x64_S64x1_S4096x1_1_0_0_1_n_n none (res_main_v98 V0) (extractStridedSlice S64x1 ![64, 0] (res_main_v93 V0) slices_S128x1_S64x1_64_0)) transposes_S4096x1_S1x4096_1_0) := by
  unfold val2
  simp only [ops_part1]
  after_results_simp
  simp only [val1_main_arg4, val1_main_arg3, val1_main_arg0] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v106, main_cst_12, main_v107, main_v108, main_cst_13, main_v109, main_v110, main_v111, main_v112, main_v113, main_v114, main_v115, main_v116, main_v117, main_v118, main_c_14, main_v119, main_v120, main_cst_15, main_call7_v0, main_v121, main_cst_16, main_v122, main_cst_17, main_v123, main_v124, main_v125, main_v126, main_v127, main_v128, main_cst_18, main_v129, main_v130, main_v131, main_v132, main_v133, main_call8_cst, main_call8_v0, main_call8_v1, main_call8_cst_0, main_call8_v2, main_call8_v3, main_call8_cst_1, main_call8_call0_v0, main_call8_call0_v1, main_call8_v4, main_call8_v5, main_call8_cst_2, main_call8_v6, main_call8_v7, main_v134, main_v135, main_v136, main_v137, main_v138, main_v139, main_v140, main_v141, main_v142, main_v143, main_v144, main_v145, main_v146, main_v147, main_v148, main_v149, main_v150, main_v151, main_cst_19, main_v152, main_v153, main_cst_20, main_v154, main_v155, main_v156]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_v44 (V0 : Valuation τ sig (Elt F)) : val3 V0 (no_index (Proc.devRef .tc main_v44)) = select (cmpf .ogt (res_main_v43 V0) (broadcastInDim S4096x64 ![] bcast_S_S4096x64 (constant S_ .f32 0x00000000#32))) (res_main_v43 V0) (mulf (broadcastInDim S4096x64 ![] bcast_S_S4096x64 (constant S_ .f32 0x3F800000#32)) (Host.expm1 (select (cmpf .ogt (res_main_v43 V0) (broadcastInDim S4096x64 ![] bcast_S_S4096x64 (constant S_ .f32 0x00000000#32))) (broadcastInDim S4096x64 ![] bcast_S_S4096x64 (id (constant S_ .f32 0x00000000#32))) (res_main_v43 V0)))) :=
  (val3_keep V0 main_v44 (by decide)).trans (val2_main_v44 V0)
theorem val3_main_v89 (V0 : Valuation τ sig (Elt F)) : val3 V0 (no_index (Proc.devRef .tc main_v89)) = select (cmpf .ogt (res_main_v88 V0) (broadcastInDim S4096x64 ![] bcast_S_S4096x64 (constant S_ .f32 0x00000000#32))) (res_main_v88 V0) (mulf (broadcastInDim S4096x64 ![] bcast_S_S4096x64 (constant S_ .f32 0x3F800000#32)) (Host.expm1 (select (cmpf .ogt (res_main_v88 V0) (broadcastInDim S4096x64 ![] bcast_S_S4096x64 (constant S_ .f32 0x00000000#32))) (broadcastInDim S4096x64 ![] bcast_S_S4096x64 (id (constant S_ .f32 0x00000000#32))) (res_main_v88 V0)))) :=
  (val3_keep V0 main_v89 (by decide)).trans (val2_main_v89 V0)
set_option maxRecDepth 8192 in
set_option maxHeartbeats 2000000 in
theorem val3_main_v134 (V0 : Valuation τ sig (Elt F)) : val3 V0 (no_index (Proc.devRef .tc main_v134)) = select (cmpf .ogt (res_main_v133 V0) (broadcastInDim S4096x64 ![] bcast_S_S4096x64 (constant S_ .f32 0x00000000#32))) (res_main_v133 V0) (mulf (broadcastInDim S4096x64 ![] bcast_S_S4096x64 (constant S_ .f32 0x3F800000#32)) (Host.expm1 (select (cmpf .ogt (res_main_v133 V0) (broadcastInDim S4096x64 ![] bcast_S_S4096x64 (constant S_ .f32 0x00000000#32))) (broadcastInDim S4096x64 ![] bcast_S_S4096x64 (id (constant S_ .f32 0x00000000#32))) (res_main_v133 V0)))) := by
  unfold val3
  simp only [ops_part2]
  after_results_simp
  simp only [val2_main_v98, val2_main_arg2, val2_main_v97, val2_main_v105, val2_main_v104, val2_main_v95, val2_main_arg1] <;> rfl
set_option maxRecDepth 8192 in
set_option maxHeartbeats 2000000 in
theorem val3_main_v140 (V0 : Valuation τ sig (Elt F)) : val3 V0 (no_index (Proc.devRef .tc main_v140)) = shapeCast _ (extractStridedSlice S1 ![3] (V0 (Proc.devRef .tc main_arg5)) slices_S4_S1_3) shapeCasts_S1_S_ := by
  unfold val3
  simp only [ops_part2]
  after_results_simp
  simp only [val2_main_arg5] <;> rfl
set_option maxRecDepth 8192 in
set_option maxHeartbeats 2000000 in
theorem val3_main_v142 (V0 : Valuation τ sig (Elt F)) : val3 V0 (no_index (Proc.devRef .tc main_v142)) = shapeCast _ (extractStridedSlice S1 ![3] (V0 (Proc.devRef .tc main_arg6)) slices_S4_S1_3) shapeCasts_S1_S_ := by
  unfold val3
  simp only [ops_part2]
  after_results_simp
  simp only [val2_main_arg6] <;> rfl
set_option maxRecDepth 8192 in
set_option maxHeartbeats 2000000 in
theorem val3_main_v143 (V0 : Valuation τ sig (Elt F)) : val3 V0 (no_index (Proc.devRef .tc main_v143)) = res_main_v143 V0 := by
  unfold val3
  simp only [ops_part2]
  after_results_simp
  simp only [val2_main_arg3, val2_main_arg0] <;> rfl
set_option maxRecDepth 8192 in
set_option maxHeartbeats 2000000 in
theorem val3_main_v156 (V0 : Valuation τ sig (Elt F)) : val3 V0 (no_index (Proc.devRef .tc main_v156)) = select (cmpf .ogt (res_main_v151 V0) (broadcastInDim S4096x4096 ![] bcast_S_S4096x4096 (constant S_ .f32 0x00000000#32))) (res_main_v151 V0) (mulf (broadcastInDim S4096x4096 ![] bcast_S_S4096x4096 (constant S_ .f32 0x3E4CCCCD#32)) (res_main_v151 V0)) := by
  unfold val3
  simp only [ops_part2]
  after_results_simp
  simp only [val2_main_arg4, val2_main_arg3, val2_main_arg0] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v157, main_v158, main_v159, main_v160, main_v161, main_v162, main_v163, main_c_21, main_v164, main_v165, main_cst_22, main_call10_v0, main_v166, main_cst_23, main_v167, main_cst_24, main_v168, main_v169, main_v170, main_v171, main_v172, main_v173, main_cst_25, main_v174, main_v175, main_v176, main_v177, main_v178, main_call11_cst, main_call11_v0, main_call11_v1, main_call11_cst_0, main_call11_v2, main_call11_v3, main_call11_cst_1, main_call11_call0_v0, main_call11_call0_v1, main_call11_v4, main_call11_v5, main_call11_cst_2, main_call11_v6, main_call11_v7, main_v179, main_v180, main_v181, main_v182, main_v183, main_v184, main_v185, main_v186, main_v187, main_v188, main_v189, main_cst_26, main_v190, main_v191, main_cst_27, main_v192, main_v193, main_v194, main_v195, main_v196, main_v197, main_v198, main_v199, main_v200, main_v201, main_c_28, main_v202, main_v203, main_cst_29, main_call13_v0, main_v204, main_cst_30, main_v205, main_cst_31]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
set_option maxRecDepth 8192 in
set_option maxHeartbeats 2000000 in
theorem val4_main_v181 (V0 : Valuation τ sig (Elt F)) : val4 V0 (no_index (Proc.devRef .tc main_v181)) = res_main_v181 V0 := by
  unfold val4
  simp only [ops_part3]
  after_results_simp
  try dsimp only [Matrix.cons_val]
  try after_results_simp
  simp only [val3_main_arg7, val3_main_v143, val3_main_arg2, val3_main_v142, val3_main_v156, val3_main_v140, val3_main_arg1, val3_main_v134, val3_main_v89, val3_main_v44] <;> rfl
set_option maxRecDepth 8192 in
set_option maxHeartbeats 2000000 in
theorem val4_main_v204 (V0 : Valuation τ sig (Elt F)) : val4 V0 (no_index (Proc.devRef .tc main_v204)) = res_main_v204 V0 := by
  unfold val4
  simp only [ops_part3]
  after_results_simp
  try dsimp only [Matrix.cons_val]
  try after_results_simp
  simp only [val3_main_arg2, val3_main_arg10, val3_main_arg8, val3_main_arg7, val3_main_v143, val3_main_v142, val3_main_v156, val3_main_v140, val3_main_arg1, val3_main_v134, val3_main_v89, val3_main_v44, val3_main_arg9] <;> rfl
set_option maxRecDepth 8192 in
set_option maxHeartbeats 2000000 in
theorem val4_main_v205 (V0 : Valuation τ sig (Elt F)) : val4 V0 (no_index (Proc.devRef .tc main_v205)) = Host.reduce FloatOps.maximumf (res_main_v204 V0) (constant S_ .f32 0xFF800000#32) reducesTo_S4096x4096_S4096_d1 h_S_ := by
  unfold val4
  simp only [ops_part3]
  after_results_simp
  try dsimp only [Matrix.cons_val]
  try after_results_simp
  simp only [val3_main_arg2, val3_main_arg10, val3_main_arg8, val3_main_arg7, val3_main_v143, val3_main_v142, val3_main_v156, val3_main_v140, val3_main_arg1, val3_main_v134, val3_main_v89, val3_main_v44, val3_main_arg9] <;> rfl
set_option maxRecDepth 8192 in
set_option maxHeartbeats 2000000 in
theorem val4_main_cst_31 (V0 : Valuation τ sig (Elt F)) : val4 V0 (no_index (Proc.devRef .tc main_cst_31)) = constant S_ .f32 0xFF800000#32 := by
  unfold val4
  simp only [ops_part3]
  after_results_simp
  try dsimp only [Matrix.cons_val]
  try after_results_simp
  all_goals rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_v206, main_v207, main_v208, main_v209, main_v210, main_v211, main_cst_32, main_v212, main_v213, main_v214, main_v215, main_v216, main_call14_cst, main_call14_v0, main_call14_v1, main_call14_cst_0, main_call14_v2, main_call14_v3, main_call14_cst_1, main_call14_call0_v0, main_call14_call0_v1, main_call14_v4, main_call14_v5, main_call14_cst_2, main_call14_v6, main_call14_v7, main_v217, main_call15_cst, main_call15_v0, main_call15_cst_0, main_call15_v1, main_call15_v2, main_call15_v3, main_call15_v4, main_call15_v5, main_call15_v6, main_call15_cst_1, main_call15_v7, main_call15_v8, main_call15_v9, main_call15_v10, main_v218]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
set_option maxRecDepth 8192 in
set_option maxHeartbeats 2000000 in
theorem val5_main_v218 (V0 : Valuation τ sig (Elt F)) : val5 V0 (no_index (Proc.devRef .tc main_v218)) = subf (res_main_call15_v5 V0) (broadcastInDim S4096x16 ![0, 1] bcast_S4096x1_S4096x16_0_1 (Host.log (broadcastInDim S4096x1 ![0] bcast_S4096_S4096x1_0 (Host.reduceAdd (Host.exp (res_main_call15_v5 V0)) (constant S_ .f32 0x00000000#32) reducesTo_S4096x16_S4096_d1 h_S_)))) := by
  unfold val5
  simp only [ops_part4]
  after_results_simp
  simp only [val4_main_v181, val4_main_v205, val4_main_cst_31, val4_main_v204] <;> rfl

theorem after_ops (V0 : Valuation τ sig (Elt F)) : after ops V0 = val5 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v218) = subf (res_main_call15_v5 (launchContents m c)) (broadcastInDim S4096x16 ![0, 1] bcast_S4096x1_S4096x16_0_1 (Host.log (broadcastInDim S4096x1 ![0] bcast_S4096_S4096x1_0 (Host.reduceAdd (Host.exp (res_main_call15_v5 (launchContents m c))) (constant S_ .f32 0x00000000#32) reducesTo_S4096x16_S4096_d1 h_S_))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v218).trans (by simp only [after_ops]; exact val5_main_v218 (launchContents m c)),
      (h c main_arg0).trans (by simp only [after_ops]; exact val5_main_arg0 (launchContents m c)),
      (h c main_arg1).trans (by simp only [after_ops]; exact val5_main_arg1 (launchContents m c)),
      (h c main_arg2).trans (by simp only [after_ops]; exact val5_main_arg2 (launchContents m c)),
      (h c main_arg3).trans (by simp only [after_ops]; exact val5_main_arg3 (launchContents m c)),
      (h c main_arg4).trans (by simp only [after_ops]; exact val5_main_arg4 (launchContents m c)),
      (h c main_arg5).trans (by simp only [after_ops]; exact val5_main_arg5 (launchContents m c)),
      (h c main_arg6).trans (by simp only [after_ops]; exact val5_main_arg6 (launchContents m c)),
      (h c main_arg7).trans (by simp only [after_ops]; exact val5_main_arg7 (launchContents m c)),
      (h c main_arg8).trans (by simp only [after_ops]; exact val5_main_arg8 (launchContents m c)),
      (h c main_arg9).trans (by simp only [after_ops]; exact val5_main_arg9 (launchContents m c)),
      (h c main_arg10).trans (by simp only [after_ops]; exact val5_main_arg10 (launchContents m c))⟩)
    (run_seq scopedRefs_eq scopedSems_eq defs main (fun _ => ops) main_eq (fun _ => ops_sub) m ρ)

end Cert.ReferenceIdeal.RunH

end
-- ==== Proof.Spec.lean ====
/-
  The two programs' arithmetic as plain index-by-index functions over the extended reals (no program is imported here).
  A structural-fingerprint attention layer takes node features, projects them (h = x·W), forms a rank-one logit
  f1 n + f2 j passed through a leaky rectifier, mixes in the structural term, masks by adjacency, takes a row
  softmax and averages the projected features with it. The kernel folds |w1| into the rank-one terms and divides
  AFTER the weighted sum; the reference multiplies the rectified logit by |w1| and divides BEFORE it.
  Each side is written here in its own association; Proof/RealMath.lean shows they are one function on finite inputs.
-/
import Idealize.ShloMosaic.PureOps.Ideal

noncomputable section

namespace Cert.Spec

open Idealize.ShloMosaic

/-! ## The literals both programs spell -/

/-- the rectifier's slope, f32 0.2 -/
abbrev cLeak : EReal := Ideal.ofBits .f32 0x3E4CCCCD#32
/-- the masked logit, f32 -9e15 -/
abbrev cNeg : EReal := Ideal.ofBits .f32 0xD9FFCB9E#32
/-- a max-reduction's start, -inf -/
abbrev cNinf : EReal := Ideal.ofBits .f32 0xFF800000#32
abbrev cZero : EReal := Ideal.ofBits .f32 0x00000000#32
abbrev cOne : EReal := Ideal.ofBits .f32 0x3F800000#32

/-- |a| as both programs compute it -/
abbrev absE (a : EReal) : EReal := max a (-a)

/-- adjacency bit: the word is positive as a signed integer -/
def adjBit (w : BitVec 32) : BitVec 1 := IntOp.cmpi .sgt w 0#32

/-- a row's running maximum from -inf -/
def rowMax {n : Nat} (e : Fin n → EReal) : EReal := (Finset.univ : Finset (Fin n)).fold max cNinf e

/-! ## The kernel's association -/

/-- masked logit of one row, kernel form: F1, F2 already carry |w1| -/
def eK (mask : Fin 4096 → BitVec 1) (F1 : EReal) (F2 : Fin 4096 → EReal) (w2 : EReal) (ad : Fin 4096 → EReal)
    (j : Fin 4096) : EReal :=
  Scalar.select (mask j) (max (F1 + F2 j) (cLeak * (F1 + F2 j)) + w2 * ad j) cNeg

/-- unnormalised softmax weight -/
def pK (e : Fin 4096 → EReal) (j : Fin 4096) : EReal := Ideal.exp (e j - rowMax e)

/-- weighted sum of a feature column, divided by the weights' sum afterwards -/
def hpK (e : Fin 4096 → EReal) (hcol : Fin 4096 → EReal) : EReal :=
  Ideal.div (∑ j, pK e j * hcol j) (∑ j, pK e j)

/-- elu as the kernel spells it: exp (min v 0) - 1 below zero -/
def eluK (v : EReal) : EReal :=
  Scalar.select (Ideal.cmp .ogt v cZero) v (Ideal.exp (min v cZero) - cOne)

/-- one attention output entry, kernel form -/
def attK (mask : Fin 4096 → BitVec 1) (F1 : EReal) (F2 : Fin 4096 → EReal) (w2 : EReal) (ad : Fin 4096 → EReal)
    (hcol : Fin 4096 → EReal) : EReal :=
  eluK (hpK (eK mask F1 F2 w2 ad) hcol)

/-- log-softmax of a row of 16, kernel form: v - (log (Σ exp (v - mx)) + mx) -/
def lsmK (v : Fin 16 → EReal) (k : Fin 16) : EReal :=
  v k - (Ideal.log (∑ k', Ideal.exp (v k' - rowMax v)) + rowMax v)

/-! ### The kernel's host preparation and its four calls, index by index -/

section Kernel
variable (x : Fin 4096 → Fin 512 → EReal) (adj : Fin 4096 → Fin 4096 → BitVec 32) (ad : Fin 4096 → Fin 4096 → EReal)
  (W : Fin 4 → Fin 512 → Fin 64 → EReal) (a : Fin 4 → Fin 128 → EReal) (w1 w2 : Fin 4 → EReal)
  (Wo : Fin 256 → Fin 16 → EReal) (ao : Fin 32 → EReal) (w1o w2o : EReal)

/-- head index and inner feature of a concatenated column -/
def colHead (c : Fin 256) : Fin 4 := ⟨c.val / 64, by omega⟩
def colFeat (c : Fin 256) : Fin 64 := ⟨c.val % 64, by omega⟩

/-- heads concatenated along columns -/
def WcK (j : Fin 512) (c : Fin 256) : EReal := W (colHead c) j (colFeat c)
/-- 1 on the diagonal, 0 off it -/
def eyeK (i j : Fin 4) : EReal := if i = j then 1 else 0
/-- block-diagonal attention vectors with |w1| folded in; first halves and second halves -/
def A1K (c : Fin 256) (i : Fin 4) : EReal := eyeK (colHead c) i * (a (colHead c) ⟨(colFeat c).val, by omega⟩ * absE (w1 (colHead c)))
def A2K (c : Fin 256) (i : Fin 4) : EReal := eyeK (colHead c) i * (a (colHead c) ⟨64 + (colFeat c).val, by omega⟩ * absE (w1 (colHead c)))
def a1oK (k : Fin 16) : EReal := ao ⟨k.val, by omega⟩ * absE w1o
def a2oK (k : Fin 16) : EReal := ao ⟨16 + k.val, by omega⟩ * absE w1o

/-- call 0: projections of all heads at once -/
def hcatK (n : Fin 4096) (c : Fin 256) : EReal := ∑ j : Fin 512, x n j * WcK W j c
def f1K (n : Fin 4096) (i : Fin 4) : EReal := ∑ c : Fin 256, hcatK x W n c * A1K a w1 c i
def f2K (n : Fin 4096) (i : Fin 4) : EReal := ∑ c : Fin 256, hcatK x W n c * A2K a w1 c i

/-- call 1: the four heads' attention, concatenated -/
def xcK (n : Fin 4096) (c : Fin 256) : EReal :=
  attK (fun j => adjBit (adj n j)) (f1K x W a w1 n (colHead c)) (fun j => f2K x W a w1 j (colHead c)) (absE (w2 (colHead c)))
    (fun j => ad n j) (fun j => hcatK x W j c)

/-- call 2: the output layer's projections -/
def hoK (n : Fin 4096) (k : Fin 16) : EReal := ∑ c : Fin 256, xcK x adj ad W a w1 w2 n c * Wo c k
def f1oK (n : Fin 4096) : EReal := ∑ k : Fin 16, hoK x adj ad W a w1 w2 Wo n k * a1oK ao w1o k
def f2oK (n : Fin 4096) : EReal := ∑ k : Fin 16, hoK x adj ad W a w1 w2 Wo n k * a2oK ao w1o k

/-- call 3: the output layer's attention, elu, log-softmax -/
def voK (n : Fin 4096) (k : Fin 16) : EReal :=
  attK (fun j => adjBit (adj n j)) (f1oK x adj ad W a w1 w2 Wo ao w1o n) (fun j => f2oK x adj ad W a w1 w2 Wo ao w1o j) (absE w2o)
    (fun j => ad n j) (fun j => hoK x adj ad W a w1 w2 Wo j k)
def outK (n : Fin 4096) (k : Fin 16) : EReal := lsmK (fun k' => voK x adj ad W a w1 w2 Wo ao w1o w2o n k') k

end Kernel

/-! ## The reference's association -/

/-- leaky rectifier by selection -/
def lreluR (v : EReal) : EReal := Scalar.select (Ideal.cmp .ogt v cZero) v (cLeak * v)

/-- masked logit of one row, reference form -/
def eR (mask : Fin 4096 → BitVec 1) (f1 : EReal) (f2 : Fin 4096 → EReal) (w1a w2a : EReal) (ad : Fin 4096 → EReal)
    (j : Fin 4096) : EReal :=
  Scalar.select (mask j) (w1a * lreluR (f1 + f2 j) + w2a * ad j) cNeg

/-- the softmax's shift: max of -inf and the row's maximum -/
def mxR {n : Nat} (e : Fin n → EReal) : EReal := max cNinf (rowMax e)
def pR (e : Fin 4096 → EReal) (j : Fin 4096) : EReal := Ideal.exp (e j - mxR e)
/-- normalised weight: divided BEFORE the weighted sum; the sum starts from the literal zero -/
def attnR (e : Fin 4096 → EReal) (j : Fin 4096) : EReal := Ideal.div (pR e j) (cZero + ∑ j', pR e j')
def hpR (e : Fin 4096 → EReal) (hcol : Fin 4096 → EReal) : EReal := ∑ j, attnR e j * hcol j

/-- elu as jax spells it: where v > 0, v, else 1 · (exp (where v > 0, 0, v) - 1) -/
def eluR (v : EReal) : EReal :=
  Scalar.select (Ideal.cmp .ogt v cZero) v
    (cOne * (Ideal.exp (Scalar.select (Ideal.cmp .ogt v cZero) cZero v) - 1))

/-- log-softmax as jax spells it: (v - mx) - log (0 + Σ exp (v - mx)) -/
def lsmR (v : Fin 16 → EReal) (k : Fin 16) : EReal :=
  (v k - mxR v) - Ideal.log (cZero + ∑ k', Ideal.exp (v k' - mxR v))

section Reference
variable (x : Fin 4096 → Fin 512 → EReal) (adj : Fin 4096 → Fin 4096 → BitVec 32) (ad : Fin 4096 → Fin 4096 → EReal)
  (W : Fin 4 → Fin 512 → Fin 64 → EReal) (a : Fin 4 → Fin 128 → EReal) (w1 w2 : Fin 4 → EReal)
  (Wo : Fin 256 → Fin 16 → EReal) (ao : Fin 32 → EReal) (w1o w2o : EReal)

/-- one head's projection and rank-one terms -/
def hR (i : Fin 4) (n : Fin 4096) (k : Fin 64) : EReal := ∑ j : Fin 512, x n j * W i j k
def f1R (i : Fin 4) (n : Fin 4096) : EReal := ∑ k : Fin 64, hR x W i n k * a i ⟨k.val, by omega⟩
def f2R (i : Fin 4) (n : Fin 4096) : EReal := ∑ k : Fin 64, hR x W i n k * a i ⟨64 + k.val, by omega⟩

/-- one head's output entry -/
def headR (i : Fin 4) (n : Fin 4096) (k : Fin 64) : EReal :=
  eluR (hpR (eR (fun j => adjBit (adj n j)) (f1R x W a i n) (fun j => f2R x W a i j) (absE (w1 i)) (absE (w2 i)) (fun j => ad n j))
    (fun j => hR x W i j k))

/-- the heads side by side -/
def xcR (n : Fin 4096) (c : Fin 256) : EReal := headR x adj ad W a w1 w2 (colHead c) n (colFeat c)

/-- the output layer -/
def hoR (n : Fin 4096) (k : Fin 16) : EReal := ∑ c : Fin 256, xcR x adj ad W a w1 w2 n c * Wo c k
def f1oR (n : Fin 4096) : EReal := ∑ k : Fin 16, hoR x adj ad W a w1 w2 Wo n k * ao ⟨k.val, by omega⟩
def f2oR (n : Fin 4096) : EReal := ∑ k : Fin 16, hoR x adj ad W a w1 w2 Wo n k * ao ⟨16 + k.val, by omega⟩
def voR (n : Fin 4096) (k : Fin 16) : EReal :=
  eluR (hpR (eR (fun j => adjBit (adj n j)) (f1oR x adj ad W a w1 w2 Wo ao n) (fun j => f2oR x adj ad W a w1 w2 Wo ao j)
      (absE w1o) (absE w2o) (fun j => ad n j))
    (fun j => hoR x adj ad W a w1 w2 Wo j k))
def outR (n : Fin 4096) (k : Fin 16) : EReal := lsmR (fun k' => voR x adj ad W a w1 w2 Wo ao w1o w2o n k') k

end Reference

end Cert.Spec

end
-- ==== Proof.Views.lean ====
/-
  The eleven argument arrays read by coordinates: the form the arithmetic of Proof/Spec.lean takes them in.
-/
import Idealize.ShloMosaic.Lib.ValueIdx

noncomputable section

namespace Cert.Views

open Idealize.ShloMosaic Idealize.ShloMosaic.ValueIdx

def vx (v : (⟨2, ![4096, 512]⟩ : Shape).Idx → EReal) (n : Fin 4096) (j : Fin 512) : EReal := v (ix2 n j)
def vadj (v : (⟨2, ![4096, 4096]⟩ : Shape).Idx → BitVec 32) (n j : Fin 4096) : BitVec 32 := v (ix2 n j)
def vad (v : (⟨2, ![4096, 4096]⟩ : Shape).Idx → EReal) (n j : Fin 4096) : EReal := v (ix2 n j)
def vW (v : (⟨3, ![4, 512, 64]⟩ : Shape).Idx → EReal) (i : Fin 4) (j : Fin 512) (k : Fin 64) : EReal := v (ix3 i j k)
def va (v : (⟨3, ![4, 128, 1]⟩ : Shape).Idx → EReal) (i : Fin 4) (k : Fin 128) : EReal := v (ix3 i k 0)
def vw (v : (⟨1, ![4]⟩ : Shape).Idx → EReal) (i : Fin 4) : EReal := v (ix1 i)
def vWo (v : (⟨2, ![256, 16]⟩ : Shape).Idx → EReal) (c : Fin 256) (k : Fin 16) : EReal := v (ix2 c k)
def vao (v : (⟨2, ![32, 1]⟩ : Shape).Idx → EReal) (k : Fin 32) : EReal := v (ix2 k 0)
def vs (v : (⟨0, ![]⟩ : Shape).Idx → EReal) : EReal := v ix0

end Cert.Views

end
-- ==== Proof.KHost.lean ====
/-
  The kernel's host preparation, read at an index: before the first call @main lays the four heads' weight matrices side
  by side (a transpose and a reshape), takes |w1|, |w2|, folds |w1| into the two halves of each head's attention vector
  and spreads them block-diagonally over the 256 concatenated columns (a product with the 4×4 identity), and does the
  same for the output layer. Each prepared array is the corresponding function of Proof/Spec.lean of the arguments.
-/
import proofs.«118500_g28080496181627_cont_9to1_1526_5_alg».proof.Proof.Gen.KernelIdeal.Frame
import proofs.«118500_g28080496181627_cont_9to1_1526_5_alg».proof.Proof.Spec
import proofs.«118500_g28080496181627_cont_9to1_1526_5_alg».proof.Proof.Views
import Idealize.ShloMosaic.Lib.ValueIdx
import Idealize.ShloMosaic.Lib.Pipeline.Value
import Idealize.ShloMosaic.Lib.ValueLayout
import Idealize.ShloMosaic.Lib.StableHlo.Run
import Idealize.ShloMosaic.Lib.IdealHost

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Views

variable (m : (ℓ : Loc nD τ sig) → Buf (Elt Ideal) ℓ) (ρ : Dev nD → PrngReg)

/-- the eleven argument arrays as launched, at their literal types -/
abbrev a_x (c : Dev nD) : FVec Ideal S4096x512 .f32 := m ((c.tc : Thread nD τ).loc main_arg0)
abbrev a_adj (c : Dev nD) : IVec S4096x4096 32 := m ((c.tc : Thread nD τ).loc main_arg1)
abbrev a_ad (c : Dev nD) : FVec Ideal S4096x4096 .f32 := m ((c.tc : Thread nD τ).loc main_arg2)
abbrev a_W (c : Dev nD) : FVec Ideal S4x512x64 .f32 := m ((c.tc : Thread nD τ).loc main_arg3)
abbrev a_a (c : Dev nD) : FVec Ideal S4x128x1 .f32 := m ((c.tc : Thread nD τ).loc main_arg4)
abbrev a_w1 (c : Dev nD) : FVec Ideal S4 .f32 := m ((c.tc : Thread nD τ).loc main_arg5)
abbrev a_w2 (c : Dev nD) : FVec Ideal S4 .f32 := m ((c.tc : Thread nD τ).loc main_arg6)
abbrev a_Wo (c : Dev nD) : FVec Ideal S256x16 .f32 := m ((c.tc : Thread nD τ).loc main_arg7)
abbrev a_ao (c : Dev nD) : FVec Ideal S32x1 .f32 := m ((c.tc : Thread nD τ).loc main_arg8)
abbrev a_w1o (c : Dev nD) : FVec Ideal S_ .f32 := m ((c.tc : Thread nD τ).loc main_arg9)
abbrev a_w2o (c : Dev nD) : FVec Ideal S_ .f32 := m ((c.tc : Thread nD τ).loc main_arg10)

/-- the prepared arrays as the first call finds them, at their literal types -/
abbrev h_Wc (c : Dev nD) : FVec Ideal S512x256 .f32 := V1 m ρ c main_v1
abbrev h_A1 (c : Dev nD) : FVec Ideal S256x4 .f32 := V1 m ρ c main_v26
abbrev h_A2 (c : Dev nD) : FVec Ideal S256x4 .f32 := V1 m ρ c main_v32
abbrev h_w2 (c : Dev nD) : FVec Ideal S1x4 .f32 := V1 m ρ c main_v4
abbrev h_a1o (c : Dev nD) : FVec Ideal S16x1 .f32 := V1 m ρ c main_v36
abbrev h_a2o (c : Dev nD) : FVec Ideal S16x1 .f32 := V1 m ρ c main_v39
abbrev h_w2o (c : Dev nD) : FVec Ideal S1x1 .f32 := V1 m ρ c main_v41

/-! ## The prepared arrays as functions of the arguments -/

/-- the heads' weights side by side: axes 0 and 1 exchanged, then the last two axes merged -/
def wcT (W : FVec Ideal S4x512x64 .f32) : FVec Ideal S512x256 .f32 :=
  shapeCast S512x256 (transpose S512x4x64 [1, 0, 2] W transposes_S4x512x64_S512x4x64_1_0_2) shapeCasts_S512x4x64_S512x256

/-- the 4×4 identity: row number compared with column number, the bit converted -/
def eyeT : FVec Ideal S4x4 .f32 :=
  uitofp .f32 (cmpi .eq (addi (iotaInDim S4x4 32 0) (broadcastInDim S4x4 ![] bcast_S_S4x4 (constantI S_ 32 0#32)))
    (iotaInDim S4x4 32 1))

/-- |w| of the head spread over the head's row -/
def absRowT (w : FVec Ideal S4 .f32) : FVec Ideal S4x64 .f32 :=
  broadcastInDim S4x64 ![0, 1] bcast_S4x1_S4x64_0_1 (broadcastInDim S4x1 ![0] bcast_S4_S4x1_0 (Host.absf w))

/-- the first halves of the attention vectors, each times its head's |w| -/
def half1T (a : FVec Ideal S4x128x1 .f32) (w : FVec Ideal S4 .f32) : FVec Ideal S4x64 .f32 :=
  mulf (shapeCast S4x64 (extractStridedSlice S4x64x1 ![0, 0, 0] a slices_S4x128x1_S4x64x1_0_0_0) shapeCasts_S4x64x1_S4x64)
    (absRowT w)

/-- the second halves -/
def half2T (a : FVec Ideal S4x128x1 .f32) (w : FVec Ideal S4 .f32) : FVec Ideal S4x64 .f32 :=
  mulf (shapeCast S4x64 (extractStridedSlice S4x64x1 ![0, 64, 0] a slices_S4x128x1_S4x64x1_0_64_0) shapeCasts_S4x64x1_S4x64)
    (absRowT w)

/-- a 4×4 matrix and a 4×64 matrix multiplied into a 4×64×4 array, its first two axes merged -/
def blockT (e : FVec Ideal S4x4 .f32) (h : FVec Ideal S4x64 .f32) : FVec Ideal S256x4 .f32 :=
  shapeCast S256x4
    (mulf (broadcastInDim S4x64x4 ![0, 1, 2] bcast_S4x1x4_S4x64x4_0_1_2 (broadcastInDim S4x1x4 ![0, 2] bcast_S4x4_S4x1x4_0_2 e))
      (broadcastInDim S4x64x4 ![0, 1, 2] bcast_S4x64x1_S4x64x4_0_1_2 (broadcastInDim S4x64x1 ![0, 1] bcast_S4x64_S4x64x1_0_1 h)))
    shapeCasts_S4x64x4_S256x4

/-! ## Each prepared array is its composed term over the arguments

The buffers after the host operations are a fold of the operations over the launch memory; at a result's own buffer the
fold is the operation's function of its operands' contents, and the operands' contents unfold the same way down to the
argument arrays, which no host operation writes. -/

theorem e_Wc (c : Dev nD) : h_Wc m ρ c = wcT (a_W m c) := by
  dsimp only [h_Wc, V1, W1, hostOps0]; after_results_simp; rfl

theorem e_w2 (c : Dev nD) : h_w2 m ρ c = shapeCast S1x4 (Host.absf (a_w2 m c)) shapeCasts_S4_S1x4 := by
  dsimp only [h_w2, V1, W1, hostOps0]; after_results_simp; rfl

theorem e_A1 (c : Dev nD) : h_A1 m ρ c = blockT eyeT (half1T (a_a m c) (a_w1 m c)) := by
  dsimp only [h_A1, V1, W1, hostOps0]; after_results_simp; rfl

theorem e_A2 (c : Dev nD) : h_A2 m ρ c = blockT eyeT (half2T (a_a m c) (a_w1 m c)) := by
  dsimp only [h_A2, V1, W1, hostOps0]; after_results_simp; rfl

theorem e_a1o (c : Dev nD) : h_a1o m ρ c
    = mulf (extractStridedSlice S16x1 ![0, 0] (a_ao m c) slices_S32x1_S16x1_0_0)
        (broadcastInDim S16x1 ![] bcast_S_S16x1 (Host.absf (a_w1o m c))) := by
  dsimp only [h_a1o, V1, W1, hostOps0]; after_results_simp

theorem e_a2o (c : Dev nD) : h_a2o m ρ c
    = mulf (extractStridedSlice S16x1 ![16, 0] (a_ao m c) slices_S32x1_S16x1_16_0)
        (broadcastInDim S16x1 ![] bcast_S_S16x1 (Host.absf (a_w1o m c))) := by
  dsimp only [h_a2o, V1, W1, hostOps0]; after_results_simp

theorem e_w2o (c : Dev nD) :
    h_w2o m ρ c = shapeCast S1x1 (Host.absf (a_w2o m c)) shapeCasts_S_S1x1 := by
  dsimp only [h_w2o, V1, W1, hostOps0]; after_results_simp; rfl

/-! ## The prepared arrays read at an index -/

theorem wcT_apply (W : FVec Ideal S4x512x64 .f32) (j : Fin 512) (col : Fin 256) :
    wcT W (ix2 j col) = W (ix3 (Spec.colHead col) j (Spec.colFeat col)) := by
  unfold wcT
  refine (shapeCast_apply _ _ (ix2 j col) (ix3 j (Spec.colHead col) (Spec.colFeat col)) ?_).trans ?_
  · rw [Shape.rowMajor_val_three, Shape.rowMajor_val_two]
    show (j.val * 4 + col.val / 64) * 64 + col.val % 64 = j.val * 256 + col.val
    omega
  · exact transpose_apply _ _ _ _ (ix3 (Spec.colHead col) j (Spec.colFeat col))
      (fun b => match b with | ⟨0, _⟩ => rfl | ⟨1, _⟩ => rfl | ⟨2, _⟩ => rfl)

/-- a one-bit word converted is 1 when the bit is set and 0 when it is not -/
theorem uitofp_bit (b : BitVec 1) : (FloatOps.uitofp (F := Ideal) .f32 b : EReal) = if b = 1#1 then 1 else 0 := by
  by_cases h : b = 1#1
  · subst h; simp [FloatOps.uitofp]
  · rw [eq_zero_of_ne_one h]; simp [FloatOps.uitofp]

theorem eyeT_apply (i j : Fin 4) : eyeT (ix2 i j) = Spec.eyeK i j := by
  show FloatOps.uitofp (F := Ideal) .f32 (IntOp.cmpi .eq (IntOp.addi (BitVec.ofNat 32 i.val) 0#32) (BitVec.ofNat 32 j.val)) = _
  rw [uitofp_bit]
  unfold Spec.eyeK
  fin_cases i <;> fin_cases j <;> simp [IntOp.cmpi, IntOp.addi]

theorem absRowT_apply (w : FVec Ideal S4 .f32) (i : Fin 4) (k : Fin 64) :
    absRowT w (ix2 i k) = Spec.absE (w (ix1 i)) := by
  unfold absRowT
  refine (broadcastInDim_apply _ _ _ (ix2 i k) (ix2 i 0) (fun a => match a with | ⟨0, _⟩ => rfl | ⟨1, _⟩ => rfl)).trans ?_
  exact broadcastInDim_apply _ _ _ _ (ix1 i) (fun a => match a with | ⟨0, _⟩ => rfl)

theorem half1T_apply (a : FVec Ideal S4x128x1 .f32) (w : FVec Ideal S4 .f32) (i : Fin 4) (k : Fin 64) :
    half1T a w (ix2 i k) = a (ix3 i ⟨k.val, by omega⟩ 0) * Spec.absE (w (ix1 i)) := by
  unfold half1T
  rw [mulf_apply, absRowT_apply]
  congr 1
  refine (shapeCast_apply _ _ (ix2 i k) (ix3 i k 0) ?_).trans ?_
  · rw [Shape.rowMajor_val_three, Shape.rowMajor_val_two]
    show (i.val * 64 + k.val) * 1 + 0 = i.val * 64 + k.val
    omega
  · exact extractStridedSlice_apply _ _ _ _ (ix3 i ⟨k.val, by omega⟩ 0) (fun b => match b with
      | ⟨0, _⟩ => by show i.val = 0 + i.val; omega
      | ⟨1, _⟩ => by show k.val = 0 + k.val; omega
      | ⟨2, _⟩ => by show 0 = 0 + 0; omega)

theorem half2T_apply (a : FVec Ideal S4x128x1 .f32) (w : FVec Ideal S4 .f32) (i : Fin 4) (k : Fin 64) :
    half2T a w (ix2 i k) = a (ix3 i ⟨64 + k.val, by omega⟩ 0) * Spec.absE (w (ix1 i)) := by
  unfold half2T
  rw [mulf_apply, absRowT_apply]
  congr 1
  refine (shapeCast_apply _ _ (ix2 i k) (ix3 i k 0) ?_).trans ?_
  · rw [Shape.rowMajor_val_three, Shape.rowMajor_val_two]
    show (i.val * 64 + k.val) * 1 + 0 = i.val * 64 + k.val
    omega
  · exact extractStridedSlice_apply _ _ _ _ (ix3 i ⟨64 + k.val, by omega⟩ 0) (fun b => match b with
      | ⟨0, _⟩ => by show i.val = 0 + i.val; omega
      | ⟨1, _⟩ => by show 64 + k.val = 64 + k.val; omega
      | ⟨2, _⟩ => by show 0 = 0 + 0; omega)

theorem blockT_apply (e : FVec Ideal S4x4 .f32) (h : FVec Ideal S4x64 .f32) (col : Fin 256) (i : Fin 4) :
    blockT e h (ix2 col i) = e (ix2 (Spec.colHead col) i) * h (ix2 (Spec.colHead col) (Spec.colFeat col)) := by
  unfold blockT
  refine (shapeCast_apply _ _ (ix2 col i) (ix3 (Spec.colHead col) (Spec.colFeat col) i) ?_).trans ?_
  · rw [Shape.rowMajor_val_three, Shape.rowMajor_val_two]
    show (col.val / 64 * 64 + col.val % 64) * 4 + i.val = col.val * 4 + i.val
    omega
  rw [mulf_apply]
  congr 1
  · refine (broadcastInDim_apply _ _ _ _ (ix3 (Spec.colHead col) 0 i)
      (fun a => match a with | ⟨0, _⟩ => rfl | ⟨1, _⟩ => rfl | ⟨2, _⟩ => rfl)).trans ?_
    exact broadcastInDim_apply _ _ _ _ (ix2 (Spec.colHead col) i) (fun a => match a with | ⟨0, _⟩ => rfl | ⟨1, _⟩ => rfl)
  · refine (broadcastInDim_apply _ _ _ _ (ix3 (Spec.colHead col) (Spec.colFeat col) 0)
      (fun a => match a with | ⟨0, _⟩ => rfl | ⟨1, _⟩ => rfl | ⟨2, _⟩ => rfl)).trans ?_
    exact broadcastInDim_apply _ _ _ _ (ix2 (Spec.colHead col) (Spec.colFeat col)) (fun a => match a with | ⟨0, _⟩ => rfl | ⟨1, _⟩ => rfl)

theorem w2T_apply (w : FVec Ideal S4 .f32) (i : Fin 4) :
    shapeCast S1x4 (Host.absf w) shapeCasts_S4_S1x4 (ix2 0 i) = Spec.absE (w (ix1 i)) := by
  refine (shapeCast_apply _ _ (ix2 0 i) (ix1 i) ?_).trans rfl
  rw [Shape.rowMajor_val_one, Shape.rowMajor_val_two]
  show i.val = 0 * 4 + i.val
  omega

theorem a1oT_apply (ao : FVec Ideal S32x1 .f32) (w : FVec Ideal S_ .f32) (k : Fin 16) :
    mulf (extractStridedSlice S16x1 ![0, 0] ao slices_S32x1_S16x1_0_0) (broadcastInDim S16x1 ![] bcast_S_S16x1 (Host.absf w)) (ix2 k 0)
      = ao (ix2 ⟨k.val, by omega⟩ 0) * Spec.absE (w ix0) := by
  rw [mulf_apply, broadcastInDim_scalar_apply]
  congr 1
  exact extractStridedSlice_apply _ _ _ _ (ix2 ⟨k.val, by omega⟩ 0) (fun b => match b with
      | ⟨0, _⟩ => by show k.val = 0 + k.val; omega
      | ⟨1, _⟩ => by show 0 = 0 + 0; omega)

theorem a2oT_apply (ao : FVec Ideal S32x1 .f32) (w : FVec Ideal S_ .f32) (k : Fin 16) :
    mulf (extractStridedSlice S16x1 ![16, 0] ao slices_S32x1_S16x1_16_0) (broadcastInDim S16x1 ![] bcast_S_S16x1 (Host.absf w)) (ix2 k 0)
      = ao (ix2 ⟨16 + k.val, by omega⟩ 0) * Spec.absE (w ix0) := by
  rw [mulf_apply, broadcastInDim_scalar_apply]
  congr 1
  exact extractStridedSlice_apply _ _ _ _ (ix2 ⟨16 + k.val, by omega⟩ 0) (fun b => match b with
      | ⟨0, _⟩ => by show 16 + k.val = 16 + k.val; omega
      | ⟨1, _⟩ => by show 0 = 0 + 0; omega)

theorem w2oT_apply (w : FVec Ideal S_ .f32) :
    shapeCast S1x1 (Host.absf w) shapeCasts_S_S1x1 (ix2 0 0) = Spec.absE (w ix0) := by
  refine (shapeCast_apply _ _ (ix2 0 0) ix0 ?_).trans rfl
  rw [Shape.rowMajor_val_two]
  show (Shape.rowMajorPi _ _).val = 0 * 1 + 0
  rw [Shape.rowMajorPi_zero]

/-! ## The interface: the prepared arrays and the untouched arguments -/

theorem host_Wc (c : Dev nD) (j : Fin 512) (col : Fin 256) :
    h_Wc m ρ c (ix2 j col) = Spec.WcK (vW (a_W m c)) j col := by
  rw [e_Wc, wcT_apply]; rfl

theorem host_A1 (c : Dev nD) (col : Fin 256) (i : Fin 4) :
    h_A1 m ρ c (ix2 col i) = Spec.A1K (va (a_a m c)) (vw (a_w1 m c)) col i := by
  rw [e_A1, blockT_apply, eyeT_apply, half1T_apply]; rfl

theorem host_A2 (c : Dev nD) (col : Fin 256) (i : Fin 4) :
    h_A2 m ρ c (ix2 col i) = Spec.A2K (va (a_a m c)) (vw (a_w1 m c)) col i := by
  rw [e_A2, blockT_apply, eyeT_apply, half2T_apply]; rfl

theorem host_w2 (c : Dev nD) (i : Fin 4) :
    h_w2 m ρ c (ix2 0 i) = Spec.absE (vw (a_w2 m c) i) := by
  rw [e_w2, w2T_apply]; rfl

theorem host_a1o (c : Dev nD) (k : Fin 16) :
    h_a1o m ρ c (ix2 k 0) = Spec.a1oK (vao (a_ao m c)) (vs (a_w1o m c)) k := by
  rw [e_a1o, a1oT_apply]; rfl

theorem host_a2o (c : Dev nD) (k : Fin 16) :
    h_a2o m ρ c (ix2 k 0) = Spec.a2oK (vao (a_ao m c)) (vs (a_w1o m c)) k := by
  rw [e_a2o, a2oT_apply]; rfl

theorem host_w2o (c : Dev nD) :
    h_w2o m ρ c (ix2 0 0) = Spec.absE (vs (a_w2o m c)) := by
  rw [e_w2o, w2oT_apply]; rfl

/-- a buffer none of the host operations writes holds what the launch memory held -/
theorem host_untouched (c : Dev nD) (b : Ref sig .tc)
    (hb : (hostOps0 (F := Ideal)).Forall fun op => Proc.devRef .tc b ∉ op.writes) :
    V1 m ρ c b = m ((c.tc : Thread nD τ).loc b) :=
  (StableHlo.after_of_forall_not_mem (b := Proc.devRef .tc b) _ _ (List.forall_iff_forall_mem.mp hb)).trans rfl

/-- the host operations write none of the arguments the calls read -/
theorem host_arg0 (c : Dev nD) : V1 m ρ c main_arg0 = m ((c.tc : Thread nD τ).loc main_arg0) :=
  host_untouched m ρ c main_arg0 (by
    simp only [hostOps0, List.Forall, StableHlo.nullary_writes, StableHlo.unary_writes, StableHlo.binary_writes,
      StableHlo.reshape_writes, Finset.mem_singleton]
    repeat' apply And.intro
    all_goals exact StableHlo.devRef_ne_of_ne (by decide))
theorem host_arg1 (c : Dev nD) : V1 m ρ c main_arg1 = m ((c.tc : Thread nD τ).loc main_arg1) :=
  host_untouched m ρ c main_arg1 (by
    simp only [hostOps0, List.Forall, StableHlo.nullary_writes, StableHlo.unary_writes, StableHlo.binary_writes,
      StableHlo.reshape_writes, Finset.mem_singleton]
    repeat' apply And.intro
    all_goals exact StableHlo.devRef_ne_of_ne (by decide))
theorem host_arg2 (c : Dev nD) : V1 m ρ c main_arg2 = m ((c.tc : Thread nD τ).loc main_arg2) :=
  host_untouched m ρ c main_arg2 (by
    simp only [hostOps0, List.Forall, StableHlo.nullary_writes, StableHlo.unary_writes, StableHlo.binary_writes,
      StableHlo.reshape_writes, Finset.mem_singleton]
    repeat' apply And.intro
    all_goals exact StableHlo.devRef_ne_of_ne (by decide))
theorem host_arg7 (c : Dev nD) : V1 m ρ c main_arg7 = m ((c.tc : Thread nD τ).loc main_arg7) :=
  host_untouched m ρ c main_arg7 (by
    simp only [hostOps0, List.Forall, StableHlo.nullary_writes, StableHlo.unary_writes, StableHlo.binary_writes,
      StableHlo.reshape_writes, Finset.mem_singleton]
    repeat' apply And.intro
    all_goals exact StableHlo.devRef_ne_of_ne (by decide))

end Cert.KernelIdeal.KV

end
-- ==== Proof.KReg0.lean ====
/-
  Call 0 (the projections): what the pipeline leaves in its three output arrays, index by index, from the arrays it
  is entered with. Row block t of the node features times the whole concatenated weight matrix gives row block t of
  the projected features; that block times each block-diagonal attention matrix gives the rank-one terms, the second
  one stored transposed.
-/
import proofs.«118500_g28080496181627_cont_9to1_1526_5_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.KV

namespace R0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- the arrays call 0 is entered with, and the three it leaves, at their literal types -/
abbrev in0_x (c : Dev nD) : FVec Ideal S4096x512 .f32 := V c main_arg0
abbrev in0_Wc (c : Dev nD) : FVec Ideal S512x256 .f32 := V c main_v1
abbrev in0_A1 (c : Dev nD) : FVec Ideal S256x4 .f32 := V c main_v26
abbrev in0_A2 (c : Dev nD) : FVec Ideal S256x4 .f32 := V c main_v32
abbrev out0_h (c : Dev nD) : FVec Ideal S4096x256 .f32 := (dat0 V c).arrAt 4 cfg0.N
abbrev out0_f1 (c : Dev nD) : FVec Ideal S4096x4 .f32 := (dat0 V c).arrAt 5 cfg0.N
abbrev out0_f2t (c : Dev nD) : FVec Ideal S4x4096 .f32 := (dat0 V c).arrAt 6 cfg0.N

/-! ## The two products of the body, index by index -/

/-- In the features-times-weights product the left operand is read at the output's row ... -/
theorem lhs_xw_0 (j : S512x256.Idx) (k : dot_S512x512_S512x256_S512x256_1_0_0_1_n_n.contr.Idx) :
    (dot_S512x512_S512x256_S512x256_1_0_0_1_n_n.lhsIdx j k 0).val = (j 0).val := by
  unfold DotDims.lhsIdx
  rw [dif_neg (show ¬(0 : Fin S512x512.rank) ∈ dot_S512x512_S512x256_S512x256_1_0_0_1_n_n.lhsBatch by decide),
    dif_pos (show (0 : Fin S512x512.rank) ∈ dot_S512x512_S512x256_S512x256_1_0_0_1_n_n.lhsNonContracting by decide)]
  rfl

/-- ... and at the contraction position as its column; -/
theorem lhs_xw_1 (j : S512x256.Idx) (k : dot_S512x512_S512x256_S512x256_1_0_0_1_n_n.contr.Idx) :
    (dot_S512x512_S512x256_S512x256_1_0_0_1_n_n.lhsIdx j k 1).val = (k ⟨0, by decide⟩).val :=
  DotDims.lhsIdx_val_of_single (d := dot_S512x512_S512x256_S512x256_1_0_0_1_n_n) (cl := 1) rfl j k

/-- the right operand at the contraction position as its row ... -/
theorem rhs_xw_0 (j : S512x256.Idx) (k : dot_S512x512_S512x256_S512x256_1_0_0_1_n_n.contr.Idx) :
    (dot_S512x512_S512x256_S512x256_1_0_0_1_n_n.rhsIdx j k 0).val = (k ⟨0, by decide⟩).val :=
  DotDims.rhsIdx_val_of_single (d := dot_S512x512_S512x256_S512x256_1_0_0_1_n_n) (cr := 0) rfl j k

/-- ... and at the output's column. -/
theorem rhs_xw_1 (j : S512x256.Idx) (k : dot_S512x512_S512x256_S512x256_1_0_0_1_n_n.contr.Idx) :
    (dot_S512x512_S512x256_S512x256_1_0_0_1_n_n.rhsIdx j k 1).val = (j 1).val := by
  unfold DotDims.rhsIdx
  rw [dif_neg (show ¬(1 : Fin S512x256.rank) ∈ dot_S512x512_S512x256_S512x256_1_0_0_1_n_n.rhsBatch by decide),
    dif_pos (show (1 : Fin S512x256.rank) ∈ dot_S512x512_S512x256_S512x256_1_0_0_1_n_n.rhsNonContracting by decide)]
  rfl

/-- The projected block: entry (r, col) is the dot product of row r of the first block with column col of the second. -/
theorem pay1_apply (x0 : FVec Ideal S512x512 .f32) (x1 : FVec Ideal S512x256 .f32) (r : Fin 512) (col : Fin 256) :
    k0_pay1 (F := Ideal) x0 x1 (ix2 r col) = ∑ j : Fin 512, x0 (ix2 r j) * x1 (ix2 j col) := by
  unfold k0_pay1
  rw [shapeCast_self]
  refine (Ideal.matmul_constant_zero_apply dot_S512x512_S512x256_S512x256_1_0_0_1_n_n none x0 x1 (ix2 r col)).trans ?_
  refine (Equiv.sum_comp (contrEquiv1 dot_S512x512_S512x256_S512x256_1_0_0_1_n_n 512 rfl rfl).symm _).symm.trans ?_
  refine Finset.sum_congr rfl fun j _ => ?_
  have hk := contrEquiv1_symm_val dot_S512x512_S512x256_S512x256_1_0_0_1_n_n 512 rfl rfl j
  congr 1
  · refine congrArg x0 (funext fun a => Fin.ext ?_)
    match a with
    | ⟨0, _⟩ => exact lhs_xw_0 _ _
    | ⟨1, _⟩ => exact (lhs_xw_1 _ _).trans hk
  · refine congrArg x1 (funext fun a => Fin.ext ?_)
    match a with
    | ⟨0, _⟩ => exact (rhs_xw_0 _ _).trans hk
    | ⟨1, _⟩ => exact rhs_xw_1 _ _

/-- In the product with a block-diagonal attention matrix the left operand is read at the output's row ... -/
theorem lhs_ha_0 (j : S512x4.Idx) (k : dot_S512x256_S256x4_S512x4_1_0_0_1_n_n.contr.Idx) :
    (dot_S512x256_S256x4_S512x4_1_0_0_1_n_n.lhsIdx j k 0).val = (j 0).val := by
  unfold DotDims.lhsIdx
  rw [dif_neg (show ¬(0 : Fin S512x256.rank) ∈ dot_S512x256_S256x4_S512x4_1_0_0_1_n_n.lhsBatch by decide),
    dif_pos (show (0 : Fin S512x256.rank) ∈ dot_S512x256_S256x4_S512x4_1_0_0_1_n_n.lhsNonContracting by decide)]
  rfl

/-- ... and at the contraction position as its column; -/
theorem lhs_ha_1 (j : S512x4.Idx) (k : dot_S512x256_S256x4_S512x4_1_0_0_1_n_n.contr.Idx) :
    (dot_S512x256_S256x4_S512x4_1_0_0_1_n_n.lhsIdx j k 1).val = (k ⟨0, by decide⟩).val :=
  DotDims.lhsIdx_val_of_single (d := dot_S512x256_S256x4_S512x4_1_0_0_1_n_n) (cl := 1) rfl j k

/-- the right operand at the contraction position as its row ... -/
theorem rhs_ha_0 (j : S512x4.Idx) (k : dot_S512x256_S256x4_S512x4_1_0_0_1_n_n.contr.Idx) :
    (dot_S512x256_S256x4_S512x4_1_0_0_1_n_n.rhsIdx j k 0).val = (k ⟨0, by decide⟩).val :=
  DotDims.rhsIdx_val_of_single (d := dot_S512x256_S256x4_S512x4_1_0_0_1_n_n) (cr := 0) rfl j k

/-- ... and at the output's column. -/
theorem rhs_ha_1 (j : S512x4.Idx) (k : dot_S512x256_S256x4_S512x4_1_0_0_1_n_n.contr.Idx) :
    (dot_S512x256_S256x4_S512x4_1_0_0_1_n_n.rhsIdx j k 1).val = (j 1).val := by
  unfold DotDims.rhsIdx
  rw [dif_neg (show ¬(1 : Fin S256x4.rank) ∈ dot_S512x256_S256x4_S512x4_1_0_0_1_n_n.rhsBatch by decide),
    dif_pos (show (1 : Fin S256x4.rank) ∈ dot_S512x256_S256x4_S512x4_1_0_0_1_n_n.rhsNonContracting by decide)]
  rfl

/-- The rank-one terms of a block: entry (r, i) is row r of the projected block times column i of the attention matrix. -/
theorem pay2_apply (x0 : FVec Ideal S512x512 .f32) (x1 : FVec Ideal S512x256 .f32) (x2 : FVec Ideal S256x4 .f32)
    (r : Fin 512) (i : Fin 4) :
    k0_pay2 (F := Ideal) x0 x1 x2 (ix2 r i)
      = ∑ col : Fin 256, (∑ j : Fin 512, x0 (ix2 r j) * x1 (ix2 j col)) * x2 (ix2 col i) := by
  unfold k0_pay2
  rw [shapeCast_self]
  refine (Ideal.matmul_constant_zero_apply dot_S512x256_S256x4_S512x4_1_0_0_1_n_n none (k0_pay1 (F := Ideal) x0 x1) x2 (ix2 r i)).trans ?_
  refine (Equiv.sum_comp (contrEquiv1 dot_S512x256_S256x4_S512x4_1_0_0_1_n_n 256 rfl rfl).symm _).symm.trans ?_
  refine Finset.sum_congr rfl fun col _ => ?_
  have hk := contrEquiv1_symm_val dot_S512x256_S256x4_S512x4_1_0_0_1_n_n 256 rfl rfl col
  congr 1
  · refine Eq.trans (congrArg (k0_pay1 (F := Ideal) x0 x1) (funext fun a => Fin.ext ?_)) (pay1_apply x0 x1 r col)
    match a with
    | ⟨0, _⟩ => exact lhs_ha_0 _ _
    | ⟨1, _⟩ => exact (lhs_ha_1 _ _).trans hk
  · refine congrArg x2 (funext fun a => Fin.ext ?_)
    match a with
    | ⟨0, _⟩ => exact (rhs_ha_0 _ _).trans hk
    | ⟨1, _⟩ => exact rhs_ha_1 _ _

/-- The third payload is the second one's product, with the other attention matrix, transposed. -/
theorem pay3_eq (x0 : FVec Ideal S512x512 .f32) (x1 : FVec Ideal S512x256 .f32) (x3 : FVec Ideal S256x4 .f32) :
    k0_pay3 (F := Ideal) x0 x1 x3 = transpose S4x512 [1, 0] (k0_pay2 (F := Ideal) x0 x1 x3) transposes_S512x4_p1_0_S4x512 := rfl

/-- The transposed rank-one terms of a block: entry (i, r) is entry (r, i) of the product. -/
theorem pay3_apply (x0 : FVec Ideal S512x512 .f32) (x1 : FVec Ideal S512x256 .f32) (x3 : FVec Ideal S256x4 .f32)
    (i : Fin 4) (r : Fin 512) :
    k0_pay3 (F := Ideal) x0 x1 x3 (ix2 i r)
      = ∑ col : Fin 256, (∑ j : Fin 512, x0 (ix2 r j) * x1 (ix2 j col)) * x3 (ix2 col i) := by
  rw [pay3_eq]
  refine (transpose_apply [1, 0] (k0_pay2 (F := Ideal) x0 x1 x3) transposes_S512x4_p1_0_S4x512 (ix2 i r) (ix2 r i) (fun b => ?_)).trans
    (pay2_apply x0 x1 x3 r i)
  match b with
  | ⟨0, _⟩ => rfl
  | ⟨1, _⟩ => rfl

/-! ## From the blocks to the arrays -/

theorem hz : (![0, 0] : Fin 2 → Nat) = fun _ => 0 := funext fun a => by
  match a with
  | ⟨0, _⟩ => rfl
  | ⟨1, _⟩ => rfl

/-- The printed index maps over the grid: point t takes row block t of the features and of the two row-blocked outputs,
    column block t of the transposed output, and block (0, 0) of the three whole operands. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = t.val :=
  (by decide +kernel : ∀ t : Fin grid0.N, _)

/-- Entry (r, j) of the features' block at point t is entry (512 t + r, j) of the features. -/
theorem blk_x (c : Dev nD) (t : Fin cfg0.N) (r j : Fin 512) (n : Fin 4096) (hn : n.val = t.val * 512 + r.val) :
    (iblk0 V c 0 t : FVec Ideal S512x512 .f32) (ix2 r j) = in0_x V c (ix2 n j) := by
  obtain ⟨e0, e1, -⟩ := idx_facts t
  show V c main_arg0 (((cfg0.win 0).blk t).view.emb (ix2 r j)) = V c main_arg0 (ix2 n j)
  refine congrArg (V c main_arg0) (funext fun a => Fin.ext ?_)
  match a with
  | ⟨0, _⟩ => show win0_0.index t (0 : Fin 2) * 512 + 1 * r.val = n.val; omega
  | ⟨1, _⟩ => show win0_0.index t (1 : Fin 2) * 512 + 1 * j.val = j.val; omega

/-- The weights' block at every point is the weights. -/
theorem blk_Wc (c : Dev nD) (t : Fin cfg0.N) (j : Fin 512) (col col' : Fin 256) (hcol : col'.val = col.val) :
    (iblk0 V c 1 t : FVec Ideal S512x256 .f32) (ix2 j col) = in0_Wc V c (ix2 j col') := by
  obtain ⟨-, -, e0, e1, -⟩ := idx_facts t
  show V c main_v1 (((cfg0.win 1).blk t).view.emb (ix2 j col)) = V c main_v1 (ix2 j col')
  refine congrArg (V c main_v1) (funext fun a => Fin.ext ?_)
  match a with
  | ⟨0, _⟩ => show win0_1.index t (0 : Fin 2) * 512 + 1 * j.val = j.val; omega
  | ⟨1, _⟩ => show win0_1.index t (1 : Fin 2) * 256 + 1 * col.val = col'.val; omega

/-- The first attention matrix's block at every point is that matrix. -/
theorem blk_A1 (c : Dev nD) (t : Fin cfg0.N) (col : Fin 256) (i i' : Fin 4) (hi : i'.val = i.val) :
    (iblk0 V c 2 t : FVec Ideal S256x4 .f32) (ix2 col i) = in0_A1 V c (ix2 col i') := by
  obtain ⟨-, -, -, -, e0, e1, -⟩ := idx_facts t
  show V c main_v26 (((cfg0.win 2).blk t).view.emb (ix2 col i)) = V c main_v26 (ix2 col i')
  refine congrArg (V c main_v26) (funext fun a => Fin.ext ?_)
  match a with
  | ⟨0, _⟩ => show win0_2.index t (0 : Fin 2) * 256 + 1 * col.val = col.val; omega
  | ⟨1, _⟩ => show win0_2.index t (1 : Fin 2) * 4 + 1 * i.val = i'.val; omega

/-- The second attention matrix's block at every point is that matrix. -/
theorem blk_A2 (c : Dev nD) (t : Fin cfg0.N) (col : Fin 256) (i i' : Fin 4) (hi : i'.val = i.val) :
    (iblk0 V c 3 t : FVec Ideal S256x4 .f32) (ix2 col i) = in0_A2 V c (ix2 col i') := by
  obtain ⟨-, -, -, -, -, -, e0, e1, -⟩ := idx_facts t
  show V c main_v32 (((cfg0.win 3).blk t).view.emb (ix2 col i)) = V c main_v32 (ix2 col i')
  refine congrArg (V c main_v32) (funext fun a => Fin.ext ?_)
  match a with
  | ⟨0, _⟩ => show win0_3.index t (0 : Fin 2) * 256 + 1 * col.val = col.val; omega
  | ⟨1, _⟩ => show win0_3.index t (1 : Fin 2) * 4 + 1 * i.val = i'.val; omega

/-! ### The projected features -/

/-- the projected features as one function of the index -/
abbrev Gh (c : Dev nD) : S4096x256.Idx → EReal := fun i =>
  ∑ j : Fin 512, in0_x V c (ix2 (i 0) j) * in0_Wc V c (ix2 j (i 1))

/-- What point t writes back to the projected features is block t of that function. -/
theorem flushed_h (c : Dev nD) (t : Fin cfg0.N) :
    (dat0 V c).flushed 4 t = ((cfg0.win 4).blk t).view.read (Elt Ideal) (Gh V c) := by
  show (cfg0.win 4).cut (grid0.coords t) ((dat0 V c).after 4 t) = _
  rw [after0_4]
  unfold out0_4
  rw [View.canon_unit_zero hz]
  simp only [View.ld_unit_zero (S := S512x512) hz, View.ld_unit_zero (S := S512x256) hz]
  obtain ⟨-, -, -, -, -, -, -, -, e0, e1, -⟩ := idx_facts t
  funext y
  obtain ⟨r, col, rfl⟩ : ∃ (r : Fin 512) (col : Fin 256), y = ix2 r col := ⟨y 0, y 1, eq_ix2 y⟩
  show k0_pay1 (F := Ideal) (iblk0 V c 0 t) (iblk0 V c 1 t) (ix2 r col) = Gh V c (((cfg0.win 4).blk t).view.emb (ix2 r col))
  refine (pay1_apply (iblk0 V c 0 t) (iblk0 V c 1 t) r col).trans ?_
  refine Finset.sum_congr rfl fun j _ => ?_
  congr 1
  · exact blk_x V c t r j _ (by show win0_4.index t (0 : Fin 2) * 512 + 1 * r.val = t.val * 512 + r.val; omega)
  · exact blk_Wc V c t j col _ (by show win0_4.index t (1 : Fin 2) * 256 + 1 * col.val = col.val; omega)

/-- An index of the projected features is in point t's block iff each coordinate is in the block's range on its axis. -/
theorem mem_blk_h (t : Fin cfg0.N) (i : S4096x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v42_0).slice (win0_4.rect t)).set ↔ _
  rw [View.set_slice_whole, Rect.mem_set_unit]
  exact Iff.rfl

/-- Row n of the projected features is written back by point n / 512. -/
theorem cover_h (i : S4096x256.Idx) : ∃ t : Fin cfg0.N, (cfg0.win 4).flush t = true ∧ i ∈ ((cfg0.win 4).blk t).view.set := by
  have h0 : (i 0).val < 4096 := idx2_lt0 i
  have h1 : (i 1).val < 256 := idx2_lt1 i
  have hN : cfg0.N = 8 := N_0
  let t : Fin cfg0.N := ⟨(i 0).val / 512, by rw [hN]; omega⟩
  obtain ⟨-, -, -, -, -, -, -, -, e0, e1, -⟩ := idx_facts t
  have ht : t.val = (i 0).val / 512 := rfl
  refine ⟨t, flush0_4 t, ?_⟩
  rw [mem_blk_h]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- The projected features after the run. -/
theorem final_h (c : Dev nD) : (dat0 V c).arrAt 4 cfg0.N = Gh V c :=
  (dat0 V c).arrAt_eq_of_cover 4 (Gh V c) (fun t _ => flushed_h V c t) cover_h

/-! ### The first rank-one terms -/

/-- the first rank-one terms as one function of the index -/
abbrev Gf1 (c : Dev nD) : S4096x4.Idx → EReal := fun i =>
  ∑ col : Fin 256, (∑ j : Fin 512, in0_x V c (ix2 (i 0) j) * in0_Wc V c (ix2 j col)) * in0_A1 V c (ix2 col (i 1))

/-- What point t writes back to the first rank-one terms is block t of that function. -/
theorem flushed_f1 (c : Dev nD) (t : Fin cfg0.N) :
    (dat0 V c).flushed 5 t = ((cfg0.win 5).blk t).view.read (Elt Ideal) (Gf1 V c) := by
  show (cfg0.win 5).cut (grid0.coords t) ((dat0 V c).after 5 t) = _
  rw [after0_5]
  unfold out0_5
  rw [View.canon_unit_zero hz]
  simp only [View.ld_unit_zero (S := S512x512) hz, View.ld_unit_zero (S := S512x256) hz, View.ld_unit_zero (S := S256x4) hz]
  obtain ⟨-, -, -, -, -, -, -, -, -, -, e0, e1, -⟩ := idx_facts t
  funext y
  obtain ⟨r, i, rfl⟩ : ∃ (r : Fin 512) (i : Fin 4), y = ix2 r i := ⟨y 0, y 1, eq_ix2 y⟩
  show k0_pay2 (F := Ideal) (iblk0 V c 0 t) (iblk0 V c 1 t) (iblk0 V c 2 t) (ix2 r i) = Gf1 V c (((cfg0.win 5).blk t).view.emb (ix2 r i))
  refine (pay2_apply (iblk0 V c 0 t) (iblk0 V c 1 t) (iblk0 V c 2 t) r i).trans ?_
  refine Finset.sum_congr rfl fun col _ => ?_
  congr 1
  · refine Finset.sum_congr rfl fun j _ => ?_
    congr 1
    · exact blk_x V c t r j _ (by show win0_5.index t (0 : Fin 2) * 512 + 1 * r.val = t.val * 512 + r.val; omega)
    · exact blk_Wc V c t j col col rfl
  · exact blk_A1 V c t col i _ (by show win0_5.index t (1 : Fin 2) * 4 + 1 * i.val = i.val; omega)

/-- An index of the first rank-one terms is in point t's block iff each coordinate is in the block's range on its axis. -/
theorem mem_blk_f1 (t : Fin cfg0.N) (i : S4096x4.Idx) :
    i ∈ ((cfg0.win 5).blk t).view.set ↔ ∀ a : Fin 2, win0_5.index t a * S512x4.size a ≤ (i a).val ∧ (i a).val < win0_5.index t a * S512x4.size a + S512x4.size a := by
  show i ∈ ((View.whole main_v42_1).slice (win0_5.rect t)).set ↔ _
  rw [View.set_slice_whole, Rect.mem_set_unit]
  exact Iff.rfl

/-- Row n of the first rank-one terms is written back by point n / 512. -/
theorem cover_f1 (i : S4096x4.Idx) : ∃ t : Fin cfg0.N, (cfg0.win 5).flush t = true ∧ i ∈ ((cfg0.win 5).blk t).view.set := by
  have h0 : (i 0).val < 4096 := idx2_lt0 i
  have h1 : (i 1).val < 4 := idx2_lt1 i
  have hN : cfg0.N = 8 := N_0
  let t : Fin cfg0.N := ⟨(i 0).val / 512, by rw [hN]; omega⟩
  obtain ⟨-, -, -, -, -, -, -, -, -, -, e0, e1, -⟩ := idx_facts t
  have ht : t.val = (i 0).val / 512 := rfl
  refine ⟨t, flush0_5 t, ?_⟩
  rw [mem_blk_f1]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 4 ≤ (i 1).val ∧ (i 1).val < win0_5.index t (1 : Fin 2) * 4 + 4; omega

/-- The first rank-one terms after the run. -/
theorem final_f1 (c : Dev nD) : (dat0 V c).arrAt 5 cfg0.N = Gf1 V c :=
  (dat0 V c).arrAt_eq_of_cover 5 (Gf1 V c) (fun t _ => flushed_f1 V c t) cover_f1

/-! ### The second rank-one terms, transposed -/

/-- the second rank-one terms, stored transposed, as one function of the index -/
abbrev Gf2t (c : Dev nD) : S4x4096.Idx → EReal := fun i =>
  ∑ col : Fin 256, (∑ j : Fin 512, in0_x V c (ix2 (i 1) j) * in0_Wc V c (ix2 j col)) * in0_A2 V c (ix2 col (i 0))

/-- What point t writes back to the transposed terms is COLUMN block t of that function. -/
theorem flushed_f2t (c : Dev nD) (t : Fin cfg0.N) :
    (dat0 V c).flushed 6 t = ((cfg0.win 6).blk t).view.read (Elt Ideal) (Gf2t V c) := by
  show (cfg0.win 6).cut (grid0.coords t) ((dat0 V c).after 6 t) = _
  rw [after0_6]
  unfold out0_6
  rw [View.canon_unit_zero hz]
  simp only [View.ld_unit_zero (S := S512x512) hz, View.ld_unit_zero (S := S512x256) hz, View.ld_unit_zero (S := S256x4) hz]
  obtain ⟨-, -, -, -, -, -, -, -, -, -, -, -, e0, e1⟩ := idx_facts t
  funext y
  obtain ⟨i, r, rfl⟩ : ∃ (i : Fin 4) (r : Fin 512), y = ix2 i r := ⟨y 0, y 1, eq_ix2 y⟩
  show k0_pay3 (F := Ideal) (iblk0 V c 0 t) (iblk0 V c 1 t) (iblk0 V c 3 t) (ix2 i r) = Gf2t V c (((cfg0.win 6).blk t).view.emb (ix2 i r))
  refine (pay3_apply (iblk0 V c 0 t) (iblk0 V c 1 t) (iblk0 V c 3 t) i r).trans ?_
  refine Finset.sum_congr rfl fun col _ => ?_
  congr 1
  · refine Finset.sum_congr rfl fun j _ => ?_
    congr 1
    · exact blk_x V c t r j _ (by show win0_6.index t (1 : Fin 2) * 512 + 1 * r.val = t.val * 512 + r.val; omega)
    · exact blk_Wc V c t j col col rfl
  · exact blk_A2 V c t col i _ (by show win0_6.index t (0 : Fin 2) * 4 + 1 * i.val = i.val; omega)

/-- An index of the transposed terms is in point t's block iff each coordinate is in the block's range on its axis. -/
theorem mem_blk_f2t (t : Fin cfg0.N) (i : S4x4096.Idx) :
    i ∈ ((cfg0.win 6).blk t).view.set ↔ ∀ a : Fin 2, win0_6.index t a * S4x512.size a ≤ (i a).val ∧ (i a).val < win0_6.index t a * S4x512.size a + S4x512.size a := by
  show i ∈ ((View.whole main_v42_2).slice (win0_6.rect t)).set ↔ _
  rw [View.set_slice_whole, Rect.mem_set_unit]
  exact Iff.rfl

/-- Column n of the transposed terms is written back by point n / 512. -/
theorem cover_f2t (i : S4x4096.Idx) : ∃ t : Fin cfg0.N, (cfg0.win 6).flush t = true ∧ i ∈ ((cfg0.win 6).blk t).view.set := by
  have h0 : (i 0).val < 4 := idx2_lt0 i
  have h1 : (i 1).val < 4096 := idx2_lt1 i
  have hN : cfg0.N = 8 := N_0
  let t : Fin cfg0.N := ⟨(i 1).val / 512, by rw [hN]; omega⟩
  obtain ⟨-, -, -, -, -, -, -, -, -, -, -, -, e0, e1⟩ := idx_facts t
  have ht : t.val = (i 1).val / 512 := rfl
  refine ⟨t, flush0_6 t, ?_⟩
  rw [mem_blk_f2t]
  intro a
  match a with
  | ⟨0, _⟩ => show win0_6.index t (0 : Fin 2) * 4 ≤ (i 0).val ∧ (i 0).val < win0_6.index t (0 : Fin 2) * 4 + 4; omega
  | ⟨1, _⟩ => show win0_6.index t (1 : Fin 2) * 512 ≤ (i 1).val ∧ (i 1).val < win0_6.index t (1 : Fin 2) * 512 + 512; omega

/-- The transposed terms after the run. -/
theorem final_f2t (c : Dev nD) : (dat0 V c).arrAt 6 cfg0.N = Gf2t V c :=
  (dat0 V c).arrAt_eq_of_cover 6 (Gf2t V c) (fun t _ => flushed_f2t V c t) cover_f2t

/-! ## The three arrays call 0 leaves -/

/-- the projected features: entry (n, col) is the dot product of row n of the features with column col of the weights -/
theorem reg0_hcat (c : Dev nD) (n : Fin 4096) (col : Fin 256) :
    out0_h V c (ix2 n col) = ∑ j : Fin 512, in0_x V c (ix2 n j) * in0_Wc V c (ix2 j col) :=
  congrFun (final_h V c) (ix2 n col)

/-- the first rank-one terms: the projected row times the first block-diagonal matrix -/
theorem reg0_f1 (c : Dev nD) (n : Fin 4096) (i : Fin 4) :
    out0_f1 V c (ix2 n i)
      = ∑ col : Fin 256, (∑ j : Fin 512, in0_x V c (ix2 n j) * in0_Wc V c (ix2 j col)) * in0_A1 V c (ix2 col i) :=
  congrFun (final_f1 V c) (ix2 n i)

/-- the second rank-one terms, stored transposed -/
theorem reg0_f2t (c : Dev nD) (i : Fin 4) (n : Fin 4096) :
    out0_f2t V c (ix2 i n)
      = ∑ col : Fin 256, (∑ j : Fin 512, in0_x V c (ix2 n j) * in0_Wc V c (ix2 j col)) * in0_A2 V c (ix2 col i) :=
  congrFun (final_f2t V c) (ix2 i n)

end R0

export R0 (in0_x in0_Wc in0_A1 in0_A2 out0_h out0_f1 out0_f2t reg0_hcat reg0_f1 reg0_f2t)

end Cert.KernelIdeal.KV

end
-- ==== Proof.KReg1.lean ====
/-
  Call 1 (the four heads' attention): what the pipeline leaves in its output array, index by index, from the arrays it is
  entered with. Row block t of the adjacency and structural matrices, the rank-one terms of its rows, all the
  transposed rank-one terms, all the projected features: for each head a masked row softmax whose weights average the
  head's 64 feature columns, then elu; the four heads side by side in the 256 columns.
-/
import proofs.«118500_g28080496181627_cont_9to1_1526_5_alg».proof.Proof.Gen.KernelIdeal.Frame
import proofs.«118500_g28080496181627_cont_9to1_1526_5_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.KV

namespace R1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- the arrays call 1 is entered with, and the one it leaves, at their literal types -/
abbrev in1_adj (c : Dev nD) : IVec S4096x4096 32 := V c main_arg1
abbrev in1_ad (c : Dev nD) : FVec Ideal S4096x4096 .f32 := V c main_arg2
abbrev in1_f1 (c : Dev nD) : FVec Ideal S4096x4 .f32 := V c main_v42_1
abbrev in1_f2t (c : Dev nD) : FVec Ideal S4x4096 .f32 := V c main_v42_2
abbrev in1_h (c : Dev nD) : FVec Ideal S4096x256 .f32 := V c main_v42_0
abbrev in1_w2 (c : Dev nD) : FVec Ideal S1x4 .f32 := V c main_v4
abbrev out1_xc (c : Dev nD) : FVec Ideal S4096x256 .f32 := (dat1 V c).arrAt 6 cfg1.N

/-! ## Layout operations of the body at literal shapes -/

/-- a [256,1] column broadcast along 4096 lanes reads its row's entry -/
theorem bc_col (v : FVec Ideal S256x1 .f32) (h : S256x1.Broadcasts S256x4096) (r : Fin 256) (j : Fin 4096) :
    broadcastTo S256x4096 v h (ix2 r j) = v (ix2 r (0 : Fin 1)) :=
  broadcastTo_apply v h (ix2 r j) (ix2 r (0 : Fin 1)) fun a => by
    match a with
    | ⟨0, _⟩ => rfl
    | ⟨1, _⟩ => rfl

/-- a [1,4096] row broadcast along 256 rows reads its lane's entry -/
theorem bc_row (v : FVec Ideal S1x4096 .f32) (h : S1x4096.Broadcasts S256x4096) (r : Fin 256) (j : Fin 4096) :
    broadcastTo S256x4096 v h (ix2 r j) = v (ix2 (0 : Fin 1) j) :=
  broadcastTo_apply v h (ix2 r j) (ix2 (0 : Fin 1) j) fun a => by
    match a with
    | ⟨0, _⟩ => rfl
    | ⟨1, _⟩ => rfl

/-- a [256,1] column broadcast along 64 lanes reads its row's entry -/
theorem bc_col64 (v : FVec Ideal S256x1 .f32) (h : S256x1.Broadcasts S256x64) (r : Fin 256) (q : Fin 64) :
    broadcastTo S256x64 v h (ix2 r q) = v (ix2 r (0 : Fin 1)) :=
  broadcastTo_apply v h (ix2 r q) (ix2 r (0 : Fin 1)) fun a => by
    match a with
    | ⟨0, _⟩ => rfl
    | ⟨1, _⟩ => rfl

/-- a [256] vector cast to a [256,1] column reads the same row -/
theorem sc_col (v : FVec Ideal S256 .f32) (h : S256.ShapeCasts S256x1) (r : Fin 256) :
    shapeCast S256x1 v h (ix2 r (0 : Fin 1)) = v (ix1 r) :=
  shapeCast_apply v h _ _ (by
    rw [Shape.rowMajor_val_two, Shape.rowMajor_val_one]
    show r.val = r.val * 1 + 0
    omega)

/-- the one entry of a [1,1] vector -/
theorem ext11 (v : FVec Ideal S1x1 .f32) (h : ∀ a, (![0, 0] : Fin 2 → Nat) a < S1x1.size a) :
    extractAt ![0, 0] v h = v (ix2 (0 : Fin 1) (0 : Fin 1)) := by
  unfold extractAt
  congr 1
  funext a
  match a with
  | ⟨0, _⟩ => rfl
  | ⟨1, _⟩ => rfl

/-! ## The lane reductions and the matmul at an index -/

/-- the source index a row reduction reads: row r, lane k -/
theorem lift_row (h : S256x4096.Reduces [1] S256) (r : Fin 256) (k : Fin 4096) :
    h.lift (ix1 r) k = ix2 r k := by
  funext a
  apply Fin.ext
  match a with
  | ⟨0, _⟩ => rfl
  | ⟨1, _⟩ => rfl

/-- a row's lane maximum from -inf is the fold of max over the row -/
theorem rowmax_apply (src : FVec Ideal S256x4096 .f32) (h : S256x4096.Reduces [1] S256)
    (hφ : FKind.Formats .f32) (hacc : (0xFF800000#32 : BitVec FTy.f32.bits) = FKind.maximumf.neutral .f32 hφ) (r : Fin 256) :
    multiReduction .maximumf [1] S256 src 0xFF800000#32 h hφ hacc (ix1 r)
      = Spec.rowMax (fun j : Fin 4096 => src (ix2 r j)) := by
  refine (Ideal.multiReduction_maximumf_single src _ h hφ hacc (ix1 r)).trans ?_
  unfold Spec.rowMax
  exact congrArg (fun f => (Finset.univ : Finset (Fin 4096)).fold max (Ideal.ofBits .f32 0xFF800000#32) f)
    (funext fun k => congrArg src (lift_row h r k))

/-- a row's lane sum is the sum over the row -/
theorem rowsum_apply (src : FVec Ideal S256x4096 .f32) (h : S256x4096.Reduces [1] S256)
    (hφ : FKind.Formats .f32) (hacc : (0x00000000#32 : BitVec FTy.f32.bits) = FKind.add.neutral .f32 hφ) (r : Fin 256) :
    multiReduction .add [1] S256 src 0x00000000#32 h hφ hacc (ix1 r) = ∑ j : Fin 4096, src (ix2 r j) := by
  refine (Ideal.multiReduction_add_single src _ h hφ hacc (ix1 r)).trans ?_
  exact Finset.sum_congr rfl fun k _ => congrArg src (lift_row h r k)

theorem lhs_mm_0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide),
    dif_pos (show (0 : Fin S256x4096.rank) ∈ dot_S256x4096_S4096x64_S256x64_1_0_0_1_n_n.lhsNonContracting by decide)]
  rfl
theorem lhs_mm_1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem rhs_mm_0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem rhs_mm_1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide),
    dif_pos (show (1 : Fin S4096x64.rank) ∈ dot_S256x4096_S4096x64_S256x64_1_0_0_1_n_n.rhsNonContracting by decide)]
  rfl

/-- the weights' matmul with a feature block into the zero accumulator, at (r, q): the sum over the 4096 lanes -/
theorem mm_apply (lhs : FVec Ideal S256x4096 .f32) (rhs : FVec Ideal S4096x64 .f32) (r : Fin 256) (q : Fin 64) :
    matmul dot_S256x4096_S4096x64_S256x64_1_0_0_1_n_n none lhs rhs (constant (F := Ideal) S256x64 .f32 0x00000000#32) (ix2 r q)
      = ∑ k : Fin 4096, lhs (ix2 r k) * rhs (ix2 k q) := by
  simp only [matmul]
  rw [Ideal.matmul_constant_zero_apply,
    ← Equiv.sum_comp (contrEquiv1 dot_S256x4096_S4096x64_S256x64_1_0_0_1_n_n 4096 rfl rfl).symm]
  refine Finset.sum_congr rfl fun k _ => ?_
  have hk := contrEquiv1_symm_val dot_S256x4096_S4096x64_S256x64_1_0_0_1_n_n 4096 rfl rfl k
  have el : dot_S256x4096_S4096x64_S256x64_1_0_0_1_n_n.lhsIdx (ix2 r q)
      ((contrEquiv1 dot_S256x4096_S4096x64_S256x64_1_0_0_1_n_n 4096 rfl rfl).symm k) = ix2 r k :=
    funext fun a => Fin.ext (by
      match a with
      | ⟨0, _⟩ => exact lhs_mm_0 _ _
      | ⟨1, _⟩ => exact (lhs_mm_1 _ _).trans hk)
  have er : dot_S256x4096_S4096x64_S256x64_1_0_0_1_n_n.rhsIdx (ix2 r q)
      ((contrEquiv1 dot_S256x4096_S4096x64_S256x64_1_0_0_1_n_n 4096 rfl rfl).symm k) = ix2 k q :=
    funext fun a => Fin.ext (by
      match a with
      | ⟨0, _⟩ => exact (rhs_mm_0 _ _).trans hk
      | ⟨1, _⟩ => exact rhs_mm_1 _ _)
  rw [el, er]

/-! ## One head's arithmetic in four stages: masked logits, unnormalised weights, weighted average, elu -/

/-- masked logits of a row block: rank-one term through the leaky rectifier, plus the structural term, -9e15 off the mask -/
def logits (msk : IVec S256x4096 1) (ad : FVec Ideal S256x4096 .f32) (f1 : FVec Ideal S256x1 .f32)
    (f2 : FVec Ideal S1x4096 .f32) (w2 : FVec Ideal S1x1 .f32) : FVec Ideal S256x4096 .f32 :=
  have b : FVec Ideal S256x4096 .f32 :=
    addf (broadcastTo S256x4096 (shapeCast S256x1 f1 shapeCasts_S256x1_S256x1) broadcasts_S256x1_S256x4096)
      (broadcastTo S256x4096 (shapeCast S1x4096 f2 shapeCasts_S1x4096_S1x4096) broadcasts_S1x4096_S256x4096)
  select msk
    (addf (maximumf b (mulf (broadcast S256x4096 (Scalar.ofBits .f32 0x3E4CCCCD#32)) b))
      (mulf (broadcast S256x4096 (extractAt ![0, 0] w2 inpos_S1x1_p0_0)) ad))
    (broadcast S256x4096 (Scalar.ofBits .f32 0xD9FFCB9E#32))

/-- exp of the logits less their row maximum -/
def wts (e : FVec Ideal S256x4096 .f32) : FVec Ideal S256x4096 .f32 :=
  exp (subf e (broadcastTo S256x4096
    (shapeCast S256x1 (multiReduction .maximumf [1] S256 e 0xFF800000#32 reduces_S256x4096_S256 (.inl rfl) rfl) shapeCasts_S256_S256x1)
    broadcasts_S256x1_S256x4096))

/-- the weights times a 64-column feature block, over the weights' row sums -/
def avg (p : FVec Ideal S256x4096 .f32) (h : FVec Ideal S4096x64 .f32) : FVec Ideal S256x64 .f32 :=
  divf (matmul dot_S256x4096_S4096x64_S256x64_1_0_0_1_n_n none p (shapeCast S4096x64 h shapeCasts_S4096x64_S4096x64)
      (constant S256x64 .f32 0x00000000#32))
    (broadcastTo S256x64
      (shapeCast S256x1 (multiReduction .add [1] S256 p 0x00000000#32 reduces_S256x4096_S256 (.inl rfl) rfl) shapeCasts_S256_S256x1)
      broadcasts_S256x1_S256x64)

/-- elu: v where v > 0, exp (min v 0) - 1 elsewhere -/
def eluV (v : FVec Ideal S256x64 .f32) : FVec Ideal S256x64 .f32 :=
  select (cmpf .ogt v (broadcast S256x64 (Scalar.ofBits .f32 0x00000000#32))) v
    (subf (exp (minimumf v (broadcast S256x64 (Scalar.ofBits .f32 0x00000000#32))))
      (broadcast S256x64 (Scalar.ofBits .f32 0x3F800000#32)))

/-- one head of a row block -/
def headV (msk : IVec S256x4096 1) (ad : FVec Ideal S256x4096 .f32) (f1 : FVec Ideal S256x1 .f32)
    (f2 : FVec Ideal S1x4096 .f32) (w2 : FVec Ideal S1x1 .f32) (h : FVec Ideal S4096x64 .f32) : FVec Ideal S256x64 .f32 :=
  eluV (avg (wts (logits msk ad f1 f2 w2)) h)

/-- the three later heads' payloads are that composition -/
theorem pay6_eq (msk : IVec S256x4096 1) (ad : FVec Ideal S256x4096 .f32) (f1 : FVec Ideal S256x1 .f32)
    (f2 : FVec Ideal S1x4096 .f32) (w2 : FVec Ideal S1x1 .f32) (h : FVec Ideal S4096x64 .f32) :
    k1_pay6 msk ad f1 f2 w2 h = headV msk ad f1 f2 w2 h := rfl
theorem pay7_eq (msk : IVec S256x4096 1) (ad : FVec Ideal S256x4096 .f32) (f1 : FVec Ideal S256x1 .f32)
    (f2 : FVec Ideal S1x4096 .f32) (w2 : FVec Ideal S1x1 .f32) (h : FVec Ideal S4096x64 .f32) :
    k1_pay7 msk ad f1 f2 w2 h = headV msk ad f1 f2 w2 h := rfl
theorem pay8_eq (msk : IVec S256x4096 1) (ad : FVec Ideal S256x4096 .f32) (f1 : FVec Ideal S256x1 .f32)
    (f2 : FVec Ideal S1x4096 .f32) (w2 : FVec Ideal S1x1 .f32) (h : FVec Ideal S4096x64 .f32) :
    k1_pay8 msk ad f1 f2 w2 h = headV msk ad f1 f2 w2 h := rfl
/-- and so is the first head's, split over five payloads -/
theorem pay5_eq (x0 : IVec S256x4096 32) (ad : FVec Ideal S256x4096 .f32) (f1 : FVec Ideal S256x1 .f32)
    (f2 : FVec Ideal S1x4096 .f32) (w2 : FVec Ideal S1x1 .f32) (h : FVec Ideal S4096x64 .f32) :
    k1_pay5 (F := Ideal) (k1_pay2 (F := Ideal) x0 ad f1 f2 w2 h) (k1_pay3 (F := Ideal) x0 ad f1 f2 w2 h)
        (k1_pay4 (F := Ideal) x0 ad f1 f2 w2 h) (Scalar.ofBits .f32 0x3F800000#32)
      = headV (k1_pay1 (F := Ideal) x0) ad f1 f2 w2 h := rfl

/-! ## The stages at an index -/

/-- the masked logit at (r, j) is Spec's kernel-form logit of row r -/
theorem logits_apply (msk : IVec S256x4096 1) (ad : FVec Ideal S256x4096 .f32) (f1 : FVec Ideal S256x1 .f32)
    (f2 : FVec Ideal S1x4096 .f32) (w2 : FVec Ideal S1x1 .f32) (r : Fin 256) (j : Fin 4096) :
    logits msk ad f1 f2 w2 (ix2 r j)
      = Spec.eK (fun j => msk (ix2 r j)) (f1 (ix2 r (0 : Fin 1))) (fun j => f2 (ix2 (0 : Fin 1) j))
          (w2 (ix2 (0 : Fin 1) (0 : Fin 1))) (fun j => ad (ix2 r j)) j := by
  unfold logits Spec.eK
  simp only [select_apply, addf_apply, maximumf_apply, mulf_apply, broadcast_apply, shapeCast_self, bc_col, bc_row, ext11]
  rfl

/-- the weight at (r, j) is exp of row r's logit less the row's maximum -/
theorem wts_apply (e : FVec Ideal S256x4096 .f32) (r : Fin 256) (j : Fin 4096) :
    wts e (ix2 r j) = Spec.pK (fun j => e (ix2 r j)) j := by
  unfold wts Spec.pK
  show Ideal.exp (e (ix2 r j) - broadcastTo S256x4096 _ broadcasts_S256x1_S256x4096 (ix2 r j)) = _
  rw [bc_col, sc_col]
  exact congrArg (fun m => Ideal.exp (e (ix2 r j) - m)) (rowmax_apply e _ _ _ r)

/-- the average at (r, q): the row's weighted sum of feature column q over the row's weights' sum -/
theorem avg_apply (p : FVec Ideal S256x4096 .f32) (h : FVec Ideal S4096x64 .f32) (r : Fin 256) (q : Fin 64) :
    avg p h (ix2 r q) = Ideal.div (∑ j : Fin 4096, p (ix2 r j) * h (ix2 j q)) (∑ j : Fin 4096, p (ix2 r j)) := by
  unfold avg
  show Ideal.div (matmul dot_S256x4096_S4096x64_S256x64_1_0_0_1_n_n none p _ (constant (F := Ideal) S256x64 .f32 0x00000000#32) (ix2 r q))
      (broadcastTo S256x64 _ broadcasts_S256x1_S256x64 (ix2 r q)) = _
  rw [shapeCast_self, mm_apply, bc_col64, sc_col]
  exact congrArg (Ideal.div _) (rowsum_apply p _ _ _ r)

/-- elu at an index -/
theorem eluV_apply (v : FVec Ideal S256x64 .f32) (i : S256x64.Idx) : eluV v i = Spec.eluK (v i) := rfl

/-- ONE HEAD AT AN INDEX: entry (r, q) of a head's block is Spec's kernel-form attention entry of row r against feature column q -/
theorem headV_apply (msk : IVec S256x4096 1) (ad : FVec Ideal S256x4096 .f32) (f1 : FVec Ideal S256x1 .f32)
    (f2 : FVec Ideal S1x4096 .f32) (w2 : FVec Ideal S1x1 .f32) (h : FVec Ideal S4096x64 .f32) (r : Fin 256) (q : Fin 64) :
    headV msk ad f1 f2 w2 h (ix2 r q)
      = Spec.attK (fun j => msk (ix2 r j)) (f1 (ix2 r (0 : Fin 1))) (fun j => f2 (ix2 (0 : Fin 1) j))
          (w2 (ix2 (0 : Fin 1) (0 : Fin 1))) (fun j => ad (ix2 r j)) (fun j => h (ix2 j q)) := by
  unfold headV Spec.attK Spec.hpK
  rw [eluV_apply, avg_apply]
  have he : (fun j => logits msk ad f1 f2 w2 (ix2 r j))
      = Spec.eK (fun j => msk (ix2 r j)) (f1 (ix2 r (0 : Fin 1))) (fun j => f2 (ix2 (0 : Fin 1) j))
          (w2 (ix2 (0 : Fin 1) (0 : Fin 1))) (fun j => ad (ix2 r j)) := funext fun j => logits_apply msk ad f1 f2 w2 r j
  simp only [wts_apply, he]

/-! ## A point's output block from its input blocks -/

/-- congruence of the attention entry in its six arguments -/
theorem attK_congr {m m' : Fin 4096 → BitVec 1} {F1 F1' : EReal} {F2 F2' : Fin 4096 → EReal} {W W' : EReal}
    {A A' H H' : Fin 4096 → EReal} (hm : ∀ j, m j = m' j) (hF1 : F1 = F1') (hF2 : ∀ j, F2 j = F2' j) (hW : W = W')
    (hA : ∀ j, A j = A' j) (hH : ∀ j, H j = H' j) : Spec.attK m F1 F2 W A H = Spec.attK m' F1' F2' W' A' H' := by
  obtain rfl := funext hm
  obtain rfl := funext hF2
  obtain rfl := funext hA
  obtain rfl := funext hH
  rw [hF1, hW]

/-- Spec's kernel-form attention entry at row r and column col, read off arrays (or blocks) of R rows:
    head col / 64 of the rank-one terms and of the scalar weights, column col of the features -/
def entry {R : Nat} (x0 : IVec ⟨2, ![R, 4096]⟩ 32) (x1 : FVec Ideal ⟨2, ![R, 4096]⟩ .f32) (x2 : FVec Ideal ⟨2, ![R, 4]⟩ .f32)
    (x3 : FVec Ideal S4x4096 .f32) (x4 : FVec Ideal S4096x256 .f32) (x5 : FVec Ideal S1x4 .f32) (r : Fin R) (col : Fin 256) : EReal :=
  Spec.attK (fun j => Spec.adjBit (x0 (ix2 r j))) (x2 (ix2 r (Spec.colHead col))) (fun j => x3 (ix2 (Spec.colHead col) j))
    (x5 (ix2 (0 : Fin 1) (Spec.colHead col))) (fun j => x1 (ix2 r j)) (fun j => x4 (ix2 j col))

/-- the [256,256] block of entries of a point's input blocks -/
def blockOut (x0 : Vec Ideal S256x4096 .i32) (x1 : Vec Ideal S256x4096 .f32) (x2 : Vec Ideal S256x4 .f32)
    (x3 : Vec Ideal S4x4096 .f32) (x4 : Vec Ideal S4096x256 .f32) (x5 : Vec Ideal S1x4 .f32) : Vec Ideal S256x256 .f32 :=
  fun y => entry x0 x1 x2 x3 x4 x5 (y 0) (y 1)

/-- the [4096,256] array of entries of the whole arrays -/
def arrOut (x0 : IVec S4096x4096 32) (x1 : FVec Ideal S4096x4096 .f32) (x2 : FVec Ideal S4096x4 .f32)
    (x3 : FVec Ideal S4x4096 .f32) (x4 : FVec Ideal S4096x256 .f32) (x5 : FVec Ideal S1x4 .f32) : FVec Ideal S4096x256 .f32 :=
  fun i => entry x0 x1 x2 x3 x4 x5 (i 0) (i 1)

/-- HEAD k's PIECE: the head's payload over the blocks' loads (column k of the rank-one terms, row k of the transposed ones,
    scalar k, feature columns 64k …) at (r, q) is the block's entry under the store's rectangle, at (r, 64k + q) -/
theorem piece_eq (x0 : Vec Ideal S256x4096 .i32) (x1 : Vec Ideal S256x4096 .f32) (x2 : Vec Ideal S256x4 .f32)
    (x3 : Vec Ideal S4x4096 .f32) (x4 : Vec Ideal S4096x256 .f32) (x5 : Vec Ideal S1x4 .f32) (k o : Nat) (hk : k < 4) (ho : o = 64 * k)
    (inb0 : ∀ a, (![0, 0] : Fin 2 → Nat) a + S256x4096.size a ≤ S256x4096.size a)
    (inb2 : ∀ a, (![0, k] : Fin 2 → Nat) a + S256x1.size a ≤ S256x4.size a)
    (inb3 : ∀ a, (![k, 0] : Fin 2 → Nat) a + S1x4096.size a ≤ S4x4096.size a)
    (inb5 : ∀ a, (![0, k] : Fin 2 → Nat) a + S1x1.size a ≤ S1x4.size a)
    (inb4 : ∀ a, (![0, o] : Fin 2 → Nat) a + S4096x64.size a ≤ S4096x256.size a)
    (inb6 : ∀ a, (![0, o] : Fin 2 → Nat) a + S256x64.size a ≤ S256x256.size a) (r : Fin 256) (q : Fin 64) :
    headV (k1_pay1 (F := Ideal) (View.ld x0 (Rect.unit (s := S256x4096) ![0, 0] S256x4096.size inb0)))
        (View.ld x1 (Rect.unit (s := S256x4096) ![0, 0] S256x4096.size inb0))
        (View.ld x2 (Rect.unit (s := S256x4) ![0, k] S256x1.size inb2))
        (View.ld x3 (Rect.unit (s := S4x4096) ![k, 0] S1x4096.size inb3))
        (View.ld x5 (Rect.unit (s := S1x4) ![0, k] S1x1.size inb5))
        (View.ld x4 (Rect.unit (s := S4096x256) ![0, o] S4096x64.size inb4)) (ix2 r q)
      = blockOut x0 x1 x2 x3 x4 x5 ((Rect.unit (s := S256x256) ![0, o] S256x64.size inb6).emb (ix2 r q)) := by
  rw [headV_apply]
  have hq : q.val < 64 := q.isLt
  have hemb : (Rect.unit (s := S256x256) ![0, o] S256x64.size inb6).emb (ix2 r q) = ix2 r (⟨o + q.val, by omega⟩ : Fin 256) :=
    funext fun a => Fin.ext (by
      match a with
      | ⟨0, _⟩ => show 0 + 1 * r.val = r.val; omega
      | ⟨1, _⟩ => show o + 1 * q.val = o + q.val; omega)
  rw [hemb]
  show _ = entry x0 x1 x2 x3 x4 x5 r (⟨o + q.val, by omega⟩ : Fin 256)
  have hh : Spec.colHead (⟨o + q.val, by omega⟩ : Fin 256) = (⟨k, hk⟩ : Fin 4) := Fin.ext (by show (o + q.val) / 64 = k; omega)
  unfold entry
  rw [hh]
  refine attK_congr (fun j => ?_) ?_ (fun j => ?_) ?_ (fun j => ?_) (fun j => ?_)
  · show Spec.adjBit (x0 _) = Spec.adjBit (x0 _)
    refine congrArg (fun i => Spec.adjBit (x0 i)) (funext fun a => Fin.ext ?_)
    match a with
    | ⟨0, _⟩ => show 0 + 1 * r.val = r.val; omega
    | ⟨1, _⟩ => show 0 + 1 * j.val = j.val; omega
  · refine congrArg x2 (funext fun a => Fin.ext ?_)
    match a with
    | ⟨0, _⟩ => show 0 + 1 * r.val = r.val; omega
    | ⟨1, _⟩ => show k + 1 * 0 = k; omega
  · refine congrArg x3 (funext fun a => Fin.ext ?_)
    match a with
    | ⟨0, _⟩ => show k + 1 * 0 = k; omega
    | ⟨1, _⟩ => show 0 + 1 * j.val = j.val; omega
  · refine congrArg x5 (funext fun a => Fin.ext ?_)
    match a with
    | ⟨0, _⟩ => show 0 + 1 * 0 = 0; omega
    | ⟨1, _⟩ => show k + 1 * 0 = k; omega
  · refine congrArg x1 (funext fun a => Fin.ext ?_)
    match a with
    | ⟨0, _⟩ => show 0 + 1 * r.val = r.val; omega
    | ⟨1, _⟩ => show 0 + 1 * j.val = j.val; omega
  · refine congrArg x4 (funext fun a => Fin.ext ?_)
    match a with
    | ⟨0, _⟩ => show 0 + 1 * j.val = j.val; omega
    | ⟨1, _⟩ => show o + 1 * q.val = o + q.val; omega

/-- THE OUTPUT BLOCK: the four heads' column slices together are the block of entries -/
theorem out1_6_eq (x0 : Vec Ideal S256x4096 .i32) (x1 : Vec Ideal S256x4096 .f32) (x2 : Vec Ideal S256x4 .f32)
    (x3 : Vec Ideal S4x4096 .f32) (x4 : Vec Ideal S4096x256 .f32) (x5 : Vec Ideal S1x4 .f32) :
    out1_6 (F := Ideal) x0 x1 x2 x3 x4 x5 = blockOut x0 x1 x2 x3 x4 x5 := by
  funext y
  unfold out1_6
  refine View.canon_apply_of_pieces (Val := Elt Ideal) (e := .f32) (blockOut x0 x1 x2 x3 x4 x5) _ ?_ y (cover1_6 _ _ _ _ y)
  intro p hp x
  simp only [List.mem_cons, List.not_mem_nil, or_false] at hp
  rcases hp with rfl | rfl | rfl | rfl
  · obtain ⟨r, q, rfl⟩ : ∃ (r : Fin 256) (q : Fin 64), x = ix2 r q := ⟨x 0, x 1, eq_ix2 x⟩
    exact (congrFun (pay8_eq _ _ _ _ _ _) (ix2 r q)).trans (piece_eq x0 x1 x2 x3 x4 x5 3 192 (by decide) rfl inb_S256x4096_S256x4096_0_0 inb_S256x4_S256x1_0_3
      inb_S4x4096_S1x4096_3_0 inb_S1x4_S1x1_0_3 inb_S4096x256_S4096x64_0_192 inb_S256x256_S256x64_0_192 r q)
  · obtain ⟨r, q, rfl⟩ : ∃ (r : Fin 256) (q : Fin 64), x = ix2 r q := ⟨x 0, x 1, eq_ix2 x⟩
    exact (congrFun (pay7_eq _ _ _ _ _ _) (ix2 r q)).trans (piece_eq x0 x1 x2 x3 x4 x5 2 128 (by decide) rfl inb_S256x4096_S256x4096_0_0 inb_S256x4_S256x1_0_2
      inb_S4x4096_S1x4096_2_0 inb_S1x4_S1x1_0_2 inb_S4096x256_S4096x64_0_128 inb_S256x256_S256x64_0_128 r q)
  · obtain ⟨r, q, rfl⟩ : ∃ (r : Fin 256) (q : Fin 64), x = ix2 r q := ⟨x 0, x 1, eq_ix2 x⟩
    exact (congrFun (pay6_eq _ _ _ _ _ _) (ix2 r q)).trans (piece_eq x0 x1 x2 x3 x4 x5 1 64 (by decide) rfl inb_S256x4096_S256x4096_0_0 inb_S256x4_S256x1_0_1
      inb_S4x4096_S1x4096_1_0 inb_S1x4_S1x1_0_1 inb_S4096x256_S4096x64_0_64 inb_S256x256_S256x64_0_64 r q)
  · obtain ⟨r, q, rfl⟩ : ∃ (r : Fin 256) (q : Fin 64), x = ix2 r q := ⟨x 0, x 1, eq_ix2 x⟩
    exact (congrFun (pay5_eq _ _ _ _ _ _) (ix2 r q)).trans (piece_eq x0 x1 x2 x3 x4 x5 0 0 (by decide) rfl inb_S256x4096_S256x4096_0_0 inb_S256x4_S256x1_0_0
      inb_S4x4096_S1x4096_0_0 inb_S1x4_S1x1_0_0 inb_S4096x256_S4096x64_0_0 inb_S256x256_S256x64_0_0 r q)

/-! ## From blocks to the array -/

/-- the input windows' blocks at a point, at their literal types -/
abbrev blk_adj (c : Dev nD) (t : Fin cfg1.N) : Vec Ideal S256x4096 .i32 := iblk1 V c 0 t
abbrev blk_ad (c : Dev nD) (t : Fin cfg1.N) : Vec Ideal S256x4096 .f32 := iblk1 V c 1 t
abbrev blk_f1 (c : Dev nD) (t : Fin cfg1.N) : Vec Ideal S256x4 .f32 := iblk1 V c 2 t
abbrev blk_f2t (c : Dev nD) (t : Fin cfg1.N) : Vec Ideal S4x4096 .f32 := iblk1 V c 3 t
abbrev blk_h (c : Dev nD) (t : Fin cfg1.N) : Vec Ideal S4096x256 .f32 := iblk1 V c 4 t
abbrev blk_w2 (c : Dev nD) (t : Fin cfg1.N) : Vec Ideal S1x4 .f32 := iblk1 V c 5 t

/-- the windows' block indices over the grid: the row-blocked windows are at block (t, 0), the whole-array ones at (0, 0) -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem blk_adj_apply (c : Dev nD) (t : Fin cfg1.N) (r : Fin 256) (j : Fin 4096) (n : Fin 4096) (hn : n.val = 256 * t.val + r.val) :
    blk_adj V c t (ix2 r j) = in1_adj V c (ix2 n j) := by
  obtain ⟨e0, e1, -⟩ := idx_facts1 t
  show V c main_arg1 (((cfg1.win 0).blk t).view.emb (ix2 r j)) = V c main_arg1 (ix2 n j)
  refine congrArg (V c main_arg1) (funext fun a => Fin.ext ?_)
  match a with
  | ⟨0, _⟩ => show win1_0.index t (0 : Fin 2) * 256 + 1 * r.val = n.val; omega
  | ⟨1, _⟩ => show win1_0.index t (1 : Fin 2) * 4096 + 1 * j.val = j.val; omega

theorem blk_ad_apply (c : Dev nD) (t : Fin cfg1.N) (r : Fin 256) (j : Fin 4096) (n : Fin 4096) (hn : n.val = 256 * t.val + r.val) :
    blk_ad V c t (ix2 r j) = in1_ad V c (ix2 n j) := by
  obtain ⟨-, -, e0, e1, -⟩ := idx_facts1 t
  show V c main_arg2 (((cfg1.win 1).blk t).view.emb (ix2 r j)) = V c main_arg2 (ix2 n j)
  refine congrArg (V c main_arg2) (funext fun a => Fin.ext ?_)
  match a with
  | ⟨0, _⟩ => show win1_1.index t (0 : Fin 2) * 256 + 1 * r.val = n.val; omega
  | ⟨1, _⟩ => show win1_1.index t (1 : Fin 2) * 4096 + 1 * j.val = j.val; omega

theorem blk_f1_apply (c : Dev nD) (t : Fin cfg1.N) (r : Fin 256) (i : Fin 4) (n : Fin 4096) (hn : n.val = 256 * t.val + r.val) :
    blk_f1 V c t (ix2 r i) = in1_f1 V c (ix2 n i) := by
  obtain ⟨-, -, -, -, e0, e1, -⟩ := idx_facts1 t
  show V c main_v42_1 (((cfg1.win 2).blk t).view.emb (ix2 r i)) = V c main_v42_1 (ix2 n i)
  refine congrArg (V c main_v42_1) (funext fun a => Fin.ext ?_)
  match a with
  | ⟨0, _⟩ => show win1_2.index t (0 : Fin 2) * 256 + 1 * r.val = n.val; omega
  | ⟨1, _⟩ => show win1_2.index t (1 : Fin 2) * 4 + 1 * i.val = i.val; omega

theorem blk_f2t_apply (c : Dev nD) (t : Fin cfg1.N) (i : Fin 4) (j : Fin 4096) :
    blk_f2t V c t (ix2 i j) = in1_f2t V c (ix2 i j) := by
  obtain ⟨-, -, -, -, -, -, e0, e1, -⟩ := idx_facts1 t
  show V c main_v42_2 (((cfg1.win 3).blk t).view.emb (ix2 i j)) = V c main_v42_2 (ix2 i j)
  refine congrArg (V c main_v42_2) (funext fun a => Fin.ext ?_)
  match a with
  | ⟨0, _⟩ => show win1_3.index t (0 : Fin 2) * 4 + 1 * i.val = i.val; omega
  | ⟨1, _⟩ => show win1_3.index t (1 : Fin 2) * 4096 + 1 * j.val = j.val; omega

theorem blk_h_apply (c : Dev nD) (t : Fin cfg1.N) (j : Fin 4096) (col : Fin 256) :
    blk_h V c t (ix2 j col) = in1_h V c (ix2 j col) := by
  obtain ⟨-, -, -, -, -, -, -, -, e0, e1, -⟩ := idx_facts1 t
  show V c main_v42_0 (((cfg1.win 4).blk t).view.emb (ix2 j col)) = V c main_v42_0 (ix2 j col)
  refine congrArg (V c main_v42_0) (funext fun a => Fin.ext ?_)
  match a with
  | ⟨0, _⟩ => show win1_4.index t (0 : Fin 2) * 4096 + 1 * j.val = j.val; omega
  | ⟨1, _⟩ => show win1_4.index t (1 : Fin 2) * 256 + 1 * col.val = col.val; omega

theorem blk_w2_apply (c : Dev nD) (t : Fin cfg1.N) (u : Fin 1) (i : Fin 4) :
    blk_w2 V c t (ix2 u i) = in1_w2 V c (ix2 u i) := by
  obtain ⟨-, -, -, -, -, -, -, -, -, -, e0, e1, -⟩ := idx_facts1 t
  show V c main_v4 (((cfg1.win 5).blk t).view.emb (ix2 u i)) = V c main_v4 (ix2 u i)
  refine congrArg (V c main_v4) (funext fun a => Fin.ext ?_)
  match a with
  | ⟨0, _⟩ => show win1_5.index t (0 : Fin 2) * 1 + 1 * u.val = u.val; omega
  | ⟨1, _⟩ => show win1_5.index t (1 : Fin 2) * 4 + 1 * i.val = i.val; omega

/-- WHAT POINT t WRITES BACK is row block t of the array of entries of the arrays the call is entered with -/
theorem flushed1_eq (c : Dev nD) (t : Fin cfg1.N) :
    (dat1 V c).flushed 6 t = ((cfg1.win 6).blk t).view.read (Elt Ideal)
      (arrOut (in1_adj V c) (in1_ad V c) (in1_f1 V c) (in1_f2t V c) (in1_h V c) (in1_w2 V c)) := by
  show (cfg1.win 6).cut (grid1.coords t) ((dat1 V c).after 6 t) = _
  rw [after1_6]
  funext y
  obtain ⟨-, -, -, -, -, -, -, -, -, -, -, -, e0, e1⟩ := idx_facts1 t
  have ht : t.val < 16 := Nat.lt_of_lt_of_eq t.isLt N_1
  refine (congrFun (out1_6_eq (blk_adj V c t) (blk_ad V c t) (blk_f1 V c t) (blk_f2t V c t) (blk_h V c t) (blk_w2 V c t)) y).trans ?_
  obtain ⟨r, col, rfl⟩ : ∃ (r : Fin 256) (col : Fin 256), y = ix2 r col := ⟨y 0, y 1, eq_ix2 y⟩
  have hr : r.val < 256 := r.isLt
  show entry (blk_adj V c t) (blk_ad V c t) (blk_f1 V c t) (blk_f2t V c t) (blk_h V c t) (blk_w2 V c t) r col
    = arrOut (in1_adj V c) (in1_ad V c) (in1_f1 V c) (in1_f2t V c) (in1_h V c) (in1_w2 V c) (((cfg1.win 6).blk t).view.emb (ix2 r col))
  have hemb : ((cfg1.win 6).blk t).view.emb (ix2 r col) = ix2 (⟨256 * t.val + r.val, by omega⟩ : Fin 4096) col :=
    funext fun a => Fin.ext (by
      match a with
      | ⟨0, _⟩ => show win1_6.index t (0 : Fin 2) * 256 + 1 * r.val = 256 * t.val + r.val; omega
      | ⟨1, _⟩ => show win1_6.index t (1 : Fin 2) * 256 + 1 * col.val = col.val; omega)
  rw [hemb]
  show _ = entry (in1_adj V c) (in1_ad V c) (in1_f1 V c) (in1_f2t V c) (in1_h V c) (in1_w2 V c) (⟨256 * t.val + r.val, by omega⟩ : Fin 4096) col
  unfold entry
  exact attK_congr (fun j => congrArg Spec.adjBit (blk_adj_apply V c t r j _ rfl)) (blk_f1_apply V c t r _ _ rfl)
    (fun j => blk_f2t_apply V c t _ j) (blk_w2_apply V c t _ _) (fun j => blk_ad_apply V c t r j _ rfl) (fun j => blk_h_apply V c t j col)

/-- an index is in point t's block iff each coordinate is in the block's range -/
theorem mem_blk1 (t : Fin cfg1.N) (i : S4096x256.Idx) :
    i ∈ ((cfg1.win 6).blk t).view.set ↔ ∀ a : Fin 2, win1_6.index t a * S256x256.size a ≤ (i a).val
      ∧ (i a).val < win1_6.index t a * S256x256.size a + S256x256.size a := by
  show i ∈ ((View.whole main_v43).slice (win1_6.rect t)).set ↔ _
  rw [View.set_slice_whole, Rect.mem_set_unit]
  exact Iff.rfl

/-- row n is in the block of point n / 256 -/
theorem cover1 (i : S4096x256.Idx) : ∃ t : Fin cfg1.N, (cfg1.win 6).flush t = true ∧ i ∈ ((cfg1.win 6).blk t).view.set := by
  have hi0 : (i 0).val < 4096 := (i 0).isLt
  have hi1 : (i 1).val < 256 := (i 1).isLt
  have hN : cfg1.N = 16 := N_1
  obtain ⟨t, ht⟩ : ∃ t : Fin cfg1.N, t.val = (i 0).val / 256 := ⟨⟨(i 0).val / 256, by rw [hN]; omega⟩, rfl⟩
  obtain ⟨-, -, -, -, -, -, -, -, -, -, -, -, e0, e1⟩ := idx_facts1 t
  refine ⟨t, flush1_6 t, ?_⟩
  rw [mem_blk1]
  intro a
  match a with
  | ⟨0, _⟩ =>
    show win1_6.index t (0 : Fin 2) * 256 ≤ (i 0).val ∧ (i 0).val < win1_6.index t (0 : Fin 2) * 256 + 256
    omega
  | ⟨1, _⟩ =>
    show win1_6.index t (1 : Fin 2) * 256 ≤ (i 1).val ∧ (i 1).val < win1_6.index t (1 : Fin 2) * 256 + 256
    omega

/-- the output array after the run is the array of entries -/
theorem final1 (c : Dev nD) : (dat1 V c).arrAt 6 cfg1.N
    = arrOut (in1_adj V c) (in1_ad V c) (in1_f1 V c) (in1_f2t V c) (in1_h V c) (in1_w2 V c) :=
  (dat1 V c).arrAt_eq_of_cover 6 _ (fun t _ => flushed1_eq V c t) cover1

/-- entry (n, col) of the concatenated attention output: head col / 64, attending from row n over all 4096 columns -/
theorem reg1_xc (c : Dev nD) (n : Fin 4096) (col : Fin 256) :
    out1_xc V c (ix2 n col)
      = Spec.attK (fun j => Spec.adjBit (in1_adj V c (ix2 n j))) (in1_f1 V c (ix2 n (Spec.colHead col)))
          (fun j => in1_f2t V c (ix2 (Spec.colHead col) j)) (in1_w2 V c (ix2 0 (Spec.colHead col)))
          (fun j => in1_ad V c (ix2 n j)) (fun j => in1_h V c (ix2 j col)) :=
  congrFun (final1 V c) (ix2 n col)

end R1

export R1 (in1_adj in1_ad in1_f1 in1_f2t in1_h in1_w2 out1_xc reg1_xc)

end Cert.KernelIdeal.KV

end
-- ==== Proof.KReg2.lean ====
/-
  Call 2 (the output layer's projections): what the pipeline leaves in its three output arrays, index by index, from
  the arrays it is entered with. Row block t of the concatenated features times the output weights; that block times
  each attention vector gives the rank-one terms, the second one stored transposed.
-/
import proofs.«118500_g28080496181627_cont_9to1_1526_5_alg».proof.Proof.Gen.KernelIdeal.Frame
import proofs.«118500_g28080496181627_cont_9to1_1526_5_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.KV

namespace R2

open Idealize.ShloMosaic Idealize.ShloMosaic.TcCoe Idealize.ShloMosaic.ValueIdx Idealize.SL.Sem
open Cert.KernelIdeal Cert.KernelIdeal.Gen

namespace Reg2

/-! ## A plain product of an M×K and a K×N matrix into the zero accumulator, read at an index -/

section Plain

variable {M K N : Nat} (D : DotDims ⟨2, ![M, K]⟩ ⟨2, ![K, N]⟩ ⟨2, ![M, N]⟩)

/-- The left operand's row is the output's row. -/
theorem lhs_plain_0 (hln : D.lhsNonContracting = [0]) (hlb : D.lhsBatch = []) (j : (⟨2, ![M, N]⟩ : Shape).Idx)
    (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column is the output's column. -/
theorem rhs_plain_1 (hrn : D.rhsNonContracting = [1]) (hrb : D.rhsBatch = []) (hln : D.lhsNonContracting = [0])
    (hlb : D.lhsBatch = []) (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction runs over one axis, -/
theorem contr_rank_plain (hlc : D.lhsContracting = [1]) : D.contr.rank = 1 := by rw [D.rank_contr, hlc]; rfl

/-- of the common extent K. -/
theorem contr_size_plain (hlc : D.lhsContracting = [1]) :
    D.contr.size ⟨0, by rw [contr_rank_plain D hlc]; exact Nat.one_pos⟩ = K := by
  rw [D.size_contr 0 (by rw [hlc]; exact Nat.one_pos)]
  simp [hlc]

/-- The product at row p, column q: the sum over the common axis of the row's entries times the column's. -/
theorem matmul_plain_apply {φ₁ φ₂ : FTy} (hlc : D.lhsContracting = [1]) (hrc : D.rhsContracting = [0])
    (hln : D.lhsNonContracting = [0]) (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  refine (Ideal.matmul_constant_zero_apply D prec lhs rhs (ix2 p q)).trans ?_
  refine (Equiv.sum_comp (contrEquiv1 D K (contr_rank_plain D hlc) (contr_size_plain D hlc)).symm _).symm.trans ?_
  refine Finset.sum_congr rfl fun i _ => ?_
  have hk := contrEquiv1_symm_val D K (contr_rank_plain D hlc) (contr_size_plain D hlc) i
  have el : D.lhsIdx (ix2 p q) ((contrEquiv1 D K (contr_rank_plain D hlc) (contr_size_plain D hlc)).symm i) = ix2 p i := by
    funext a; apply Fin.ext
    match a with
    | ⟨0, _⟩ => exact lhs_plain_0 D hln hlb _ _
    | ⟨1, _⟩ => exact (D.lhsIdx_val_of_single hlc _ _).trans hk
  have er : D.rhsIdx (ix2 p q) ((contrEquiv1 D K (contr_rank_plain D hlc) (contr_size_plain D hlc)).symm i) = ix2 i q := by
    funext a; apply Fin.ext
    match a with
    | ⟨0, _⟩ => exact (D.rhsIdx_val_of_single hrc _ _).trans hk
    | ⟨1, _⟩ => exact rhs_plain_1 D hrn hrb hln hlb _ _
  rw [el, er]

end Plain

/-! ## The body's three payloads at an index -/

/-- The block of projected features: row p of the feature block times column q of the output weights. -/
theorem pay1_apply (x0 : FVec Ideal S512x256 .f32) (x1 : FVec Ideal S256x16 .f32) (p : Fin 512) (q : Fin 16) :
    k2_pay1 x0 x1 (ix2 p q) = ∑ col : Fin 256, x0 (ix2 p col) * x1 (ix2 col q) := by
  unfold k2_pay1
  show FloatOps.matmul dot_S512x256_S256x16_S512x16_1_0_0_1_n_n none (shapeCast S512x256 x0 shapeCasts_S512x256_S512x256) x1
    (constant (F := Ideal) S512x16 .f32 0x00000000#32) (ix2 p q) = _
  rw [shapeCast_self]
  exact matmul_plain_apply dot_S512x256_S256x16_S512x16_1_0_0_1_n_n rfl rfl rfl rfl rfl rfl none x0 x1 p q

/-- The first rank-one term: the projected row times an attention vector. -/
theorem pay2_apply (x0 : FVec Ideal S512x256 .f32) (x1 : FVec Ideal S256x16 .f32) (x2 : FVec Ideal S16x1 .f32) (p : Fin 512) :
    k2_pay2 x0 x1 x2 (ix2 p 0)
      = ∑ k : Fin 16, (∑ col : Fin 256, x0 (ix2 p col) * x1 (ix2 col k)) * x2 (ix2 k 0) := by
  unfold k2_pay2
  show FloatOps.matmul dot_S512x16_S16x1_S512x1_1_0_0_1_n_n none (k2_pay1 x0 x1) (shapeCast S16x1 x2 shapeCasts_S16x1_S16x1)
    (constant (F := Ideal) S512x1 .f32 0x00000000#32) (ix2 p 0) = _
  rw [shapeCast_self]
  refine (matmul_plain_apply dot_S512x16_S16x1_S512x1_1_0_0_1_n_n rfl rfl rfl rfl rfl rfl none (k2_pay1 x0 x1) x2 p 0).trans ?_
  exact Finset.sum_congr rfl fun k _ => congrArg (· * x2 (ix2 k 0)) (pay1_apply x0 x1 p k)

/-- The second rank-one term, laid along a row: entry p of the row is the projected row p times the other attention vector. -/
theorem pay3_apply (x0 : FVec Ideal S512x256 .f32) (x1 : FVec Ideal S256x16 .f32) (x3 : FVec Ideal S16x1 .f32) (p : Fin 512) :
    k2_pay3 x0 x1 x3 (ix2 0 p)
      = ∑ k : Fin 16, (∑ col : Fin 256, x0 (ix2 p col) * x1 (ix2 col k)) * x3 (ix2 k 0) := by
  unfold k2_pay3
  refine (transpose_apply [1, 0] _ transposes_S512x1_p1_0_S1x512 (ix2 0 p) (ix2 p 0) (fun b => by
    match b with
    | ⟨0, _⟩ => rfl
    | ⟨1, _⟩ => rfl)).trans ?_
  exact pay2_apply x0 x1 x3 p

/-! ## The three results as functions of the entry arrays -/

/-- The projected features: row n of the concatenated features times column k of the output weights. -/
def Gho (xc : FVec Ideal S4096x256 .f32) (Wo : FVec Ideal S256x16 .f32) : FVec Ideal S4096x16 .f32 :=
  fun i => ∑ col : Fin 256, xc (ix2 (i 0) col) * Wo (ix2 col (i 1))

/-- A rank-one term as a column: the projected row n times an attention vector. -/
def Gf1 (xc : FVec Ideal S4096x256 .f32) (Wo : FVec Ideal S256x16 .f32) (a : FVec Ideal S16x1 .f32) : FVec Ideal S4096x1 .f32 :=
  fun i => ∑ k : Fin 16, (∑ col : Fin 256, xc (ix2 (i 0) col) * Wo (ix2 col k)) * a (ix2 k 0)

/-- A rank-one term as a row: entry n is the projected row n times an attention vector. -/
def Gf2t (xc : FVec Ideal S4096x256 .f32) (Wo : FVec Ideal S256x16 .f32) (a : FVec Ideal S16x1 .f32) : FVec Ideal S1x4096 .f32 :=
  fun i => ∑ k : Fin 16, (∑ col : Fin 256, xc (ix2 (i 1) col) * Wo (ix2 col k)) * a (ix2 k 0)

/-! ## One element of a block against one element of the array -/

/-- An element of the projected block is the array's element wherever the block's feature row is the array's and the
    weights are the weights. -/
theorem ho_point (x0 : FVec Ideal S512x256 .f32) (x1 : FVec Ideal S256x16 .f32) (xc : FVec Ideal S4096x256 .f32)
    (Wo : FVec Ideal S256x16 .f32) (y : S512x16.Idx) (i : S4096x16.Idx)
    (h0 : ∀ col : Fin 256, x0 (ix2 (y 0) col) = xc (ix2 (i 0) col))
    (h1 : ∀ col : Fin 256, x1 (ix2 col (y 1)) = Wo (ix2 col (i 1))) :
    k2_pay1 x0 x1 y = Gho xc Wo i := by
  obtain ⟨p, q, rfl⟩ : ∃ (p : Fin 512) (q : Fin 16), y = ix2 p q := ⟨y 0, y 1, eq_ix2 y⟩
  refine (pay1_apply x0 x1 p q).trans ?_
  exact Finset.sum_congr rfl fun col _ => congrArg₂ (· * ·) (h0 col) (h1 col)

/-- The same for the column of the first rank-one term. -/
theorem f1_point (x0 : FVec Ideal S512x256 .f32) (x1 : FVec Ideal S256x16 .f32) (x2 : FVec Ideal S16x1 .f32)
    (xc : FVec Ideal S4096x256 .f32) (Wo : FVec Ideal S256x16 .f32) (a : FVec Ideal S16x1 .f32) (y : S512x1.Idx) (i : S4096x1.Idx)
    (h0 : ∀ col : Fin 256, x0 (ix2 (y 0) col) = xc (ix2 (i 0) col)) (h1 : x1 = Wo) (h2 : x2 = a) :
    k2_pay2 x0 x1 x2 y = Gf1 xc Wo a i := by
  subst h1 h2
  obtain ⟨p, q, rfl⟩ : ∃ (p : Fin 512) (q : Fin 1), y = ix2 p q := ⟨y 0, y 1, eq_ix2 y⟩
  obtain rfl : q = 0 := Subsingleton.elim _ _
  refine (pay2_apply x0 x1 x2 p).trans ?_
  exact Finset.sum_congr rfl fun k _ => congrArg (· * x2 (ix2 k 0))
    (Finset.sum_congr rfl fun col _ => congrArg (· * x1 (ix2 col k)) (h0 col))

/-- The same for the row of the second rank-one term: the block's entry in column p against the array's entry in its column. -/
theorem f2t_point (x0 : FVec Ideal S512x256 .f32) (x1 : FVec Ideal S256x16 .f32) (x3 : FVec Ideal S16x1 .f32)
    (xc : FVec Ideal S4096x256 .f32) (Wo : FVec Ideal S256x16 .f32) (a : FVec Ideal S16x1 .f32) (y : S1x512.Idx) (i : S1x4096.Idx)
    (h0 : ∀ col : Fin 256, x0 (ix2 (y 1) col) = xc (ix2 (i 1) col)) (h1 : x1 = Wo) (h3 : x3 = a) :
    k2_pay3 x0 x1 x3 y = Gf2t xc Wo a i := by
  subst h1 h3
  obtain ⟨q, p, rfl⟩ : ∃ (q : Fin 1) (p : Fin 512), y = ix2 q p := ⟨y 0, y 1, eq_ix2 y⟩
  obtain rfl : q = 0 := Subsingleton.elim _ _
  refine (pay3_apply x0 x1 x3 p).trans ?_
  exact Finset.sum_congr rfl fun k _ => congrArg (· * x3 (ix2 k 0))
    (Finset.sum_congr rfl fun col _ => congrArg (· * x1 (ix2 col k)) (h0 col))

end Reg2

variable (V : (c : Dev nD) → (b : Ref sig .tc) → Buf (Elt Ideal) ((c : Thread nD τ).loc b))

/-- the arrays call 2 is entered with, and the three it leaves, at their literal types -/
abbrev in2_xc (c : Dev nD) : FVec Ideal S4096x256 .f32 := V c main_v43
abbrev in2_Wo (c : Dev nD) : FVec Ideal S256x16 .f32 := V c main_arg7
abbrev in2_a1 (c : Dev nD) : FVec Ideal S16x1 .f32 := V c main_v36
abbrev in2_a2 (c : Dev nD) : FVec Ideal S16x1 .f32 := V c main_v39
abbrev out2_ho (c : Dev nD) : FVec Ideal S4096x16 .f32 := (dat2 V c).arrAt 4 cfg2.N
abbrev out2_f1 (c : Dev nD) : FVec Ideal S4096x1 .f32 := (dat2 V c).arrAt 5 cfg2.N
abbrev out2_f2t (c : Dev nD) : FVec Ideal S1x4096 .f32 := (dat2 V c).arrAt 6 cfg2.N

namespace Reg2

/-! ## The input blocks, read off the entry arrays -/

theorem hz2 : (![0, 0] : Fin 2 → Nat) = fun _ => 0 := funext fun a => by fin_cases a <;> rfl

/-- The block indices over the grid: the feature rows and the two row-blocked outputs move with the point on axis 0, the
    transposed output on axis 1, and the three small operands stay at block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = 0 ∧ win2_6.index t (1 : Fin 2) = t.val :=
  (by decide +kernel : ∀ t : Fin grid2.N, _)

/-- Row r of the feature block at point t is row 512 t + r of the feature array. -/
theorem iblk_xc (c : Dev nD) (t : Fin cfg2.N) (x : S512x256.Idx) (k : S4096x256.Idx)
    (hk0 : (k 0).val = t.val * 512 + (x 0).val) (hk1 : (k 1).val = (x 1).val) :
    (iblk2 V c 0 t : FVec Ideal S512x256 .f32) x = in2_xc V c k := by
  obtain ⟨e0, e1, -⟩ := idx_facts2 t
  show V c main_v43 (((cfg2.win 0).blk t).view.emb x) = V c main_v43 k
  refine congrArg _ (funext fun a => Fin.ext ?_)
  match a with
  | ⟨0, _⟩ => show win2_0.index t (0 : Fin 2) * 512 + 1 * (x 0).val = (k 0).val; omega
  | ⟨1, _⟩ => show win2_0.index t (1 : Fin 2) * 256 + 1 * (x 1).val = (k 1).val; omega

/-- The weights' block is the whole array at every point. -/
theorem iblk_Wo (c : Dev nD) (t : Fin cfg2.N) : (iblk2 V c 1 t : FVec Ideal S256x16 .f32) = in2_Wo V c := by
  obtain ⟨-, -, e0, e1, -⟩ := idx_facts2 t
  funext x
  show V c main_arg7 (((cfg2.win 1).blk t).view.emb x) = V c main_arg7 x
  refine congrArg _ (funext fun a => Fin.ext ?_)
  match a with
  | ⟨0, _⟩ => show win2_1.index t (0 : Fin 2) * 256 + 1 * (x 0).val = (x 0).val; omega
  | ⟨1, _⟩ => show win2_1.index t (1 : Fin 2) * 16 + 1 * (x 1).val = (x 1).val; omega

/-- So is each attention vector's. -/
theorem iblk_a1 (c : Dev nD) (t : Fin cfg2.N) : (iblk2 V c 2 t : FVec Ideal S16x1 .f32) = in2_a1 V c := by
  obtain ⟨-, -, -, -, e0, e1, -⟩ := idx_facts2 t
  funext x
  show V c main_v36 (((cfg2.win 2).blk t).view.emb x) = V c main_v36 x
  refine congrArg _ (funext fun a => Fin.ext ?_)
  match a with
  | ⟨0, _⟩ => show win2_2.index t (0 : Fin 2) * 16 + 1 * (x 0).val = (x 0).val; omega
  | ⟨1, _⟩ => show win2_2.index t (1 : Fin 2) * 1 + 1 * (x 1).val = (x 1).val; omega

theorem iblk_a2 (c : Dev nD) (t : Fin cfg2.N) : (iblk2 V c 3 t : FVec Ideal S16x1 .f32) = in2_a2 V c := by
  obtain ⟨-, -, -, -, -, -, e0, e1, -⟩ := idx_facts2 t
  funext x
  show V c main_v39 (((cfg2.win 3).blk t).view.emb x) = V c main_v39 x
  refine congrArg _ (funext fun a => Fin.ext ?_)
  match a with
  | ⟨0, _⟩ => show win2_3.index t (0 : Fin 2) * 16 + 1 * (x 0).val = (x 0).val; omega
  | ⟨1, _⟩ => show win2_3.index t (1 : Fin 2) * 1 + 1 * (x 1).val = (x 1).val; omega

/-! ## What each point writes back is its block of the whole-array function -/

/-- Point t writes rows 512 t … 512 t + 511 of the projected features. -/
theorem flushed_ho (c : Dev nD) (t : Fin cfg2.N) :
    (dat2 V c).flushed 4 t = ((cfg2.win 4).blk t).view.read (Elt Ideal) (Gho (in2_xc V c) (in2_Wo V c)) := by
  show (cfg2.win 4).cut (grid2.coords t) ((dat2 V c).after 4 t) = _
  rw [after2_4]
  unfold out2_4
  rw [View.canon_unit_zero hz2]
  simp only [View.ld_unit_zero (S := S512x256) hz2, View.ld_unit_zero (S := S256x16) hz2]
  obtain ⟨-, -, -, -, -, -, -, -, e0, e1, -⟩ := idx_facts2 t
  funext j
  show k2_pay1 (iblk2 V c 0 t) (iblk2 V c 1 t) ((cfg2.win 4).xinj (grid2.coords t) j)
    = Gho (in2_xc V c) (in2_Wo V c) (((cfg2.win 4).blk t).view.emb j)
  refine ho_point _ _ _ _ _ _ (fun col => ?_) (fun col => ?_)
  · refine iblk_xc V c t _ _ ?_ rfl
    show win2_4.index t (0 : Fin 2) * 512 + 1 * (j 0).val = t.val * 512 + (j 0).val
    omega
  · rw [iblk_Wo]
    refine congrArg _ (funext fun a => Fin.ext ?_)
    match a with
    | ⟨0, _⟩ => rfl
    | ⟨1, _⟩ => show (j 1).val = win2_4.index t (1 : Fin 2) * 16 + 1 * (j 1).val; omega

/-- Point t writes rows 512 t … 512 t + 511 of the first rank-one column. -/
theorem flushed_f1 (c : Dev nD) (t : Fin cfg2.N) :
    (dat2 V c).flushed 5 t
      = ((cfg2.win 5).blk t).view.read (Elt Ideal) (Gf1 (in2_xc V c) (in2_Wo V c) (in2_a1 V c)) := by
  show (cfg2.win 5).cut (grid2.coords t) ((dat2 V c).after 5 t) = _
  rw [after2_5]
  unfold out2_5
  rw [View.canon_unit_zero hz2]
  simp only [View.ld_unit_zero (S := S512x256) hz2, View.ld_unit_zero (S := S256x16) hz2, View.ld_unit_zero (S := S16x1) hz2]
  obtain ⟨-, -, -, -, -, -, -, -, -, -, e0, e1, -⟩ := idx_facts2 t
  funext j
  show k2_pay2 (iblk2 V c 0 t) (iblk2 V c 1 t) (iblk2 V c 2 t) ((cfg2.win 5).xinj (grid2.coords t) j)
    = Gf1 (in2_xc V c) (in2_Wo V c) (in2_a1 V c) (((cfg2.win 5).blk t).view.emb j)
  refine f1_point _ _ _ _ _ _ _ _ (fun col => ?_) (iblk_Wo V c t) (iblk_a1 V c t)
  refine iblk_xc V c t _ _ ?_ rfl
  show win2_5.index t (0 : Fin 2) * 512 + 1 * (j 0).val = t.val * 512 + (j 0).val
  omega

/-- Point t writes columns 512 t … 512 t + 511 of the second rank-one row. -/
theorem flushed_f2t (c : Dev nD) (t : Fin cfg2.N) :
    (dat2 V c).flushed 6 t
      = ((cfg2.win 6).blk t).view.read (Elt Ideal) (Gf2t (in2_xc V c) (in2_Wo V c) (in2_a2 V c)) := by
  show (cfg2.win 6).cut (grid2.coords t) ((dat2 V c).after 6 t) = _
  rw [after2_6]
  unfold out2_6
  rw [View.canon_unit_zero hz2]
  simp only [View.ld_unit_zero (S := S512x256) hz2, View.ld_unit_zero (S := S256x16) hz2, View.ld_unit_zero (S := S16x1) hz2]
  obtain ⟨-, -, -, -, -, -, -, -, -, -, -, -, e0, e1⟩ := idx_facts2 t
  funext j
  show k2_pay3 (iblk2 V c 0 t) (iblk2 V c 1 t) (iblk2 V c 3 t) ((cfg2.win 6).xinj (grid2.coords t) j)
    = Gf2t (in2_xc V c) (in2_Wo V c) (in2_a2 V c) (((cfg2.win 6).blk t).view.emb j)
  refine f2t_point _ _ _ _ _ _ _ _ (fun col => ?_) (iblk_Wo V c t) (iblk_a2 V c t)
  refine iblk_xc V c t _ _ ?_ rfl
  show win2_6.index t (1 : Fin 2) * 512 + 1 * (j 1).val = t.val * 512 + (j 1).val
  omega

/-! ## The blocks tile each output array -/

theorem mem_blk_ho (t : Fin cfg2.N) (i : S4096x16.Idx) :
    i ∈ ((cfg2.win 4).blk t).view.set
      ↔ ∀ a : Fin 2, win2_4.index t a * S512x16.size a ≤ (i a).val ∧ (i a).val < win2_4.index t a * S512x16.size a + S512x16.size a := by
  show i ∈ ((View.whole main_v44_0).slice (win2_4.rect t)).set ↔ _
  rw [View.set_slice_whole, Rect.mem_set_unit]
  exact Iff.rfl

theorem mem_blk_f1 (t : Fin cfg2.N) (i : S4096x1.Idx) :
    i ∈ ((cfg2.win 5).blk t).view.set
      ↔ ∀ a : Fin 2, win2_5.index t a * S512x1.size a ≤ (i a).val ∧ (i a).val < win2_5.index t a * S512x1.size a + S512x1.size a := by
  show i ∈ ((View.whole main_v44_1).slice (win2_5.rect t)).set ↔ _
  rw [View.set_slice_whole, Rect.mem_set_unit]
  exact Iff.rfl

theorem mem_blk_f2t (t : Fin cfg2.N) (i : S1x4096.Idx) :
    i ∈ ((cfg2.win 6).blk t).view.set
      ↔ ∀ a : Fin 2, win2_6.index t a * S1x512.size a ≤ (i a).val ∧ (i a).val < win2_6.index t a * S1x512.size a + S1x512.size a := by
  show i ∈ ((View.whole main_v44_2).slice (win2_6.rect t)).set ↔ _
  rw [View.set_slice_whole, Rect.mem_set_unit]
  exact Iff.rfl

/-- Row r lies in the block of point r / 512. -/
theorem cover_ho (i : S4096x16.Idx) :
    ∃ t : Fin cfg2.N, (cfg2.win 4).flush t = true ∧ i ∈ ((cfg2.win 4).blk t).view.set := by
  have hi0 : (i 0).val < 4096 := (i 0).isLt
  have hi1 : (i 1).val < 16 := (i 1).isLt
  have hN : cfg2.N = 8 := N_2
  refine ⟨⟨(i 0).val / 512, by rw [hN]; omega⟩, flush2_4 _, ?_⟩
  obtain ⟨-, -, -, -, -, -, -, -, e0, e1, -⟩ := idx_facts2 ⟨(i 0).val / 512, by rw [hN]; omega⟩
  rw [mem_blk_ho]
  intro a
  match a with
  | ⟨0, _⟩ =>
    show win2_4.index _ (0 : Fin 2) * 512 ≤ (i 0).val ∧ (i 0).val < win2_4.index _ (0 : Fin 2) * 512 + 512
    rw [e0]; show (i 0).val / 512 * 512 ≤ (i 0).val ∧ (i 0).val < (i 0).val / 512 * 512 + 512; omega
  | ⟨1, _⟩ =>
    show win2_4.index _ (1 : Fin 2) * 16 ≤ (i 1).val ∧ (i 1).val < win2_4.index _ (1 : Fin 2) * 16 + 16
    rw [e1]; omega

theorem cover_f1 (i : S4096x1.Idx) :
    ∃ t : Fin cfg2.N, (cfg2.win 5).flush t = true ∧ i ∈ ((cfg2.win 5).blk t).view.set := by
  have hi0 : (i 0).val < 4096 := (i 0).isLt
  have hi1 : (i 1).val < 1 := (i 1).isLt
  have hN : cfg2.N = 8 := N_2
  refine ⟨⟨(i 0).val / 512, by rw [hN]; omega⟩, flush2_5 _, ?_⟩
  obtain ⟨-, -, -, -, -, -, -, -, -, -, e0, e1, -⟩ := idx_facts2 ⟨(i 0).val / 512, by rw [hN]; omega⟩
  rw [mem_blk_f1]
  intro a
  match a with
  | ⟨0, _⟩ =>
    show win2_5.index _ (0 : Fin 2) * 512 ≤ (i 0).val ∧ (i 0).val < win2_5.index _ (0 : Fin 2) * 512 + 512
    rw [e0]; show (i 0).val / 512 * 512 ≤ (i 0).val ∧ (i 0).val < (i 0).val / 512 * 512 + 512; omega
  | ⟨1, _⟩ =>
    show win2_5.index _ (1 : Fin 2) * 1 ≤ (i 1).val ∧ (i 1).val < win2_5.index _ (1 : Fin 2) * 1 + 1
    rw [e1]; omega

/-- Column r of the transposed output lies in the block of point r / 512. -/
theorem cover_f2t (i : S1x4096.Idx) :
    ∃ t : Fin cfg2.N, (cfg2.win 6).flush t = true ∧ i ∈ ((cfg2.win 6).blk t).view.set := by
  have hi0 : (i 0).val < 1 := (i 0).isLt
  have hi1 : (i 1).val < 4096 := (i 1).isLt
  have hN : cfg2.N = 8 := N_2
  refine ⟨⟨(i 1).val / 512, by rw [hN]; omega⟩, flush2_6 _, ?_⟩
  obtain ⟨-, -, -, -, -, -, -, -, -, -, -, -, e0, e1⟩ := idx_facts2 ⟨(i 1).val / 512, by rw [hN]; omega⟩
  rw [mem_blk_f2t]
  intro a
  match a with
  | ⟨0, _⟩ =>
    show win2_6.index _ (0 : Fin 2) * 1 ≤ (i 0).val ∧ (i 0).val < win2_6.index _ (0 : Fin 2) * 1 + 1
    rw [e0]; omega
  | ⟨1, _⟩ =>
    show win2_6.index _ (1 : Fin 2) * 512 ≤ (i 1).val ∧ (i 1).val < win2_6.index _ (1 : Fin 2) * 512 + 512
    rw [e1]; show (i 1).val / 512 * 512 ≤ (i 1).val ∧ (i 1).val < (i 1).val / 512 * 512 + 512; omega

/-! ## The three output arrays after the last point -/

theorem final_ho (c : Dev nD) : (dat2 V c).arrAt 4 cfg2.N = Gho (in2_xc V c) (in2_Wo V c) :=
  (dat2 V c).arrAt_eq_of_cover 4 (Gho (in2_xc V c) (in2_Wo V c)) (fun t _ => flushed_ho V c t) cover_ho

theorem final_f1 (c : Dev nD) : (dat2 V c).arrAt 5 cfg2.N = Gf1 (in2_xc V c) (in2_Wo V c) (in2_a1 V c) :=
  (dat2 V c).arrAt_eq_of_cover 5 (Gf1 (in2_xc V c) (in2_Wo V c) (in2_a1 V c)) (fun t _ => flushed_f1 V c t) cover_f1

theorem final_f2t (c : Dev nD) : (dat2 V c).arrAt 6 cfg2.N = Gf2t (in2_xc V c) (in2_Wo V c) (in2_a2 V c) :=
  (dat2 V c).arrAt_eq_of_cover 6 (Gf2t (in2_xc V c) (in2_Wo V c) (in2_a2 V c)) (fun t _ => flushed_f2t V c t) cover_f2t

end Reg2

/-! ## The three arrays at an index -/

theorem reg2_ho (c : Dev nD) (n : Fin 4096) (k : Fin 16) :
    out2_ho V c (ix2 n k) = ∑ col : Fin 256, in2_xc V c (ix2 n col) * in2_Wo V c (ix2 col k) :=
  congrFun (Reg2.final_ho V c) (ix2 n k)

theorem reg2_f1 (c : Dev nD) (n : Fin 4096) :
    out2_f1 V c (ix2 n 0)
      = ∑ k : Fin 16, (∑ col : Fin 256, in2_xc V c (ix2 n col) * in2_Wo V c (ix2 col k)) * in2_a1 V c (ix2 k 0) :=
  congrFun (Reg2.final_f1 V c) (ix2 n 0)

theorem reg2_f2t (c : Dev nD) (n : Fin 4096) :
    out2_f2t V c (ix2 0 n)
      = ∑ k : Fin 16, (∑ col : Fin 256, in2_xc V c (ix2 n col) * in2_Wo V c (ix2 col k)) * in2_a2 V c (ix2 k 0) :=
  congrFun (Reg2.final_f2t V c) (ix2 0 n)

end R2

export R2 (in2_xc in2_Wo in2_a1 in2_a2 out2_ho out2_f1 out2_f2t reg2_ho reg2_f1 reg2_f2t)

end Cert.KernelIdeal.KV

end
-- ==== Proof.KReg3.lean ====
/-
  Call 3 (the output layer's attention): what the pipeline leaves in its output array, index by index, from the arrays
  it is entered with: a masked row softmax whose weights average the 16 output features, elu, then log-softmax along
  the 16 classes.
-/
import proofs.«118500_g28080496181627_cont_9to1_1526_5_alg».proof.Proof.Gen.KernelIdeal.Frame
import proofs.«118500_g28080496181627_cont_9to1_1526_5_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KV

namespace R3

open Idealize.ShloMosaic Idealize.ShloMosaic.TcCoe Idealize.ShloMosaic.ValueIdx Idealize.SL.Sem
open Cert.KernelIdeal Cert.KernelIdeal.Gen

/-! ## Reductions along a row, read at a row -/

/-- the lane index a row reduction inserts: (r, j) -/
theorem lift_wide (h : S256x4096.Reduces [1] S256) (r : Fin 256) (j : Fin 4096) : h.lift (ix1 r) j = ix2 r j := by
  funext a
  match a with
  | ⟨0, _⟩ => exact Fin.ext rfl
  | ⟨1, _⟩ => exact Fin.ext rfl

/-- a row's lane maximum from -inf is the fold of max over its 4096 lanes -/
theorem rowmax_wide (e : FVec Ideal S256x4096 .f32) (h : S256x4096.Reduces [1] S256) (hφ : FKind.Formats .f32)
    (hacc : (0xFF800000#32 : BitVec 32) = 0xFF800000#32) (r : Fin 256) :
    multiReduction .maximumf [1] S256 e 0xFF800000#32 h hφ hacc (ix1 r) = Spec.rowMax (fun j : Fin 4096 => e (ix2 r j)) := by
  refine (Ideal.multiReduction_maximumf_single e _ h hφ hacc (ix1 r)).trans ?_
  unfold Spec.rowMax
  refine congrArg (fun f => (Finset.univ : Finset (Fin 4096)).fold max (Ideal.ofBits .f32 0xFF800000#32) f) ?_
  funext j
  exact congrArg e (lift_wide h r j)

/-- a row's lane sum is the sum over its 4096 lanes -/
theorem rowsum_wide (p : FVec Ideal S256x4096 .f32) (h : S256x4096.Reduces [1] S256) (hφ : FKind.Formats .f32)
    (hacc : (0x00000000#32 : BitVec 32) = 0x00000000#32) (r : Fin 256) :
    multiReduction .add [1] S256 p 0x00000000#32 h hφ hacc (ix1 r) = ∑ j : Fin 4096, p (ix2 r j) := by
  refine (Ideal.multiReduction_add_single p _ h hφ hacc (ix1 r)).trans ?_
  refine Finset.sum_congr rfl fun j _ => ?_
  exact congrArg p (lift_wide h r j)

/-- the same two over the 16 classes -/
theorem lift_cls (h : S256x16.Reduces [1] S256) (r : Fin 256) (j : Fin 16) : h.lift (ix1 r) j = ix2 r j := by
  funext a
  match a with
  | ⟨0, _⟩ => exact Fin.ext rfl
  | ⟨1, _⟩ => exact Fin.ext rfl

/-- a row's maximum over its 16 classes -/
theorem rowmax_cls (e : FVec Ideal S256x16 .f32) (h : S256x16.Reduces [1] S256) (hφ : FKind.Formats .f32)
    (hacc : (0xFF800000#32 : BitVec 32) = 0xFF800000#32) (r : Fin 256) :
    multiReduction .maximumf [1] S256 e 0xFF800000#32 h hφ hacc (ix1 r) = Spec.rowMax (fun j : Fin 16 => e (ix2 r j)) := by
  refine (Ideal.multiReduction_maximumf_single e _ h hφ hacc (ix1 r)).trans ?_
  unfold Spec.rowMax
  refine congrArg (fun f => (Finset.univ : Finset (Fin 16)).fold max (Ideal.ofBits .f32 0xFF800000#32) f) ?_
  funext j
  exact congrArg e (lift_cls h r j)

/-- a row's sum over its 16 classes -/
theorem rowsum_cls (p : FVec Ideal S256x16 .f32) (h : S256x16.Reduces [1] S256) (hφ : FKind.Formats .f32)
    (hacc : (0x00000000#32 : BitVec 32) = 0x00000000#32) (r : Fin 256) :
    multiReduction .add [1] S256 p 0x00000000#32 h hφ hacc (ix1 r) = ∑ j : Fin 16, p (ix2 r j) := by
  refine (Ideal.multiReduction_add_single p _ h hφ hacc (ix1 r)).trans ?_
  refine Finset.sum_congr rfl fun j _ => ?_
  exact congrArg p (lift_cls h r j)

/-! ## Layout operations read at an index -/

section Layout
variable {α : Type}

/-- a column [a] cast to [a, 1] reads, at (i, u), the operand at i -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- a column [a, 1] broadcast to [a, b] reads, at (p, c), the operand's row p -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- the keepdims column of a row reduction, spread over b lanes, reads the reduction at the row -/
theorem keep_spread {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

/-- the one element of a [1, 1] vector -/
theorem extract11 (x : (⟨2, ![1, 1]⟩ : Shape).Idx → α) (h : ∀ a, (![0, 0] : Fin 2 → Nat) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

end Layout

/-! ## The weights' product with the feature block, at an index -/

/-- the operand indices of the product, axis by axis: the left operand is read at (row, contraction), the right one at (contraction, column) -/
theorem lhs_D3_0 (i : S256x16.Idx) (q : dot_S256x4096_S4096x16_S256x16_1_0_0_1_n_n.contr.Idx) :
    (dot_S256x4096_S4096x16_S256x16_1_0_0_1_n_n.lhsIdx i q 0).val = (i 0).val := by
  unfold DotDims.lhsIdx
  rw [dif_neg (show ¬(0 : Fin S256x4096.rank) ∈ dot_S256x4096_S4096x16_S256x16_1_0_0_1_n_n.lhsBatch by decide),
    dif_pos (show (0 : Fin S256x4096.rank) ∈ dot_S256x4096_S4096x16_S256x16_1_0_0_1_n_n.lhsNonContracting by decide)]
  rfl

theorem lhs_D3_1 (i : S256x16.Idx) (q : dot_S256x4096_S4096x16_S256x16_1_0_0_1_n_n.contr.Idx) :
    (dot_S256x4096_S4096x16_S256x16_1_0_0_1_n_n.lhsIdx i q 1).val = (q ⟨0, by decide⟩).val :=
  dot_S256x4096_S4096x16_S256x16_1_0_0_1_n_n.lhsIdx_val_of_single rfl i q

theorem rhs_D3_0 (i : S256x16.Idx) (q : dot_S256x4096_S4096x16_S256x16_1_0_0_1_n_n.contr.Idx) :
    (dot_S256x4096_S4096x16_S256x16_1_0_0_1_n_n.rhsIdx i q 0).val = (q ⟨0, by decide⟩).val :=
  dot_S256x4096_S4096x16_S256x16_1_0_0_1_n_n.rhsIdx_val_of_single rfl i q

theorem rhs_D3_1 (i : S256x16.Idx) (q : dot_S256x4096_S4096x16_S256x16_1_0_0_1_n_n.contr.Idx) :
    (dot_S256x4096_S4096x16_S256x16_1_0_0_1_n_n.rhsIdx i q 1).val = (i 1).val := by
  unfold DotDims.rhsIdx
  rw [dif_neg (show ¬(1 : Fin S4096x16.rank) ∈ dot_S256x4096_S4096x16_S256x16_1_0_0_1_n_n.rhsBatch by decide),
    dif_pos (show (1 : Fin S4096x16.rank) ∈ dot_S256x4096_S4096x16_S256x16_1_0_0_1_n_n.rhsNonContracting by decide)]
  rfl

/-- the matmul into the zero accumulator at (r, k): the row of weights against the feature column -/
theorem matmul_apply3 (p : FVec Ideal S256x4096 .f32) (h : FVec Ideal S4096x16 .f32) (r : Fin 256) (k : Fin 16) :
    matmul dot_S256x4096_S4096x16_S256x16_1_0_0_1_n_n none p h (constant (F := Ideal) S256x16 .f32 0x00000000#32) (ix2 r k)
      = ∑ j : Fin 4096, p (ix2 r j) * h (ix2 j k) := by
  simp only [matmul]
  rw [Ideal.matmul_constant_zero_apply,
    ← Equiv.sum_comp (contrEquiv1 dot_S256x4096_S4096x16_S256x16_1_0_0_1_n_n 4096 rfl rfl).symm]
  refine Finset.sum_congr rfl fun j _ => ?_
  have hk := contrEquiv1_symm_val dot_S256x4096_S4096x16_S256x16_1_0_0_1_n_n 4096 rfl rfl j
  have el : dot_S256x4096_S4096x16_S256x16_1_0_0_1_n_n.lhsIdx (ix2 r k) ((contrEquiv1 dot_S256x4096_S4096x16_S256x16_1_0_0_1_n_n 4096 rfl rfl).symm j) = ix2 r j :=
    funext fun a => Fin.ext (by
      match a with
      | ⟨0, _⟩ => exact lhs_D3_0 _ _
      | ⟨1, _⟩ => exact (lhs_D3_1 _ _).trans hk)
  have er : dot_S256x4096_S4096x16_S256x16_1_0_0_1_n_n.rhsIdx (ix2 r k) ((contrEquiv1 dot_S256x4096_S4096x16_S256x16_1_0_0_1_n_n 4096 rfl rfl).symm j) = ix2 j k :=
    funext fun a => Fin.ext (by
      match a with
      | ⟨0, _⟩ => exact (rhs_D3_0 _ _).trans hk
      | ⟨1, _⟩ => exact rhs_D3_1 _ _)
  rw [el, er]

/-! ## The body's arithmetic at an index of the output block -/

/-- exponential, logarithm and an integer comparison read at an index -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem cmpi_apply {s : Shape} {w : Nat} (p : CmpIPredicate) (a b : IVec s w) (i : s.Idx) : cmpi p a b i = IntOp.cmpi p (a i) (b i) := rfl

/-- the masked logits of row r of a point's blocks -/
abbrev eOf (x0 : IVec S256x4096 32) (x1 : FVec Ideal S256x4096 .f32) (x2 : FVec Ideal S256x1 .f32) (x3 : FVec Ideal S1x4096 .f32)
    (x5 : FVec Ideal S1x1 .f32) (r : Fin 256) : Fin 4096 → EReal :=
  Spec.eK (fun j => Spec.adjBit (x0 (ix2 r j))) (x2 (ix2 r 0)) (fun j => x3 (ix2 0 j)) (x5 (ix2 0 0)) (fun j => x1 (ix2 r j))

/-- the quotient at (r, k): the row's softmax weights against feature column k, divided by their sum -/
theorem pay2_apply (x0 : IVec S256x4096 32) (x1 : FVec Ideal S256x4096 .f32) (x2 : FVec Ideal S256x1 .f32) (x3 : FVec Ideal S1x4096 .f32)
    (x4 : FVec Ideal S4096x16 .f32) (x5 : FVec Ideal S1x1 .f32) (r : Fin 256) (k : Fin 16) :
    k3_pay2 (F := Ideal) x0 x2 x3 x5 x1 x4 (ix2 r k) = Spec.hpK (eOf x0 x1 x2 x3 x5 r) (fun j => x4 (ix2 j k)) := by
  unfold k3_pay2
  simp only [divf_apply, matmul_apply3, exp_apply, subf_apply, shapeCast_self, select_apply, cmpi_apply, broadcast_apply,
    addf_apply, maximumf_apply, mulf_apply, broadcastTo_a1_ab_apply, shapeCast_a_a1_apply, broadcastTo_1b_ab_apply, extract11,
    rowsum_wide _ reduces_S256x4096_S256 (.inl rfl) rfl, rowmax_wide _ reduces_S256x4096_S256 (.inl rfl) rfl]
  rfl

/-- what a point leaves at (r, k) of its output block, from its input blocks -/
abbrev blockOut (x0 : IVec S256x4096 32) (x1 : FVec Ideal S256x4096 .f32) (x2 : FVec Ideal S256x1 .f32) (x3 : FVec Ideal S1x4096 .f32)
    (x4 : FVec Ideal S4096x16 .f32) (x5 : FVec Ideal S1x1 .f32) (r : Fin 256) (k : Fin 16) : EReal :=
  Spec.lsmK (fun k' => Spec.attK (fun j => Spec.adjBit (x0 (ix2 r j))) (x2 (ix2 r 0)) (fun j => x3 (ix2 0 j)) (x5 (ix2 0 0))
    (fun j => x1 (ix2 r j)) (fun j => x4 (ix2 j k'))) k

/-- the stored value at (r, k): elu of the quotient, then log-softmax along the 16 classes -/
theorem pay1_apply (x0 : IVec S256x4096 32) (x1 : FVec Ideal S256x4096 .f32) (x2 : FVec Ideal S256x1 .f32) (x3 : FVec Ideal S1x4096 .f32)
    (x4 : FVec Ideal S4096x16 .f32) (x5 : FVec Ideal S1x1 .f32) (r : Fin 256) (k : Fin 16) :
    k3_pay1 (F := Ideal) (k3_pay2 (F := Ideal) x0 x2 x3 x5 x1 x4) (k3_pay3 (F := Ideal) x0 x2 x3 x5 x1 x4) (k3_pay4 (F := Ideal) x0 x2 x3 x5 x1 x4)
        (Scalar.ofBits .f32 0x3F800000#32) (ix2 r k)
      = blockOut x0 x1 x2 x3 x4 x5 r k := by
  unfold k3_pay1 k3_pay3 k3_pay4
  simp only [subf_apply, select_apply, cmpf_apply, broadcast_apply, exp_apply, minimumf_apply, log_apply, addf_apply,
    broadcastTo_a1_ab_apply, shapeCast_a_a1_apply,
    rowsum_cls _ reduces_S256x16_S256 (.inl rfl) rfl, rowmax_cls _ reduces_S256x16_S256 (.inl rfl) rfl, pay2_apply]
  rfl

/-! ## From a point's blocks to the arrays -/

variable (V : (c : Dev nD) → (b : Ref sig .tc) → Buf (Elt Ideal) ((c : Thread nD τ).loc b))

/-- the arrays call 3 is entered with, and the one it leaves, at their literal types -/
abbrev in3_adj (c : Dev nD) : IVec S4096x4096 32 := V c main_arg1
abbrev in3_ad (c : Dev nD) : FVec Ideal S4096x4096 .f32 := V c main_arg2
abbrev in3_f1 (c : Dev nD) : FVec Ideal S4096x1 .f32 := V c main_v44_1
abbrev in3_f2t (c : Dev nD) : FVec Ideal S1x4096 .f32 := V c main_v44_2
abbrev in3_ho (c : Dev nD) : FVec Ideal S4096x16 .f32 := V c main_v44_0
abbrev in3_w2 (c : Dev nD) : FVec Ideal S1x1 .f32 := V c main_v41
abbrev out3_o (c : Dev nD) : FVec Ideal S4096x16 .f32 := (dat3 V c).arrAt 6 cfg3.N

/-- the zero offsets, however spelt -/
theorem hz : (![0, 0] : Fin 2 → Nat) = fun _ => 0 := funext fun a => by fin_cases a <;> rfl

/-- the index maps over the 16 points: the row-blocked windows sit at block (t, 0), the whole ones at (0, 0) -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- the grid has 16 points -/
theorem lt16 (t : Fin cfg3.N) : t.val < 16 := lt_of_lt_of_eq t.isLt N_3

/-- row r of point t's row blocks is row 256 t + r of the arrays -/
def rowOf (t : Fin cfg3.N) (r : Fin 256) : Fin 4096 := ⟨t.val * 256 + r.val, by have := lt16 t; omega⟩

/-- each input block read at an index is its array read where the window puts the block -/
theorem blk0_apply (c : Dev nD) (t : Fin cfg3.N) (r : Fin 256) (j : Fin 4096) :
    (iblk3 V c 0 t : S256x4096.Idx → BitVec 32) (ix2 r j) = in3_adj V c (ix2 (rowOf t r) j) := by
  obtain ⟨e0, e1, -⟩ := idx_facts3 t
  unfold iblk3
  rw [View.read_apply]
  show V c main_arg1 _ = V c main_arg1 _
  congr 1
  funext a
  apply Fin.ext
  match a with
  | ⟨0, _⟩ => show win3_0.index t (0 : Fin 2) * 256 + 1 * r.val = t.val * 256 + r.val; rw [e0]; omega
  | ⟨1, _⟩ => show win3_0.index t (1 : Fin 2) * 4096 + 1 * j.val = j.val; rw [e1]; omega

theorem blk1_apply (c : Dev nD) (t : Fin cfg3.N) (r : Fin 256) (j : Fin 4096) :
    (iblk3 V c 1 t : S256x4096.Idx → EReal) (ix2 r j) = in3_ad V c (ix2 (rowOf t r) j) := by
  obtain ⟨-, -, e0, e1, -⟩ := idx_facts3 t
  unfold iblk3
  rw [View.read_apply]
  show V c main_arg2 _ = V c main_arg2 _
  congr 1
  funext a
  apply Fin.ext
  match a with
  | ⟨0, _⟩ => show win3_1.index t (0 : Fin 2) * 256 + 1 * r.val = t.val * 256 + r.val; rw [e0]; omega
  | ⟨1, _⟩ => show win3_1.index t (1 : Fin 2) * 4096 + 1 * j.val = j.val; rw [e1]; omega

theorem blk2_apply (c : Dev nD) (t : Fin cfg3.N) (r : Fin 256) :
    (iblk3 V c 2 t : S256x1.Idx → EReal) (ix2 r 0) = in3_f1 V c (ix2 (rowOf t r) 0) := by
  obtain ⟨-, -, -, -, e0, e1, -⟩ := idx_facts3 t
  unfold iblk3
  rw [View.read_apply]
  show V c main_v44_1 _ = V c main_v44_1 _
  congr 1
  funext a
  apply Fin.ext
  match a with
  | ⟨0, _⟩ => show win3_2.index t (0 : Fin 2) * 256 + 1 * r.val = t.val * 256 + r.val; rw [e0]; omega
  | ⟨1, _⟩ => show win3_2.index t (1 : Fin 2) * 1 + 1 * 0 = 0; rw [e1]

theorem blk3_apply (c : Dev nD) (t : Fin cfg3.N) (j : Fin 4096) :
    (iblk3 V c 3 t : S1x4096.Idx → EReal) (ix2 0 j) = in3_f2t V c (ix2 0 j) := by
  obtain ⟨-, -, -, -, -, -, e0, e1, -⟩ := idx_facts3 t
  unfold iblk3
  rw [View.read_apply]
  show V c main_v44_2 _ = V c main_v44_2 _
  congr 1
  funext a
  apply Fin.ext
  match a with
  | ⟨0, _⟩ => show win3_3.index t (0 : Fin 2) * 1 + 1 * 0 = 0; rw [e0]
  | ⟨1, _⟩ => show win3_3.index t (1 : Fin 2) * 4096 + 1 * j.val = j.val; rw [e1]; omega

theorem blk4_apply (c : Dev nD) (t : Fin cfg3.N) (j : Fin 4096) (k : Fin 16) :
    (iblk3 V c 4 t : S4096x16.Idx → EReal) (ix2 j k) = in3_ho V c (ix2 j k) := by
  obtain ⟨-, -, -, -, -, -, -, -, e0, e1, -⟩ := idx_facts3 t
  unfold iblk3
  rw [View.read_apply]
  show V c main_v44_0 _ = V c main_v44_0 _
  congr 1
  funext a
  apply Fin.ext
  match a with
  | ⟨0, _⟩ => show win3_4.index t (0 : Fin 2) * 4096 + 1 * j.val = j.val; rw [e0]; omega
  | ⟨1, _⟩ => show win3_4.index t (1 : Fin 2) * 16 + 1 * k.val = k.val; rw [e1]; omega

theorem blk5_apply (c : Dev nD) (t : Fin cfg3.N) :
    (iblk3 V c 5 t : S1x1.Idx → EReal) (ix2 0 0) = in3_w2 V c (ix2 0 0) := by
  obtain ⟨-, -, -, -, -, -, -, -, -, -, e0, e1, -⟩ := idx_facts3 t
  unfold iblk3
  rw [View.read_apply]
  show V c main_v41 _ = V c main_v41 _
  congr 1
  funext a
  apply Fin.ext
  match a with
  | ⟨0, _⟩ => show win3_5.index t (0 : Fin 2) * 1 + 1 * 0 = 0; rw [e0]
  | ⟨1, _⟩ => show win3_5.index t (1 : Fin 2) * 1 + 1 * 0 = 0; rw [e1]

/-- entry (n, k) of the output, as a function of the arrays the call is entered with -/
def outFn (c : Dev nD) (n : Fin 4096) (k : Fin 16) : EReal :=
  Spec.lsmK (fun k' => Spec.attK (fun j => Spec.adjBit (in3_adj V c (ix2 n j))) (in3_f1 V c (ix2 n 0))
    (fun j => in3_f2t V c (ix2 0 j)) (in3_w2 V c (ix2 0 0))
    (fun j => in3_ad V c (ix2 n j)) (fun j => in3_ho V c (ix2 j k'))) k

/-- the whole output array -/
def outArr (c : Dev nD) : S4096x16.Idx → EReal := fun i => outFn V c (i 0) (i 1)

/-- where point t's output block sits in the array -/
theorem emb_out (t : Fin cfg3.N) (r : Fin 256) (k : Fin 16) :
    (((cfg3.win 6).blk t).view.emb (ix2 r k) : S4096x16.Idx) = ix2 (rowOf t r) k := by
  obtain ⟨-, -, -, -, -, -, -, -, -, -, -, -, e0, e1⟩ := idx_facts3 t
  funext a
  apply Fin.ext
  match a with
  | ⟨0, _⟩ => show win3_6.index t (0 : Fin 2) * 256 + 1 * r.val = t.val * 256 + r.val; rw [e0]; omega
  | ⟨1, _⟩ => show win3_6.index t (1 : Fin 2) * 16 + 1 * k.val = k.val; rw [e1]; omega

/-- what point t writes back is block t of the whole-array function -/
theorem flushed3_eq (c : Dev nD) (t : Fin cfg3.N) :
    (dat3 V c).flushed 6 t = ((cfg3.win 6).blk t).view.read (Elt Ideal) (outArr V c) := by
  show (cfg3.win 6).cut (grid3.coords t) ((dat3 V c).after 6 t) = _
  rw [after3_6]
  unfold out3_6
  rw [View.canon_unit_zero hz]
  simp only [View.ld_unit_zero (S := S256x4096) hz, View.ld_unit_zero (S := S256x1) hz, View.ld_unit_zero (S := S1x4096) hz,
    View.ld_unit_zero (S := S1x1) hz, View.ld_unit_zero (S := S4096x16) hz]
  funext y
  obtain ⟨r, k, rfl⟩ : ∃ (r : Fin 256) (k : Fin 16), y = ix2 r k := ⟨y 0, y 1, eq_ix2 y⟩
  show k3_pay1 (F := Ideal) (k3_pay2 (F := Ideal) (iblk3 V c 0 t) (iblk3 V c 2 t) (iblk3 V c 3 t) (iblk3 V c 5 t) (iblk3 V c 1 t) (iblk3 V c 4 t))
      (k3_pay3 (F := Ideal) (iblk3 V c 0 t) (iblk3 V c 2 t) (iblk3 V c 3 t) (iblk3 V c 5 t) (iblk3 V c 1 t) (iblk3 V c 4 t))
      (k3_pay4 (F := Ideal) (iblk3 V c 0 t) (iblk3 V c 2 t) (iblk3 V c 3 t) (iblk3 V c 5 t) (iblk3 V c 1 t) (iblk3 V c 4 t))
      (Scalar.ofBits .f32 0x3F800000#32) (ix2 r k)
    = outArr V c (((cfg3.win 6).blk t).view.emb (ix2 r k))
  rw [pay1_apply (iblk3 V c 0 t) (iblk3 V c 1 t) (iblk3 V c 2 t) (iblk3 V c 3 t) (iblk3 V c 4 t) (iblk3 V c 5 t) r k, emb_out t r k]
  show blockOut (iblk3 V c 0 t) (iblk3 V c 1 t) (iblk3 V c 2 t) (iblk3 V c 3 t) (iblk3 V c 4 t) (iblk3 V c 5 t) r k = outFn V c (rowOf t r) k
  unfold blockOut outFn
  simp only [blk0_apply, blk1_apply, blk2_apply, blk3_apply, blk4_apply, blk5_apply]

/-- an index of the array is in point t's block iff each coordinate is in the block's range on its axis -/
theorem mem_blk6 (t : Fin cfg3.N) (i : S4096x16.Idx) :
    i ∈ ((cfg3.win 6).blk t).view.set ↔ ∀ a : Fin 2, win3_6.index t a * S256x16.size a ≤ (i a).val ∧ (i a).val < win3_6.index t a * S256x16.size a + S256x16.size a := by
  show i ∈ ((View.whole main_v45).slice (win3_6.rect t)).set ↔ _
  rw [View.set_slice_whole, Rect.mem_set_unit]
  exact Iff.rfl

/-- row n of the array is covered by point n / 256 -/
theorem cover6 (i : S4096x16.Idx) : ∃ t : Fin cfg3.N, (cfg3.win 6).flush t = true ∧ i ∈ ((cfg3.win 6).blk t).view.set := by
  have hi0 : (i 0).val < 4096 := idx2_lt0 i
  have hi1 : (i 1).val < 16 := idx2_lt1 i
  have ht : (i 0).val / 256 < cfg3.N := lt_of_lt_of_eq (show (i 0).val / 256 < 16 by omega) N_3.symm
  refine ⟨⟨(i 0).val / 256, ht⟩, flush3_6 _, ?_⟩
  rw [mem_blk6]
  obtain ⟨-, -, -, -, -, -, -, -, -, -, -, -, e0, e1⟩ := idx_facts3 ⟨(i 0).val / 256, ht⟩
  intro a
  match a with
  | ⟨0, _⟩ =>
    show win3_6.index ⟨(i 0).val / 256, ht⟩ (0 : Fin 2) * 256 ≤ (i 0).val ∧ (i 0).val < win3_6.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win3_6.index ⟨(i 0).val / 256, ht⟩ (1 : Fin 2) * 16 ≤ (i 1).val ∧ (i 1).val < win3_6.index ⟨(i 0).val / 256, ht⟩ (1 : Fin 2) * 16 + 16
    rw [e1]
    omega

/-- the output array after all 16 points -/
theorem final3 (c : Dev nD) : (dat3 V c).arrAt 6 cfg3.N = outArr V c :=
  (dat3 V c).arrAt_eq_of_cover 6 (outArr V c) (fun t _ => flushed3_eq V c t) cover6

/-- entry (n, k) of the network's output -/
theorem reg3_out (c : Dev nD) (n : Fin 4096) (k : Fin 16) :
    out3_o V c (ix2 n k)
      = Spec.lsmK (fun k' => Spec.attK (fun j => Spec.adjBit (in3_adj V c (ix2 n j))) (in3_f1 V c (ix2 n 0))
          (fun j => in3_f2t V c (ix2 0 j)) (in3_w2 V c (ix2 0 0))
          (fun j => in3_ad V c (ix2 n j)) (fun j => in3_ho V c (ix2 j k'))) k := by
  show (dat3 V c).arrAt 6 cfg3.N (ix2 n k) = _
  rw [final3]
  rfl

end R3

export R3 (in3_adj in3_ad in3_f1 in3_f2t in3_ho in3_w2 out3_o reg3_out)

end Cert.KernelIdeal.KV

end
-- ==== Proof.KChain.lean ====
/-
  The kernel's four calls chained: each call is entered with what @main's preparation and the calls before it left, so
  the result array, index by index, is Proof/Spec.lean's kernel-form output of the argument arrays as launched.
-/
import proofs.«118500_g28080496181627_cont_9to1_1526_5_alg».proof.Proof.Gen.KernelIdeal.Frame
import proofs.«118500_g28080496181627_cont_9to1_1526_5_alg».proof.Proof.Spec
import proofs.«118500_g28080496181627_cont_9to1_1526_5_alg».proof.Proof.Views
import proofs.«118500_g28080496181627_cont_9to1_1526_5_alg».proof.Proof.KHost
import proofs.«118500_g28080496181627_cont_9to1_1526_5_alg».proof.Proof.KReg0
import proofs.«118500_g28080496181627_cont_9to1_1526_5_alg».proof.Proof.KReg1
import proofs.«118500_g28080496181627_cont_9to1_1526_5_alg».proof.Proof.KReg2
import proofs.«118500_g28080496181627_cont_9to1_1526_5_alg».proof.Proof.KReg3
import Idealize.ShloMosaic.Lib.ValueIdx

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Views

variable (m : (ℓ : Loc nD τ sig) → Buf (Elt Ideal) ℓ) (ρ : Dev nD → PrngReg)

/-- the result array at the last region's exit, at its literal type -/
abbrev k_out (c : Dev nD) : FVec Ideal S4096x16 .f32 := W5 m ρ c (Proc.devRef .tc main_v45)

/-! ## The launched arguments, read by coordinates -/

abbrev sx (c : Dev nD) : Fin 4096 → Fin 512 → EReal := vx (a_x m c)
abbrev sadj (c : Dev nD) : Fin 4096 → Fin 4096 → BitVec 32 := vadj (a_adj m c)
abbrev sad (c : Dev nD) : Fin 4096 → Fin 4096 → EReal := vad (a_ad m c)
abbrev sW (c : Dev nD) : Fin 4 → Fin 512 → Fin 64 → EReal := vW (a_W m c)
abbrev sa (c : Dev nD) : Fin 4 → Fin 128 → EReal := va (a_a m c)
abbrev sw1 (c : Dev nD) : Fin 4 → EReal := vw (a_w1 m c)
abbrev sw2 (c : Dev nD) : Fin 4 → EReal := vw (a_w2 m c)
abbrev sWo (c : Dev nD) : Fin 256 → Fin 16 → EReal := vWo (a_Wo m c)
abbrev sao (c : Dev nD) : Fin 32 → EReal := vao (a_ao m c)
abbrev sw1o (c : Dev nD) : EReal := vs (a_w1o m c)
abbrev sw2o (c : Dev nD) : EReal := vs (a_w2o m c)

/-- An attention entry depends on its six arguments only through their values. -/
theorem attK_of_eq {mask mask' : Fin 4096 → BitVec 1} {F1 F1' : EReal} {F2 F2' : Fin 4096 → EReal} {w2 w2' : EReal}
    {ad ad' hcol hcol' : Fin 4096 → EReal}
    (h1 : ∀ j, mask j = mask' j) (h2 : F1 = F1') (h3 : ∀ j, F2 j = F2' j) (h4 : w2 = w2')
    (h5 : ∀ j, ad j = ad' j) (h6 : ∀ j, hcol j = hcol' j) :
    Spec.attK mask F1 F2 w2 ad hcol = Spec.attK mask' F1' F2' w2' ad' hcol' := by
  obtain rfl : mask = mask' := funext h1
  obtain rfl : F2 = F2' := funext h3
  obtain rfl : ad = ad' := funext h5
  obtain rfl : hcol = hcol' := funext h6
  subst h2 h4
  rfl

/-! ## What each call is entered with

Every array a call reads is either an output array of the call before it, or a buffer the host preparation filled that
no call in between writes, or an argument as launched. -/

/-! ### Call 0: the node features as launched (the three prepared matrices are read where the preparation left them) -/

theorem in0_x_eq (c : Dev nD) : in0_x (V1 m ρ) c = a_x m c := host_arg0 m ρ c

/-! ### Call 1: the adjacency and structural matrices as launched, call 0's three outputs, the prepared |w2| -/

theorem in1_adj_eq (c : Dev nD) : in1_adj (V2 m ρ) c = a_adj m c :=
  (W2_of_ne m ρ c main_arg1 (by decide)).trans (host_arg1 m ρ c)
theorem in1_ad_eq (c : Dev nD) : in1_ad (V2 m ρ) c = a_ad m c :=
  (W2_of_ne m ρ c main_arg2 (by decide)).trans (host_arg2 m ρ c)
theorem in1_f1_eq (c : Dev nD) : in1_f1 (V2 m ρ) c = out0_f1 (V1 m ρ) c := W2_arr m ρ c 5
theorem in1_f2t_eq (c : Dev nD) : in1_f2t (V2 m ρ) c = out0_f2t (V1 m ρ) c := W2_arr m ρ c 6
theorem in1_h_eq (c : Dev nD) : in1_h (V2 m ρ) c = out0_h (V1 m ρ) c := W2_arr m ρ c 4
theorem in1_w2_eq (c : Dev nD) : in1_w2 (V2 m ρ) c = h_w2 m ρ c := W2_of_ne m ρ c main_v4 (by decide)

/-! ### Call 2: call 1's output, the output weights as launched, the two prepared output attention vectors -/

theorem in2_xc_eq (c : Dev nD) : in2_xc (V3 m ρ) c = out1_xc (V2 m ρ) c := W3_arr m ρ c 6
theorem in2_Wo_eq (c : Dev nD) : in2_Wo (V3 m ρ) c = a_Wo m c :=
  (W3_of_ne m ρ c main_arg7 (by decide)).trans ((W2_of_ne m ρ c main_arg7 (by decide)).trans (host_arg7 m ρ c))
theorem in2_a1_eq (c : Dev nD) : in2_a1 (V3 m ρ) c = h_a1o m ρ c :=
  (W3_of_ne m ρ c main_v36 (by decide)).trans (W2_of_ne m ρ c main_v36 (by decide))
theorem in2_a2_eq (c : Dev nD) : in2_a2 (V3 m ρ) c = h_a2o m ρ c :=
  (W3_of_ne m ρ c main_v39 (by decide)).trans (W2_of_ne m ρ c main_v39 (by decide))

/-! ### Call 3: the adjacency and structural matrices again (call 1 read them through input windows and left them as
    they were), call 2's three outputs, the prepared |w2| of the output layer -/

theorem in3_adj_eq (c : Dev nD) : in3_adj (V4 m ρ) c = a_adj m c :=
  (W4_of_ne m ρ c main_arg1 (by decide)).trans
    (((W3_arr m ρ c 0).trans (((dat1 (V2 m ρ) c).arrAt_in 0 rfl _).trans (A_eq1 (V2 m ρ) c 0))).trans (in1_adj_eq m ρ c))
theorem in3_ad_eq (c : Dev nD) : in3_ad (V4 m ρ) c = a_ad m c :=
  (W4_of_ne m ρ c main_arg2 (by decide)).trans
    (((W3_arr m ρ c 1).trans (((dat1 (V2 m ρ) c).arrAt_in 1 rfl _).trans (A_eq1 (V2 m ρ) c 1))).trans (in1_ad_eq m ρ c))
theorem in3_f1_eq (c : Dev nD) : in3_f1 (V4 m ρ) c = out2_f1 (V3 m ρ) c := W4_arr m ρ c 5
theorem in3_f2t_eq (c : Dev nD) : in3_f2t (V4 m ρ) c = out2_f2t (V3 m ρ) c := W4_arr m ρ c 6
theorem in3_ho_eq (c : Dev nD) : in3_ho (V4 m ρ) c = out2_ho (V3 m ρ) c := W4_arr m ρ c 4
theorem in3_w2_eq (c : Dev nD) : in3_w2 (V4 m ρ) c = h_w2o m ρ c :=
  (W4_of_ne m ρ c main_v41 (by decide)).trans
    ((W3_of_ne m ρ c main_v41 (by decide)).trans (W2_of_ne m ρ c main_v41 (by decide)))

/-- the result array is call 3's output array -/
theorem k_out_eq (c : Dev nD) : k_out m ρ c = out3_o (V4 m ρ) c := W5_arr m ρ c 6

/-! ## The four calls' values, in order -/

/-! ### Call 0 -/

/-- a row of the features against a column of the concatenated weights -/
theorem val0_sum (c : Dev nD) (n : Fin 4096) (col : Fin 256) :
    (∑ j : Fin 512, in0_x (V1 m ρ) c (ix2 n j) * in0_Wc (V1 m ρ) c (ix2 j col))
      = Spec.hcatK (sx m c) (sW m c) n col := by
  unfold Spec.hcatK
  exact Finset.sum_congr rfl fun j _ =>
    congrArg₂ (· * ·) (congrFun (in0_x_eq m ρ c) (ix2 n j)) (host_Wc m ρ c j col)

theorem val0_h (c : Dev nD) (n : Fin 4096) (col : Fin 256) :
    out0_h (V1 m ρ) c (ix2 n col) = Spec.hcatK (sx m c) (sW m c) n col :=
  (reg0_hcat (V1 m ρ) c n col).trans (val0_sum m ρ c n col)

theorem val0_f1 (c : Dev nD) (n : Fin 4096) (i : Fin 4) :
    out0_f1 (V1 m ρ) c (ix2 n i) = Spec.f1K (sx m c) (sW m c) (sa m c) (sw1 m c) n i := by
  refine (reg0_f1 (V1 m ρ) c n i).trans ?_
  unfold Spec.f1K
  exact Finset.sum_congr rfl fun col _ =>
    congrArg₂ (· * ·) (val0_sum m ρ c n col) (host_A1 m ρ c col i)

theorem val0_f2t (c : Dev nD) (i : Fin 4) (n : Fin 4096) :
    out0_f2t (V1 m ρ) c (ix2 i n) = Spec.f2K (sx m c) (sW m c) (sa m c) (sw1 m c) n i := by
  refine (reg0_f2t (V1 m ρ) c i n).trans ?_
  unfold Spec.f2K
  exact Finset.sum_congr rfl fun col _ =>
    congrArg₂ (· * ·) (val0_sum m ρ c n col) (host_A2 m ρ c col i)

/-! ### Call 1 -/

theorem val1_xc (c : Dev nD) (n : Fin 4096) (col : Fin 256) :
    out1_xc (V2 m ρ) c (ix2 n col)
      = Spec.xcK (sx m c) (sadj m c) (sad m c) (sW m c) (sa m c) (sw1 m c) (sw2 m c) n col := by
  refine (reg1_xc (V2 m ρ) c n col).trans ?_
  unfold Spec.xcK
  exact attK_of_eq
    (fun j => congrArg Spec.adjBit (congrFun (in1_adj_eq m ρ c) (ix2 n j)))
    ((congrFun (in1_f1_eq m ρ c) (ix2 n (Spec.colHead col))).trans (val0_f1 m ρ c n (Spec.colHead col)))
    (fun j => (congrFun (in1_f2t_eq m ρ c) (ix2 (Spec.colHead col) j)).trans (val0_f2t m ρ c (Spec.colHead col) j))
    ((congrFun (in1_w2_eq m ρ c) (ix2 0 (Spec.colHead col))).trans (host_w2 m ρ c (Spec.colHead col)))
    (fun j => congrFun (in1_ad_eq m ρ c) (ix2 n j))
    (fun j => (congrFun (in1_h_eq m ρ c) (ix2 j col)).trans (val0_h m ρ c j col))

/-! ### Call 2 -/

/-- a row of the concatenated attention output against a column of the output weights -/
theorem val2_sum (c : Dev nD) (n : Fin 4096) (k : Fin 16) :
    (∑ col : Fin 256, in2_xc (V3 m ρ) c (ix2 n col) * in2_Wo (V3 m ρ) c (ix2 col k))
      = Spec.hoK (sx m c) (sadj m c) (sad m c) (sW m c) (sa m c) (sw1 m c) (sw2 m c) (sWo m c) n k := by
  unfold Spec.hoK
  exact Finset.sum_congr rfl fun col _ =>
    congrArg₂ (· * ·) ((congrFun (in2_xc_eq m ρ c) (ix2 n col)).trans (val1_xc m ρ c n col))
      (congrFun (in2_Wo_eq m ρ c) (ix2 col k))

theorem val2_ho (c : Dev nD) (n : Fin 4096) (k : Fin 16) :
    out2_ho (V3 m ρ) c (ix2 n k)
      = Spec.hoK (sx m c) (sadj m c) (sad m c) (sW m c) (sa m c) (sw1 m c) (sw2 m c) (sWo m c) n k :=
  (reg2_ho (V3 m ρ) c n k).trans (val2_sum m ρ c n k)

theorem val2_f1 (c : Dev nD) (n : Fin 4096) :
    out2_f1 (V3 m ρ) c (ix2 n 0)
      = Spec.f1oK (sx m c) (sadj m c) (sad m c) (sW m c) (sa m c) (sw1 m c) (sw2 m c) (sWo m c) (sao m c) (sw1o m c) n := by
  refine (reg2_f1 (V3 m ρ) c n).trans ?_
  unfold Spec.f1oK
  exact Finset.sum_congr rfl fun k _ =>
    congrArg₂ (· * ·) (val2_sum m ρ c n k) ((congrFun (in2_a1_eq m ρ c) (ix2 k 0)).trans (host_a1o m ρ c k))

theorem val2_f2t (c : Dev nD) (n : Fin 4096) :
    out2_f2t (V3 m ρ) c (ix2 0 n)
      = Spec.f2oK (sx m c) (sadj m c) (sad m c) (sW m c) (sa m c) (sw1 m c) (sw2 m c) (sWo m c) (sao m c) (sw1o m c) n := by
  refine (reg2_f2t (V3 m ρ) c n).trans ?_
  unfold Spec.f2oK
  exact Finset.sum_congr rfl fun k _ =>
    congrArg₂ (· * ·) (val2_sum m ρ c n k) ((congrFun (in2_a2_eq m ρ c) (ix2 k 0)).trans (host_a2o m ρ c k))

/-! ### Call 3 -/

theorem val3_out (c : Dev nD) (n : Fin 4096) (k : Fin 16) :
    out3_o (V4 m ρ) c (ix2 n k)
      = Spec.outK (sx m c) (sadj m c) (sad m c) (sW m c) (sa m c) (sw1 m c) (sw2 m c) (sWo m c) (sao m c) (sw1o m c)
          (sw2o m c) n k := by
  refine (reg3_out (V4 m ρ) c n k).trans ?_
  unfold Spec.outK
  refine congrArg (fun v => Spec.lsmK v k) (funext fun k' => ?_)
  unfold Spec.voK
  exact attK_of_eq
    (fun j => congrArg Spec.adjBit (congrFun (in3_adj_eq m ρ c) (ix2 n j)))
    ((congrFun (in3_f1_eq m ρ c) (ix2 n 0)).trans (val2_f1 m ρ c n))
    (fun j => (congrFun (in3_f2t_eq m ρ c) (ix2 0 j)).trans (val2_f2t m ρ c j))
    ((congrFun (in3_w2_eq m ρ c) (ix2 0 0)).trans (host_w2o m ρ c))
    (fun j => congrFun (in3_ad_eq m ρ c) (ix2 n j))
    (fun j => (congrFun (in3_ho_eq m ρ c) (ix2 j k')).trans (val2_ho m ρ c j k'))

/-- The kernel's result, entry by entry, is the kernel-form output of the launched arguments. -/
theorem kernel_out (c : Dev nD) (n : Fin 4096) (k : Fin 16) :
    k_out m ρ c (ix2 n k)
      = Spec.outK (vx (a_x m c)) (vadj (a_adj m c)) (vad (a_ad m c)) (vW (a_W m c)) (va (a_a m c)) (vw (a_w1 m c))
          (vw (a_w2 m c)) (vWo (a_Wo m c)) (vao (a_ao m c)) (vs (a_w1o m c)) (vs (a_w2o m c)) n k :=
  (congrFun (k_out_eq m ρ c) (ix2 n k)).trans (val3_out m ρ c n k)

end Cert.KernelIdeal.KV

end
-- ==== Proof.RefHeads.lean ====
/-
  The reference's four heads read at an index. The generated run names each head's intermediate arrays (the projection,
  the rank-one logits, the masked logits, the softmax numerators, the weighted features); each head's elu of the last
  one, at (n, k), is Proof/Spec.lean's reference-form head entry of the arguments.
-/
import proofs.«118500_g28080496181627_cont_9to1_1526_5_alg».proof.Proof.RefDefs
import proofs.«118500_g28080496181627_cont_9to1_1526_5_alg».proof.Proof.Spec
import proofs.«118500_g28080496181627_cont_9to1_1526_5_alg».proof.Proof.Views
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

namespace Cert.ReferenceIdeal.RV

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.RunH Cert.Views

/-! ## The three matrix products at an entry

Each product contracts the left operand's columns with the right operand's rows. Its operand indices are read axis by
axis; the contraction's one coordinate then runs over the sum. -/

/-! ### x · W₀ : [4096, 512] · [512, 64] -/

theorem lhs_xW_0 (i : S4096x64.Idx) (q : dot_S4096x512_S512x64_S4096x64_1_0_0_1_n_n.contr.Idx) :
    (dot_S4096x512_S512x64_S4096x64_1_0_0_1_n_n.lhsIdx i q 0).val = (i 0).val := by
  unfold DotDims.lhsIdx
  rw [dif_neg (show ¬(0 : Fin S4096x512.rank) ∈ dot_S4096x512_S512x64_S4096x64_1_0_0_1_n_n.lhsBatch by decide), dif_pos (show (0 : Fin S4096x512.rank) ∈ dot_S4096x512_S512x64_S4096x64_1_0_0_1_n_n.lhsNonContracting by decide)]
  rfl
theorem lhs_xW_1 (i : S4096x64.Idx) (q : dot_S4096x512_S512x64_S4096x64_1_0_0_1_n_n.contr.Idx) :
    (dot_S4096x512_S512x64_S4096x64_1_0_0_1_n_n.lhsIdx i q 1).val = (q ⟨0, by decide⟩).val :=
  dot_S4096x512_S512x64_S4096x64_1_0_0_1_n_n.lhsIdx_val_of_single rfl i q
theorem rhs_xW_0 (i : S4096x64.Idx) (q : dot_S4096x512_S512x64_S4096x64_1_0_0_1_n_n.contr.Idx) :
    (dot_S4096x512_S512x64_S4096x64_1_0_0_1_n_n.rhsIdx i q 0).val = (q ⟨0, by decide⟩).val :=
  dot_S4096x512_S512x64_S4096x64_1_0_0_1_n_n.rhsIdx_val_of_single rfl i q
theorem rhs_xW_1 (i : S4096x64.Idx) (q : dot_S4096x512_S512x64_S4096x64_1_0_0_1_n_n.contr.Idx) :
    (dot_S4096x512_S512x64_S4096x64_1_0_0_1_n_n.rhsIdx i q 1).val = (i 1).val := by
  unfold DotDims.rhsIdx
  rw [dif_neg (show ¬(1 : Fin S512x64.rank) ∈ dot_S4096x512_S512x64_S4096x64_1_0_0_1_n_n.rhsBatch by decide), dif_pos (show (1 : Fin S512x64.rank) ∈ dot_S4096x512_S512x64_S4096x64_1_0_0_1_n_n.rhsNonContracting by decide)]
  rfl

/-- entry (n, k) of x · W₀ is the sum over the 512 features -/
theorem dot_xW_apply (l : FVec Ideal S4096x512 .f32) (r : FVec Ideal S512x64 .f32) (n : Fin 4096) (k : Fin 64) :
    Host.dotGeneral (F := Ideal) dot_S4096x512_S512x64_S4096x64_1_0_0_1_n_n none l r (ix2 n k)
      = ∑ j : Fin 512, l (ix2 n j) * r (ix2 j k) := by
  simp only [Host.dotGeneral]
  rw [Ideal.dotGeneral_apply, ← Equiv.sum_comp (contrEquiv1 dot_S4096x512_S512x64_S4096x64_1_0_0_1_n_n 512 rfl rfl).symm]
  refine Finset.sum_congr rfl fun j _ => ?_
  have hk := contrEquiv1_symm_val dot_S4096x512_S512x64_S4096x64_1_0_0_1_n_n 512 rfl rfl j
  have el : dot_S4096x512_S512x64_S4096x64_1_0_0_1_n_n.lhsIdx (ix2 n k) ((contrEquiv1 dot_S4096x512_S512x64_S4096x64_1_0_0_1_n_n 512 rfl rfl).symm j) = ix2 n j := funext fun a => Fin.ext (by
    match a with
    | ⟨0, _⟩ => exact lhs_xW_0 _ _
    | ⟨1, _⟩ => exact (lhs_xW_1 _ _).trans hk)
  have er : dot_S4096x512_S512x64_S4096x64_1_0_0_1_n_n.rhsIdx (ix2 n k) ((contrEquiv1 dot_S4096x512_S512x64_S4096x64_1_0_0_1_n_n 512 rfl rfl).symm j) = ix2 j k := funext fun a => Fin.ext (by
    match a with
    | ⟨0, _⟩ => exact (rhs_xW_0 _ _).trans hk
    | ⟨1, _⟩ => exact rhs_xW_1 _ _)
  rw [el, er]

/-! ### h · a : [4096, 64] · [64, 1] -/

theorem lhs_hA_0 (i : S4096x1.Idx) (q : dot_S4096x64_S64x1_S4096x1_1_0_0_1_n_n.contr.Idx) :
    (dot_S4096x64_S64x1_S4096x1_1_0_0_1_n_n.lhsIdx i q 0).val = (i 0).val := by
  unfold DotDims.lhsIdx
  rw [dif_neg (show ¬(0 : Fin S4096x64.rank) ∈ dot_S4096x64_S64x1_S4096x1_1_0_0_1_n_n.lhsBatch by decide), dif_pos (show (0 : Fin S4096x64.rank) ∈ dot_S4096x64_S64x1_S4096x1_1_0_0_1_n_n.lhsNonContracting by decide)]
  rfl
theorem lhs_hA_1 (i : S4096x1.Idx) (q : dot_S4096x64_S64x1_S4096x1_1_0_0_1_n_n.contr.Idx) :
    (dot_S4096x64_S64x1_S4096x1_1_0_0_1_n_n.lhsIdx i q 1).val = (q ⟨0, by decide⟩).val :=
  dot_S4096x64_S64x1_S4096x1_1_0_0_1_n_n.lhsIdx_val_of_single rfl i q
theorem rhs_hA_0 (i : S4096x1.Idx) (q : dot_S4096x64_S64x1_S4096x1_1_0_0_1_n_n.contr.Idx) :
    (dot_S4096x64_S64x1_S4096x1_1_0_0_1_n_n.rhsIdx i q 0).val = (q ⟨0, by decide⟩).val :=
  dot_S4096x64_S64x1_S4096x1_1_0_0_1_n_n.rhsIdx_val_of_single rfl i q
theorem rhs_hA_1 (i : S4096x1.Idx) (q : dot_S4096x64_S64x1_S4096x1_1_0_0_1_n_n.contr.Idx) :
    (dot_S4096x64_S64x1_S4096x1_1_0_0_1_n_n.rhsIdx i q 1).val = (i 1).val := by
  unfold DotDims.rhsIdx
  rw [dif_neg (show ¬(1 : Fin S64x1.rank) ∈ dot_S4096x64_S64x1_S4096x1_1_0_0_1_n_n.rhsBatch by decide), dif_pos (show (1 : Fin S64x1.rank) ∈ dot_S4096x64_S64x1_S4096x1_1_0_0_1_n_n.rhsNonContracting by decide)]
  rfl

/-- entry (n, c) of h · a is the sum over the 64 hidden features -/
theorem dot_hA_apply (l : FVec Ideal S4096x64 .f32) (r : FVec Ideal S64x1 .f32) (n : Fin 4096) (c : Fin 1) :
    Host.dotGeneral (F := Ideal) dot_S4096x64_S64x1_S4096x1_1_0_0_1_n_n none l r (ix2 n c)
      = ∑ k : Fin 64, l (ix2 n k) * r (ix2 k c) := by
  simp only [Host.dotGeneral]
  rw [Ideal.dotGeneral_apply, ← Equiv.sum_comp (contrEquiv1 dot_S4096x64_S64x1_S4096x1_1_0_0_1_n_n 64 rfl rfl).symm]
  refine Finset.sum_congr rfl fun k _ => ?_
  have hk := contrEquiv1_symm_val dot_S4096x64_S64x1_S4096x1_1_0_0_1_n_n 64 rfl rfl k
  have el : dot_S4096x64_S64x1_S4096x1_1_0_0_1_n_n.lhsIdx (ix2 n c) ((contrEquiv1 dot_S4096x64_S64x1_S4096x1_1_0_0_1_n_n 64 rfl rfl).symm k) = ix2 n k := funext fun a => Fin.ext (by
    match a with
    | ⟨0, _⟩ => exact lhs_hA_0 _ _
    | ⟨1, _⟩ => exact (lhs_hA_1 _ _).trans hk)
  have er : dot_S4096x64_S64x1_S4096x1_1_0_0_1_n_n.rhsIdx (ix2 n c) ((contrEquiv1 dot_S4096x64_S64x1_S4096x1_1_0_0_1_n_n 64 rfl rfl).symm k) = ix2 k c := funext fun a => Fin.ext (by
    match a with
    | ⟨0, _⟩ => exact (rhs_hA_0 _ _).trans hk
    | ⟨1, _⟩ => exact rhs_hA_1 _ _)
  rw [el, er]

/-! ### attention · h : [4096, 4096] · [4096, 64] -/

theorem lhs_pH_0 (i : S4096x64.Idx) (q : dot_S4096x4096_S4096x64_S4096x64_1_0_0_1_n_n.contr.Idx) :
    (dot_S4096x4096_S4096x64_S4096x64_1_0_0_1_n_n.lhsIdx i q 0).val = (i 0).val := by
  unfold DotDims.lhsIdx
  rw [dif_neg (show ¬(0 : Fin S4096x4096.rank) ∈ dot_S4096x4096_S4096x64_S4096x64_1_0_0_1_n_n.lhsBatch by decide), dif_pos (show (0 : Fin S4096x4096.rank) ∈ dot_S4096x4096_S4096x64_S4096x64_1_0_0_1_n_n.lhsNonContracting by decide)]
  rfl
theorem lhs_pH_1 (i : S4096x64.Idx) (q : dot_S4096x4096_S4096x64_S4096x64_1_0_0_1_n_n.contr.Idx) :
    (dot_S4096x4096_S4096x64_S4096x64_1_0_0_1_n_n.lhsIdx i q 1).val = (q ⟨0, by decide⟩).val :=
  dot_S4096x4096_S4096x64_S4096x64_1_0_0_1_n_n.lhsIdx_val_of_single rfl i q
theorem rhs_pH_0 (i : S4096x64.Idx) (q : dot_S4096x4096_S4096x64_S4096x64_1_0_0_1_n_n.contr.Idx) :
    (dot_S4096x4096_S4096x64_S4096x64_1_0_0_1_n_n.rhsIdx i q 0).val = (q ⟨0, by decide⟩).val :=
  dot_S4096x4096_S4096x64_S4096x64_1_0_0_1_n_n.rhsIdx_val_of_single rfl i q
theorem rhs_pH_1 (i : S4096x64.Idx) (q : dot_S4096x4096_S4096x64_S4096x64_1_0_0_1_n_n.contr.Idx) :
    (dot_S4096x4096_S4096x64_S4096x64_1_0_0_1_n_n.rhsIdx i q 1).val = (i 1).val := by
  unfold DotDims.rhsIdx
  rw [dif_neg (show ¬(1 : Fin S4096x64.rank) ∈ dot_S4096x4096_S4096x64_S4096x64_1_0_0_1_n_n.rhsBatch by decide), dif_pos (show (1 : Fin S4096x64.rank) ∈ dot_S4096x4096_S4096x64_S4096x64_1_0_0_1_n_n.rhsNonContracting by decide)]
  rfl

/-- entry (n, k) of attention · h is the sum over the 4096 neighbours -/
theorem dot_pH_apply (l : FVec Ideal S4096x4096 .f32) (r : FVec Ideal S4096x64 .f32) (n : Fin 4096) (k : Fin 64) :
    Host.dotGeneral (F := Ideal) dot_S4096x4096_S4096x64_S4096x64_1_0_0_1_n_n none l r (ix2 n k)
      = ∑ j : Fin 4096, l (ix2 n j) * r (ix2 j k) := by
  simp only [Host.dotGeneral]
  rw [Ideal.dotGeneral_apply, ← Equiv.sum_comp (contrEquiv1 dot_S4096x4096_S4096x64_S4096x64_1_0_0_1_n_n 4096 rfl rfl).symm]
  refine Finset.sum_congr rfl fun j _ => ?_
  have hk := contrEquiv1_symm_val dot_S4096x4096_S4096x64_S4096x64_1_0_0_1_n_n 4096 rfl rfl j
  have el : dot_S4096x4096_S4096x64_S4096x64_1_0_0_1_n_n.lhsIdx (ix2 n k) ((contrEquiv1 dot_S4096x4096_S4096x64_S4096x64_1_0_0_1_n_n 4096 rfl rfl).symm j) = ix2 n j := funext fun a => Fin.ext (by
    match a with
    | ⟨0, _⟩ => exact lhs_pH_0 _ _
    | ⟨1, _⟩ => exact (lhs_pH_1 _ _).trans hk)
  have er : dot_S4096x4096_S4096x64_S4096x64_1_0_0_1_n_n.rhsIdx (ix2 n k) ((contrEquiv1 dot_S4096x4096_S4096x64_S4096x64_1_0_0_1_n_n 4096 rfl rfl).symm j) = ix2 j k := funext fun a => Fin.ext (by
    match a with
    | ⟨0, _⟩ => exact (rhs_pH_0 _ _).trans hk
    | ⟨1, _⟩ => exact rhs_pH_1 _ _)
  rw [el, er]

/-! ## One head's slice of a stacked argument -/

/-- head o of the stacked weights, as a matrix, at (j, k) -/
theorem headW_apply (o : Nat) (ho : o < 4) (W : FVec Ideal S4x512x64 .f32) (hs : S4x512x64.Slices ![o, 0, 0] S1x512x64)
    (hc : S1x512x64.ShapeCasts S512x64) (j : Fin 512) (k : Fin 64) :
    shapeCast S512x64 (extractStridedSlice S1x512x64 ![o, 0, 0] W hs) hc (ix2 j k) = W (ix3 (⟨o, ho⟩ : Fin 4) j k) := by
  refine (shapeCast_1ab_ab_apply _ hc j k).trans ?_
  exact extractStridedSlice_apply _ W hs _ _ (fun a => by
    match a with
    | ⟨0, _⟩ => rfl
    | ⟨1, _⟩ => exact (Nat.zero_add _).symm
    | ⟨2, _⟩ => exact (Nat.zero_add _).symm)

/-- head o of the stacked attention vectors, as a column, at (k, 0) -/
theorem headA_apply (o : Nat) (ho : o < 4) (A : FVec Ideal S4x128x1 .f32) (hs : S4x128x1.Slices ![o, 0, 0] S1x128x1)
    (hc : S1x128x1.ShapeCasts S128x1) (k : Fin 128) (c : Fin 1) :
    shapeCast S128x1 (extractStridedSlice S1x128x1 ![o, 0, 0] A hs) hc (ix2 k c) = A (ix3 (⟨o, ho⟩ : Fin 4) k c) := by
  refine (shapeCast_1ab_ab_apply _ hc k c).trans ?_
  exact extractStridedSlice_apply _ A hs _ _ (fun a => by
    match a with
    | ⟨0, _⟩ => rfl
    | ⟨1, _⟩ => exact (Nat.zero_add _).symm
    | ⟨2, _⟩ => exact (Nat.zero_add _).symm)

/-- a one-entry vector has one index -/
theorem idx_S1 (k : S1.Idx) : k = ix1 (0 : Fin 1) := by
  funext a
  match a with
  | ⟨0, _⟩ =>
    have h : (k 0).val < 1 := (k 0).isLt
    exact Fin.ext (by show (k 0).val = 0; omega)

/-- head o of a stacked scalar weight, as a scalar -/
theorem headS_apply (o : Nat) (ho : o < 4) (w : FVec Ideal S4 .f32) (hs : S4.Slices ![o] S1) (hc : S1.ShapeCasts S_) (j : S_.Idx) :
    shapeCast S_ (extractStridedSlice S1 ![o] w hs) hc j = w (ix1 (⟨o, ho⟩ : Fin 4)) := by
  unfold shapeCast
  rw [idx_S1 (Shape.reshapeEquiv hc j)]
  exact extractStridedSlice_apply _ w hs _ _ (fun a => by
    match a with
    | ⟨0, _⟩ => rfl)

/-! ## Broadcasts of a row statistic and of a column -/

/-- a per-row value broadcast across the row: [4096] to [4096, 1] to [4096, 4096] -/
theorem rowStat_apply (v : FVec Ideal S4096 .f32) (n j : Fin 4096) :
    broadcastInDim S4096x4096 ![0, 1] bcast_S4096x1_S4096x4096_0_1 (broadcastInDim S4096x1 ![0] bcast_S4096_S4096x1_0 v) (ix2 n j)
      = v (ix1 n) := by
  refine (broadcastInDim_apply _ _ _ (ix2 n j) (ix2 n (0 : Fin 1)) (fun a => by
    match a with
    | ⟨0, _⟩ => rfl
    | ⟨1, _⟩ => rfl)).trans ?_
  exact broadcastInDim_apply _ _ _ (ix2 n (0 : Fin 1)) (ix1 n) (fun a => by
    match a with
    | ⟨0, _⟩ => rfl)

/-- a column [4096, 1] broadcast across the rows' entries reads the row's value -/
theorem colBcast_apply (v : FVec Ideal S4096x1 .f32) (n j : Fin 4096) :
    broadcastInDim S4096x4096 ![0, 1] bcast_S4096x1_S4096x4096_0_1 v (ix2 n j) = v (ix2 n (0 : Fin 1)) :=
  broadcastInDim_apply _ _ _ (ix2 n j) (ix2 n (0 : Fin 1)) (fun a => by
    match a with
    | ⟨0, _⟩ => rfl
    | ⟨1, _⟩ => rfl)

/-- a column transposed to a row and broadcast down the rows reads the column's value -/
theorem rowBcast_apply (v : FVec Ideal S4096x1 .f32) (n j : Fin 4096) :
    broadcastInDim S4096x4096 ![0, 1] bcast_S1x4096_S4096x4096_0_1 (transpose S1x4096 [1, 0] v transposes_S4096x1_S1x4096_1_0) (ix2 n j)
      = v (ix2 j (0 : Fin 1)) := by
  refine (broadcastInDim_apply _ _ _ (ix2 n j) (ix2 (0 : Fin 1) j) (fun a => by
    match a with
    | ⟨0, _⟩ => rfl
    | ⟨1, _⟩ => rfl)).trans ?_
  exact transpose_ix2_apply v transposes_S4096x1_S1x4096_1_0 (0 : Fin 1) j

/-- the row reduction's shape fact in the vector form, which names the inserted index -/
theorem red_rows : S4096x4096.Reduces [1] S4096 := by decide

/-- the inserted index of a row reduction at row n and column j is (n, j) -/
theorem lift_rows (n j : Fin 4096) : red_rows.lift (ix1 n) j = ix2 n j :=
  funext fun a => Fin.ext (by
    match a with
    | ⟨0, _⟩ => rfl
    | ⟨1, _⟩ => rfl)

/-! ## A scalar broadcast to a full array reads the scalar, at the three target shapes the program uses -/

theorem bcNN_apply {α : Type} (x : S_.Idx → α) (i : S4096x4096.Idx) :
    broadcastInDim S4096x4096 ![] bcast_S_S4096x4096 x i = x ix0 := broadcastInDim_scalar_apply _ x i
theorem bcNF_apply {α : Type} (x : S_.Idx → α) (i : S4096x64.Idx) :
    broadcastInDim S4096x64 ![] bcast_S_S4096x64 x i = x ix0 := broadcastInDim_scalar_apply _ x i
theorem bcN_apply {α : Type} (x : S_.Idx → α) (i : S4096.Idx) :
    broadcastInDim S4096 ![] bcast_S_S4096 x i = x ix0 := broadcastInDim_scalar_apply _ x i

/-! ## The pointwise stages -/

/-- the masked logit at (n, j): |w1| · leaky(e) + |w2| · ad where the adjacency word is positive, else -9e15 -/
theorem masked_apply (adj : IVec S4096x4096 32) (ad e : FVec Ideal S4096x4096 .f32) (w1s w2s : FVec Ideal S_ .f32) (n j : Fin 4096) :
    select (cmpi .sgt adj (broadcastInDim S4096x4096 ![] bcast_S_S4096x4096 (constantI S_ 32 0#32))) (addf (mulf (broadcastInDim S4096x4096 ![] bcast_S_S4096x4096 (Host.absf w1s)) (select (cmpf .ogt e (broadcastInDim S4096x4096 ![] bcast_S_S4096x4096 (constant (F := Ideal) S_ .f32 0x00000000#32))) e (mulf (broadcastInDim S4096x4096 ![] bcast_S_S4096x4096 (constant (F := Ideal) S_ .f32 0x3E4CCCCD#32)) e))) (mulf (broadcastInDim S4096x4096 ![] bcast_S_S4096x4096 (Host.absf w2s)) ad)) (broadcastInDim S4096x4096 ![] bcast_S_S4096x4096 (constant (F := Ideal) S_ .f32 0xD9FFCB9E#32)) (ix2 n j)
      = Scalar.select (Spec.adjBit (adj (ix2 n j)))
          (Spec.absE (w1s ix0) * Spec.lreluR (e (ix2 n j)) + Spec.absE (w2s ix0) * ad (ix2 n j)) Spec.cNeg := by
  simp only [select_apply, addf_apply, mulf_apply, cmpf_apply]
  show Scalar.select (IntOp.cmpi .sgt (adj (ix2 n j)) _) _ _ = _
  repeat rw [bcNN_apply]
  rfl

/-- the softmax numerator at (n, j): exp of the logit less the row's shift -/
theorem numer_apply (e : FVec Ideal S4096x4096 .f32) (n j : Fin 4096) :
    Host.exp (subf e (broadcastInDim S4096x4096 ![0, 1] bcast_S4096x1_S4096x4096_0_1 (broadcastInDim S4096x1 ![0] bcast_S4096_S4096x1_0 (maximumf (broadcastInDim S4096 ![] bcast_S_S4096 (constant (F := Ideal) S_ .f32 0xFF800000#32)) (Host.reduce FloatOps.maximumf e (constant (F := Ideal) S_ .f32 0xFF800000#32) reducesTo_S4096x4096_S4096_d1 h_S_))))) (ix2 n j)
      = Spec.pR (fun j' => e (ix2 n j')) j := by
  show Ideal.exp (e (ix2 n j) - _) = Ideal.exp (e (ix2 n j) - _)
  refine congrArg (fun m => Ideal.exp (e (ix2 n j) - m)) ?_
  rw [rowStat_apply, maximumf_apply, bcN_apply,
    Host.reduce_eq_fold_single FloatOps.maximumf e _ reducesTo_S4096x4096_S4096_d1 red_rows h_S_ (ix1 n)]
  have hf : (e ∘ red_rows.lift (ix1 n)) = fun j' : Fin 4096 => e (ix2 n j') := funext fun j' => congrArg e (lift_rows n j')
  rw [hf]
  rfl

/-- elu in the reference's spelling, at (n, k) -/
theorem elu_apply (v : FVec Ideal S4096x64 .f32) (n : Fin 4096) (k : Fin 64) :
    select (cmpf .ogt v (broadcastInDim S4096x64 ![] bcast_S_S4096x64 (constant (F := Ideal) S_ .f32 0x00000000#32))) v (mulf (broadcastInDim S4096x64 ![] bcast_S_S4096x64 (constant (F := Ideal) S_ .f32 0x3F800000#32)) (Host.expm1 (select (cmpf .ogt v (broadcastInDim S4096x64 ![] bcast_S_S4096x64 (constant (F := Ideal) S_ .f32 0x00000000#32))) (broadcastInDim S4096x64 ![] bcast_S_S4096x64 (id (constant (F := Ideal) S_ .f32 0x00000000#32))) v))) (ix2 n k)
      = Spec.eluR (v (ix2 n k)) := by
  rw [select_apply, mulf_apply, cmpf_apply]
  show Scalar.select _ _ (_ * (Ideal.exp (Scalar.select (FloatOps.cmpf .ogt (v (ix2 n k)) _) _ _) - 1)) = _
  repeat rw [bcNF_apply]
  rfl

/-! ## The two composite stages -/

/-- the rank-one logit at (n, j): the vector's first half against row n of h plus its second half against row j -/
theorem logit_apply (h : FVec Ideal S4096x64 .f32) (a : FVec Ideal S128x1 .f32) (n j : Fin 4096) :
    addf (broadcastInDim S4096x4096 ![0, 1] bcast_S4096x1_S4096x4096_0_1 (Host.dotGeneral (F := Ideal) dot_S4096x64_S64x1_S4096x1_1_0_0_1_n_n none h (extractStridedSlice S64x1 ![0, 0] a slices_S128x1_S64x1_0_0))) (broadcastInDim S4096x4096 ![0, 1] bcast_S1x4096_S4096x4096_0_1 (transpose S1x4096 [1, 0] (Host.dotGeneral (F := Ideal) dot_S4096x64_S64x1_S4096x1_1_0_0_1_n_n none h (extractStridedSlice S64x1 ![64, 0] a slices_S128x1_S64x1_64_0)) transposes_S4096x1_S1x4096_1_0)) (ix2 n j)
      = (∑ k : Fin 64, h (ix2 n k) * a (ix2 (⟨k.val, by omega⟩ : Fin 128) (0 : Fin 1)))
        + ∑ k : Fin 64, h (ix2 j k) * a (ix2 (⟨64 + k.val, by omega⟩ : Fin 128) (0 : Fin 1)) := by
  rw [addf_apply, colBcast_apply, rowBcast_apply, dot_hA_apply, dot_hA_apply]
  refine congrArg₂ (· + ·) (Finset.sum_congr rfl fun k _ => ?_) (Finset.sum_congr rfl fun k _ => ?_)
  · exact congrArg (h (ix2 n k) * ·) (slice2_axis0_apply 0 a slices_S128x1_S64x1_0_0 k 0 _ (Nat.zero_add _).symm)
  · exact congrArg (h (ix2 j k) * ·) (slice2_axis0_apply 64 a slices_S128x1_S64x1_64_0 k 0 _ rfl)

/-- the weighted features at (n, k): each numerator divided by the row's sum from zero, against column k of h -/
theorem weighted_apply (p : FVec Ideal S4096x4096 .f32) (h : FVec Ideal S4096x64 .f32) (n : Fin 4096) (k : Fin 64) :
    Host.dotGeneral (F := Ideal) dot_S4096x4096_S4096x64_S4096x64_1_0_0_1_n_n none (Host.divf p (broadcastInDim S4096x4096 ![0, 1] bcast_S4096x1_S4096x4096_0_1 (broadcastInDim S4096x1 ![0] bcast_S4096_S4096x1_0 (Host.reduceAdd p (constant (F := Ideal) S_ .f32 0x00000000#32) reducesTo_S4096x4096_S4096_d1 h_S_)))) h (ix2 n k)
      = ∑ j : Fin 4096, Ideal.div (p (ix2 n j)) (Spec.cZero + ∑ j' : Fin 4096, p (ix2 n j')) * h (ix2 j k) := by
  rw [dot_pH_apply]
  refine Finset.sum_congr rfl fun j _ => ?_
  refine congrArg (· * h (ix2 j k)) ?_
  rw [hostDivf_apply, rowStat_apply, hostReduceAdd_apply, Ideal.hostReduceAdd_single reducesTo_S4096x4096_S4096_d1 red_rows]
  refine congrArg (Ideal.div (p (ix2 n j))) (congrArg (Spec.cZero + ·) (Finset.sum_congr rfl fun j' _ => ?_))
  exact congrArg p (lift_rows n j')

/-! ## A head's own slices inside the stages -/

/-- the projection at (n, k): row n of x against column k of head o's weights -/
theorem proj_apply (o : Nat) (ho : o < 4) (x : FVec Ideal S4096x512 .f32) (W : FVec Ideal S4x512x64 .f32)
    (hs : S4x512x64.Slices ![o, 0, 0] S1x512x64) (hc : S1x512x64.ShapeCasts S512x64) (n : Fin 4096) (k : Fin 64) :
    Host.dotGeneral (F := Ideal) dot_S4096x512_S512x64_S4096x64_1_0_0_1_n_n none x (shapeCast S512x64 (extractStridedSlice S1x512x64 ![o, 0, 0] W hs) hc) (ix2 n k)
      = ∑ j : Fin 512, x (ix2 n j) * W (ix3 (⟨o, ho⟩ : Fin 4) j k) := by
  rw [dot_xW_apply]
  exact Finset.sum_congr rfl fun j _ => congrArg (x (ix2 n j) * ·) (headW_apply o ho W hs hc j k)

/-- the masked logit with head o's two scalar weights sliced out of their stacks -/
theorem maskedH_apply (o : Nat) (ho : o < 4) (adj : IVec S4096x4096 32) (ad e : FVec Ideal S4096x4096 .f32) (w1 w2 : FVec Ideal S4 .f32)
    (hs : S4.Slices ![o] S1) (n j : Fin 4096) :
    select (cmpi .sgt adj (broadcastInDim S4096x4096 ![] bcast_S_S4096x4096 (constantI S_ 32 0#32))) (addf (mulf (broadcastInDim S4096x4096 ![] bcast_S_S4096x4096 (Host.absf (shapeCast S_ (extractStridedSlice S1 ![o] w1 hs) shapeCasts_S1_S_))) (select (cmpf .ogt e (broadcastInDim S4096x4096 ![] bcast_S_S4096x4096 (constant (F := Ideal) S_ .f32 0x00000000#32))) e (mulf (broadcastInDim S4096x4096 ![] bcast_S_S4096x4096 (constant (F := Ideal) S_ .f32 0x3E4CCCCD#32)) e))) (mulf (broadcastInDim S4096x4096 ![] bcast_S_S4096x4096 (Host.absf (shapeCast S_ (extractStridedSlice S1 ![o] w2 hs) shapeCasts_S1_S_))) ad)) (broadcastInDim S4096x4096 ![] bcast_S_S4096x4096 (constant (F := Ideal) S_ .f32 0xD9FFCB9E#32)) (ix2 n j)
      = Scalar.select (Spec.adjBit (adj (ix2 n j)))
          (Spec.absE (w1 (ix1 (⟨o, ho⟩ : Fin 4))) * Spec.lreluR (e (ix2 n j)) + Spec.absE (w2 (ix1 (⟨o, ho⟩ : Fin 4))) * ad (ix2 n j)) Spec.cNeg := by
  rw [masked_apply, headS_apply o ho, headS_apply o ho]

variable (V0 : Valuation τ sig (Elt Ideal))

/-- the eleven argument arrays of a valuation, at their literal types -/
abbrev r_x : FVec Ideal S4096x512 .f32 := V0 (Proc.devRef .tc main_arg0)
abbrev r_adj : IVec S4096x4096 32 := V0 (Proc.devRef .tc main_arg1)
abbrev r_ad : FVec Ideal S4096x4096 .f32 := V0 (Proc.devRef .tc main_arg2)
abbrev r_W : FVec Ideal S4x512x64 .f32 := V0 (Proc.devRef .tc main_arg3)
abbrev r_a : FVec Ideal S4x128x1 .f32 := V0 (Proc.devRef .tc main_arg4)
abbrev r_w1 : FVec Ideal S4 .f32 := V0 (Proc.devRef .tc main_arg5)
abbrev r_w2 : FVec Ideal S4 .f32 := V0 (Proc.devRef .tc main_arg6)
abbrev r_Wo : FVec Ideal S256x16 .f32 := V0 (Proc.devRef .tc main_arg7)
abbrev r_ao : FVec Ideal S32x1 .f32 := V0 (Proc.devRef .tc main_arg8)
abbrev r_w1o : FVec Ideal S_ .f32 := V0 (Proc.devRef .tc main_arg9)
abbrev r_w2o : FVec Ideal S_ .f32 := V0 (Proc.devRef .tc main_arg10)

/-- each head's output, the elu of its weighted features, as the run spells it inside the concatenation -/
abbrev r_head0 : FVec Ideal S4096x64 .f32 :=
  (select (cmpf .ogt (res_main_v43 V0) (broadcastInDim S4096x64 ![] bcast_S_S4096x64 (constant S_ .f32 0x00000000#32))) (res_main_v43 V0) (mulf (broadcastInDim S4096x64 ![] bcast_S_S4096x64 (constant S_ .f32 0x3F800000#32)) (Host.expm1 (select (cmpf .ogt (res_main_v43 V0) (broadcastInDim S4096x64 ![] bcast_S_S4096x64 (constant S_ .f32 0x00000000#32))) (broadcastInDim S4096x64 ![] bcast_S_S4096x64 (id (constant S_ .f32 0x00000000#32))) (res_main_v43 V0)))))
abbrev r_head1 : FVec Ideal S4096x64 .f32 :=
  (select (cmpf .ogt (res_main_v88 V0) (broadcastInDim S4096x64 ![] bcast_S_S4096x64 (constant S_ .f32 0x00000000#32))) (res_main_v88 V0) (mulf (broadcastInDim S4096x64 ![] bcast_S_S4096x64 (constant S_ .f32 0x3F800000#32)) (Host.expm1 (select (cmpf .ogt (res_main_v88 V0) (broadcastInDim S4096x64 ![] bcast_S_S4096x64 (constant S_ .f32 0x00000000#32))) (broadcastInDim S4096x64 ![] bcast_S_S4096x64 (id (constant S_ .f32 0x00000000#32))) (res_main_v88 V0)))))
abbrev r_head2 : FVec Ideal S4096x64 .f32 :=
  (select (cmpf .ogt (res_main_v133 V0) (broadcastInDim S4096x64 ![] bcast_S_S4096x64 (constant S_ .f32 0x00000000#32))) (res_main_v133 V0) (mulf (broadcastInDim S4096x64 ![] bcast_S_S4096x64 (constant S_ .f32 0x3F800000#32)) (Host.expm1 (select (cmpf .ogt (res_main_v133 V0) (broadcastInDim S4096x64 ![] bcast_S_S4096x64 (constant S_ .f32 0x00000000#32))) (broadcastInDim S4096x64 ![] bcast_S_S4096x64 (id (constant S_ .f32 0x00000000#32))) (res_main_v133 V0)))))
abbrev r_head3 : FVec Ideal S4096x64 .f32 :=
  (select (cmpf .ogt (res_main_v178 V0) (broadcastInDim S4096x64 ![] bcast_S_S4096x64 (constant S_ .f32 0x00000000#32))) (res_main_v178 V0) (mulf (broadcastInDim S4096x64 ![] bcast_S_S4096x64 (constant S_ .f32 0x3F800000#32)) (Host.expm1 (select (cmpf .ogt (res_main_v178 V0) (broadcastInDim S4096x64 ![] bcast_S_S4096x64 (constant S_ .f32 0x00000000#32))) (broadcastInDim S4096x64 ![] bcast_S_S4096x64 (id (constant S_ .f32 0x00000000#32))) (res_main_v178 V0)))))

/-! ## One head, from its named arrays' reads to the reference-form entry -/

/-- the reference-form masked logits of head i on row n, over the arguments' views -/
abbrev specE (i : Fin 4) (n : Fin 4096) : Fin 4096 → EReal :=
  Spec.eR (fun j => Spec.adjBit (vadj (r_adj V0) n j)) (Spec.f1R (vx (r_x V0)) (vW (r_W V0)) (va (r_a V0)) i n)
    (fun j => Spec.f2R (vx (r_x V0)) (vW (r_W V0)) (va (r_a V0)) i j) (Spec.absE (vw (r_w1 V0) i)) (Spec.absE (vw (r_w2 V0) i))
    (fun j => vad (r_ad V0) n j)

/-- Six arrays that read, entry by entry, as a head's stages read of one another (the attention vector, the projection,
    the rank-one logits, the masked logits, the softmax numerators, the weighted features) give, under elu, the
    reference-form head entry: each stage's read is rewritten by the one before it. -/
theorem head_chain (i : Fin 4) (v3 : FVec Ideal S128x1 .f32) (v8 : FVec Ideal S4096x64 .f32)
    (v16 v31 v38 : FVec Ideal S4096x4096 .f32) (v43 : FVec Ideal S4096x64 .f32)
    (h3 : ∀ (k : Fin 128) (c : Fin 1), v3 (ix2 k c) = r_a V0 (ix3 i k c))
    (h8 : ∀ (n : Fin 4096) (k : Fin 64), v8 (ix2 n k) = ∑ j : Fin 512, r_x V0 (ix2 n j) * r_W V0 (ix3 i j k))
    (h16 : ∀ n j : Fin 4096, v16 (ix2 n j)
      = (∑ k : Fin 64, v8 (ix2 n k) * v3 (ix2 (⟨k.val, by omega⟩ : Fin 128) (0 : Fin 1)))
        + ∑ k : Fin 64, v8 (ix2 j k) * v3 (ix2 (⟨64 + k.val, by omega⟩ : Fin 128) (0 : Fin 1)))
    (h31 : ∀ n j : Fin 4096, v31 (ix2 n j)
      = Scalar.select (Spec.adjBit (r_adj V0 (ix2 n j)))
          (Spec.absE (r_w1 V0 (ix1 i)) * Spec.lreluR (v16 (ix2 n j)) + Spec.absE (r_w2 V0 (ix1 i)) * r_ad V0 (ix2 n j)) Spec.cNeg)
    (h38 : ∀ n j : Fin 4096, v38 (ix2 n j) = Spec.pR (fun j' => v31 (ix2 n j')) j)
    (h43 : ∀ (n : Fin 4096) (k : Fin 64), v43 (ix2 n k)
      = ∑ j : Fin 4096, Ideal.div (v38 (ix2 n j)) (Spec.cZero + ∑ j' : Fin 4096, v38 (ix2 n j')) * v8 (ix2 j k))
    (n : Fin 4096) (k : Fin 64) :
    Spec.eluR (v43 (ix2 n k))
      = Spec.headR (vx (r_x V0)) (vadj (r_adj V0)) (vad (r_ad V0)) (vW (r_W V0)) (va (r_a V0)) (vw (r_w1 V0)) (vw (r_w2 V0)) i n k := by
  have H8 : ∀ (n : Fin 4096) (k : Fin 64), v8 (ix2 n k) = Spec.hR (vx (r_x V0)) (vW (r_W V0)) i n k := fun n k => h8 n k
  have H16 : ∀ n j : Fin 4096, v16 (ix2 n j)
      = Spec.f1R (vx (r_x V0)) (vW (r_W V0)) (va (r_a V0)) i n + Spec.f2R (vx (r_x V0)) (vW (r_W V0)) (va (r_a V0)) i j := fun n j =>
    (h16 n j).trans (congrArg₂ (· + ·)
      (Finset.sum_congr rfl fun k _ => congrArg₂ (· * ·) (H8 n k) (h3 _ _))
      (Finset.sum_congr rfl fun k _ => congrArg₂ (· * ·) (H8 j k) (h3 _ _)))
  have H31 : ∀ n : Fin 4096, (fun j => v31 (ix2 n j)) = specE V0 i n := fun n => funext fun j => by
    show v31 (ix2 n j) = _
    rw [h31, H16]
    rfl
  have H38 : ∀ n j : Fin 4096, v38 (ix2 n j) = Spec.pR (specE V0 i n) j := fun n j => by rw [h38, H31]
  refine congrArg Spec.eluR ((h43 n k).trans ?_)
  refine Finset.sum_congr rfl fun j _ => ?_
  refine congrArg₂ (· * ·) ?_ (H8 j k)
  rw [H38]
  exact congrArg (Ideal.div _) (congrArg (Spec.cZero + ·) (Finset.sum_congr rfl fun j' _ => H38 n j'))

/-! ## The four heads -/

theorem ref_head0 (n : Fin 4096) (k : Fin 64) :
    r_head0 V0 (ix2 n k)
      = Spec.headR (vx (r_x V0)) (vadj (r_adj V0)) (vad (r_ad V0)) (vW (r_W V0)) (va (r_a V0)) (vw (r_w1 V0)) (vw (r_w2 V0)) 0 n k :=
  (elu_apply (res_main_v43 V0) n k).trans
    (head_chain V0 0 (res_main_v3 V0) (res_main_v8 V0) (res_main_v16 V0) (res_main_v31 V0) (res_main_v38 V0) (res_main_v43 V0)
      (fun k c => by unfold res_main_v3; exact headA_apply 0 (by decide) _ _ _ k c)
      (fun n k => by unfold res_main_v8; exact proj_apply 0 (by decide) _ _ _ _ n k)
      (fun n j => by unfold res_main_v16; exact logit_apply _ _ n j)
      (fun n j => by unfold res_main_v31; exact maskedH_apply 0 (by decide) _ _ _ _ _ _ n j)
      (fun n j => by unfold res_main_v38; exact numer_apply _ n j)
      (fun n k => by unfold res_main_v43; exact weighted_apply _ _ n k) n k)

theorem ref_head1 (n : Fin 4096) (k : Fin 64) :
    r_head1 V0 (ix2 n k)
      = Spec.headR (vx (r_x V0)) (vadj (r_adj V0)) (vad (r_ad V0)) (vW (r_W V0)) (va (r_a V0)) (vw (r_w1 V0)) (vw (r_w2 V0)) 1 n k :=
  (elu_apply (res_main_v88 V0) n k).trans
    (head_chain V0 1 (res_main_v48 V0) (res_main_v53 V0) (res_main_v61 V0) (res_main_v76 V0) (res_main_v83 V0) (res_main_v88 V0)
      (fun k c => by unfold res_main_v48; exact headA_apply 1 (by decide) _ _ _ k c)
      (fun n k => by unfold res_main_v53; exact proj_apply 1 (by decide) _ _ _ _ n k)
      (fun n j => by unfold res_main_v61; exact logit_apply _ _ n j)
      (fun n j => by unfold res_main_v76; exact maskedH_apply 1 (by decide) _ _ _ _ _ _ n j)
      (fun n j => by unfold res_main_v83; exact numer_apply _ n j)
      (fun n k => by unfold res_main_v88; exact weighted_apply _ _ n k) n k)

theorem ref_head2 (n : Fin 4096) (k : Fin 64) :
    r_head2 V0 (ix2 n k)
      = Spec.headR (vx (r_x V0)) (vadj (r_adj V0)) (vad (r_ad V0)) (vW (r_W V0)) (va (r_a V0)) (vw (r_w1 V0)) (vw (r_w2 V0)) 2 n k :=
  (elu_apply (res_main_v133 V0) n k).trans
    (head_chain V0 2 (res_main_v93 V0) (res_main_v98 V0) (res_main_v106 V0) (res_main_v121 V0) (res_main_v128 V0) (res_main_v133 V0)
      (fun k c => by unfold res_main_v93; exact headA_apply 2 (by decide) _ _ _ k c)
      (fun n k => by unfold res_main_v98; exact proj_apply 2 (by decide) _ _ _ _ n k)
      (fun n j => by unfold res_main_v106; exact logit_apply _ _ n j)
      (fun n j => by unfold res_main_v121; exact maskedH_apply 2 (by decide) _ _ _ _ _ _ n j)
      (fun n j => by unfold res_main_v128; exact numer_apply _ n j)
      (fun n k => by unfold res_main_v133; exact weighted_apply _ _ n k) n k)

theorem ref_head3 (n : Fin 4096) (k : Fin 64) :
    r_head3 V0 (ix2 n k)
      = Spec.headR (vx (r_x V0)) (vadj (r_adj V0)) (vad (r_ad V0)) (vW (r_W V0)) (va (r_a V0)) (vw (r_w1 V0)) (vw (r_w2 V0)) 3 n k :=
  (elu_apply (res_main_v178 V0) n k).trans
    (head_chain V0 3 (res_main_v138 V0) (res_main_v143 V0) (res_main_v151 V0) (res_main_v166 V0) (res_main_v173 V0) (res_main_v178 V0)
      (fun k c => by unfold res_main_v138; exact headA_apply 3 (by decide) _ _ _ k c)
      (fun n k => by unfold res_main_v143; exact proj_apply 3 (by decide) _ _ _ _ n k)
      (fun n j => by unfold res_main_v151; exact logit_apply _ _ n j)
      (fun n j => by unfold res_main_v166; exact maskedH_apply 3 (by decide) _ _ _ _ _ _ n j)
      (fun n j => by unfold res_main_v173; exact numer_apply _ n j)
      (fun n k => by unfold res_main_v178; exact weighted_apply _ _ n k) n k)

end Cert.ReferenceIdeal.RV

end
-- ==== Proof.RefOut.lean ====
/-
  The reference's output layer read at an index: the four heads' outputs side by side, projected by the output weights,
  attended once more, then elu and log-softmax; at (n, k) it is Proof/Spec.lean's reference-form output entry.
  First each operation of the layer is read at an index over arbitrary arrays of its shapes: a broadcast of a column, a
  row or a scalar reads the operand's one entry; a product of matrices is the sum over the contracted coordinate; a row's
  sum and a row's maximum run over the row's coordinates; four blocks of 64 columns side by side are read block c / 64 at
  column c % 64. Then the layer's named arrays follow one after another, each from the one before.
-/
import proofs.«118500_g28080496181627_cont_9to1_1526_5_alg».proof.Proof.RefDefs
import proofs.«118500_g28080496181627_cont_9to1_1526_5_alg».proof.Proof.Spec
import proofs.«118500_g28080496181627_cont_9to1_1526_5_alg».proof.Proof.Views
import proofs.«118500_g28080496181627_cont_9to1_1526_5_alg».proof.Proof.RefHeads
import Idealize.ShloMosaic.Lib.ValueIdx
import Idealize.ShloMosaic.Lib.Pipeline.Value
import Idealize.ShloMosaic.Lib.ValueLayout
import Idealize.ShloMosaic.Lib.IdealHost
import Idealize.ShloMosaic.Lib.StackMember
import Idealize.ShloMosaic.PureOps.Ideal.Laws

set_option maxRecDepth 16384

noncomputable section

namespace Cert.ReferenceIdeal.RV

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.RunH Cert.Views

/-! ### Broadcasts and the transpose: the result's entry is the operand's entry on the coordinates they share -/

section Layout
variable {α : Type}

theorem ol_bcol_sq (v : S4096x1.Idx → α) (n j : Fin 4096) :
    broadcastInDim S4096x4096 ![0, 1] bcast_S4096x1_S4096x4096_0_1 v (ix2 n j) = v (ix2 n 0) :=
  broadcastInDim_apply _ _ v _ _ fun a => match a with | ⟨0, _⟩ => rfl | ⟨1, _⟩ => rfl

theorem ol_brow_sq (v : S1x4096.Idx → α) (n j : Fin 4096) :
    broadcastInDim S4096x4096 ![0, 1] bcast_S1x4096_S4096x4096_0_1 v (ix2 n j) = v (ix2 0 j) :=
  broadcastInDim_apply _ _ v _ _ fun a => match a with | ⟨0, _⟩ => rfl | ⟨1, _⟩ => rfl

theorem ol_bcol_16 (v : S4096x1.Idx → α) (n : Fin 4096) (k : Fin 16) :
    broadcastInDim S4096x16 ![0, 1] bcast_S4096x1_S4096x16_0_1 v (ix2 n k) = v (ix2 n 0) :=
  broadcastInDim_apply _ _ v _ _ fun a => match a with | ⟨0, _⟩ => rfl | ⟨1, _⟩ => rfl

theorem ol_bvec_col (v : S4096.Idx → α) (n : Fin 4096) (z : Fin 1) :
    broadcastInDim S4096x1 ![0] bcast_S4096_S4096x1_0 v (ix2 n z) = v (ix1 n) :=
  broadcastInDim_apply _ _ v _ _ fun a => match a with | ⟨0, _⟩ => rfl

theorem ol_tr_col (v : S4096x1.Idx → α) (j : Fin 4096) :
    transpose S1x4096 [1, 0] v transposes_S4096x1_S1x4096_1_0 (ix2 0 j) = v (ix2 j 0) :=
  transpose_ix2_apply v _ 0 j

end Layout

/-! ### A scalar spread over an array reads the scalar everywhere; the pointwise host operations read their operand's entry -/

section Pointwise
variable {α : Type}

theorem ol_bsc_sq (x : S_.Idx → α) (i : S4096x4096.Idx) : broadcastInDim S4096x4096 ![] bcast_S_S4096x4096 x i = x ix0 :=
  broadcastInDim_scalar_apply _ x i
theorem ol_bsc_16 (x : S_.Idx → α) (i : S4096x16.Idx) : broadcastInDim S4096x16 ![] bcast_S_S4096x16 x i = x ix0 :=
  broadcastInDim_scalar_apply _ x i
theorem ol_bsc_vec (x : S_.Idx → α) (i : S4096.Idx) : broadcastInDim S4096 ![] bcast_S_S4096 x i = x ix0 :=
  broadcastInDim_scalar_apply _ x i

theorem ol_cmpi_at {s : Shape} {w : Nat} (p : CmpIPredicate) (x y : IVec s w) (i : s.Idx) :
    cmpi p x y i = IntOp.cmpi p (x i) (y i) := rfl
theorem ol_hostExp_at {s : Shape} (x : FVec Ideal s .f32) (i : s.Idx) : Host.exp x i = Ideal.exp (x i) := rfl
theorem ol_hostLog_at {s : Shape} (x : FVec Ideal s .f32) (i : s.Idx) : Host.log x i = Ideal.log (x i) := rfl
theorem ol_hostExpm1_at {s : Shape} (x : FVec Ideal s .f32) (i : s.Idx) : Host.expm1 x i = Ideal.exp (x i) - 1 := rfl
theorem ol_hostAbsf_at {s : Shape} (x : FVec Ideal s .f32) (i : s.Idx) : Host.absf x i = max (x i) (-(x i)) := rfl

end Pointwise

/-! ### The layer's three matrix products: at (n, k) the sum over the contracted coordinate of the entries' products -/

section Dots

theorem ol_dot_proj_apply (L : FVec Ideal S4096x256 .f32) (R : FVec Ideal S256x16 .f32) (n : Fin 4096) (k : Fin 16) :
    Host.dotGeneral dot_S4096x256_S256x16_S4096x16_1_0_0_1_n_n none L R (ix2 n k) = ∑ c : Fin 256, L (ix2 n c) * R (ix2 c k) :=
  StackMember.dotGeneral_plain_apply (m := 4096) (n := 16) (k := 256) none L R n k

theorem ol_dot_vec_apply (L : FVec Ideal S4096x16 .f32) (R : FVec Ideal S16x1 .f32) (n : Fin 4096) (z : Fin 1) :
    Host.dotGeneral dot_S4096x16_S16x1_S4096x1_1_0_0_1_n_n none L R (ix2 n z) = ∑ k : Fin 16, L (ix2 n k) * R (ix2 k z) :=
  StackMember.dotGeneral_plain_apply (m := 4096) (n := 1) (k := 16) none L R n z

theorem ol_dot_att_apply (L : FVec Ideal S4096x4096 .f32) (R : FVec Ideal S4096x16 .f32) (n : Fin 4096) (k : Fin 16) :
    Host.dotGeneral dot_S4096x4096_S4096x16_S4096x16_1_0_0_1_n_n none L R (ix2 n k) = ∑ j : Fin 4096, L (ix2 n j) * R (ix2 j k) :=
  StackMember.dotGeneral_plain_apply (m := 4096) (n := 16) (k := 4096) none L R n k

end Dots

/-! ### A row's sum and a row's maximum: the index over row n with j put on the reduced axis is (n, j) -/

section Reduces

theorem ol_red_sq : S4096x4096.Reduces [1] S4096 := by decide
theorem ol_red_16 : S4096x16.Reduces [1] S4096 := by decide

theorem ol_lift_sq (n j : Fin 4096) : ol_red_sq.lift (ix1 n) j = ix2 n j := by
  funext a
  match a with
  | ⟨0, _⟩ => exact Fin.ext rfl
  | ⟨1, _⟩ => exact Fin.ext rfl

theorem ol_lift_16 (n : Fin 4096) (k : Fin 16) : ol_red_16.lift (ix1 n) k = ix2 n k := by
  funext a
  match a with
  | ⟨0, _⟩ => exact Fin.ext rfl
  | ⟨1, _⟩ => exact Fin.ext rfl

theorem ol_sum_sq (x : FVec Ideal S4096x4096 .f32) (n : Fin 4096) :
    Host.reduceAdd x (constant (F := Ideal) S_ .f32 0x00000000#32) reducesTo_S4096x4096_S4096_d1 h_S_ (ix1 n)
      = Spec.cZero + ∑ j : Fin 4096, x (ix2 n j) := by
  rw [hostReduceAdd_apply, Ideal.hostReduceAdd_single _ ol_red_sq]
  exact congrArg (Spec.cZero + ·) (Finset.sum_congr rfl fun j _ => congrArg x (ol_lift_sq n j))

theorem ol_sum_16 (x : FVec Ideal S4096x16 .f32) (n : Fin 4096) :
    Host.reduceAdd x (constant (F := Ideal) S_ .f32 0x00000000#32) reducesTo_S4096x16_S4096_d1 h_S_ (ix1 n)
      = Spec.cZero + ∑ k : Fin 16, x (ix2 n k) := by
  rw [hostReduceAdd_apply, Ideal.hostReduceAdd_single _ ol_red_16]
  exact congrArg (Spec.cZero + ·) (Finset.sum_congr rfl fun k _ => congrArg x (ol_lift_16 n k))

theorem ol_max_sq (x : FVec Ideal S4096x4096 .f32) (n : Fin 4096) :
    Host.reduce FloatOps.maximumf x (constant (F := Ideal) S_ .f32 0xFF800000#32) reducesTo_S4096x4096_S4096_d1 h_S_ (ix1 n)
      = Spec.rowMax (fun j : Fin 4096 => x (ix2 n j)) := by
  rw [Host.reduce_eq_fold_single FloatOps.maximumf x _ reducesTo_S4096x4096_S4096_d1 ol_red_sq h_S_]
  exact Finset.fold_congr (fun j _ => congrArg x (ol_lift_sq n j))

theorem ol_max_16 (x : FVec Ideal S4096x16 .f32) (n : Fin 4096) :
    Host.reduce FloatOps.maximumf x (constant (F := Ideal) S_ .f32 0xFF800000#32) reducesTo_S4096x16_S4096_d1 h_S_ (ix1 n)
      = Spec.rowMax (fun k : Fin 16 => x (ix2 n k)) := by
  rw [Host.reduce_eq_fold_single FloatOps.maximumf x _ reducesTo_S4096x16_S4096_d1 ol_red_16 h_S_]
  exact Finset.fold_congr (fun k _ => congrArg x (ol_lift_16 n k))

end Reduces

/-! ### The concatenation along the columns -/

section Concat

/-- four pieces of 64 columns side by side: column c lies in piece c / 64 at inner column c % 64 -/
theorem ol_concat4_apply (u0 u1 u2 u3 : FVec Ideal S4096x64 .f32) (n : Fin 4096) (c : Fin 256) :
    concatenate S4096x256 1 [⟨S4096x64, u0⟩, ⟨S4096x64, u1⟩, ⟨S4096x64, u2⟩, ⟨S4096x64, u3⟩]
        concatenates_S4096x64_S4096x64_S4096x64_S4096x64_S4096x256_d1 (ix2 n c)
      = (![u0, u1, u2, u3] (Spec.colHead c)) (ix2 n (Spec.colFeat c)) :=
  concatenate_ofFn_apply (t := S4096x256) (s₁ := S4096x64) 1 (![u0, u1, u2, u3])
    concatenates_S4096x64_S4096x64_S4096x64_S4096x64_S4096x256_d1 rfl 64 rfl (ix2 n c) (Spec.colHead c) rfl
    (ix2 n (Spec.colFeat c)) rfl (fun b hb => by
      match b with
      | ⟨0, _⟩ => rfl
      | ⟨1, _⟩ => exact absurd rfl hb)

end Concat

/-! ### The two halves of the attention vector: rows 0 … 15 and rows 16 … 31 -/

section Slices
variable {α : Type}

theorem ol_slice_lo (v : S32x1.Idx → α) (k : Fin 16) (z : Fin 1) :
    extractStridedSlice S16x1 ![0, 0] v slices_S32x1_S16x1_0_0 (ix2 k z) = v (ix2 (⟨k.val, by omega⟩ : Fin 32) z) :=
  slice2_axis0_apply 0 v slices_S32x1_S16x1_0_0 k z _ (Nat.zero_add _).symm

theorem ol_slice_hi (v : S32x1.Idx → α) (k : Fin 16) (z : Fin 1) :
    extractStridedSlice S16x1 ![16, 0] v slices_S32x1_S16x1_16_0 (ix2 k z) = v (ix2 (⟨16 + k.val, by omega⟩ : Fin 32) z) :=
  slice2_axis0_apply 16 v slices_S32x1_S16x1_16_0 k z _ rfl

end Slices

/-! ### The layer's stages, each read at an index over arbitrary operands of its shapes -/

section Stages

/-- the rank-one logit: a column of row terms plus a row of column terms -/
theorem ol_logit_apply (ho : FVec Ideal S4096x16 .f32) (ao : FVec Ideal S32x1 .f32) (n j : Fin 4096) :
    addf (broadcastInDim S4096x4096 ![0, 1] bcast_S4096x1_S4096x4096_0_1 (Host.dotGeneral dot_S4096x16_S16x1_S4096x1_1_0_0_1_n_n none ho (extractStridedSlice S16x1 ![0, 0] ao slices_S32x1_S16x1_0_0))) (broadcastInDim S4096x4096 ![0, 1] bcast_S1x4096_S4096x4096_0_1 (transpose S1x4096 [1, 0] (Host.dotGeneral dot_S4096x16_S16x1_S4096x1_1_0_0_1_n_n none ho (extractStridedSlice S16x1 ![16, 0] ao slices_S32x1_S16x1_16_0)) transposes_S4096x1_S1x4096_1_0)) (ix2 n j)
      = (∑ k : Fin 16, ho (ix2 n k) * ao (ix2 (⟨k.val, by omega⟩ : Fin 32) 0))
        + ∑ k : Fin 16, ho (ix2 j k) * ao (ix2 (⟨16 + k.val, by omega⟩ : Fin 32) 0) := by
  rw [addf_apply, ol_bcol_sq, ol_brow_sq, ol_tr_col, ol_dot_vec_apply, ol_dot_vec_apply]
  exact congrArg₂ (· + ·) (Finset.sum_congr rfl fun k _ => congrArg (ho (ix2 n k) * ·) (ol_slice_lo ao k 0))
    (Finset.sum_congr rfl fun k _ => congrArg (ho (ix2 j k) * ·) (ol_slice_hi ao k 0))

/-- the masked logit -/
theorem ol_masked_apply (adj : IVec S4096x4096 32) (w1o w2o : FVec Ideal S_ .f32) (f ad : FVec Ideal S4096x4096 .f32) (n j : Fin 4096) :
    select (cmpi .sgt adj (broadcastInDim S4096x4096 ![] bcast_S_S4096x4096 (constantI S_ 32 0#32))) (addf (mulf (broadcastInDim S4096x4096 ![] bcast_S_S4096x4096 (Host.absf w1o)) (select (cmpf .ogt f (broadcastInDim S4096x4096 ![] bcast_S_S4096x4096 (constant S_ .f32 0x00000000#32))) f (mulf (broadcastInDim S4096x4096 ![] bcast_S_S4096x4096 (constant S_ .f32 0x3E4CCCCD#32)) f))) (mulf (broadcastInDim S4096x4096 ![] bcast_S_S4096x4096 (Host.absf w2o)) ad)) (broadcastInDim S4096x4096 ![] bcast_S_S4096x4096 (constant S_ .f32 0xD9FFCB9E#32)) (ix2 n j)
      = Scalar.select (Spec.adjBit (adj (ix2 n j)))
          (Spec.absE (w1o ix0) * Spec.lreluR (f (ix2 n j)) + Spec.absE (w2o ix0) * ad (ix2 n j)) Spec.cNeg := by
  simp only [select_apply, addf_apply, mulf_apply, cmpf_apply, ol_cmpi_at]
  rw [ol_bsc_sq, ol_bsc_sq, ol_bsc_sq, ol_bsc_sq, ol_bsc_sq, ol_bsc_sq]
  rfl

/-- the softmax numerator: exp of the logit less the row's shift -/
theorem ol_numer_apply (e : FVec Ideal S4096x4096 .f32) (n j : Fin 4096) :
    Host.exp (subf e (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf e (constant S_ .f32 0xFF800000#32) reducesTo_S4096x4096_S4096_d1 h_S_))))) (ix2 n j)
      = Spec.pR (fun j' : Fin 4096 => e (ix2 n j')) j := by
  rw [ol_hostExp_at, subf_apply, ol_bcol_sq, ol_bvec_col, maximumf_apply, ol_max_sq, ol_bsc_vec]
  rfl

/-- the attention-weighted features: each numerator divided by the row's sum, then the weighted sum -/
theorem ol_weighted_apply (p : FVec Ideal S4096x4096 .f32) (ho : FVec Ideal S4096x16 .f32) (n : Fin 4096) (k : Fin 16) :
    Host.dotGeneral dot_S4096x4096_S4096x16_S4096x16_1_0_0_1_n_n none (Host.divf p (broadcastInDim S4096x4096 ![0, 1] bcast_S4096x1_S4096x4096_0_1 (broadcastInDim S4096x1 ![0] bcast_S4096_S4096x1_0 (Host.reduceAdd p (constant S_ .f32 0x00000000#32) reducesTo_S4096x4096_S4096_d1 h_S_)))) ho (ix2 n k)
      = ∑ j : Fin 4096, Ideal.div (p (ix2 n j)) (Spec.cZero + ∑ j' : Fin 4096, p (ix2 n j')) * ho (ix2 j k) := by
  rw [ol_dot_att_apply]
  refine Finset.sum_congr rfl fun j _ => congrArg (· * ho (ix2 j k)) ?_
  rw [hostDivf_apply, ol_bcol_sq, ol_bvec_col, ol_sum_sq]

/-- elu at an index -/
theorem ol_elu_apply (v : FVec Ideal S4096x16 .f32) (i : S4096x16.Idx) :
    select (cmpf .ogt v (broadcastInDim S4096x16 ![] bcast_S_S4096x16 (constant S_ .f32 0x00000000#32))) v (mulf (broadcastInDim S4096x16 ![] bcast_S_S4096x16 (constant S_ .f32 0x3F800000#32)) (Host.expm1 (select (cmpf .ogt v (broadcastInDim S4096x16 ![] bcast_S_S4096x16 (constant S_ .f32 0x00000000#32))) (broadcastInDim S4096x16 ![] bcast_S_S4096x16 (id (constant S_ .f32 0x00000000#32))) v))) i
      = Spec.eluR (v i) := rfl

/-- log-softmax's shift -/
theorem ol_shift_apply (v : FVec Ideal S4096x16 .f32) (n : Fin 4096) (k : Fin 16) :
    subf v (broadcastInDim S4096x16 ![0, 1] bcast_S4096x1_S4096x16_0_1 (broadcastInDim S4096x1 ![0] bcast_S4096_S4096x1_0 (maximumf (broadcastInDim S4096 ![] bcast_S_S4096 (constant S_ .f32 0xFF800000#32)) (Host.reduce FloatOps.maximumf v (constant S_ .f32 0xFF800000#32) reducesTo_S4096x16_S4096_d1 h_S_)))) (ix2 n k)
      = v (ix2 n k) - Spec.mxR (fun k' : Fin 16 => v (ix2 n k')) := by
  rw [subf_apply, ol_bcol_16, ol_bvec_col, maximumf_apply, ol_max_16, ol_bsc_vec]
  rfl

/-- log-softmax of the shifted row -/
theorem ol_lsm_apply (s : FVec Ideal S4096x16 .f32) (n : Fin 4096) (k : Fin 16) :
    subf s (broadcastInDim S4096x16 ![0, 1] bcast_S4096x1_S4096x16_0_1 (Host.log (broadcastInDim S4096x1 ![0] bcast_S4096_S4096x1_0 (Host.reduceAdd (Host.exp s) (constant S_ .f32 0x00000000#32) reducesTo_S4096x16_S4096_d1 h_S_)))) (ix2 n k)
      = s (ix2 n k) - Ideal.log (Spec.cZero + ∑ k' : Fin 16, Ideal.exp (s (ix2 n k'))) := by
  rw [subf_apply, ol_bcol_16, ol_hostLog_at, ol_bvec_col, ol_sum_16]
  rfl

end Stages

variable (V0 : Valuation τ sig (Elt Ideal))

/-- the run's result term -/
abbrev r_out : FVec Ideal S4096x16 .f32 :=
  subf (res_main_call15_v5 V0) (broadcastInDim S4096x16 ![0, 1] bcast_S4096x1_S4096x16_0_1 (Host.log (broadcastInDim S4096x1 ![0] bcast_S4096_S4096x1_0 (Host.reduceAdd (Host.exp (res_main_call15_v5 V0)) (constant S_ .f32 0x00000000#32) reducesTo_S4096x16_S4096_d1 h_S_))))

/-- the output layer's named arrays, at their literal types -/
abbrev o_ho : FVec Ideal S4096x16 .f32 := res_main_v181 V0
abbrev o_lg : FVec Ideal S4096x4096 .f32 := res_main_v189 V0
abbrev o_e : FVec Ideal S4096x4096 .f32 := res_main_v204 V0
abbrev o_p : FVec Ideal S4096x4096 .f32 := res_main_v211 V0
abbrev o_hp : FVec Ideal S4096x16 .f32 := res_main_v216 V0
abbrev o_vo : FVec Ideal S4096x16 .f32 := res_main_v217 V0
abbrev o_sh : FVec Ideal S4096x16 .f32 := res_main_call15_v5 V0

/-- the specification's arrays of the arguments -/
abbrev so_xc : Fin 4096 → Fin 256 → EReal :=
  Spec.xcR (vx (r_x V0)) (vadj (r_adj V0)) (vad (r_ad V0)) (vW (r_W V0)) (va (r_a V0)) (vw (r_w1 V0)) (vw (r_w2 V0))
abbrev so_ho : Fin 4096 → Fin 16 → EReal :=
  Spec.hoR (vx (r_x V0)) (vadj (r_adj V0)) (vad (r_ad V0)) (vW (r_W V0)) (va (r_a V0)) (vw (r_w1 V0)) (vw (r_w2 V0)) (vWo (r_Wo V0))
abbrev so_f1 : Fin 4096 → EReal :=
  Spec.f1oR (vx (r_x V0)) (vadj (r_adj V0)) (vad (r_ad V0)) (vW (r_W V0)) (va (r_a V0)) (vw (r_w1 V0)) (vw (r_w2 V0)) (vWo (r_Wo V0)) (vao (r_ao V0))
abbrev so_f2 : Fin 4096 → EReal :=
  Spec.f2oR (vx (r_x V0)) (vadj (r_adj V0)) (vad (r_ad V0)) (vW (r_W V0)) (va (r_a V0)) (vw (r_w1 V0)) (vw (r_w2 V0)) (vWo (r_Wo V0)) (vao (r_ao V0))
/-- row n of the output layer's masked logits -/
abbrev so_e (n : Fin 4096) : Fin 4096 → EReal :=
  Spec.eR (fun j => Spec.adjBit (vadj (r_adj V0) n j)) (so_f1 V0 n) (fun j => so_f2 V0 j) (Spec.absE (vs (r_w1o V0))) (Spec.absE (vs (r_w2o V0)))
    (fun j => vad (r_ad V0) n j)
abbrev so_vo : Fin 4096 → Fin 16 → EReal :=
  Spec.voR (vx (r_x V0)) (vadj (r_adj V0)) (vad (r_ad V0)) (vW (r_W V0)) (va (r_a V0)) (vw (r_w1 V0)) (vw (r_w2 V0)) (vWo (r_Wo V0)) (vao (r_ao V0))
    (vs (r_w1o V0)) (vs (r_w2o V0))

/-- the heads side by side: column c is head c / 64 at its column c % 64 -/
theorem out_xc (n : Fin 4096) (c : Fin 256) :
    concatenate S4096x256 1 [⟨S4096x64, r_head0 V0⟩, ⟨S4096x64, r_head1 V0⟩, ⟨S4096x64, r_head2 V0⟩, ⟨S4096x64, r_head3 V0⟩]
        concatenates_S4096x64_S4096x64_S4096x64_S4096x64_S4096x256_d1 (ix2 n c)
      = so_xc V0 n c := by
  refine (ol_concat4_apply _ _ _ _ n c).trans ?_
  show _ = Spec.headR _ _ _ _ _ _ _ (Spec.colHead c) n (Spec.colFeat c)
  generalize Spec.colFeat c = q
  generalize Spec.colHead c = i
  match i with
  | ⟨0, _⟩ => exact ref_head0 V0 n q
  | ⟨1, _⟩ => exact ref_head1 V0 n q
  | ⟨2, _⟩ => exact ref_head2 V0 n q
  | ⟨3, _⟩ => exact ref_head3 V0 n q

/-- the projected features: the concatenation times the output weights -/
theorem out_ho (n : Fin 4096) (k : Fin 16) : o_ho V0 (ix2 n k) = so_ho V0 n k := by
  unfold o_ho res_main_v181
  refine (ol_dot_proj_apply _ _ n k).trans ?_
  exact Finset.sum_congr rfl fun c _ => congrArg (· * r_Wo V0 (ix2 c k)) (out_xc V0 n c)

/-- the rank-one logit f1 n + f2 j -/
theorem out_lg (n j : Fin 4096) : o_lg V0 (ix2 n j) = so_f1 V0 n + so_f2 V0 j := by
  unfold o_lg res_main_v189
  refine (ol_logit_apply _ _ n j).trans ?_
  exact congrArg₂ (· + ·)
    (Finset.sum_congr rfl fun k _ => congrArg (· * r_ao V0 (ix2 (⟨k.val, by omega⟩ : Fin 32) 0)) (out_ho V0 n k))
    (Finset.sum_congr rfl fun k _ => congrArg (· * r_ao V0 (ix2 (⟨16 + k.val, by omega⟩ : Fin 32) 0)) (out_ho V0 j k))

/-- the masked logit -/
theorem out_e (n j : Fin 4096) : o_e V0 (ix2 n j) = so_e V0 n j := by
  unfold o_e res_main_v204
  refine (ol_masked_apply _ _ _ _ _ n j).trans ?_
  exact congrArg (fun t => Scalar.select (Spec.adjBit (r_adj V0 (ix2 n j)))
    (Spec.absE (r_w1o V0 ix0) * Spec.lreluR t + Spec.absE (r_w2o V0 ix0) * r_ad V0 (ix2 n j)) Spec.cNeg) (out_lg V0 n j)

/-- the softmax numerator -/
theorem out_p (n j : Fin 4096) : o_p V0 (ix2 n j) = Spec.pR (so_e V0 n) j := by
  unfold o_p res_main_v211
  refine (ol_numer_apply _ n j).trans ?_
  exact congrArg (fun e => Spec.pR e j) (funext fun j' => out_e V0 n j')

/-- the attention-weighted features -/
theorem out_hp (n : Fin 4096) (k : Fin 16) : o_hp V0 (ix2 n k) = Spec.hpR (so_e V0 n) (fun j => so_ho V0 j k) := by
  unfold o_hp res_main_v216
  refine (ol_weighted_apply _ _ n k).trans ?_
  exact Finset.sum_congr rfl fun j _ => congrArg₂ (· * ·)
    (congrArg₂ Ideal.div (out_p V0 n j) (congrArg (Spec.cZero + ·) (Finset.sum_congr rfl fun j' _ => out_p V0 n j')))
    (out_ho V0 j k)

/-- their elu -/
theorem out_vo (n : Fin 4096) (k : Fin 16) : o_vo V0 (ix2 n k) = so_vo V0 n k := by
  unfold o_vo res_main_v217
  refine (ol_elu_apply _ (ix2 n k)).trans ?_
  exact congrArg Spec.eluR (out_hp V0 n k)

/-- the row less its shift -/
theorem out_sh (n : Fin 4096) (k : Fin 16) :
    o_sh V0 (ix2 n k) = so_vo V0 n k - Spec.mxR (fun k' => so_vo V0 n k') := by
  unfold o_sh res_main_call15_v5
  refine (ol_shift_apply _ n k).trans ?_
  exact congrArg₂ (· - ·) (out_vo V0 n k) (congrArg Spec.mxR (funext fun k' => out_vo V0 n k'))

theorem ref_out (n : Fin 4096) (k : Fin 16) :
    r_out V0 (ix2 n k)
      = Spec.outR (vx (r_x V0)) (vadj (r_adj V0)) (vad (r_ad V0)) (vW (r_W V0)) (va (r_a V0)) (vw (r_w1 V0)) (vw (r_w2 V0))
          (vWo (r_Wo V0)) (vao (r_ao V0)) (vs (r_w1o V0)) (vs (r_w2o V0)) n k := by
  refine (ol_lsm_apply _ n k).trans ?_
  exact congrArg₂ (· - ·) (out_sh V0 n k)
    (congrArg (fun t => Ideal.log (Spec.cZero + t)) (Finset.sum_congr rfl fun k' _ => congrArg Ideal.exp (out_sh V0 n k')))

end Cert.ReferenceIdeal.RV

end
-- ==== Proof.RealRow.lean ====
/-
  Row-level facts over finite inputs: on real-valued rows the kernel's and the reference's attention entries are one
  real number, and so are their two spellings of log-softmax.
-/
import proofs.«118500_g28080496181627_cont_9to1_1526_5_alg».proof.Proof.Spec

noncomputable section

namespace Cert.RealRow

open Idealize.ShloMosaic Cert.Spec

/-! ## Real numbers inside the extended reals -/

/-- the inclusion of the reals is monotone, so it commutes with max -/
theorem coe_max (a b : ℝ) : ((max a b : ℝ) : EReal) = max (a : EReal) (b : EReal) :=
  EReal.coe_strictMono.monotone.map_max

/-- … and with min -/
theorem coe_min (a b : ℝ) : ((min a b : ℝ) : EReal) = min (a : EReal) (b : EReal) :=
  EReal.coe_strictMono.monotone.map_min

/-- a finite sum of reals, included, is the sum of the inclusions -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- division by a nonzero real is real division -/
theorem div_real (a y : ℝ) (hy : y ≠ 0) : Ideal.div (a : EReal) (y : EReal) = ((a / y : ℝ) : EReal) := by
  rw [Ideal.div_coe hy, ← EReal.coe_mul, mul_one_div]

/-! ## The literals -/

/-- the rectifier's slope as a real: 13421773 / 2^26, a little above 0.2 -/
def leak : ℝ := 13421773 / 67108864
/-- the masked logit as a real: -(16763806 · 2^29), near -9e15 -/
def negBig : ℝ := -(16763806 * 2 ^ 29)

theorem leak_nonneg : 0 ≤ leak := by unfold leak; norm_num
theorem leak_le_one : leak ≤ 1 := by unfold leak; norm_num

theorem cZero_eq : cZero = 0 := by simp [Ideal.ofBits, Ideal.ieee]
theorem cOne_eq : cOne = 1 := by simp [Ideal.ofBits, Ideal.ieee, -EReal.coe_mul]; norm_num
theorem cNinf_eq : cNinf = ⊥ := by simp [Ideal.ofBits, Ideal.ieee]
theorem cLeak_eq : cLeak = (leak : EReal) := by
  unfold leak; simp [Ideal.ofBits, Ideal.ieee, -EReal.coe_mul]; norm_num
theorem cNeg_eq : cNeg = (negBig : EReal) := by
  unfold negBig; simp [Ideal.ofBits, Ideal.ieee, -EReal.coe_mul]

/-! ## Absolute value, comparison with zero, the rectifier -/

/-- |a| of a real, as both programs compute it, is the real |a| -/
theorem absE_coe (a : ℝ) : absE (a : EReal) = ((|a| : ℝ) : EReal) := by
  show max (a : EReal) (-(a : EReal)) = _
  rw [← EReal.coe_neg, ← coe_max, ← abs_eq_max_neg]

/-- a selection on "v > 0" for a real v is the real case split -/
theorem select_gt {α : Type} (v : ℝ) (a b : α) :
    Scalar.select (Ideal.cmp .ogt (v : EReal) cZero) a b = if 0 < v then a else b := by
  rw [cZero_eq]
  unfold Scalar.select Ideal.cmp
  by_cases h : 0 < v
  · have h' : (0 : EReal) < (v : EReal) := EReal.coe_pos.2 h
    simp [h, h']
  · have h' : ¬ (0 : EReal) < (v : EReal) := fun h'' => h (EReal.coe_pos.1 h'')
    simp [h, h']

/-- the leaky rectifier of a real -/
def lrelu (v : ℝ) : ℝ := if 0 < v then v else leak * v

theorem lreluR_coe (v : ℝ) : lreluR (v : EReal) = (lrelu v : EReal) := by
  unfold lreluR lrelu
  rw [select_gt, cLeak_eq]
  split_ifs
  · rfl
  · rw [EReal.coe_mul]

/-- with a nonnegative factor a folded inside: max (a·v) (c·(a·v)) = a · lrelu v, because 0 ≤ c ≤ 1 -/
theorem max_leak_mul (a v : ℝ) (ha : 0 ≤ a) : max (a * v) (leak * (a * v)) = a * lrelu v := by
  unfold lrelu
  have h1 : 0 ≤ 1 - leak := sub_nonneg.2 leak_le_one
  split_ifs with h
  · apply max_eq_left
    nlinarith [mul_nonneg h1 (mul_nonneg ha h.le)]
  · rw [max_eq_right]
    · ring
    · nlinarith [mul_nonneg h1 (mul_nonneg ha (neg_nonneg.2 (not_lt.1 h)))]

/-! ## The masked logits -/

/-- the masked logit of one row as a real number -/
def logit (mask : Fin 4096 → BitVec 1) (f1 : ℝ) (f2 : Fin 4096 → ℝ) (A B : ℝ) (ad : Fin 4096 → ℝ) (j : Fin 4096) : ℝ :=
  if mask j = 1 then |A| * lrelu (f1 + f2 j) + |B| * ad j else negBig

theorem eK_coe (mask : Fin 4096 → BitVec 1) (f1 : ℝ) (f2 : Fin 4096 → ℝ) (A B : ℝ) (ad : Fin 4096 → ℝ) (j : Fin 4096) :
    eK mask ((|A| * f1 : ℝ) : EReal) (fun j => ((|A| * f2 j : ℝ) : EReal)) (absE (B : EReal)) (fun j => (ad j : EReal)) j
      = (logit mask f1 f2 A B ad j : EReal) := by
  unfold eK logit Scalar.select
  have h1 : ((|A| * f1 : ℝ) : EReal) + ((|A| * f2 j : ℝ) : EReal) = ((|A| * (f1 + f2 j) : ℝ) : EReal) := by
    rw [← EReal.coe_add, mul_add]
  rw [absE_coe, cNeg_eq, cLeak_eq]
  split_ifs with hm
  · rw [h1, ← EReal.coe_mul, ← coe_max, max_leak_mul _ _ (abs_nonneg A), ← EReal.coe_mul, ← EReal.coe_add]
  · rfl

theorem eR_coe (mask : Fin 4096 → BitVec 1) (f1 : ℝ) (f2 : Fin 4096 → ℝ) (A B : ℝ) (ad : Fin 4096 → ℝ) (j : Fin 4096) :
    eR mask (f1 : EReal) (fun j => (f2 j : EReal)) (absE (A : EReal)) (absE (B : EReal)) (fun j => (ad j : EReal)) j
      = (logit mask f1 f2 A B ad j : EReal) := by
  unfold eR logit Scalar.select
  rw [absE_coe, absE_coe, cNeg_eq]
  split_ifs with hm
  · rw [← EReal.coe_add, lreluR_coe, ← EReal.coe_mul, ← EReal.coe_mul, ← EReal.coe_add]
  · rfl

/-! ## The row maximum -/

/-- the running maximum from -inf over a nonempty finite set of reals is a real -/
theorem fold_max_real {ι : Type} [DecidableEq ι] (s : Finset ι) (hs : s.Nonempty) (f : ι → ℝ) :
    ∃ M : ℝ, s.fold max (⊥ : EReal) (fun j => (f j : EReal)) = (M : EReal) := by
  induction s using Finset.induction_on with
  | empty => exact absurd hs (by simp)
  | insert a s ha ih =>
    rw [Finset.fold_insert ha]
    rcases s.eq_empty_or_nonempty with rfl | hne
    · exact ⟨f a, by simp⟩
    · obtain ⟨M, hM⟩ := ih hne
      exact ⟨max (f a) M, by rw [hM, coe_max]⟩

theorem rowMax_real {n : Nat} (hn : 0 < n) (f : Fin n → ℝ) :
    ∃ M : ℝ, rowMax (fun j => (f j : EReal)) = (M : EReal) := by
  unfold rowMax
  rw [cNinf_eq]
  exact fold_max_real _ ⟨⟨0, hn⟩, Finset.mem_univ _⟩ f

/-- the reference's shift, max of -inf and the row maximum, is the row maximum -/
theorem mxR_eq {n : Nat} (e : Fin n → EReal) : mxR e = rowMax e := by
  unfold mxR
  rw [cNinf_eq]
  exact max_eq_right bot_le

/-! ## The softmax average -/

/-- dividing after the weighted sum (kernel) or before it (reference) gives one real number -/
theorem hp_real (e h : Fin 4096 → ℝ) :
    ∃ u : ℝ, hpK (fun j => (e j : EReal)) (fun j => (h j : EReal)) = (u : EReal)
      ∧ hpR (fun j => (e j : EReal)) (fun j => (h j : EReal)) = (u : EReal) := by
  obtain ⟨M, hM⟩ := rowMax_real (by norm_num) e
  have hpK' : ∀ j, pK (fun j => (e j : EReal)) j = ((Real.exp (e j - M) : ℝ) : EReal) := by
    intro j; unfold pK; rw [hM, ← EReal.coe_sub, Ideal.exp_coe]
  have hpR' : ∀ j, pR (fun j => (e j : EReal)) j = ((Real.exp (e j - M) : ℝ) : EReal) := by
    intro j; unfold pR; rw [mxR_eq, hM, ← EReal.coe_sub, Ideal.exp_coe]
  have hs : 0 < ∑ j : Fin 4096, Real.exp (e j - M) :=
    Finset.sum_pos (fun j _ => Real.exp_pos _) ⟨⟨0, by norm_num⟩, Finset.mem_univ _⟩
  have eS : (∑ j, pK (fun j => (e j : EReal)) j) = ((∑ j : Fin 4096, Real.exp (e j - M) : ℝ) : EReal) := by
    rw [coe_sum]; exact Finset.sum_congr rfl (fun j _ => hpK' j)
  have eSR : cZero + (∑ j, pR (fun j => (e j : EReal)) j) = ((∑ j : Fin 4096, Real.exp (e j - M) : ℝ) : EReal) := by
    rw [cZero_eq, zero_add, coe_sum]; exact Finset.sum_congr rfl (fun j _ => hpR' j)
  refine ⟨(∑ j : Fin 4096, Real.exp (e j - M) * h j) / (∑ j : Fin 4096, Real.exp (e j - M)), ?_, ?_⟩
  · unfold hpK
    have eN : (∑ j, pK (fun j => (e j : EReal)) j * (fun j => (h j : EReal)) j)
        = ((∑ j : Fin 4096, Real.exp (e j - M) * h j : ℝ) : EReal) := by
      rw [coe_sum]; exact Finset.sum_congr rfl (fun j _ => by rw [hpK' j, EReal.coe_mul])
    rw [eN, eS, div_real _ _ hs.ne']
  · unfold hpR
    have eA : ∀ j, attnR (fun j => (e j : EReal)) j
        = ((Real.exp (e j - M) / (∑ j : Fin 4096, Real.exp (e j - M)) : ℝ) : EReal) := by
      intro j; unfold attnR; rw [eSR, hpR' j, div_real _ _ hs.ne']
    rw [Finset.sum_div, coe_sum]
    exact Finset.sum_congr rfl (fun j _ => by rw [eA j, ← EReal.coe_mul, div_mul_eq_mul_div])

/-! ## The exponential linear unit -/

/-- the elu of a real -/
def elu (u : ℝ) : ℝ := if 0 < u then u else Real.exp u - 1

theorem eluK_coe (u : ℝ) : eluK (u : EReal) = (elu u : EReal) := by
  unfold eluK elu
  rw [select_gt, cZero_eq, cOne_eq]
  split_ifs with h
  · rfl
  · rw [← EReal.coe_zero, ← coe_min, Ideal.exp_coe, min_eq_left (not_lt.1 h), ← EReal.coe_one, ← EReal.coe_sub]

theorem eluR_coe (u : ℝ) : eluR (u : EReal) = (elu u : EReal) := by
  unfold eluR elu
  rw [select_gt, select_gt]
  split_ifs with h
  · rfl
  · rw [cOne_eq, one_mul, Ideal.exp_coe, ← EReal.coe_one, ← EReal.coe_sub]

/-! ## The two bridges -/

/-- One attention entry. With |A| folded into the rank-one terms (kernel) or multiplied after the rectifier (reference),
    and with the division after (kernel) or before (reference) the weighted sum, both are the same real number. -/
theorem att_bridge (mask : Fin 4096 → BitVec 1) (f1 : ℝ) (f2 : Fin 4096 → ℝ) (A B : ℝ) (ad hcol : Fin 4096 → ℝ) :
    ∃ r : ℝ,
      attK mask ((|A| * f1 : ℝ) : EReal) (fun j => ((|A| * f2 j : ℝ) : EReal)) (absE (B : EReal)) (fun j => (ad j : EReal))
          (fun j => (hcol j : EReal)) = (r : EReal)
      ∧ eluR (hpR (eR mask (f1 : EReal) (fun j => (f2 j : EReal)) (absE (A : EReal)) (absE (B : EReal)) (fun j => (ad j : EReal)))
          (fun j => (hcol j : EReal))) = (r : EReal) := by
  obtain ⟨u, hK, hR⟩ := hp_real (logit mask f1 f2 A B ad) hcol
  have eKf : eK mask ((|A| * f1 : ℝ) : EReal) (fun j => ((|A| * f2 j : ℝ) : EReal)) (absE (B : EReal)) (fun j => (ad j : EReal))
      = fun j => (logit mask f1 f2 A B ad j : EReal) := funext (eK_coe mask f1 f2 A B ad)
  have eRf : eR mask (f1 : EReal) (fun j => (f2 j : EReal)) (absE (A : EReal)) (absE (B : EReal)) (fun j => (ad j : EReal))
      = fun j => (logit mask f1 f2 A B ad j : EReal) := funext (eR_coe mask f1 f2 A B ad)
  refine ⟨elu u, ?_, ?_⟩
  · unfold attK
    rw [eKf, hK, eluK_coe]
  · rw [eRf, hR, eluR_coe]

/-- The two spellings of log-softmax agree on a real row. -/
theorem lsm_bridge (v : Fin 16 → ℝ) (k : Fin 16) :
    lsmK (fun k' => (v k' : EReal)) k = lsmR (fun k' => (v k' : EReal)) k := by
  obtain ⟨M, hM⟩ := rowMax_real (by norm_num) v
  have hs : 0 < ∑ k' : Fin 16, Real.exp (v k' - M) :=
    Finset.sum_pos (fun j _ => Real.exp_pos _) ⟨⟨0, by norm_num⟩, Finset.mem_univ _⟩
  have eS : (∑ k' : Fin 16, Ideal.exp ((v k' : EReal) - (M : EReal))) = ((∑ k' : Fin 16, Real.exp (v k' - M) : ℝ) : EReal) := by
    rw [coe_sum]; exact Finset.sum_congr rfl (fun j _ => by rw [← EReal.coe_sub, Ideal.exp_coe])
  have hlog : Ideal.log ((∑ k' : Fin 16, Real.exp (v k' - M) : ℝ) : EReal)
      = ((Real.log (∑ k' : Fin 16, Real.exp (v k' - M)) : ℝ) : EReal) := by
    rw [Ideal.log_coe, if_neg (not_le.2 hs)]
  unfold lsmK lsmR
  rw [mxR_eq, hM, cZero_eq, zero_add]
  simp only []
  rw [eS, hlog, ← EReal.coe_add, ← EReal.coe_sub, ← EReal.coe_sub, ← EReal.coe_sub]
  congr 1; ring

end Cert.RealRow

end
-- ==== Proof.RealMath.lean ====
/-
  On finite inputs the kernel's association and the reference's association of the whole network are one function.
  Every stage is given an explicit real-valued function; each side's stage is shown to be the coercion of it.
-/
import proofs.«118500_g28080496181627_cont_9to1_1526_5_alg».proof.Proof.Spec
import proofs.«118500_g28080496181627_cont_9to1_1526_5_alg».proof.Proof.RealRow

noncomputable section

namespace Cert.RealMath

open Idealize.ShloMosaic Cert.Spec

/-! ## Sums of coerced reals -/

/-- the coercion of a finite sum of reals is the sum of the coercions -/
theorem coe_sum {ι : Type} (s : Finset ι) (f : ι → ℝ) :
    ((∑ i ∈ s, f i : ℝ) : EReal) = ∑ i ∈ s, (f i : EReal) := by
  classical
  induction s using Finset.induction_on with
  | empty => simp
  | insert b s hb ih => rw [Finset.sum_insert hb, Finset.sum_insert hb, EReal.coe_add, ih]

/-! ## Concatenated columns are pairs (head, feature) -/

/-- a column c of the 256 is the pair (c / 64, c % 64) -/
def colEquiv : Fin 256 ≃ Fin 4 × Fin 64 where
  toFun c := (colHead c, colFeat c)
  invFun p := ⟨p.1.val * 64 + p.2.val, by omega⟩
  left_inv c := Fin.ext (by show c.val / 64 * 64 + c.val % 64 = c.val; omega)
  right_inv p := Prod.ext (Fin.ext (by show (p.1.val * 64 + p.2.val) / 64 = p.1.val; omega))
    (Fin.ext (by show (p.1.val * 64 + p.2.val) % 64 = p.2.val; omega))

/-- a sum over the columns is a double sum over heads and features -/
theorem sum_cols (g : Fin 4 → Fin 64 → ℝ) :
    ∑ c : Fin 256, g (colHead c) (colFeat c) = ∑ i : Fin 4, ∑ k : Fin 64, g i k := by
  rw [← Fintype.sum_prod_type']
  exact Fintype.sum_equiv colEquiv _ _ (fun c => rfl)

/-- the block-diagonal vector keeps only head i's 64 columns, and |w i| comes out of the sum -/
theorem real_block (h b : Fin 4 → Fin 64 → ℝ) (w : Fin 4 → ℝ) (i : Fin 4) :
    ∑ c : Fin 256, h (colHead c) (colFeat c) *
        ((if colHead c = i then 1 else 0) * (b (colHead c) (colFeat c) * |w (colHead c)|))
      = |w i| * ∑ k : Fin 64, h i k * b i k := by
  refine (sum_cols (fun i' k => h i' k * ((if i' = i then 1 else 0) * (b i' k * |w i'|)))).trans ?_
  rw [Finset.sum_eq_single i (fun j _ hj => by simp [hj]) (fun hi => absurd (Finset.mem_univ i) hi)]
  rw [Finset.mul_sum]
  refine Finset.sum_congr rfl fun k _ => ?_
  rw [if_pos rfl]; ring

/-! ## The network's stages as real-valued functions -/

section Stages
variable (x : Fin 4096 → Fin 512 → ℝ) (adj : Fin 4096 → Fin 4096 → BitVec 32) (ad : Fin 4096 → Fin 4096 → ℝ)
  (W : Fin 4 → Fin 512 → Fin 64 → ℝ) (a : Fin 4 → Fin 128 → ℝ) (w1 w2 : Fin 4 → ℝ)
  (Wo : Fin 256 → Fin 16 → ℝ) (ao : Fin 32 → ℝ) (w1o w2o : ℝ)

/-- one head's projection -/
def hReal (i : Fin 4) (n : Fin 4096) (k : Fin 64) : ℝ := ∑ j : Fin 512, x n j * W i j k
/-- one head's rank-one terms, without |w1| -/
def f1Real (i : Fin 4) (n : Fin 4096) : ℝ := ∑ k : Fin 64, hReal x W i n k * a i ⟨k.val, by omega⟩
def f2Real (i : Fin 4) (n : Fin 4096) : ℝ := ∑ k : Fin 64, hReal x W i n k * a i ⟨64 + k.val, by omega⟩

/-- the real number both associations of one attention entry equal -/
def attReal (mask : Fin 4096 → BitVec 1) (f1 : ℝ) (f2 : Fin 4096 → ℝ) (A B : ℝ) (adr hcol : Fin 4096 → ℝ) : ℝ :=
  Classical.choose (RealRow.att_bridge mask f1 f2 A B adr hcol)

theorem attReal_K (mask : Fin 4096 → BitVec 1) (f1 : ℝ) (f2 : Fin 4096 → ℝ) (A B : ℝ) (adr hcol : Fin 4096 → ℝ) :
    attK mask ((|A| * f1 : ℝ) : EReal) (fun j => ((|A| * f2 j : ℝ) : EReal)) (absE (B : EReal))
        (fun j => (adr j : EReal)) (fun j => (hcol j : EReal)) = (attReal mask f1 f2 A B adr hcol : EReal) :=
  (Classical.choose_spec (RealRow.att_bridge mask f1 f2 A B adr hcol)).1

theorem attReal_R (mask : Fin 4096 → BitVec 1) (f1 : ℝ) (f2 : Fin 4096 → ℝ) (A B : ℝ) (adr hcol : Fin 4096 → ℝ) :
    eluR (hpR (eR mask (f1 : EReal) (fun j => (f2 j : EReal)) (absE (A : EReal)) (absE (B : EReal))
        (fun j => (adr j : EReal))) (fun j => (hcol j : EReal))) = (attReal mask f1 f2 A B adr hcol : EReal) :=
  (Classical.choose_spec (RealRow.att_bridge mask f1 f2 A B adr hcol)).2

/-- the first layer's output, heads side by side -/
def xcReal (n : Fin 4096) (c : Fin 256) : ℝ :=
  attReal (fun j => adjBit (adj n j)) (f1Real x W a (colHead c) n) (fun j => f2Real x W a (colHead c) j)
    (w1 (colHead c)) (w2 (colHead c)) (fun j => ad n j) (fun j => hReal x W (colHead c) j (colFeat c))

/-- the output layer's projection and rank-one terms, without |w1o| -/
def hoReal (n : Fin 4096) (k : Fin 16) : ℝ := ∑ c : Fin 256, xcReal x adj ad W a w1 w2 n c * Wo c k
def f1oReal (n : Fin 4096) : ℝ := ∑ k : Fin 16, hoReal x adj ad W a w1 w2 Wo n k * ao ⟨k.val, by omega⟩
def f2oReal (n : Fin 4096) : ℝ := ∑ k : Fin 16, hoReal x adj ad W a w1 w2 Wo n k * ao ⟨16 + k.val, by omega⟩

/-- the output layer's attention entry -/
def voReal (n : Fin 4096) (k : Fin 16) : ℝ :=
  attReal (fun j => adjBit (adj n j)) (f1oReal x adj ad W a w1 w2 Wo ao n) (fun j => f2oReal x adj ad W a w1 w2 Wo ao j)
    w1o w2o (fun j => ad n j) (fun j => hoReal x adj ad W a w1 w2 Wo j k)

/-! ## Step 1: the projections -/

theorem hcatK_eq (n : Fin 4096) (c : Fin 256) :
    hcatK (fun n j => (x n j : EReal)) (fun i j k => (W i j k : EReal)) n c
      = (hReal x W (colHead c) n (colFeat c) : EReal) := by
  simp only [hcatK, WcK, hReal, coe_sum, EReal.coe_mul]

theorem hR_eq (i : Fin 4) (n : Fin 4096) (k : Fin 64) :
    hR (fun n j => (x n j : EReal)) (fun i j k => (W i j k : EReal)) i n k = (hReal x W i n k : EReal) := by
  simp only [hR, hReal, coe_sum, EReal.coe_mul]

/-! ## Step 2: the rank-one terms -/

theorem eyeK_eq (i j : Fin 4) : eyeK i j = ((if i = j then 1 else 0 : ℝ) : EReal) := by
  unfold eyeK; split_ifs <;> simp

theorem f1K_eq (n : Fin 4096) (i : Fin 4) :
    f1K (fun n j => (x n j : EReal)) (fun i j k => (W i j k : EReal)) (fun i k => (a i k : EReal))
        (fun i => (w1 i : EReal)) n i = ((|w1 i| * f1Real x W a i n : ℝ) : EReal) := by
  have hterm : ∀ c : Fin 256,
      hcatK (fun n j => (x n j : EReal)) (fun i j k => (W i j k : EReal)) n c
          * A1K (fun i k => (a i k : EReal)) (fun i => (w1 i : EReal)) c i
        = ((hReal x W (colHead c) n (colFeat c) * ((if colHead c = i then 1 else 0)
            * (a (colHead c) ⟨(colFeat c).val, by omega⟩ * |w1 (colHead c)|)) : ℝ) : EReal) := by
    intro c
    rw [hcatK_eq]
    simp only [A1K, eyeK_eq, RealRow.absE_coe, EReal.coe_mul]
  unfold f1K
  rw [Finset.sum_congr rfl (fun c _ => hterm c), ← coe_sum]
  exact congrArg _ (real_block (fun i' k => hReal x W i' n k) (fun i' k => a i' ⟨k.val, by omega⟩) w1 i)

theorem f2K_eq (n : Fin 4096) (i : Fin 4) :
    f2K (fun n j => (x n j : EReal)) (fun i j k => (W i j k : EReal)) (fun i k => (a i k : EReal))
        (fun i => (w1 i : EReal)) n i = ((|w1 i| * f2Real x W a i n : ℝ) : EReal) := by
  have hterm : ∀ c : Fin 256,
      hcatK (fun n j => (x n j : EReal)) (fun i j k => (W i j k : EReal)) n c
          * A2K (fun i k => (a i k : EReal)) (fun i => (w1 i : EReal)) c i
        = ((hReal x W (colHead c) n (colFeat c) * ((if colHead c = i then 1 else 0)
            * (a (colHead c) ⟨64 + (colFeat c).val, by omega⟩ * |w1 (colHead c)|)) : ℝ) : EReal) := by
    intro c
    rw [hcatK_eq]
    simp only [A2K, eyeK_eq, RealRow.absE_coe, EReal.coe_mul]
  unfold f2K
  rw [Finset.sum_congr rfl (fun c _ => hterm c), ← coe_sum]
  exact congrArg _ (real_block (fun i' k => hReal x W i' n k) (fun i' k => a i' ⟨64 + k.val, by omega⟩) w1 i)

theorem f1R_eq (i : Fin 4) (n : Fin 4096) :
    f1R (fun n j => (x n j : EReal)) (fun i j k => (W i j k : EReal)) (fun i k => (a i k : EReal)) i n
      = (f1Real x W a i n : EReal) := by
  simp only [f1R, hR_eq, f1Real, coe_sum, EReal.coe_mul]

theorem f2R_eq (i : Fin 4) (n : Fin 4096) :
    f2R (fun n j => (x n j : EReal)) (fun i j k => (W i j k : EReal)) (fun i k => (a i k : EReal)) i n
      = (f2Real x W a i n : EReal) := by
  simp only [f2R, hR_eq, f2Real, coe_sum, EReal.coe_mul]

/-! ## Step 3: the first layer's attention -/

theorem xcK_eq (n : Fin 4096) (c : Fin 256) :
    xcK (fun n j => (x n j : EReal)) adj (fun n j => (ad n j : EReal)) (fun i j k => (W i j k : EReal))
        (fun i k => (a i k : EReal)) (fun i => (w1 i : EReal)) (fun i => (w2 i : EReal)) n c
      = (xcReal x adj ad W a w1 w2 n c : EReal) := by
  simp only [xcK, f1K_eq, f2K_eq, hcatK_eq]
  exact attReal_K _ _ _ _ _ _ _

theorem xcR_eq (n : Fin 4096) (c : Fin 256) :
    xcR (fun n j => (x n j : EReal)) adj (fun n j => (ad n j : EReal)) (fun i j k => (W i j k : EReal))
        (fun i k => (a i k : EReal)) (fun i => (w1 i : EReal)) (fun i => (w2 i : EReal)) n c
      = (xcReal x adj ad W a w1 w2 n c : EReal) := by
  simp only [xcR, headR, f1R_eq, f2R_eq, hR_eq]
  exact attReal_R _ _ _ _ _ _ _

/-! ## Step 4: the output layer's projection and rank-one terms -/

theorem hoK_eq (n : Fin 4096) (k : Fin 16) :
    hoK (fun n j => (x n j : EReal)) adj (fun n j => (ad n j : EReal)) (fun i j k => (W i j k : EReal))
        (fun i k => (a i k : EReal)) (fun i => (w1 i : EReal)) (fun i => (w2 i : EReal))
        (fun c k => (Wo c k : EReal)) n k
      = (hoReal x adj ad W a w1 w2 Wo n k : EReal) := by
  simp only [hoK, xcK_eq, hoReal, coe_sum, EReal.coe_mul]

theorem hoR_eq (n : Fin 4096) (k : Fin 16) :
    hoR (fun n j => (x n j : EReal)) adj (fun n j => (ad n j : EReal)) (fun i j k => (W i j k : EReal))
        (fun i k => (a i k : EReal)) (fun i => (w1 i : EReal)) (fun i => (w2 i : EReal))
        (fun c k => (Wo c k : EReal)) n k
      = (hoReal x adj ad W a w1 w2 Wo n k : EReal) := by
  simp only [hoR, xcR_eq, hoReal, coe_sum, EReal.coe_mul]

/-- plain distributivity: |w| comes out of the 16-term sum -/
theorem real_out (h b : Fin 16 → ℝ) (w : ℝ) : ∑ k : Fin 16, h k * (b k * |w|) = |w| * ∑ k : Fin 16, h k * b k := by
  rw [Finset.mul_sum]
  exact Finset.sum_congr rfl fun k _ => by ring

theorem f1oK_eq (n : Fin 4096) :
    f1oK (fun n j => (x n j : EReal)) adj (fun n j => (ad n j : EReal)) (fun i j k => (W i j k : EReal))
        (fun i k => (a i k : EReal)) (fun i => (w1 i : EReal)) (fun i => (w2 i : EReal))
        (fun c k => (Wo c k : EReal)) (fun k => (ao k : EReal)) (w1o : EReal) n
      = ((|w1o| * f1oReal x adj ad W a w1 w2 Wo ao n : ℝ) : EReal) := by
  simp only [f1oK, hoK_eq, a1oK, RealRow.absE_coe, ← EReal.coe_mul, ← coe_sum]
  exact congrArg _ (real_out (fun k => hoReal x adj ad W a w1 w2 Wo n k) (fun k => ao ⟨k.val, by omega⟩) w1o)

theorem f2oK_eq (n : Fin 4096) :
    f2oK (fun n j => (x n j : EReal)) adj (fun n j => (ad n j : EReal)) (fun i j k => (W i j k : EReal))
        (fun i k => (a i k : EReal)) (fun i => (w1 i : EReal)) (fun i => (w2 i : EReal))
        (fun c k => (Wo c k : EReal)) (fun k => (ao k : EReal)) (w1o : EReal) n
      = ((|w1o| * f2oReal x adj ad W a w1 w2 Wo ao n : ℝ) : EReal) := by
  simp only [f2oK, hoK_eq, a2oK, RealRow.absE_coe, ← EReal.coe_mul, ← coe_sum]
  exact congrArg _ (real_out (fun k => hoReal x adj ad W a w1 w2 Wo n k) (fun k => ao ⟨16 + k.val, by omega⟩) w1o)

theorem f1oR_eq (n : Fin 4096) :
    f1oR (fun n j => (x n j : EReal)) adj (fun n j => (ad n j : EReal)) (fun i j k => (W i j k : EReal))
        (fun i k => (a i k : EReal)) (fun i => (w1 i : EReal)) (fun i => (w2 i : EReal))
        (fun c k => (Wo c k : EReal)) (fun k => (ao k : EReal)) n
      = (f1oReal x adj ad W a w1 w2 Wo ao n : EReal) := by
  simp only [f1oR, hoR_eq, f1oReal, coe_sum, EReal.coe_mul]

theorem f2oR_eq (n : Fin 4096) :
    f2oR (fun n j => (x n j : EReal)) adj (fun n j => (ad n j : EReal)) (fun i j k => (W i j k : EReal))
        (fun i k => (a i k : EReal)) (fun i => (w1 i : EReal)) (fun i => (w2 i : EReal))
        (fun c k => (Wo c k : EReal)) (fun k => (ao k : EReal)) n
      = (f2oReal x adj ad W a w1 w2 Wo ao n : EReal) := by
  simp only [f2oR, hoR_eq, f2oReal, coe_sum, EReal.coe_mul]

/-! ## Step 5: the output layer's attention -/

theorem voK_eq (n : Fin 4096) (k : Fin 16) :
    voK (fun n j => (x n j : EReal)) adj (fun n j => (ad n j : EReal)) (fun i j k => (W i j k : EReal))
        (fun i k => (a i k : EReal)) (fun i => (w1 i : EReal)) (fun i => (w2 i : EReal))
        (fun c k => (Wo c k : EReal)) (fun k => (ao k : EReal)) (w1o : EReal) (w2o : EReal) n k
      = (voReal x adj ad W a w1 w2 Wo ao w1o w2o n k : EReal) := by
  simp only [voK, f1oK_eq, f2oK_eq, hoK_eq]
  exact attReal_K _ _ _ _ _ _ _

theorem voR_eq (n : Fin 4096) (k : Fin 16) :
    voR (fun n j => (x n j : EReal)) adj (fun n j => (ad n j : EReal)) (fun i j k => (W i j k : EReal))
        (fun i k => (a i k : EReal)) (fun i => (w1 i : EReal)) (fun i => (w2 i : EReal))
        (fun c k => (Wo c k : EReal)) (fun k => (ao k : EReal)) (w1o : EReal) (w2o : EReal) n k
      = (voReal x adj ad W a w1 w2 Wo ao w1o w2o n k : EReal) := by
  simp only [voR, f1oR_eq, f2oR_eq, hoR_eq]
  exact attReal_R _ _ _ _ _ _ _

end Stages

/-! ## Step 6: the log-softmax of the real row -/

/-- Every float input real-valued: the two associations give the same output entry. -/
theorem outK_eq_outR (x : Fin 4096 → Fin 512 → ℝ) (adj : Fin 4096 → Fin 4096 → BitVec 32) (ad : Fin 4096 → Fin 4096 → ℝ)
    (W : Fin 4 → Fin 512 → Fin 64 → ℝ) (a : Fin 4 → Fin 128 → ℝ) (w1 w2 : Fin 4 → ℝ)
    (Wo : Fin 256 → Fin 16 → ℝ) (ao : Fin 32 → ℝ) (w1o w2o : ℝ) (n : Fin 4096) (k : Fin 16) :
    outK (fun n j => (x n j : EReal)) adj (fun n j => (ad n j : EReal)) (fun i j k => (W i j k : EReal))
        (fun i k => (a i k : EReal)) (fun i => (w1 i : EReal)) (fun i => (w2 i : EReal))
        (fun c k => (Wo c k : EReal)) (fun k => (ao k : EReal)) (w1o : EReal) (w2o : EReal) n k
      = outR (fun n j => (x n j : EReal)) adj (fun n j => (ad n j : EReal)) (fun i j k => (W i j k : EReal))
        (fun i k => (a i k : EReal)) (fun i => (w1 i : EReal)) (fun i => (w2 i : EReal))
        (fun c k => (Wo c k : EReal)) (fun k => (ao k : EReal)) (w1o : EReal) (w2o : EReal) n k := by
  simp only [outK, outR, voK_eq, voR_eq]
  exact RealRow.lsm_bridge (fun k' => voReal x adj ad W a w1 w2 Wo ao w1o w2o n k') k

end Cert.RealMath

end
-- ==== Proof.Finite.lean ====
/-
  What the precondition says: it computes, array by array, "every |entry| is below +inf" and conjoins the ten answers;
  when the result is the all-ones word every entry of every float argument is a real number.
-/
import proofs.«118500_g28080496181627_cont_9to1_1526_5_alg».proof.Pre_finite_inputs
import Idealize.ShloMosaic.PureOps.Ideal
import Idealize.ShloMosaic.Lib.ReduceAll
import Idealize.ShloMosaic.Lib.ValueIdx

set_option maxRecDepth 16384

noncomputable section

namespace Cert.Finite

open Idealize.ShloMosaic Idealize.ShloMosaic.ValueIdx Cert.Pre_finite_inputs

/-- The rank-0 index set has one element. -/
instance subsingleton_scalar_idx : Subsingleton S_.Idx := ⟨fun a b => funext fun d => d.elim0⟩

/-- An extended real whose absolute value max x (-x) lies strictly below +∞ is a real number:
    at x = +∞ the maximum is +∞, and at x = -∞ it is -(-∞) = +∞. -/
theorem real_of_abs_lt_top (x : EReal) (h : max x (-x) < ⊤) : ∃ r : ℝ, x = (r : EReal) := by
  induction x using EReal.rec with
  | bot => simp at h
  | coe r => exact ⟨r, rfl⟩
  | top => simp at h

/-- The f32 word 0x7F800000 denotes +∞. -/
theorem inf_word : Ideal.ofBits .f32 0x7F800000#32 = (⊤ : EReal) := by simp [Ideal.ofBits, Ideal.ieee]

/-- One entry: the comparison |x| < +∞ answered by the word 1 makes x real. -/
theorem real_of_cmp (x y : EReal) (hy : y = ⊤)
    (h : FloatOps.cmpf (F := Ideal) (φ := .f32) .olt (FloatOps.hostAbsf (F := Ideal) (φ := .f32) x) y = 1#1) :
    ∃ r : ℝ, x = (r : EReal) := by
  subst hy
  refine real_of_abs_lt_top x ?_
  by_contra hn
  have : FloatOps.cmpf (F := Ideal) (φ := .f32) .olt (FloatOps.hostAbsf (F := Ideal) (φ := .f32) x) ⊤ = 0#1 := by
    show BitVec.ofBool (decide (max x (-x) < ⊤)) = 0#1
    simp [hn]
  rw [this] at h
  exact absurd h (by decide)

/-- One array: when the conjunction over all entries of "|a i| < y i" is the word 1 and y is +∞ everywhere,
    every entry of a is real. -/
theorem real_of_all {S : Shape} {axes : List (Fin S.rank)} (hr : S.ReducesTo axes S_) (hu : 0 < S_.numel)
    (a y : FVec Ideal S .f32) (hy : ∀ i, y i = (⊤ : EReal))
    (e : Host.reduce IntOp.andi (cmpf .olt (Host.absf a) y) (constantI S_ 1 1#1) hr hu ix0 = 1#1) :
    ∀ i, ∃ r : ℝ, a i = (r : EReal) := by
  intro i
  have hi := Host.reduce_andi_all (cmpf .olt (Host.absf a) y) (constantI S_ 1 1#1) hr hu ix0 e i
  exact real_of_cmp (a i) (y i) (hy i) hi

/-- The broadcast of the scalar +∞ word is +∞ at every index. -/
theorem bcast_inf {S : Shape} (hb : S_.BroadcastsInDim S (![] : Fin 0 → Fin S.rank)) (i : S.Idx) :
    broadcastInDim S ![] hb (constant (F := Ideal) S_ .f32 0x7F800000#32) i = (⊤ : EReal) := inf_word

/-- The scalar +∞ word is +∞ at the one index. -/
theorem const_inf (i : S_.Idx) : constant (F := Ideal) S_ .f32 0x7F800000#32 i = (⊤ : EReal) := inf_word

/-- Every entry of the ten float arguments is real when the precondition's word is one. -/
theorem real_of_pre [Cert.Pre_finite_inputs.Facts]
    (a0 : FVec Ideal S4096x512 .f32) (a1 : IVec S4096x4096 32) (a2 : FVec Ideal S4096x4096 .f32) (a3 : FVec Ideal S4x512x64 .f32)
    (a4 : FVec Ideal S4x128x1 .f32) (a5 a6 : FVec Ideal S4 .f32) (a7 : FVec Ideal S256x16 .f32) (a8 : FVec Ideal S32x1 .f32)
    (a9 a10 : FVec Ideal S_ .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal))
    ∧ (∀ i, ∃ r : ℝ, a10 i = (r : EReal)) := by
  -- the word at the one scalar index, with the printed chain of operations in view
  have h0 := congrFun h ix0
  dsimp only [fn, fn_part1, fn_part2] at h0
  -- the ten bits are conjoined from the left: ((((((((b0 ∧ b2) ∧ b3) ∧ b4) ∧ b5) ∧ b6) ∧ b7) ∧ b8) ∧ b9) ∧ b10
  simp only [andi, IntOp.andi_eq_one] at h0
  obtain ⟨⟨⟨⟨⟨⟨⟨⟨⟨e0, e2⟩, e3⟩, e4⟩, e5⟩, e6⟩, e7⟩, e8⟩, e9⟩, e10⟩ := h0
  exact ⟨real_of_all _ _ a0 _ (bcast_inf _) e0, real_of_all _ _ a2 _ (bcast_inf _) e2,
    real_of_all _ _ a3 _ (bcast_inf _) e3, real_of_all _ _ a4 _ (bcast_inf _) e4,
    real_of_all _ _ a5 _ (bcast_inf _) e5, real_of_all _ _ a6 _ (bcast_inf _) e6,
    real_of_all _ _ a7 _ (bcast_inf _) e7, real_of_all _ _ a8 _ (bcast_inf _) e8,
    real_of_all _ _ a9 _ const_inf e9, real_of_all _ _ a10 _ const_inf e10⟩

end Cert.Finite

end
-- ==== Proof.Bridge.lean ====
/-
  The two result arrays agree entry by entry. The kernel's result is the kernel-form output of its launched arguments
  (Proof/KChain.lean), the reference's the reference-form output of its own (Proof/RefOut.lean); the two programs'
  arguments agree, every float entry is a real number under the precondition (Proof/Finite.lean), and on real
  arguments the two forms are one function (Proof/RealMath.lean).
-/
import proofs.«118500_g28080496181627_cont_9to1_1526_5_alg».proof.Defs
import proofs.«118500_g28080496181627_cont_9to1_1526_5_alg».proof.Proof.Gen.Pre_finite_inputs
import proofs.«118500_g28080496181627_cont_9to1_1526_5_alg».proof.Proof.KChain
import proofs.«118500_g28080496181627_cont_9to1_1526_5_alg».proof.Proof.RefOut
import proofs.«118500_g28080496181627_cont_9to1_1526_5_alg».proof.Proof.RealMath
import proofs.«118500_g28080496181627_cont_9to1_1526_5_alg».proof.Proof.Finite
import Idealize.ShloMosaic.Lib.StableHlo.Run

set_option maxRecDepth 16384

noncomputable section

namespace Cert.Bridge

open Idealize.ShloMosaic Idealize.ShloMosaic.TcCoe Idealize.ShloMosaic.ValueIdx Idealize.SL.Sem Idealize.ShloMosaic.StableHlo Cert.Views

/-- a family of real entries is the coercion of a real-valued function -/
theorem coe_of_forall {ι : Type} (a : ι → EReal) (h : ∀ i, ∃ r : ℝ, a i = (r : EReal)) :
    ∃ f : ι → ℝ, a = fun i => (f i : EReal) :=
  ⟨fun i => (h i).choose, funext fun i => (h i).choose_spec⟩

/-- The reference's result term over its launch contents is the kernel's result array. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.RV.r_out (launchContents m' c) = Cert.KernelIdeal.KV.k_out m ρ c := by
  obtain ⟨r0, r2, r3, r4, r5, r6, r7, r8, r9, r10⟩ := Cert.Finite.real_of_pre _ _ _ _ _ _ _ _ _ _ _ hpre
  obtain ⟨x, hx⟩ := coe_of_forall _ r0
  obtain ⟨ad, had⟩ := coe_of_forall _ r2
  obtain ⟨W, hW⟩ := coe_of_forall _ r3
  obtain ⟨a, ha⟩ := coe_of_forall _ r4
  obtain ⟨w1, hw1⟩ := coe_of_forall _ r5
  obtain ⟨w2, hw2⟩ := coe_of_forall _ r6
  obtain ⟨Wo, hWo⟩ := coe_of_forall _ r7
  obtain ⟨ao, hao⟩ := coe_of_forall _ r8
  obtain ⟨w1o, hw1o⟩ := coe_of_forall _ r9
  obtain ⟨w2o, hw2o⟩ := coe_of_forall _ r10
  funext i
  obtain ⟨n, k, rfl⟩ : ∃ (n : Fin 4096) (k : Fin 16), i = ix2 n k := ⟨i 0, i 1, eq_ix2 i⟩
  refine (Cert.ReferenceIdeal.RV.ref_out (launchContents m' c) n k).trans ?_
  refine Eq.trans ?_ (Cert.KernelIdeal.KV.kernel_out m ρ c n k).symm
  have e0 : Cert.ReferenceIdeal.RV.r_x (launchContents m' c) = fun i => (x i : EReal) := h0.trans hx
  have e1 : Cert.ReferenceIdeal.RV.r_adj (launchContents m' c) = Cert.KernelIdeal.KV.a_adj m c := h1
  have e2 : Cert.ReferenceIdeal.RV.r_ad (launchContents m' c) = fun i => (ad i : EReal) := h2.trans had
  have e3 : Cert.ReferenceIdeal.RV.r_W (launchContents m' c) = fun i => (W i : EReal) := h3.trans hW
  have e4 : Cert.ReferenceIdeal.RV.r_a (launchContents m' c) = fun i => (a i : EReal) := h4.trans ha
  have e5 : Cert.ReferenceIdeal.RV.r_w1 (launchContents m' c) = fun i => (w1 i : EReal) := h5.trans hw1
  have e6 : Cert.ReferenceIdeal.RV.r_w2 (launchContents m' c) = fun i => (w2 i : EReal) := h6.trans hw2
  have e7 : Cert.ReferenceIdeal.RV.r_Wo (launchContents m' c) = fun i => (Wo i : EReal) := h7.trans hWo
  have e8 : Cert.ReferenceIdeal.RV.r_ao (launchContents m' c) = fun i => (ao i : EReal) := h8.trans hao
  have e9 : Cert.ReferenceIdeal.RV.r_w1o (launchContents m' c) = fun i => (w1o i : EReal) := h9.trans hw1o
  have e10 : Cert.ReferenceIdeal.RV.r_w2o (launchContents m' c) = fun i => (w2o i : EReal) := h10.trans hw2o
  have k0 : Cert.KernelIdeal.KV.a_x m c = fun i => (x i : EReal) := hx
  have k2 : Cert.KernelIdeal.KV.a_ad m c = fun i => (ad i : EReal) := had
  have k3 : Cert.KernelIdeal.KV.a_W m c = fun i => (W i : EReal) := hW
  have k4 : Cert.KernelIdeal.KV.a_a m c = fun i => (a i : EReal) := ha
  have k5 : Cert.KernelIdeal.KV.a_w1 m c = fun i => (w1 i : EReal) := hw1
  have k6 : Cert.KernelIdeal.KV.a_w2 m c = fun i => (w2 i : EReal) := hw2
  have k7 : Cert.KernelIdeal.KV.a_Wo m c = fun i => (Wo i : EReal) := hWo
  have k8 : Cert.KernelIdeal.KV.a_ao m c = fun i => (ao i : EReal) := hao
  have k9 : Cert.KernelIdeal.KV.a_w1o m c = fun i => (w1o i : EReal) := hw1o
  have k10 : Cert.KernelIdeal.KV.a_w2o m c = fun i => (w2o i : EReal) := hw2o
  rw [e0, e1, e2, e3, e4, e5, e6, e7, e8, e9, e10, k0, k2, k3, k4, k5, k6, k7, k8, k9, k10]
  exact (Cert.RealMath.outK_eq_outR (fun n j => x (ix2 n j)) (vadj (Cert.KernelIdeal.KV.a_adj m c)) (fun n j => ad (ix2 n j))
    (fun i j k => W (ix3 i j k)) (fun i k => a (ix3 i k 0)) (fun i => w1 (ix1 i)) (fun i => w2 (ix1 i)) (fun c k => Wo (ix2 c k))
    (fun k => ao (ix2 k 0)) (w1o ix0) (w2o ix0) n k).symm

end Cert.Bridge

end
-- ==== Proof.lean ====
/-
  A fused multi-head structural-fingerprint attention network (four heads, then an output layer with elu and
  log-softmax over 4096 nodes) against its jnp reference, over the extended reals.
  The kernel runs four pipelined calls: all heads' projections at once (the heads' weights laid side by side, |w1| folded
  into block-diagonal attention vectors), the four heads' masked row softmax with the division taken after the weighted
  sum, the output layer's projections, and the output layer's attention followed by elu and log-softmax. The reference
  runs the heads one by one, multiplies the rectified logit by |w1| afterwards, normalises the softmax weights before
  the weighted sum, and spells elu and log-softmax jax's way.
  The three frames are the generated ones (the reference's is its run with the result dropped); the ideal pass rewrote
  nothing, so the kernel is its own idealization. For the value claim: the kernel's result array is, entry by entry, the
  kernel-form function of the launched arguments (Proof/KChain.lean over the four calls' values), the reference's the
  reference-form one (Proof/RefOut.lean over the run's named arrays); on arguments whose float entries are all real
  (Proof/Finite.lean reads that off the precondition) the two forms are one function (Proof/RealMath.lean);
  Proof/Bridge.lean puts the three together.
-/
import proofs.«118500_g28080496181627_cont_9to1_1526_5_alg».proof.Defs
import proofs.«118500_g28080496181627_cont_9to1_1526_5_alg».proof.Proof.Gen.Kernel
import proofs.«118500_g28080496181627_cont_9to1_1526_5_alg».proof.Proof.Gen.Kernel.Skeleton
import proofs.«118500_g28080496181627_cont_9to1_1526_5_alg».proof.Proof.Gen.Kernel.Launch
import proofs.«118500_g28080496181627_cont_9to1_1526_5_alg».proof.Proof.Gen.Kernel.Points
import proofs.«118500_g28080496181627_cont_9to1_1526_5_alg».proof.Proof.Gen.Kernel.Frame
import proofs.«118500_g28080496181627_cont_9to1_1526_5_alg».proof.Proof.Gen.KernelIdeal
import proofs.«118500_g28080496181627_cont_9to1_1526_5_alg».proof.Proof.Gen.KernelIdeal.Skeleton
import proofs.«118500_g28080496181627_cont_9to1_1526_5_alg».proof.Proof.Gen.KernelIdeal.Launch
import proofs.«118500_g28080496181627_cont_9to1_1526_5_alg».proof.Proof.Gen.KernelIdeal.Points
import proofs.«118500_g28080496181627_cont_9to1_1526_5_alg».proof.Proof.Gen.KernelIdeal.Frame
import proofs.«118500_g28080496181627_cont_9to1_1526_5_alg».proof.Proof.Gen.ReferenceIdeal
import proofs.«118500_g28080496181627_cont_9to1_1526_5_alg».proof.Proof.Gen.Pre_finite_inputs
import proofs.«118500_g28080496181627_cont_9to1_1526_5_alg».proof.Proof.KRun
import proofs.«118500_g28080496181627_cont_9to1_1526_5_alg».proof.Proof.RefRun
import proofs.«118500_g28080496181627_cont_9to1_1526_5_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.Views

theorem frame_k : Cert.frame_Kernel := fun m ρ _ => Cert.Kernel.Gen.frame m ρ
theorem frame_ki : Cert.frame_KernelIdeal := fun m ρ _ => Cert.KernelIdeal.Gen.frame m ρ
/-- the reference's frame: its run with the result forgotten -/
theorem frame_ri : Cert.frame_ReferenceIdeal := fun m ρ _ =>
  (θ_run Cert.ReferenceIdeal.defs _ _).mono (fun _ h c => (h c).2) (Cert.ReferenceIdeal.RunH.run (F := Ideal) m ρ)

/-- Both runs end, and the two result arrays agree: Proof/Bridge.lean. -/
theorem algebraic : Cert.algebraic_KernelIdeal_ReferenceIdeal := by
  intro m ρ m' ρ' hpre hagree
  refine ⟨fun c => Cert.KernelIdeal.KV.k_out m ρ c, Cert.KernelIdeal.Gen.run_named (F := Ideal) m ρ, ?_⟩
  refine (θ_run Cert.ReferenceIdeal.defs _ _).mono (fun _ h c => ⟨(h c).1.trans ?_, (h c).2⟩)
    (Cert.ReferenceIdeal.RunH.run (F := Ideal) m' ρ')
  obtain ⟨h0, h1, h2, h3, h4, h5, h6, h7, h8, h9, h10⟩ := hagree c
  exact Cert.Bridge.results_agree m ρ m' c (hpre c) h0 h1 h2 h3 h4 h5 h6 h7 h8 h9 h10

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
